-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S4096x512 : Shape := ⟨2, ![4096, 512]⟩
abbrev S_ : Shape := ⟨0, ![]⟩
abbrev S8 : Shape := ⟨1, ![8]⟩
abbrev S4 : Shape := ⟨1, ![4]⟩
abbrev S1 : Shape := ⟨1, ![1]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | .local _ .vmem, ⟨1, _⟩ => ⟨S4096x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v15 : BitVec 32 := Scalar.muli v9 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v31 : BitVec 32 := Scalar.muli v5 c2048_i32
  let c0_i32_29 : BitVec 32 := 0#32
  ![v31.toNat, 0]
def k0_off2 (d0 : Dev nD) (c0_i32_31 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v31 : BitVec 32 := Scalar.muli v5 c2048_i32
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c512_i32 : BitVec 32 := 512#32
  let v36 : BitVec 32 := Scalar.muli v35 c512_i32
  let v47 : BitVec 32 := Scalar.addi v31 v36
  let v48 : BitVec 32 := Scalar.addi v47 c0_i32_31
  let c0_i32_38 : BitVec 32 := 0#32
  ![v48.toNat, 0]
def k0_off3 (d0 : Dev nD) (c0_i32_30 : BitVec 32) : Fin 2 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c512_i32 : BitVec 32 := 512#32
  let v36 : BitVec 32 := Scalar.muli v35 c512_i32
  let v46 : BitVec 32 := Scalar.addi v36 c0_i32_30
  let c0_i32_39 : BitVec 32 := 0#32
  ![v46.toNat, 0]
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v49 : BitVec 32 := Scalar.muli v2 c4_i32_34
  let v50 : BitVec 32 := Scalar.addi c0_i32_35 v49
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_36 : BitVec 32 := 2#32
  let v51 : BitVec 32 := Scalar.muli v9 c2_i32_36
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v53 : BitVec 32 := Scalar.muli v8 c1_i32_37
  let v54 : BitVec 32 := Scalar.addi v52 v53
  v54.toNat
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v64 : BitVec 32 := Scalar.muli v2 c4_i32_43
  let v65 : BitVec 32 := Scalar.addi c0_i32_44 v64
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_45 : BitVec 32 := 2#32
  let v66 : BitVec 32 := Scalar.muli v9 c2_i32_45
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v68 : BitVec 32 := Scalar.muli v8 c1_i32_46
  let v69 : BitVec 32 := Scalar.addi v67 v68
  v69.toNat
def k0_dev6 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v79 : BitVec 32 := Scalar.muli v2 c4_i32_52
  let v80 : BitVec 32 := Scalar.addi c0_i32_53 v79
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_54 : BitVec 32 := 2#32
  let v81 : BitVec 32 := Scalar.muli v9 c2_i32_54
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v83 : BitVec 32 := Scalar.muli v8 c1_i32_55
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v94 : BitVec 32 := Scalar.muli v2 c4_i32_61
  let v95 : BitVec 32 := Scalar.addi c0_i32_62 v94
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_63 : BitVec 32 := 2#32
  let v96 : BitVec 32 := Scalar.muli v9 c2_i32_63
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v98 : BitVec 32 := Scalar.muli v8 c1_i32_64
  let v99 : BitVec 32 := Scalar.addi v97 v98
  v99.toNat
def k0_dev8 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v109 : BitVec 32 := Scalar.muli v2 c4_i32_70
  let v110 : BitVec 32 := Scalar.addi c0_i32_71 v109
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_72 : BitVec 32 := 2#32
  let v111 : BitVec 32 := Scalar.muli v9 c2_i32_72
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v113 : BitVec 32 := Scalar.muli v8 c1_i32_73
  let v114 : BitVec 32 := Scalar.addi v112 v113
  v114.toNat
def k0_dev9 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v124 : BitVec 32 := Scalar.muli v2 c4_i32_78
  let v125 : BitVec 32 := Scalar.addi c0_i32_79 v124
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_80 : BitVec 32 := 2#32
  let v126 : BitVec 32 := Scalar.muli v9 c2_i32_80
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v128 : BitVec 32 := Scalar.muli v8 c1_i32_81
  let v129 : BitVec 32 := Scalar.addi v127 v128
  v129.toNat
def k0_dev10 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v139 : BitVec 32 := Scalar.muli v2 c4_i32_86
  let v140 : BitVec 32 := Scalar.addi c0_i32_87 v139
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_88 : BitVec 32 := 2#32
  let v141 : BitVec 32 := Scalar.muli v9 c2_i32_88
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v143 : BitVec 32 := Scalar.muli v8 c1_i32_89
  let v144 : BitVec 32 := Scalar.addi v142 v143
  v144.toNat
def k0_dev11 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v154 : BitVec 32 := Scalar.muli v2 c4_i32_94
  let v155 : BitVec 32 := Scalar.addi c0_i32_95 v154
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_96 : BitVec 32 := 2#32
  let v156 : BitVec 32 := Scalar.muli v9 c2_i32_96
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v158 : BitVec 32 := Scalar.muli v8 c1_i32_97
  let v159 : BitVec 32 := Scalar.addi v157 v158
  v159.toNat
def k0_off4 (d0 : Dev nD) (c0_i32_109 : BitVec 32) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let c2048_i32_21 : BitVec 32 := 2048#32
  let v33 : BitVec 32 := Scalar.muli v32 c2048_i32_21
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c512_i32 : BitVec 32 := 512#32
  let v36 : BitVec 32 := Scalar.muli v35 c512_i32
  let v178 : BitVec 32 := Scalar.addi v33 v36
  let v179 : BitVec 32 := Scalar.addi v178 c0_i32_109
  let c0_i32_116 : BitVec 32 := 0#32
  ![v179.toNat, 0]
def k0_dev12 (d0 : Dev nD) : Nat :=
  let c0_i32_113 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_112 : BitVec 32 := 4#32
  let v180 : BitVec 32 := Scalar.muli v10 c4_i32_112
  let v181 : BitVec 32 := Scalar.addi c0_i32_113 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v182 : BitVec 32 := Scalar.muli v5 c2_i32_114
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v184 : BitVec 32 := Scalar.muli v8 c1_i32_115
  let v185 : BitVec 32 := Scalar.addi v183 v184
  v185.toNat
def k0_dev13 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v194 : BitVec 32 := Scalar.muli v2 c4_i32_121
  let v195 : BitVec 32 := Scalar.addi c0_i32_122 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v196 : BitVec 32 := Scalar.muli v5 c2_i32_123
  let v197 : BitVec 32 := Scalar.addi v195 v196
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_124 : BitVec 32 := 1#32
  let v198 : BitVec 32 := Scalar.muli v11 c1_i32_124
  let v199 : BitVec 32 := Scalar.addi v197 v198
  v199.toNat
def k0_dev14 (d0 : Dev nD) : Nat :=
  let c0_i32_140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_139 : BitVec 32 := 4#32
  let v220 : BitVec 32 := Scalar.muli v10 c4_i32_139
  let v221 : BitVec 32 := Scalar.addi c0_i32_140 v220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v222 : BitVec 32 := Scalar.muli v5 c2_i32_141
  let v223 : BitVec 32 := Scalar.addi v221 v222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v224 : BitVec 32 := Scalar.muli v8 c1_i32_142
  let v225 : BitVec 32 := Scalar.addi v223 v224
  v225.toNat
def k0_dev15 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v234 : BitVec 32 := Scalar.muli v2 c4_i32_148
  let v235 : BitVec 32 := Scalar.addi c0_i32_149 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v236 : BitVec 32 := Scalar.muli v5 c2_i32_150
  let v237 : BitVec 32 := Scalar.addi v235 v236
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_151 : BitVec 32 := 1#32
  let v238 : BitVec 32 := Scalar.muli v11 c1_i32_151
  let v239 : BitVec 32 := Scalar.addi v237 v238
  v239.toNat
def k0_dev16 (d0 : Dev nD) : Nat :=
  let c0_i32_167 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_166 : BitVec 32 := 4#32
  let v260 : BitVec 32 := Scalar.muli v10 c4_i32_166
  let v261 : BitVec 32 := Scalar.addi c0_i32_167 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v262 : BitVec 32 := Scalar.muli v5 c2_i32_168
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v264 : BitVec 32 := Scalar.muli v8 c1_i32_169
  let v265 : BitVec 32 := Scalar.addi v263 v264
  v265.toNat
def k0_dev17 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_175 : BitVec 32 := 4#32
  let v274 : BitVec 32 := Scalar.muli v2 c4_i32_175
  let v275 : BitVec 32 := Scalar.addi c0_i32_176 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v276 : BitVec 32 := Scalar.muli v5 c2_i32_177
  let v277 : BitVec 32 := Scalar.addi v275 v276
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_178 : BitVec 32 := 1#32
  let v278 : BitVec 32 := Scalar.muli v11 c1_i32_178
  let v279 : BitVec 32 := Scalar.addi v277 v278
  v279.toNat
def k0_dev18 (d0 : Dev nD) : Nat :=
  let c0_i32_194 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_193 : BitVec 32 := 4#32
  let v300 : BitVec 32 := Scalar.muli v10 c4_i32_193
  let v301 : BitVec 32 := Scalar.addi c0_i32_194 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v302 : BitVec 32 := Scalar.muli v5 c2_i32_195
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v304 : BitVec 32 := Scalar.muli v8 c1_i32_196
  let v305 : BitVec 32 := Scalar.addi v303 v304
  v305.toNat
def k0_dev19 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v314 : BitVec 32 := Scalar.muli v2 c4_i32_202
  let v315 : BitVec 32 := Scalar.addi c0_i32_203 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v316 : BitVec 32 := Scalar.muli v5 c2_i32_204
  let v317 : BitVec 32 := Scalar.addi v315 v316
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_205 : BitVec 32 := 1#32
  let v318 : BitVec 32 := Scalar.muli v11 c1_i32_205
  let v319 : BitVec 32 := Scalar.addi v317 v318
  v319.toNat
def k0_dev20 (d0 : Dev nD) : Nat :=
  let c0_i32_221 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_220 : BitVec 32 := 4#32
  let v340 : BitVec 32 := Scalar.muli v10 c4_i32_220
  let v341 : BitVec 32 := Scalar.addi c0_i32_221 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v342 : BitVec 32 := Scalar.muli v5 c2_i32_222
  let v343 : BitVec 32 := Scalar.addi v341 v342
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_223 : BitVec 32 := 1#32
  let v344 : BitVec 32 := Scalar.muli v8 c1_i32_223
  let v345 : BitVec 32 := Scalar.addi v343 v344
  v345.toNat
def k0_dev21 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v354 : BitVec 32 := Scalar.muli v2 c4_i32_229
  let v355 : BitVec 32 := Scalar.addi c0_i32_230 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v356 : BitVec 32 := Scalar.muli v5 c2_i32_231
  let v357 : BitVec 32 := Scalar.addi v355 v356
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_232 : BitVec 32 := 1#32
  let v358 : BitVec 32 := Scalar.muli v11 c1_i32_232
  let v359 : BitVec 32 := Scalar.addi v357 v358
  v359.toNat
def k0_dev22 (d0 : Dev nD) : Nat :=
  let c0_i32_248 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_247 : BitVec 32 := 4#32
  let v380 : BitVec 32 := Scalar.muli v10 c4_i32_247
  let v381 : BitVec 32 := Scalar.addi c0_i32_248 v380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v382 : BitVec 32 := Scalar.muli v5 c2_i32_249
  let v383 : BitVec 32 := Scalar.addi v381 v382
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_250 : BitVec 32 := 1#32
  let v384 : BitVec 32 := Scalar.muli v8 c1_i32_250
  let v385 : BitVec 32 := Scalar.addi v383 v384
  v385.toNat
def k0_dev23 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v394 : BitVec 32 := Scalar.muli v2 c4_i32_256
  let v395 : BitVec 32 := Scalar.addi c0_i32_257 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v396 : BitVec 32 := Scalar.muli v5 c2_i32_258
  let v397 : BitVec 32 := Scalar.addi v395 v396
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_259 : BitVec 32 := 1#32
  let v398 : BitVec 32 := Scalar.muli v11 c1_i32_259
  let v399 : BitVec 32 := Scalar.addi v397 v398
  v399.toNat
def k0_dev24 (d0 : Dev nD) : Nat :=
  let c0_i32_275 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_274 : BitVec 32 := 4#32
  let v420 : BitVec 32 := Scalar.muli v10 c4_i32_274
  let v421 : BitVec 32 := Scalar.addi c0_i32_275 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v422 : BitVec 32 := Scalar.muli v5 c2_i32_276
  let v423 : BitVec 32 := Scalar.addi v421 v422
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v424 : BitVec 32 := Scalar.muli v8 c1_i32_277
  let v425 : BitVec 32 := Scalar.addi v423 v424
  v425.toNat
def k0_dev25 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v434 : BitVec 32 := Scalar.muli v2 c4_i32_283
  let v435 : BitVec 32 := Scalar.addi c0_i32_284 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v436 : BitVec 32 := Scalar.muli v5 c2_i32_285
  let v437 : BitVec 32 := Scalar.addi v435 v436
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_286 : BitVec 32 := 1#32
  let v438 : BitVec 32 := Scalar.muli v11 c1_i32_286
  let v439 : BitVec 32 := Scalar.addi v437 v438
  v439.toNat
def k0_dev26 (d0 : Dev nD) : Nat :=
  let c0_i32_302 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_301 : BitVec 32 := 4#32
  let v460 : BitVec 32 := Scalar.muli v10 c4_i32_301
  let v461 : BitVec 32 := Scalar.addi c0_i32_302 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v462 : BitVec 32 := Scalar.muli v5 c2_i32_303
  let v463 : BitVec 32 := Scalar.addi v461 v462
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v464 : BitVec 32 := Scalar.muli v8 c1_i32_304
  let v465 : BitVec 32 := Scalar.addi v463 v464
  v465.toNat
def k0_dev27 (d0 : Dev nD) : Nat :=
  let c0_i32_311 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_310 : BitVec 32 := 4#32
  let v474 : BitVec 32 := Scalar.muli v2 c4_i32_310
  let v475 : BitVec 32 := Scalar.addi c0_i32_311 v474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v476 : BitVec 32 := Scalar.muli v5 c2_i32_312
  let v477 : BitVec 32 := Scalar.addi v475 v476
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_313 : BitVec 32 := 1#32
  let v478 : BitVec 32 := Scalar.muli v11 c1_i32_313
  let v479 : BitVec 32 := Scalar.addi v477 v478
  v479.toNat
def k0_off5 (d0 : Dev nD) (c0_i32_325 : BitVec 32) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let c2048_i32_21 : BitVec 32 := 2048#32
  let v33 : BitVec 32 := Scalar.muli v32 c2048_i32_21
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_27 v8
  let v43 : BitVec 32 := Scalar.addi v41 v42
  let c512_i32_28 : BitVec 32 := 512#32
  let v44 : BitVec 32 := Scalar.muli v43 c512_i32_28
  let v498 : BitVec 32 := Scalar.addi v33 v44
  let v499 : BitVec 32 := Scalar.addi v498 c0_i32_325
  let c0_i32_332 : BitVec 32 := 0#32
  ![v499.toNat, 0]
def k0_dev28 (d0 : Dev nD) : Nat :=
  let c0_i32_329 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_328 : BitVec 32 := 4#32
  let v500 : BitVec 32 := Scalar.muli v10 c4_i32_328
  let v501 : BitVec 32 := Scalar.addi c0_i32_329 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v502 : BitVec 32 := Scalar.muli v5 c2_i32_330
  let v503 : BitVec 32 := Scalar.addi v501 v502
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v504 : BitVec 32 := Scalar.muli v8 c1_i32_331
  let v505 : BitVec 32 := Scalar.addi v503 v504
  v505.toNat
def k0_dev29 (d0 : Dev nD) : Nat :=
  let c0_i32_347 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_346 : BitVec 32 := 4#32
  let v526 : BitVec 32 := Scalar.muli v10 c4_i32_346
  let v527 : BitVec 32 := Scalar.addi c0_i32_347 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v528 : BitVec 32 := Scalar.muli v5 c2_i32_348
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_349 : BitVec 32 := 1#32
  let v530 : BitVec 32 := Scalar.muli v8 c1_i32_349
  let v531 : BitVec 32 := Scalar.addi v529 v530
  v531.toNat
def k0_dev30 (d0 : Dev nD) : Nat :=
  let c0_i32_365 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_364 : BitVec 32 := 4#32
  let v552 : BitVec 32 := Scalar.muli v10 c4_i32_364
  let v553 : BitVec 32 := Scalar.addi c0_i32_365 v552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v554 : BitVec 32 := Scalar.muli v5 c2_i32_366
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v556 : BitVec 32 := Scalar.muli v8 c1_i32_367
  let v557 : BitVec 32 := Scalar.addi v555 v556
  v557.toNat
def k0_dev31 (d0 : Dev nD) : Nat :=
  let c0_i32_383 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_382 : BitVec 32 := 4#32
  let v578 : BitVec 32 := Scalar.muli v10 c4_i32_382
  let v579 : BitVec 32 := Scalar.addi c0_i32_383 v578
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_384 : BitVec 32 := 2#32
  let v580 : BitVec 32 := Scalar.muli v5 c2_i32_384
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v582 : BitVec 32 := Scalar.muli v8 c1_i32_385
  let v583 : BitVec 32 := Scalar.addi v581 v582
  v583.toNat
def k0_off6 (d0 : Dev nD) (c256_i32_397 : BitVec 32) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let c2048_i32_21 : BitVec 32 := 2048#32
  let v33 : BitVec 32 := Scalar.muli v32 c2048_i32_21
  let c2_i32_24 : BitVec 32 := 2#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_23 v2
  let v38 : BitVec 32 := Scalar.muli c2_i32_24 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c512_i32_25 : BitVec 32 := 512#32
  let v40 : BitVec 32 := Scalar.muli v39 c512_i32_25
  let v602 : BitVec 32 := Scalar.addi v33 v40
  let v603 : BitVec 32 := Scalar.addi v602 c256_i32_397
  let c0_i32_404 : BitVec 32 := 0#32
  ![v603.toNat, 0]
def k0_dev32 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v604 : BitVec 32 := Scalar.muli v2 c4_i32_400
  let v605 : BitVec 32 := Scalar.addi c0_i32_401 v604
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v606 : BitVec 32 := Scalar.muli v5 c2_i32_402
  let v607 : BitVec 32 := Scalar.addi v605 v606
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_403 : BitVec 32 := 1#32
  let v608 : BitVec 32 := Scalar.muli v11 c1_i32_403
  let v609 : BitVec 32 := Scalar.addi v607 v608
  v609.toNat
def k0_dev33 (d0 : Dev nD) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v630 : BitVec 32 := Scalar.muli v2 c4_i32_418
  let v631 : BitVec 32 := Scalar.addi c0_i32_419 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_420 : BitVec 32 := 2#32
  let v632 : BitVec 32 := Scalar.muli v5 c2_i32_420
  let v633 : BitVec 32 := Scalar.addi v631 v632
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_421 : BitVec 32 := 1#32
  let v634 : BitVec 32 := Scalar.muli v11 c1_i32_421
  let v635 : BitVec 32 := Scalar.addi v633 v634
  v635.toNat
def k0_dev34 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v656 : BitVec 32 := Scalar.muli v2 c4_i32_436
  let v657 : BitVec 32 := Scalar.addi c0_i32_437 v656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_438 : BitVec 32 := 2#32
  let v658 : BitVec 32 := Scalar.muli v5 c2_i32_438
  let v659 : BitVec 32 := Scalar.addi v657 v658
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_439 : BitVec 32 := 1#32
  let v660 : BitVec 32 := Scalar.muli v11 c1_i32_439
  let v661 : BitVec 32 := Scalar.addi v659 v660
  v661.toNat
def k0_dev35 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v682 : BitVec 32 := Scalar.muli v2 c4_i32_454
  let v683 : BitVec 32 := Scalar.addi c0_i32_455 v682
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v684 : BitVec 32 := Scalar.muli v5 c2_i32_456
  let v685 : BitVec 32 := Scalar.addi v683 v684
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_457 : BitVec 32 := 1#32
  let v686 : BitVec 32 := Scalar.muli v11 c1_i32_457
  let v687 : BitVec 32 := Scalar.addi v685 v686
  v687.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S4_S1_0 : ∀ a, (![0] : Fin 1 → Nat) a + S1.size a ≤ S4.size a
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  hcc0_scratch0 : 2 + S_.numel ≤ 67
  hcc0_scratch1 : 3 + S8.numel ≤ 67
  hcc0_scratch2 : 11 + S8.numel ≤ 67
  hcc0_scratch3 : 19 + S8.numel ≤ 67
  hcc0_scratch4 : 27 + S8.numel ≤ 67
  hcc0_scratch5 : 35 + S8.numel ≤ 67
  hcc0_scratch6 : 43 + S8.numel ≤ 67
  hcc0_scratch7 : 51 + S4.numel ≤ 67
  hcc0_scratch8 : 55 + S4.numel ≤ 67
  hcc0_scratch9 : 59 + S4.numel ≤ 67
  hcc0_scratch10 : 63 + S4.numel ≤ 67
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S2048x512.size a ≤ S4096x512.size a
  k0_off2_inb : ∀ d0 : Dev nD, ∀ (r : Fin 8), ∀ a, (k0_off2 d0 (BitVec.ofNat 32 (64 * r.val))) a + S64x512.size a ≤ S4096x512.size a
  k0_off3_inb : ∀ d0 : Dev nD, ∀ (r : Fin 8), ∀ a, (k0_off3 d0 (BitVec.ofNat 32 (64 * r.val))) a + S64x512.size a ≤ S2048x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off4_inb : ∀ d0 : Dev nD, ∀ (r : Fin 8), ∀ a, (k0_off4 d0 (BitVec.ofNat 32 (64 * r.val))) a + S64x512.size a ≤ S4096x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off5_inb : ∀ d0 : Dev nD, ∀ (r : Fin 4), ∀ a, (k0_off5 d0 (BitVec.ofNat 32 (64 * r.val))) a + S64x512.size a ≤ S4096x512.size a
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off6_inb : ∀ d0 : Dev nD, ∀ (r : Fin 4), ∀ a, (k0_off6 d0 (BitVec.ofNat 32 (256 + 64 * r.val))) a + S64x512.size a ≤ S4096x512.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S8 := SemArray.consecutive 3 S8 hcc0_scratch1
abbrev cc0_scratch2 : DmaSems sig S8 := SemArray.consecutive 11 S8 hcc0_scratch2
abbrev cc0_scratch3 : DmaSems sig S8 := SemArray.consecutive 19 S8 hcc0_scratch3
abbrev cc0_scratch4 : DmaSems sig S8 := SemArray.consecutive 27 S8 hcc0_scratch4
abbrev cc0_scratch5 : DmaSems sig S8 := SemArray.consecutive 35 S8 hcc0_scratch5
abbrev cc0_scratch6 : DmaSems sig S8 := SemArray.consecutive 43 S8 hcc0_scratch6
abbrev cc0_scratch7 : DmaSems sig S4 := SemArray.consecutive 51 S4 hcc0_scratch7
abbrev cc0_scratch8 : DmaSems sig S4 := SemArray.consecutive 55 S4 hcc0_scratch8
abbrev cc0_scratch9 : DmaSems sig S4 := SemArray.consecutive 59 S4 hcc0_scratch9
abbrev cc0_scratch10 : DmaSems sig S4 := SemArray.consecutive 63 S4 hcc0_scratch10

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KI.Mesh.lean ====
/-
  The 2×2×2 mesh of the all-gather. A device is c = 4·x + 2·y + z. Its three neighbours differ from it in exactly one
  coordinate: the y-neighbour holds the OTHER half of the gathered array, the x- and z-neighbours hold the same half.
  The kernel's device chains name these three neighbours, and its slice offsets are rows of the two staging buffers:
  the own half starts at row 2048·y, the received half at row 2048·(1−y); the received half is four quarters of 512
  rows, quarter k = 2·x' + z' being the quarter that the device (x', 1−y, z') contributes; a quarter is eight chunks of
  64 rows.
-/
import proofs.«900664_g7700000000000665_dist_ag_v7x_xyz2x2x2_y_m2048_n512_f32_1_alg».proof.Proof.Gen.KernelIdeal

namespace Cert.KernelIdeal.AG

open Cert.KernelIdeal Cert.KernelIdeal.Gen Idealize.ShloMosaic

/-- The mesh coordinates of a device. -/
def xc (c : Dev nD) : ℕ := c.val / 4
def yc (c : Dev nD) : ℕ := (c.val / 2) % 2
def zc (c : Dev nD) : ℕ := c.val % 2

theorem val_lt (c : Dev nD) : c.val < 8 := c.isLt
theorem xc_le (c : Dev nD) : xc c ≤ 1 := by have := val_lt c; unfold xc; omega
theorem yc_le (c : Dev nD) : yc c ≤ 1 := by unfold yc; omega
theorem zc_le (c : Dev nD) : zc c ≤ 1 := by unfold zc; omega
theorem val_eq (c : Dev nD) : c.val = 4 * xc c + 2 * yc c + zc c := by unfold xc yc zc; omega

/-- The neighbour across the y axis, the x axis, the z axis. -/
def yP (c : Dev nD) : Dev nD := ⟨(4 * (c.val / 4) + (c.val % 2) + 2) - 2 * ((c.val / 2) % 2), by have := val_lt c; show _ < 8; omega⟩
def xP (c : Dev nD) : Dev nD := ⟨(2 * ((c.val / 2) % 2) + (c.val % 2) + 4) - 4 * (c.val / 4), by have := val_lt c; show _ < 8; omega⟩
def zP (c : Dev nD) : Dev nD := ⟨(4 * (c.val / 4) + 2 * ((c.val / 2) % 2) + 1) - (c.val % 2), by have := val_lt c; show _ < 8; omega⟩

theorem yP_yP (c : Dev nD) : yP (yP c) = c := by revert c; decide
theorem xP_xP (c : Dev nD) : xP (xP c) = c := by revert c; decide
theorem zP_zP (c : Dev nD) : zP (zP c) = c := by revert c; decide
theorem xP_zP (c : Dev nD) : xP (zP c) = zP (xP c) := by revert c; decide

theorem yc_yP (c : Dev nD) : yc (yP c) = 1 - yc c := by revert c; decide
theorem xc_yP (c : Dev nD) : xc (yP c) = xc c := by revert c; decide
theorem zc_yP (c : Dev nD) : zc (yP c) = zc c := by revert c; decide
theorem yc_xP (c : Dev nD) : yc (xP c) = yc c := by revert c; decide
theorem xc_xP (c : Dev nD) : xc (xP c) = 1 - xc c := by revert c; decide
theorem zc_xP (c : Dev nD) : zc (xP c) = zc c := by revert c; decide
theorem yc_zP (c : Dev nD) : yc (zP c) = yc c := by revert c; decide
theorem xc_zP (c : Dev nD) : xc (zP c) = xc c := by revert c; decide
theorem zc_zP (c : Dev nD) : zc (zP c) = 1 - zc c := by revert c; decide

theorem yP_ne (c : Dev nD) : yP c ≠ c := by revert c; decide
theorem xP_ne (c : Dev nD) : xP c ≠ c := by revert c; decide
theorem zP_ne (c : Dev nD) : zP c ≠ c := by revert c; decide
theorem yP_ne_xP (c : Dev nD) : yP c ≠ xP c := by revert c; decide
theorem yP_ne_zP (c : Dev nD) : yP c ≠ zP c := by revert c; decide
theorem xP_ne_zP (c : Dev nD) : xP c ≠ zP c := by revert c; decide

/-! ## The kernel's device chains name the three neighbours -/

theorem dev1_eq (c : Dev nD) : (⟨k0_dev1 c, k0_dev1_lt c⟩ : Dev nD) = yP c := Fin.ext (k0_dev1_eq c)
theorem dev4_eq (c : Dev nD) : (⟨k0_dev4 c, k0_dev4_lt c⟩ : Dev nD) = yP c := Fin.ext (k0_dev4_eq c)
theorem dev5_eq (c : Dev nD) : (⟨k0_dev5 c, k0_dev5_lt c⟩ : Dev nD) = yP c := Fin.ext (k0_dev5_eq c)
theorem dev6_eq (c : Dev nD) : (⟨k0_dev6 c, k0_dev6_lt c⟩ : Dev nD) = yP c := Fin.ext (k0_dev6_eq c)
theorem dev7_eq (c : Dev nD) : (⟨k0_dev7 c, k0_dev7_lt c⟩ : Dev nD) = yP c := Fin.ext (k0_dev7_eq c)
theorem dev8_eq (c : Dev nD) : (⟨k0_dev8 c, k0_dev8_lt c⟩ : Dev nD) = yP c := Fin.ext (k0_dev8_eq c)
theorem dev9_eq (c : Dev nD) : (⟨k0_dev9 c, k0_dev9_lt c⟩ : Dev nD) = yP c := Fin.ext (k0_dev9_eq c)
theorem dev10_eq (c : Dev nD) : (⟨k0_dev10 c, k0_dev10_lt c⟩ : Dev nD) = yP c := Fin.ext (k0_dev10_eq c)
theorem dev11_eq (c : Dev nD) : (⟨k0_dev11 c, k0_dev11_lt c⟩ : Dev nD) = yP c := Fin.ext (k0_dev11_eq c)
theorem dev2_eq (c : Dev nD) : (⟨k0_dev2 c, k0_dev2_lt c⟩ : Dev nD) = xP c := Fin.ext (k0_dev2_eq c)
theorem dev12_eq (c : Dev nD) : (⟨k0_dev12 c, k0_dev12_lt c⟩ : Dev nD) = xP c := Fin.ext (k0_dev12_eq c)
theorem dev14_eq (c : Dev nD) : (⟨k0_dev14 c, k0_dev14_lt c⟩ : Dev nD) = xP c := Fin.ext (k0_dev14_eq c)
theorem dev16_eq (c : Dev nD) : (⟨k0_dev16 c, k0_dev16_lt c⟩ : Dev nD) = xP c := Fin.ext (k0_dev16_eq c)
theorem dev18_eq (c : Dev nD) : (⟨k0_dev18 c, k0_dev18_lt c⟩ : Dev nD) = xP c := Fin.ext (k0_dev18_eq c)
theorem dev20_eq (c : Dev nD) : (⟨k0_dev20 c, k0_dev20_lt c⟩ : Dev nD) = xP c := Fin.ext (k0_dev20_eq c)
theorem dev22_eq (c : Dev nD) : (⟨k0_dev22 c, k0_dev22_lt c⟩ : Dev nD) = xP c := Fin.ext (k0_dev22_eq c)
theorem dev24_eq (c : Dev nD) : (⟨k0_dev24 c, k0_dev24_lt c⟩ : Dev nD) = xP c := Fin.ext (k0_dev24_eq c)
theorem dev26_eq (c : Dev nD) : (⟨k0_dev26 c, k0_dev26_lt c⟩ : Dev nD) = xP c := Fin.ext (k0_dev26_eq c)
theorem dev28_eq (c : Dev nD) : (⟨k0_dev28 c, k0_dev28_lt c⟩ : Dev nD) = xP c := Fin.ext (k0_dev28_eq c)
theorem dev29_eq (c : Dev nD) : (⟨k0_dev29 c, k0_dev29_lt c⟩ : Dev nD) = xP c := Fin.ext (k0_dev29_eq c)
theorem dev30_eq (c : Dev nD) : (⟨k0_dev30 c, k0_dev30_lt c⟩ : Dev nD) = xP c := Fin.ext (k0_dev30_eq c)
theorem dev31_eq (c : Dev nD) : (⟨k0_dev31 c, k0_dev31_lt c⟩ : Dev nD) = xP c := Fin.ext (k0_dev31_eq c)
theorem dev3_eq (c : Dev nD) : (⟨k0_dev3 c, k0_dev3_lt c⟩ : Dev nD) = zP c := Fin.ext (k0_dev3_eq c)
theorem dev13_eq (c : Dev nD) : (⟨k0_dev13 c, k0_dev13_lt c⟩ : Dev nD) = zP c := Fin.ext (k0_dev13_eq c)
theorem dev15_eq (c : Dev nD) : (⟨k0_dev15 c, k0_dev15_lt c⟩ : Dev nD) = zP c := Fin.ext (k0_dev15_eq c)
theorem dev17_eq (c : Dev nD) : (⟨k0_dev17 c, k0_dev17_lt c⟩ : Dev nD) = zP c := Fin.ext (k0_dev17_eq c)
theorem dev19_eq (c : Dev nD) : (⟨k0_dev19 c, k0_dev19_lt c⟩ : Dev nD) = zP c := Fin.ext (k0_dev19_eq c)
theorem dev21_eq (c : Dev nD) : (⟨k0_dev21 c, k0_dev21_lt c⟩ : Dev nD) = zP c := Fin.ext (k0_dev21_eq c)
theorem dev23_eq (c : Dev nD) : (⟨k0_dev23 c, k0_dev23_lt c⟩ : Dev nD) = zP c := Fin.ext (k0_dev23_eq c)
theorem dev25_eq (c : Dev nD) : (⟨k0_dev25 c, k0_dev25_lt c⟩ : Dev nD) = zP c := Fin.ext (k0_dev25_eq c)
theorem dev27_eq (c : Dev nD) : (⟨k0_dev27 c, k0_dev27_lt c⟩ : Dev nD) = zP c := Fin.ext (k0_dev27_eq c)
theorem dev32_eq (c : Dev nD) : (⟨k0_dev32 c, k0_dev32_lt c⟩ : Dev nD) = zP c := Fin.ext (k0_dev32_eq c)
theorem dev33_eq (c : Dev nD) : (⟨k0_dev33 c, k0_dev33_lt c⟩ : Dev nD) = zP c := Fin.ext (k0_dev33_eq c)
theorem dev34_eq (c : Dev nD) : (⟨k0_dev34 c, k0_dev34_lt c⟩ : Dev nD) = zP c := Fin.ext (k0_dev34_eq c)
theorem dev35_eq (c : Dev nD) : (⟨k0_dev35 c, k0_dev35_lt c⟩ : Dev nD) = zP c := Fin.ext (k0_dev35_eq c)

/-! ## Rows -/

/-- First row of the device's own half of the gathered array, and of the half it receives. -/
def ownBase (c : Dev nD) : ℕ := 2048 * yc c
def recvBase (c : Dev nD) : ℕ := 2048 - 2048 * yc c
/-- The quarter (0..3) of a half that the device itself contributes, and the quarters its x-, z- and diagonal
    neighbours contribute. -/
def kM (c : Dev nD) : ℕ := 2 * xc c + zc c
def kX (c : Dev nD) : ℕ := 2 * (1 - xc c) + zc c
def kZ (c : Dev nD) : ℕ := 2 * xc c + (1 - zc c)
def kD (c : Dev nD) : ℕ := 2 * (1 - xc c) + (1 - zc c)

theorem recvBase_yP (c : Dev nD) : recvBase (yP c) = ownBase c := by
  unfold recvBase ownBase; rw [yc_yP]; have := yc_le c; omega
theorem recvBase_xP (c : Dev nD) : recvBase (xP c) = recvBase c := by unfold recvBase; rw [yc_xP]
theorem recvBase_zP (c : Dev nD) : recvBase (zP c) = recvBase c := by unfold recvBase; rw [yc_zP]
theorem kM_yP (c : Dev nD) : kM (yP c) = kM c := by unfold kM; rw [xc_yP, zc_yP]
theorem kX_xP (c : Dev nD) : kX (xP c) = kM c := by unfold kX kM; rw [xc_xP, zc_xP]; have := xc_le c; omega
theorem kZ_zP (c : Dev nD) : kZ (zP c) = kM c := by unfold kZ kM; rw [xc_zP, zc_zP]; have := zc_le c; omega
theorem kD_xP (c : Dev nD) : kD (xP c) = kZ c := by unfold kD kZ; rw [xc_xP, zc_xP]; have := xc_le c; omega
theorem kM_xP (c : Dev nD) : kM (xP c) = kX c := by unfold kM kX; rw [xc_xP, zc_xP]
theorem kM_zP (c : Dev nD) : kM (zP c) = kZ c := by unfold kM kZ; rw [xc_zP, zc_zP]
theorem kZ_xP (c : Dev nD) : kZ (xP c) = kD c := by unfold kZ kD; rw [xc_xP, zc_xP]
theorem kX_zP (c : Dev nD) : kX (zP c) = kD c := by unfold kX kD; rw [xc_zP, zc_zP]
theorem kM_lt (c : Dev nD) : kM c < 4 := by have := xc_le c; have := zc_le c; unfold kM; omega
theorem kX_lt (c : Dev nD) : kX c < 4 := by have := zc_le c; unfold kX; omega
theorem kZ_lt (c : Dev nD) : kZ c < 4 := by have := xc_le c; unfold kZ; omega
theorem kD_lt (c : Dev nD) : kD c < 4 := by unfold kD; omega
theorem kD_zP (c : Dev nD) : kD (zP c) = kX c := by unfold kD kX; rw [xc_zP, zc_zP]; have := zc_le c; omega

/-! ## The kernel's slice offsets, as rows -/

theorem off1_row (c : Dev nD) : k0_off1 c = ![ownBase c, 0] := k0_off1_eq c
/-- Destination of the i-th transfer to the y-neighbour: in ITS received half, the sender's quarter. -/
theorem off2_row (c : Dev nD) (r : Fin 8) :
    k0_off2 c (BitVec.ofNat 32 (64 * r.val)) = ![recvBase (yP c) + 64 * (8 * kM c + r.val), 0] := by
  rw [k0_off2_eq, recvBase_yP]; unfold ownBase kM xc yc zc
  have := val_lt c; have := r.isLt
  congr 1; omega
/-- Its source: the sender's quarter of its own block. -/
theorem off3_row (c : Dev nD) (r : Fin 8) :
    k0_off3 c (BitVec.ofNat 32 (64 * r.val)) = ![64 * (8 * kM c + r.val), 0] := by
  rw [k0_off3_eq]; unfold kM xc zc
  have := val_lt c; have := r.isLt
  congr 1; omega
/-- Source and destination of the forwards to the x- and z-neighbours: the y-neighbour's quarter of the received half. -/
theorem off4_row (c : Dev nD) (r : Fin 8) :
    k0_off4 c (BitVec.ofNat 32 (64 * r.val)) = ![recvBase c + 64 * (8 * kM c + r.val), 0] := by
  rw [k0_off4_eq]; unfold recvBase kM xc yc zc
  have := val_lt c; have := r.isLt
  congr 1; omega
/-- Source and destination of the second forward to the x-neighbour: chunks 0..3 of the z-neighbour's quarter. -/
theorem off5_row (c : Dev nD) (r : Fin 4) :
    k0_off5 c (BitVec.ofNat 32 (64 * r.val)) = ![recvBase c + 64 * (8 * kZ c + r.val), 0] := by
  rw [k0_off5_eq]; unfold recvBase kZ xc yc zc
  have := val_lt c; have := r.isLt
  congr 1; omega
/-- Source and destination of the second forward to the z-neighbour: chunks 4..7 of the x-neighbour's quarter. -/
theorem off6_row (c : Dev nD) (r : Fin 4) :
    k0_off6 c (BitVec.ofNat 32 (256 + 64 * r.val)) = ![recvBase c + 64 * (8 * kX c + 4 + r.val), 0] := by
  rw [k0_off6_eq]; unfold recvBase kX xc yc zc
  have := val_lt c; have := r.isLt
  congr 1; omega

end Cert.KernelIdeal.AG
-- ==== Proof.KI.Cells.lean ====
/-
  The two staging buffers of the all-gather seen as rows, and what they hold.
  The input staging buffer holds the device's block X_c (2048 rows). The output staging buffer (4096 rows) ends as W_c:
  rows of the device's own half hold X_c, and quarter k = 2·x' + z' of the received half holds the same rows of
  X_d for d = (x', 1−y, z'), the device that contributes that quarter. Every transfer of the kernel moves 64 whole
  rows (the local copy 2048), so every region a transfer reads or writes is a set of rows.
-/
import proofs.«900664_g7700000000000665_dist_ag_v7x_xyz2x2x2_y_m2048_n512_f32_1_alg».proof.Proof.KI.Mesh
import proofs.«900664_g7700000000000665_dist_ag_v7x_xyz2x2x2_y_m2048_n512_f32_1_alg».proof.Proof.Gen.KernelIdeal.Skeleton
import proofs.«900664_g7700000000000665_dist_ag_v7x_xyz2x2x2_y_m2048_n512_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

/-- The resource algebra: the pipeline library's copy and the protocol's, whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S2048x512 .f32 := Memref.whole cc0_stg0_0
abbrev oM : Memref sig .tc .vmem S4096x512 .f32 := Memref.whole cc0_stg1_0
abbrev xLoc (c : Dev nD) : Loc nD τ sig := (c : Thread nD τ).loc cc0_stg0_0
abbrev oLoc (c : Dev nD) : Loc nD τ sig := (c : Thread nD τ).loc cc0_stg1_0

/-- Rows `lo ≤ r < lo + n` of the output staging buffer, of the input staging buffer. -/
def rowsO (c : Dev nD) (lo n : ℕ) : Finset (Idx (oLoc c)) :=
  Finset.univ.filter fun (i : S4096x512.Idx) => lo ≤ (i 0).val ∧ (i 0).val < lo + n
def rowsX (c : Dev nD) (lo n : ℕ) : Finset (Idx (xLoc c)) :=
  Finset.univ.filter fun (i : S2048x512.Idx) => lo ≤ (i 0).val ∧ (i 0).val < lo + n

theorem mem_rowsO {c : Dev nD} {lo n : ℕ} {i : S4096x512.Idx} : i ∈ rowsO c lo n ↔ lo ≤ (i 0).val ∧ (i 0).val < lo + n := by
  unfold rowsO; rw [Finset.mem_filter]; exact and_iff_right (Finset.mem_univ _)
theorem mem_rowsX {c : Dev nD} {lo n : ℕ} {i : S2048x512.Idx} : i ∈ rowsX c lo n ↔ lo ≤ (i 0).val ∧ (i 0).val < lo + n := by
  unfold rowsX; rw [Finset.mem_filter]; exact and_iff_right (Finset.mem_univ _)

/-- A 64-row slice of the output staging buffer at column 0 is a set of rows. -/
theorem set_oslice (c : Dev nD) (off : Fin 2 → ℕ) (lo : ℕ) (h : off = ![lo, 0]) (inb : ∀ a, off a + S64x512.size a ≤ S4096x512.size a) :
    ((oM.slice (Rect.unit (s := S4096x512) off S64x512.size inb) (fun _ => rfl)).view.set : Finset (Idx (oLoc c))) = rowsO c lo 64 := by
  subst h
  show ((View.whole cc0_stg1_0).slice (Rect.unit (s := S4096x512) ![lo, 0] S64x512.size inb)).set = _
  rw [View.set_slice_whole]
  ext i
  rw [Rect.mem_set_unit, mem_rowsO]
  constructor
  · intro h; exact h (0 : Fin 2)
  · intro h0 a
    match a with
    | ⟨0, _⟩ => exact h0
    | ⟨1, _⟩ => exact ⟨Nat.zero_le _, by show _ < 0 + 512; rw [Nat.zero_add]; exact (i _).isLt⟩

variable (m : (ℓ : Loc nD τ sig) → Buf (Elt F) ℓ)

/-- What device `d`'s input staging buffer holds in the body: its block of the argument array. -/
def X (d : Dev nD) : (cc0_stg0_0 : Ref sig .tc).ty.Contents (Elt F) :=
  (win0_0.blk (0 : Fin 1)).view.read (Elt F) (m ((d : Thread nD τ).loc main_arg0))

/-- The device (x', 1−y, z') that contributes quarter k = 2·x' + z' of device `c`'s received half. -/
def srcDev (c : Dev nD) (k : ℕ) : Dev nD := ⟨4 * (k / 2 % 2) + 2 * (1 - yc c) + k % 2, by show _ < 8; omega⟩

/-- What device `c`'s output staging buffer ends holding. -/
def W (c : Dev nD) : (cc0_stg1_0 : Ref sig .tc).ty.Contents (Elt F) := fun (i : S4096x512.Idx) =>
  if (i 0).val / 2048 = yc c then X m c (ix2 (⟨(i 0).val % 2048, Nat.mod_lt _ (by decide)⟩ : Fin 2048) (i 1))
  else X m (srcDev c ((i 0).val % 2048 / 512)) (ix2 (⟨(i 0).val % 2048, Nat.mod_lt _ (by decide)⟩ : Fin 2048) (i 1))

end Cert.KernelIdeal.AG

end
-- ==== Proof.KI.Sched.lean ====
/-
  The protocol of the all-gather as rounds. Every semaphore is used for one round.
  A device's barrier cell receives one unit from each of its three neighbours; the unit from a neighbour carries the
  rows of THAT neighbour's output staging buffer which this device will overwrite (eight chunks in the y-neighbour, eight
  plus four in the x- and in the z-neighbour). Each DMA semaphore carries one transfer: a receive cell is paid when its
  chunk has landed and hands the owner that chunk holding its final contents; a send cell is paid when the source has
  been read and hands back the share of the source that was lent; the copy cell hands back the own half written and
  the lent share of the input block.
-/
import proofs.«900664_g7700000000000665_dist_ag_v7x_xyz2x2x2_y_m2048_n512_f32_1_alg».proof.Proof.KI.Cells

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The barrier semaphore of the collective (not scoped to the launch). -/
abbrev barS : Sem sig := (SemArray.scalar (sig.barrier 0 rfl) : Sems sig S_).sem
abbrev barCell (c : Dev nD) : GSem nD τ sig := ((c : Thread nD τ), .reg barS)
abbrev dCell (c : Dev nD) (n : DmaSem sig) : GSem nD τ sig := ((c : Thread nD τ), .dma n)

/-- The DMA semaphores by role: the local copy's; then per chunk the send and receive semaphores of the five groups of
    transfers (to the y-neighbour; first forward to the x- and z-neighbour; second forward to the x- and z-neighbour). -/
abbrev copyS : DmaSem sig := ⟨2, by decide⟩
abbrev ySend (i : Fin 8) : DmaSem sig := ⟨3 + i.val, by have := i.isLt; show _ < 67; omega⟩
abbrev yRecv (i : Fin 8) : DmaSem sig := ⟨11 + i.val, by have := i.isLt; show _ < 67; omega⟩
abbrev x2Send (i : Fin 8) : DmaSem sig := ⟨19 + i.val, by have := i.isLt; show _ < 67; omega⟩
abbrev x2Recv (i : Fin 8) : DmaSem sig := ⟨27 + i.val, by have := i.isLt; show _ < 67; omega⟩
abbrev z2Send (i : Fin 8) : DmaSem sig := ⟨35 + i.val, by have := i.isLt; show _ < 67; omega⟩
abbrev z2Recv (i : Fin 8) : DmaSem sig := ⟨43 + i.val, by have := i.isLt; show _ < 67; omega⟩
abbrev x3Send (j : Fin 4) : DmaSem sig := ⟨51 + j.val, by have := j.isLt; show _ < 67; omega⟩
abbrev x3Recv (j : Fin 4) : DmaSem sig := ⟨55 + j.val, by have := j.isLt; show _ < 67; omega⟩
abbrev z3Send (j : Fin 4) : DmaSem sig := ⟨59 + j.val, by have := j.isLt; show _ < 67; omega⟩
abbrev z3Recv (j : Fin 4) : DmaSem sig := ⟨63 + j.val, by have := j.isLt; show _ < 67; omega⟩

/-- The credit of a 64-row chunk, of the 2048-row own half. -/
def N64 : ℕ := (oM.slice (Rect.unit (s := S4096x512) ![0, 0] S64x512.size (by decide)) (fun _ => rfl)).view.dmaCredit
def Nh : ℕ := (oM.slice (Rect.unit (s := S4096x512) ![0, 0] S2048x512.size (by decide)) (fun _ => rfl)).view.dmaCredit
theorem N64_pos : 0 < N64 := by unfold N64; exact View.dmaCredit_pos _ (by decide)
theorem Nh_pos : 0 < Nh := by unfold Nh; exact View.dmaCredit_pos _ (by decide)

/-! ## Payloads -/

variable (m : (ℓ : Loc nD τ sig) → Buf (Elt F) ℓ)

/-- Chunk `j` (0..31) of device `c'`'s received half, at some contents: what a neighbour is lent to write into. -/
def someChunk (c' : Dev nD) (j : ℕ) : sProp 𝕄 :=
  iprop(∃ f : Buf (Elt F) (oLoc c'), oLoc c' ↦[rowsO c' (recvBase c' + 64 * j) 64]{fullShare} f)
/-- Chunk `j` of device `c`'s received half holding its final contents, at share `q`. -/
def chunk (c : Dev nD) (j : ℕ) (q : PosShare TreeShare) : sProp 𝕄 :=
  oLoc c ↦[rowsO c (recvBase c + 64 * j) 64]{q} W m c

/-- What the unit of duty `d` on device `c`'s barrier cell carries: duty 0 is paid by the y-neighbour, 1 by the
    x-neighbour, 2 by the z-neighbour, each with the chunks of ITS received half that `c` will write. -/
def barPay (c : Dev nD) (d : Fin 3) : sProp 𝕄 :=
  if d = 0 then bigSep (Finset.univ : Finset (Fin 8)) fun i => someChunk (F := F) (yP c) (8 * kM c + i.val)
  else if d = 1 then
    iprop((bigSep (Finset.univ : Finset (Fin 8)) fun i => someChunk (F := F) (xP c) (8 * kM c + i.val))
      ∗ bigSep (Finset.univ : Finset (Fin 4)) fun j => someChunk (F := F) (xP c) (8 * kZ c + j.val))
  else
    iprop((bigSep (Finset.univ : Finset (Fin 8)) fun i => someChunk (F := F) (zP c) (8 * kM c + i.val))
      ∗ bigSep (Finset.univ : Finset (Fin 4)) fun j => someChunk (F := F) (zP c) (8 * kX c + 4 + j.val))

/-- What DMA semaphore `n` of device `c` hands its owner when its one transfer has paid it. -/
def dmaPay (c : Dev nD) (n : ℕ) : sProp 𝕄 :=
  if n = 2 then iprop((oLoc c ↦[rowsO c (ownBase c) 2048]{fullShare} W m c) ∗ (xLoc c ↦[Finset.univ]{fullShare.left} X m c))
  else if n < 11 then (xLoc c ↦[rowsX c (64 * (8 * kM c + (n - 3))) 64]{fullShare.right} X m c)
  else if n < 19 then chunk m c (8 * kM c + (n - 11)) fullShare
  else if n < 27 then chunk m c (8 * kM c + (n - 19)) fullShare.left
  else if n < 35 then chunk m c (8 * kX c + (n - 27)) fullShare
  else if n < 43 then chunk m c (8 * kM c + (n - 35)) fullShare.right
  else if n < 51 then chunk m c (8 * kZ c + (n - 43)) fullShare
  else if n < 55 then chunk m c (8 * kZ c + (n - 51)) fullShare
  else if n < 59 then chunk m c (8 * kD c + (n - 55)) fullShare
  else if n < 63 then chunk m c (8 * kX c + 4 + (n - 59)) fullShare
  else chunk m c (8 * kD c + 4 + (n - 63)) fullShare

/-! ## The schedule -/

/-- One round, round 0: a TensorCore's barrier cell has three duties of one unit; each of its DMA semaphores 2..66 one
    duty of its transfer's credit. (DMA semaphores 0 and 1 are the pipeline's own.) -/
def agRd : Rounds.Schedule (GSem nD τ sig) (Fin 3) 𝕄 where
  duties g r := if r = 0 ∧ g.1.2 = .tc then (match g.2 with | .reg _ => Finset.univ | .dma n => if 2 ≤ n.val then {0} else ∅) else ∅
  unitless _ := False
  amount g _ _ := match g.2 with | .reg _ => 1 | .dma n => if n.val = 2 then Nh else N64
  payload g _ d := match g.2 with | .reg _ => barPay g.1.1 d | .dma n => dmaPay m g.1.1 n.val
  amount_pos g _ _ _ := by
    rcases g with ⟨t, s⟩
    cases s with
    | reg _ => exact Nat.one_pos
    | dma n => show 0 < (if n.val = 2 then Nh else N64); split
               · exact Nh_pos
               · exact N64_pos

instance someChunk_storable (c' : Dev nD) (j : ℕ) : BI.Storable (upEmb : UEmb _ 𝕄) (someChunk (F := F) c' j) := by unfold someChunk; infer_instance
instance chunk_storable (c : Dev nD) (j : ℕ) (q : PosShare TreeShare) : BI.Storable (upEmb : UEmb _ 𝕄) (chunk m c j q) := by unfold chunk; infer_instance
instance barPay_storable (c : Dev nD) (d : Fin 3) : BI.Storable (upEmb : UEmb _ 𝕄) (barPay (F := F) c d) := by
  unfold barPay; (repeat' split) <;> infer_instance
instance dmaPay_storable (c : Dev nD) (n : ℕ) : BI.Storable (upEmb : UEmb _ 𝕄) (dmaPay m c n) := by
  unfold dmaPay; (repeat' split) <;> infer_instance
instance agRd_payload_storable (g : GSem nD τ sig) (r : ℕ) (d : Fin 3) :
    BI.Storable (upEmb : UEmb _ 𝕄) ((agRd (F := F) m).payload g r d) := by
  rcases g with ⟨t, s⟩
  cases s with
  | reg _ => show BI.Storable upEmb (barPay t.1 d); infer_instance
  | dma n => show BI.Storable upEmb (dmaPay m t.1 n.val); infer_instance

/-! ## The tables -/

section Tables
variable (c : Dev nD)

omit [FloatOps F] in
theorem duties_bar : (agRd (F := F) m).duties (barCell c) 0 = Finset.univ := by dsimp only [agRd]; exact if_pos ⟨rfl, rfl⟩
omit [FloatOps F] in
theorem duties_dma (n : DmaSem sig) (h : 2 ≤ n.val) : (agRd (F := F) m).duties (dCell c n) 0 = {0} := by
  dsimp only [agRd]; rw [if_pos ⟨rfl, rfl⟩]; exact if_pos h
omit [FloatOps F] in
theorem duties_later (g : GSem nD τ sig) : ∀ r, 1 ≤ r → (agRd (F := F) m).duties g r = ∅ :=
  fun r hr => by dsimp only [agRd]; rw [if_neg fun h => by omega]
omit [FloatOps F] in
theorem amount_bar (d : Fin 3) : (agRd (F := F) m).amount (barCell c) 0 d = 1 := rfl
omit [FloatOps F] in
theorem amount_copy (d : Fin 3) : (agRd (F := F) m).amount (dCell c copyS) 0 d = Nh := rfl
omit [FloatOps F] in
theorem amount_dma (n : DmaSem sig) (h : n.val ≠ 2) (d : Fin 3) : (agRd (F := F) m).amount (dCell c n) 0 d = N64 := by
  dsimp only [agRd]; exact if_neg h
omit [FloatOps F] in
theorem expect_bar : (agRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_dma (n : DmaSem sig) (h2 : 2 ≤ n.val) (h : n.val ≠ 2) : (agRd (F := F) m).expect (dCell c n) 0 = N64 := by
  unfold Schedule.expect Schedule.amountOf; rw [duties_dma m c n h2, Finset.sum_singleton]
  exact amount_dma m c n h 0
omit [FloatOps F] in
theorem payload_bar (d : Fin 3) : (agRd (F := F) m).payload (barCell c) 0 d = barPay c d := rfl
omit [FloatOps F] in
theorem payload_dma (n : DmaSem sig) (d : Fin 3) : (agRd (F := F) m).payload (dCell c n) 0 d = dmaPay m c n.val := rfl

omit [FloatOps F] in
/-- The whole of a DMA cell's round: its one payload. -/
theorem rest_dma (n : DmaSem sig) (h : 2 ≤ n.val) :
    bigSep ((agRd (F := F) m).duties (dCell c n) 0 \ ∅) (fun d => (agRd (F := F) m).payload (dCell c n) 0 d) = dmaPay m c n.val := by
  rw [Finset.sdiff_empty, duties_dma m c n h, bigSep_singleton, payload_dma]
omit [FloatOps F] in
/-- The whole of the barrier cell's round: the three neighbours' chunks. -/
theorem rest_bar : bigSep ((agRd (F := F) m).duties (barCell c) 0 \ ∅) (fun d => (agRd (F := F) m).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons, bigSepL_singleton]
  rfl

end Tables

end Cert.KernelIdeal.AG

end
-- ==== Proof.KI.Iface.lean ====
/-
  What one device holds when the kernel's body starts and what it must hand back, for the launch and for the body.
  Resources are listed in the order in which the program uses them: the transfers in the order they are issued, the
  semaphore cells in the order they are waited on.
-/
import proofs.«900664_g7700000000000665_dist_ag_v7x_xyz2x2x2_y_m2048_n512_f32_1_alg».proof.Proof.KI.Sched

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s0 : MemSt nD τ sig (Elt F) := ⟨m, fun _ => 0, ρ⟩

/-- The neighbour across axis `d`: 0 the y axis, 1 the x axis, 2 the z axis. Duty `d` of a barrier cell is paid by it. -/
def nb (c : Dev nD) (d : Fin 3) : Dev nD := if d = 0 then yP c else if d = 1 then xP c else zP c

/-- The kernel's own DMA semaphores 2..66, by index 0..64. -/
abbrev dsem (k : Fin 65) : DmaSem sig := ⟨k.val + 2, by have := k.isLt; show _ < 67; omega⟩
abbrev osem : Fin 65 → SemLoc sig := fun k => .dma (dsem k)
/-- All 66 cells of a device: the barrier cell, then the DMA cells. -/
abbrev csem (k : Fin 66) : SemLoc sig := if h : k.val = 0 then .reg barS else .dma ⟨k.val + 1, by have := k.isLt; show _ < 67; omega⟩
abbrev kcell (ck : Dev nD × Fin 66) : GSem nD τ sig := ((ck.1 : Thread nD τ), csem ck.2)

/-- The own DMA cells in the order the program waits on them: the receives of the three stages as they are consumed,
    then the sends, then the local copy. -/
def waitIdx : List (Fin 65) := [9, 10, 11, 12, 13, 14, 15, 16, 41, 42, 43, 44, 29, 30, 31, 32, 45, 46, 47, 48, 25, 26, 27, 28, 53, 61, 54, 62, 55, 63, 56, 64, 1, 17, 33, 2, 18, 34, 3, 19, 35, 4, 20, 36, 5, 21, 37, 6, 22, 38, 7, 23, 39, 8, 24, 40, 49, 57, 50, 58, 51, 59, 52, 60, 0]
/-- Its first 32: the receive cells, which other devices pay. -/
def recvIdx : List (Fin 65) := [9, 10, 11, 12, 13, 14, 15, 16, 41, 42, 43, 44, 29, 30, 31, 32, 45, 46, 47, 48, 25, 26, 27, 28, 53, 61, 54, 62, 55, 63, 56, 64]
/-- The remote transfers in the order they are issued: (send cell, receive cell on the target, axis of the target). -/
def enqs : List (Fin 65 × Fin 65 × Fin 3) := [(1, 9, 0), (2, 10, 0), (3, 11, 0), (4, 12, 0), (5, 13, 0), (6, 14, 0), (7, 15, 0), (8, 16, 0), (17, 25, 1), (33, 41, 2), (18, 26, 1), (34, 42, 2), (19, 27, 1), (35, 43, 2), (20, 28, 1), (36, 44, 2), (21, 29, 1), (37, 45, 2), (22, 30, 1), (38, 46, 2), (23, 31, 1), (39, 47, 2), (24, 32, 1), (40, 48, 2), (49, 53, 1), (50, 54, 1), (51, 55, 1), (52, 56, 1), (57, 61, 2), (58, 62, 2), (59, 63, 2), (60, 64, 2)]

/-! ## What a device owes at launch, in the order it pays -/

def owedL : List (GSem nD τ sig × ℕ) → CellTallies nD τ sig Unit
  | [] => 0
  | (g, k) :: l => owedL l + tallyAt g () k

/-- The arrivals it owes its neighbours' receive cells. -/
def arrivals (c : Dev nD) : List (GSem nD τ sig × ℕ) := enqs.map fun t => (dCell (nb c t.2.2) (dsem t.2.1), N64)
/-- Everything: the three barrier units, then the arrivals. -/
def plan (c : Dev nD) : List (GSem nD τ sig × ℕ) :=
  (barCell (yP c), 1) :: (barCell (xP c), 1) :: (barCell (zP c), 1) :: arrivals c
def O₀ (c : Dev nD) : CellTallies nD τ sig Unit := owedL (plan c)

/-! ## Levels: a cell may be waited on only below everything still owed -/

def L (g : GSem nD τ sig) : Finset Unit := if g.1.2 = .tc then {()} else ∅
/-- Barrier 1; the y-stage receives 2; the first forwards' receives 3; the second forwards' receives 4; the rest 0. -/
def lvN (n : ℕ) : ℕ :=
  if 11 ≤ n ∧ n < 19 then 2 else if (27 ≤ n ∧ n < 35) ∨ (43 ≤ n ∧ n < 51) then 3 else if (55 ≤ n ∧ n < 59) ∨ 63 ≤ n then 4 else 0
def lv (g : GSem nD τ sig) (_ : Unit) : ℕ := match g.2 with | .reg _ => 1 | .dma n => lvN n.val

/-! ## The ghost state -/

/-- Every cell's invariant, at the names `K` the launch allocated, and that every cell has reached round 0. -/
def records (K : Dev nD × Fin 66 → ℕ) : sProp 𝕄 :=
  iprop((bigSep Finset.univ fun ck : Dev nD × Fin 66 => cellInv ER (agRd m) (K ck) (kcell ck))
    ∗ bigSep Finset.univ fun ck : Dev nD × Fin 66 => reached ER (kcell ck) 0)

instance records_persistent (K : Dev nD × Fin 66 → ℕ) : BI.Persistent (records m K) := by unfold records; infer_instance

/-- The device's positions at round 0 of its own cells. -/
def posOf (c : Dev nD) : sProp 𝕄 :=
  iprop(atPos ER (barCell c) 0 ∅ 0 ∗ bigSepL waitIdx fun k => atPos ER (dCell c (dsem k)) 0 ∅ 0)
/-- The tokens of the duties it pays: one unit on each neighbour's barrier cell; its copy; per remote transfer the
    departure on its own send cell and the arrival on the target's receive cell. -/
def toksOf (c : Dev nD) : sProp 𝕄 :=
  iprop(dutyTok ER (barCell (yP c)) 0 0 ∗ dutyTok ER (barCell (xP c)) 0 1 ∗ dutyTok ER (barCell (zP c)) 0 2
    ∗ dutyTok ER (dCell c copyS) 0 0
    ∗ bigSepL enqs fun t => iprop(dutyTok ER (dCell c (dsem t.1)) 0 0 ∗ dutyTok ER (dCell (nb c t.2.2) (dsem t.2.1)) 0 0))
/-- The credit it is dealt at launch: what others owe its barrier and receive cells. -/
def credsOf (c : Dev nD) : sProp 𝕄 :=
  iprop(cred (tallyAt (barCell c) () 3) ∗ bigSepL recvIdx fun k => cred (tallyAt (dCell c (dsem k)) () N64))

def ghost (K : Dev nD × Fin 66 → ℕ) (c : Dev nD) : sProp 𝕄 := iprop(records m K ∗ posOf c ∗ toksOf c)

/-- What the body starts from. -/
def start (c : Dev nD) : sProp 𝕄 := iprop((∃ K, ghost m K c) ∗ credsOf c ∗ levAts L lv)
/-- What it ends with: its own DMA cells closed, their counters at zero. -/
def done (c : Dev nD) : sProp 𝕄 := bigSepL waitIdx fun k => semVal ((c : Thread nD τ), osem k) 0

/-! ## The pipeline's proof data -/

def dats (_ : Fin 1) (c : Dev nD) : Dat τ (Elt F) Unit ℕ UU ℕ cfg0 c where
  A w := (s0 m ρ).mem ((cfg0.win w).arr.view.loc (c : Thread nD τ))
  after w _ := match w with
    | ⟨0, _⟩ => X m c
    | ⟨1, _⟩ => W m c
  Φ t := match t with
    | ⟨0, _⟩ => start m c
    | ⟨_ + 1, _⟩ => done c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer whole, at named contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- The body's precondition with the ghost names opened, and its postcondition. -/
def bodyPre (K : Dev nD × Fin 66 → ℕ) (c : Dev nD) : sProp 𝕄 :=
  iprop((ghost m K c ∗ credsOf c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(done c ∗ (dats m ρ 0 c).owesAt () t₀.succ ∗ stg c cc0_stg0_0 (X m c) ∗ stg c cc0_stg1_0 (W m c))

end Cert.KernelIdeal.AG

end
-- ==== Proof.KI.Fund.lean ====
/-
  The launch of the all-gather, its funding half. The protocol's algebra starts from the launch element over the 66
  cells of every device (the barrier cell and the DMA cells 2..66) and over the duty tokens of their one round. It
  deals every device the round state, the position and the reached mark of its own cells and the tokens of its own
  cells' duties. Under one update every device puts its cells under their invariants; the tokens then go to the
  devices that PAY the duties: duty d of a barrier cell to the neighbour across axis d, the arrival on a receive cell
  to the neighbour that sends to it; the departure and copy tokens stay where they are.
-/
import proofs.«900664_g7700000000000665_dist_ag_v7x_xyz2x2x2_y_m2048_n512_f32_1_alg».proof.Proof.KI.Iface
import proofs.«900664_g7700000000000665_dist_ag_v7x_xyz2x2x2_y_m2048_n512_f32_1_alg».proof.Proof.Gen.KernelIdeal.Launch
import Mathlib.Data.Fintype.Basic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores, the shares, the cells -/

theorem ownSemFacts : Pipeline.OwnSemFacts cfg0.spec osem := by decide

theorem share_eq (m : (ℓ : Loc nD τ sig) → Buf (Elt F) ℓ) (ρ : Dev nD → PrngReg) (c : Dev nD) (w : Fin cfg0.W) : (dats m ρ 0 c).share w = fullShare := by unfold Dat.share; split <;> rfl

/-- Cell 0 of a device is its barrier cell, cell k + 1 its DMA cell of index k. -/
theorem csem_zero : csem 0 = .reg barS := rfl
theorem csem_succ (k : Fin 65) : csem k.succ = osem k := by
  unfold csem; rw [dif_neg (by show k.val + 1 ≠ 0; omega)]
  exact congrArg SemLoc.dma (Fin.ext (by show k.succ.val + 1 = k.val + 2; rw [Fin.val_succ]))

theorem csem_injective : Function.Injective csem := by
  intro k k' h
  unfold csem at h
  by_cases h0 : k.val = 0 <;> by_cases h0' : k'.val = 0
  · exact Fin.ext (h0.trans h0'.symm)
  · rw [dif_pos h0, dif_neg h0'] at h; cases h
  · rw [dif_neg h0, dif_pos h0'] at h; cases h
  · rw [dif_neg h0, dif_neg h0'] at h
    have h1 := congrArg Fin.val (SemLoc.dma.inj h)
    exact Fin.ext (Nat.add_right_cancel h1)

theorem kcell_injective : Function.Injective (kcell : Dev nD × Fin 66 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: the 66 of every device. -/
def agCells : Finset (GSem nD τ sig) := Finset.univ.map ⟨kcell, kcell_injective⟩

/-! ## The duty tokens as minted -/

/-- A device's own cells' duty tokens: the three duties of its barrier cell, duty 0 of each of its 65 DMA cells. -/
abbrev tokOf (cj : Dev nD × (Fin 3 ⊕ Fin 65)) : GSem nD τ sig × ℕ × Fin 3 := match cj.2 with
  | .inl d => (barCell cj.1, 0, d)
  | .inr k => (dCell cj.1 (dsem k), 0, 0)

theorem tokOf_injective : Function.Injective (tokOf : Dev nD × (Fin 3 ⊕ Fin 65) → GSem nD τ sig × ℕ × Fin 3) := by
  rintro ⟨c, j⟩ ⟨c', j'⟩ h
  have h1 : c = c' := by
    have := congrArg (fun x : GSem nD τ sig × ℕ × Fin 3 => x.1.1.1) h
    rcases j with d | k <;> rcases j' with d' | k' <;> exact this
  subst h1
  have h2 := congrArg (fun x : GSem nD τ sig × ℕ × Fin 3 => x.1.2) h
  have h3 := congrArg (fun x : GSem nD τ sig × ℕ × Fin 3 => x.2.2) h
  rcases j with d | k <;> rcases j' with d' | k'
  · have : d = d' := h3
    rw [this]
  · cases h2
  · cases h2
  · have h4 : dsem k = dsem k' := SemLoc.dma.inj h2
    have : k = k' := Fin.ext (Nat.add_right_cancel (congrArg Fin.val h4))
    rw [this]

def agToks : Finset (GSem nD τ sig × ℕ × Fin 3) := Finset.univ.map ⟨tokOf, tokOf_injective⟩

/-- The launch element: the pipeline library's copy and the protocol's. -/
def u₀ : UU :=
  (initOf (Pipeline.cells cfgs cellOf_inj) (Pipeline.launchToks cfgs cellOf_inj), initOf agCells agToks)

/-- The duty tokens of device `c`'s own cells. -/
def toks (c : Dev nD) : sProp 𝕄 :=
  iprop((bigSep Finset.univ fun d : Fin 3 => dutyTok ER (barCell c) 0 d)
    ∗ bigSep Finset.univ fun k : Fin 65 => dutyTok ER (dCell c (dsem k)) 0 0)

/-- What the launch element deals device `c`. -/
def G (m : (ℓ : Loc nD τ sig) → Buf (Elt F) ℓ) (c : Dev nD) : sProp 𝕄 :=
  iprop((bigSep Finset.univ fun k : Fin 66 => roundState ER (agRd m) (kcell (c, k)) 0)
    ∗ (bigSep Finset.univ fun k : Fin 66 => iprop(atPos ER (kcell (c, k)) 0 ∅ 0 ∗ reached ER (kcell (c, k)) 0)) ∗ toks (F := F) c)

/-- What the global step makes of it. -/
def G' (m : (ℓ : Loc nD τ sig) → Buf (Elt F) ℓ) (c : Dev nD) : sProp 𝕄 := iprop(∃ K, ghost m K c)

theorem fund (m : (ℓ : Loc nD τ sig) → Buf (Elt F) ℓ) : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : Fin 66 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The 65 DMA semaphores are the kernel's own, in the order it waits on them; -/
theorem ownSems0_eq (c : Dev nD) : (Pipeline.ownSems0 (Ix := Unit) (Name := ℕ) (U := UU) (Lvl := ℕ) (Val := Elt F) (τ := τ) osem c : sProp 𝕄)
    = bigSepL waitIdx fun k => semVal ((c : Thread nD τ), osem k) 0 :=
  Pipeline.ownSems0_eq_of_list c osem waitIdx (by decide) (by decide)
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over the 66 cells of a device is its barrier cell's member and its DMA cells'. -/
theorem bigSep_cells (Φ : Fin 66 → sProp 𝕄) :
    bigSep Finset.univ Φ = iprop(Φ 0 ∗ bigSep Finset.univ fun k : Fin 65 => Φ k.succ) := by
  rw [Fin.univ_succ, Finset.cons_eq_insert, BI.bigSep_insert (by simp), BI.bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [unscopedSems0_eq, bigSep_cells]
  unfold Pipeline.ownSems0
  iintro ⟨HS, HB⟩
  isplitl [HB]; · iexact HB
  iapply (Entails.of_eq (bigSep_congr (s := Finset.univ) fun (k : Fin 65) _ =>
    show (semVal ((c : Thread nD τ), osem k) 0 : sProp 𝕄) = semVal (kcell (c, k.succ)) 0 from by
      show _ = semVal ((c : Thread nD τ), csem k.succ) 0
      rw [csem_succ]))
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (agRd m) κ (kcell (c, k))))
          ∗ (bigSep Finset.univ fun k : Fin 66 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (agRd m) (kcell (c, k)) 0)
      ⊢ (|={Set.univ}=> bigSep Finset.univ fun k => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step -/

/-- Cell k + 1 of a device is its DMA cell of index k. -/
theorem kcell_succ (c : Dev nD) (k : Fin 65) : kcell (c, k.succ) = dCell c (dsem k) := by
  show ((c : Thread nD τ), csem k.succ) = _
  rw [csem_succ]

/-- The positions of a device's 66 cells, in the order it waits on them. -/
theorem pos_eq (c : Dev nD) : (bigSep Finset.univ fun k : Fin 66 => (atPos ER (kcell (c, k)) 0 ∅ 0 : sProp 𝕄)) = posOf c := by
  unfold posOf
  rw [bigSep_cells, ← bigSep_univ_eq_bigSepL waitIdx (by decide) (by decide),
    bigSep_congr (s := Finset.univ) fun (k : Fin 65) _ => show (atPos ER (kcell (c, k.succ)) 0 ∅ 0 : sProp 𝕄) = atPos ER (dCell c (dsem k)) 0 ∅ 0 from by rw [kcell_succ]]
  rfl

/-- The neighbour across an axis is an involution of the devices. -/
theorem nb_nb : ∀ (d : Fin 3) (c : Dev nD), nb (nb c d) d = c := by decide
def yE : Dev nD ≃ Dev nD := ⟨yP, yP, yP_yP, yP_yP⟩
def xE : Dev nD ≃ Dev nD := ⟨xP, xP, xP_xP, xP_xP⟩
def zE : Dev nD ≃ Dev nD := ⟨zP, zP, zP_zP, zP_zP⟩
def nbE (d : Fin 3) : Dev nD ≃ Dev nD := ⟨fun c => nb c d, fun c => nb c d, nb_nb d, nb_nb d⟩

/-- A chain over a list of pairs, flattened, is the chain of the pairs. -/
theorem bigSepL_pairs {J I : Type} (f g : J → I) (Φ : I → sProp 𝕄) (l : List J) :
    bigSepL (l.flatMap fun t => [f t, g t]) Φ = bigSepL l fun t => iprop(Φ (f t) ∗ Φ (g t)) := by
  induction l with
  | nil => rfl
  | cons t l ih =>
    show bigSepL (f t :: g t :: l.flatMap fun t => [f t, g t]) Φ = _
    rw [bigSepL_cons, bigSepL_cons, bigSepL_cons, ih]
    exact Idealize.SL.BI.Entails.antisymm Idealize.SL.BI.sep_assoc' Idealize.SL.BI.sep_assoc

/-- Dealing along a list: the second half of every member may be taken, over all devices, from the device that a
    permutation (the member's own) names. -/
theorem bigSepL_deal {J : Type} (e : J → Dev nD ≃ Dev nD) (Φ Ψ : Dev nD → J → sProp 𝕄) (l : List J) :
    (bigSep Finset.univ fun c : Dev nD => bigSepL l fun j => iprop(Φ c j ∗ Ψ c j))
      = bigSep Finset.univ fun c : Dev nD => bigSepL l fun j => iprop(Φ c j ∗ Ψ (e j c) j) := by
  induction l with
  | nil => rfl
  | cons j l ih =>
    rw [bigSep_congr (s := Finset.univ) fun (c : Dev nD) _ => bigSepL_cons j l fun j => iprop(Φ c j ∗ Ψ c j),
      bigSep_congr (s := Finset.univ) fun (c : Dev nD) _ => bigSepL_cons j l fun j => iprop(Φ c j ∗ Ψ (e j c) j)]
    show (bigSep Finset.univ fun c : Dev nD => iprop((Φ c j ∗ Ψ c j) ∗ bigSepL l fun j => iprop(Φ c j ∗ Ψ c j)))
      = bigSep Finset.univ fun c : Dev nD => iprop((Φ c j ∗ Ψ (e j c) j) ∗ bigSepL l fun j => iprop(Φ c j ∗ Ψ (e j c) j))
    rw [bigSep_sep', bigSep_sep', ih, bigSep_sep', bigSep_sep', bigSep_univ_equiv (e j) (fun c => Ψ c j)]

/-- The 65 DMA cells in the order of the transfers: the copy's, then per remote transfer its send cell and its receive cell. -/
def tokIdx : List (Fin 65) := 0 :: enqs.flatMap fun t => [t.1, t.2.1]

theorem bigSep_tokIdx (Θ : Fin 65 → sProp 𝕄) :
    bigSep Finset.univ Θ = iprop(Θ 0 ∗ bigSepL enqs fun t => iprop(Θ t.1 ∗ Θ t.2.1)) := by
  rw [bigSep_univ_eq_bigSepL tokIdx (by decide) (by decide)]
  unfold tokIdx
  rw [bigSepL_cons, bigSepL_pairs]
  rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- A device's own cells' tokens, in the order of the transfers. -/
theorem toks_eq (c : Dev nD) : (toks c : sProp 𝕄)
    = iprop((dutyTok ER (barCell c) 0 0 ∗ dutyTok ER (barCell c) 0 1 ∗ dutyTok ER (barCell c) 0 2)
        ∗ dutyTok ER (dCell c copyS) 0 0
        ∗ bigSepL enqs fun t => iprop(dutyTok ER (dCell c (dsem t.1)) 0 0 ∗ dutyTok ER (dCell c (dsem t.2.1)) 0 0)) := by
  unfold toks
  rw [bigSep_fin3, bigSep_tokIdx]
  rfl

/-- The tokens dealt to their payers: duty 0, 1, 2 of a barrier cell to the neighbour across the y, x, z axis; the arrival
    on a receive cell to the neighbour across the transfer's axis, which sends to it. -/
theorem toks_deal : (bigSep Finset.univ fun c : Dev nD => (toks c : sProp 𝕄)) ⊢ bigSep Finset.univ fun c : Dev nD => toksOf c := by
  rw [bigSep_congr (s := Finset.univ) fun (c : Dev nD) _ => toks_eq (F := F) c]
  unfold toksOf
  rw [bigSep_sep', bigSep_sep', bigSep_sep', bigSep_sep', bigSep_sep', bigSep_sep', bigSep_sep', bigSep_sep',
    bigSep_univ_equiv yE (fun c : Dev nD => (dutyTok ER (barCell c) 0 0 : sProp 𝕄)),
    bigSep_univ_equiv xE (fun c : Dev nD => (dutyTok ER (barCell c) 0 1 : sProp 𝕄)),
    bigSep_univ_equiv zE (fun c : Dev nD => (dutyTok ER (barCell c) 0 2 : sProp 𝕄)),
    bigSepL_deal (fun t : Fin 65 × Fin 65 × Fin 3 => nbE t.2.2) (fun c t => (dutyTok ER (dCell c (dsem t.1)) 0 0 : sProp 𝕄))
      (fun c t => (dutyTok ER (dCell c (dsem t.2.1)) 0 0 : sProp 𝕄)) enqs]
  iintro ⟨⟨H1, H2, H3⟩, H4, H5⟩
  isplitl [H1]; · iexact H1
  isplitl [H2]; · iexact H2
  isplitl [H3]; · iexact H3
  isplitl [H4]; · iexact H4
  iexact H5

theorem ghost_intro (m : (ℓ : Loc nD τ sig) → Buf (Elt F) ℓ) (K : Dev nD × Fin 66 → ℕ) (c : Dev nD) : iprop(records m K ∗ posOf c ∗ toksOf c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop((bigSep Finset.univ fun k => iprop(∃ κ : ℕ, cellInv ER (agRd m) κ (kcell (c, k))))
          ∗ (bigSep Finset.univ fun k : Fin 66 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 66 => iprop(∃ κ : ℕ, cellInv ER (agRd m) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (agRd m) κ (kcell ck) : sProp 𝕄))) $$ HI
  icases HK with ⟨%K, #HI⟩
  ihave Htk := (toks_deal (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 66 => (atPos ER (kcell (c, k)) 0 ∅ 0 : sProp 𝕄)) toksOf).symm).trans
      (bigSep_mono fun c _ => show _ ⊢ iprop(posOf c ∗ toksOf c) from Entails.of_eq (by rw [pos_eq])))
    isplitl [Hat]; · iexact Hat
    iexact Htk

/-- The global step: own AND unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch element split: the pipeline library's half as it is, the protocol's half funded. -/
theorem hu₀ (m : (ℓ : Loc nD τ sig) → Buf (Elt F) ℓ) : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund m) $$ HX with HG
  imodintro
  isplitl [HP] <;> iassumption

/-- info: 'Cert.KernelIdeal.AG.hu₀' depends on axioms: [propext, Classical.choice, Quot.sound] -/
#guard_msgs in #print axioms hu₀

/-- info: 'Cert.KernelIdeal.AG.glob' depends on axioms: [propext, Classical.choice, Quot.sound] -/
#guard_msgs in #print axioms glob

end Cert.KernelIdeal.AG

end
-- ==== Proof.BlockOf.lean ====
/- Which rows of the whole array a device of the 2 × 2 × 2 mesh holds when the array is cut along its
   rows in two blocks by the mesh's middle axis. -/
import Idealize.ShloMosaic.Lib.Layout
import Idealize.ShloMosaic.Lib.ValueIdx

namespace Cert.AGBlock

open Idealize.ShloMosaic

/-- Device `c = 4x + 2y + z` of the mesh of axis sizes 2, 2, 2 (numbered row-major) has coordinate
    `y = (c / 2) % 2` on the middle axis, and a dimension cut along that axis alone puts it at block `y`. -/
theorem meshLin_y (c : Fin 8) : Layout.meshLin [2, 2, 2] c.val [1] = (c.val / 2) % 2 := by
  revert c; decide

/-- Device `c`'s block of an array of 4096 rows and 512 columns, cut along the rows in two by the middle mesh
    axis and not cut along the columns, is rows `2048 · y` to `2048 · y + 2047` of the whole array, every column:
    on the row axis the block coordinate is `y` and a block is 2048 rows long; on the column axis the block
    coordinate is `0`. -/
theorem block_row {α : Type} (c : Fin 8) (X : (⟨2, ![4096, 512]⟩ : Shape).Idx → α)
    (i : (⟨2, ![2048, 512]⟩ : Shape).Idx) :
    (Layout.blockN ⟨2, ![2048, 512]⟩ ⟨2, ![4096, 512]⟩ (Layout.meshBlock [2, 2, 2] ![[1], []] c) X) i
      = X (ValueIdx.ix2 (⟨2048 * ((c.val / 2) % 2) + (i 0).val, by
            have hi := ValueIdx.idx2_lt0 i
            have hy : (c.val / 2) % 2 < 2 := Nat.mod_lt _ (by decide)
            omega⟩ : Fin 4096) (i 1)) := by
  rw [Layout.blockN_apply]
  congr 1
  funext b
  apply Fin.ext
  rw [Layout.TilesN.idx_val]
  match b with
  | ⟨0, _⟩ =>
    show (Layout.meshBlock [2, 2, 2] ![[1], []] c _ 0).val * 2048 + (i 0).val
      = 2048 * ((c.val / 2) % 2) + (i 0).val
    rw [Layout.meshBlock_val]
    show Layout.meshLin [2, 2, 2] c.val [1] * 2048 + (i 0).val = _
    rw [meshLin_y, Nat.mul_comm]
  | ⟨1, _⟩ =>
    show (Layout.meshBlock [2, 2, 2] ![[1], []] c _ 1).val * 512 + (i 1).val = (i 1).val
    rw [Layout.meshBlock_val]
    show 0 * 512 + (i 1).val = (i 1).val
    omega

/-- info: 'Cert.AGBlock.block_row' depends on axioms: [propext, Quot.sound] -/
#guard_msgs in #print axioms block_row

end Cert.AGBlock
-- ==== Proof.KI.Whole.lean ====
/-
  The output staging buffer's final contents, row by row, are the whole gathered array: a device's input staging
  buffer holds its block of the argument array, that block is rows 2048·y .. 2048·y + 2047 of the whole array for
  the device's middle mesh coordinate y, and each row r of the output comes from a device whose middle coordinate
  is r / 2048, at row r % 2048 of its block.
-/
import proofs.«900664_g7700000000000665_dist_ag_v7x_xyz2x2x2_y_m2048_n512_f32_1_alg».proof.Proof.KI.Cells
import proofs.«900664_g7700000000000665_dist_ag_v7x_xyz2x2x2_y_m2048_n512_f32_1_alg».proof.Proof.BlockOf

noncomputable section

namespace Cert.KernelIdeal.AG

open Cert.KernelIdeal Cert.KernelIdeal.Gen
open Idealize.ShloMosaic Idealize.ShloMosaic.TcCoe
open Idealize.ShloMosaic.ValueIdx (ix2 eq_ix2)

variable {F : FTy → Type} [FloatOps F]

/-- The one window block is the whole argument array (offsets zero, the array's own sizes), so reading the
    argument buffer through it gives the buffer's contents. -/
theorem X_eq (m : (ℓ : Loc nD τ sig) → Buf (Elt F) ℓ) (d : Dev nD) :
    X m d = m ((d : Thread nD τ).loc main_arg0) := by
  unfold X
  exact Memref.read_access_unit_zero (Elt F) main_arg0 (funext fun a => Nat.zero_mul _) _ _

/-- The device contributing a quarter of the received half lies across the middle axis: its middle coordinate
    is 1 − y. -/
theorem yc_srcDev (c : Dev nD) (k : ℕ) : ((srcDev c k).val / 2) % 2 = 1 - yc c := by
  have hy := yc_le c
  show ((4 * (k / 2 % 2) + 2 * (1 - yc c) + k % 2) / 2) % 2 = 1 - yc c
  omega

/-- If every device's argument buffer holds its block of `whole` (cut along the rows in two by the middle mesh
    axis), every device's output staging buffer ends holding `whole`. Row r of the output is row r % 2048 of the
    block of a device with middle coordinate r / 2048: the device itself when r / 2048 = y, and otherwise a device
    with middle coordinate 1 − y = r / 2048; that block's row r % 2048 is row 2048 · (r / 2048) + r % 2048 = r of
    `whole`. -/
theorem W_whole (m : (ℓ : Loc nD τ sig) → Buf (Elt F) ℓ) (whole : (⟨2, ![4096, 512]⟩ : Shape).Idx → Elt F .f32)
    (h : ∀ c : Dev nD, m ((c.tc : Thread nD τ).loc main_arg0)
      = Layout.blockN ⟨2, ![2048, 512]⟩ ⟨2, ![4096, 512]⟩ (Layout.meshBlock [2, 2, 2] ![[1], []] c) whole)
    (c : Dev nD) :
    W m c = whole := by
  funext i
  have hi : (i 0).val < 4096 := (i 0).isLt
  have hyc := yc_le c
  unfold W
  split
  · rename_i hy
    rw [X_eq, h c, Cert.AGBlock.block_row]
    refine (congrArg whole ?_).trans (congrArg whole (eq_ix2 i).symm)
    congr 1
    apply Fin.ext
    show 2048 * ((c.val / 2) % 2) + (i 0).val % 2048 = (i 0).val
    unfold yc at hy
    omega
  · rename_i hy
    rw [X_eq, h (srcDev c _), Cert.AGBlock.block_row]
    refine (congrArg whole ?_).trans (congrArg whole (eq_ix2 i).symm)
    congr 1
    apply Fin.ext
    show 2048 * (((srcDev c ((i 0).val % 2048 / 512)).val / 2) % 2) + (i 0).val % 2048 = (i 0).val
    rw [yc_srcDev]
    omega

/-- info: 'Cert.KernelIdeal.AG.X_eq' depends on axioms: [propext, Classical.choice, Quot.sound] -/
#guard_msgs in #print axioms X_eq

/-- info: 'Cert.KernelIdeal.AG.W_whole' depends on axioms: [propext, Classical.choice, Quot.sound] -/
#guard_msgs in #print axioms W_whole

end Cert.KernelIdeal.AG

end
-- ==== Proof.KI.Final.lean ====
/-
  Reading the kernel's two arrays off a run. The launch's post names every window's array after the run; the input
  window's array is never written, and the output window, the whole array written back at the one grid point, ends
  holding what the body left in the output staging buffer. From these the run's frame and its value.
-/
import proofs.«900664_g7700000000000665_dist_ag_v7x_xyz2x2x2_y_m2048_n512_f32_1_alg».proof.Proof.KI.Iface
import proofs.«900664_g7700000000000665_dist_ag_v7x_xyz2x2x2_y_m2048_n512_f32_1_alg».proof.Proof.KI.Whole
import proofs.«900664_g7700000000000665_dist_ag_v7x_xyz2x2x2_y_m2048_n512_f32_1_alg».proof.Proof.Gen.KernelIdeal.Points

noncomputable section

namespace Cert.KernelIdeal.AG

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

/-- Each window's array after the run: what the launch theorem's post names. -/
def finalA (m : (ℓ : Loc nD τ sig) → Buf (Elt F) ℓ) (ρ : Dev nD → PrngReg) (c : Dev nD) (w : Fin cfg0.W) :
    Buf (Elt F) ((cfg0.win w).arr.view.loc (c : Thread nD τ)) := (dats m ρ 0 c).arrAt w cfg0.N

/-- The run's post: every window's array of every device ends at `finalA`. -/
def QC (m : (ℓ : Loc nD τ sig) → Buf (Elt F) ℓ) (ρ : Dev nD → PrngReg) : PUnit × MemSt nD τ sig (Elt F) → Prop :=
  fun r => ∀ c : Dev nD, ∀ w : Fin cfg0.W, r.2.mem ((cfg0.win w).arr.view.loc (c : Thread nD τ)) = finalA m ρ c w

/-- The input window's array is never written: it ends as it was at launch. -/
theorem finalA_x (m : (ℓ : Loc nD τ sig) → Buf (Elt F) ℓ) (ρ : Dev nD → PrngReg) (c : Dev nD) :
    finalA m ρ c (0 : Fin 2) = (s0 m ρ).mem (win0_0.arr.view.loc (c : Thread nD τ)) :=
  (dats (F := F) m ρ 0 c).arrAt_in (0 : Fin 2) rfl _

/-- The output window is the whole array, written back at the one grid point: the array ends holding what the body
    left in the output staging buffer. -/
theorem finalA_out (m : (ℓ : Loc nD τ sig) → Buf (Elt F) ℓ) (ρ : Dev nD → PrngReg) (c : Dev nD) :
    (finalA m ρ c (1 : Fin 2) : Buf (Elt F) ((c : Thread nD τ).loc main_v1)) = W m c := by
  have h1 : finalA m ρ c (1 : Fin 2) = (dats (F := F) m ρ 0 c).arrAt (1 : Fin 2) (t₀.val + 1) :=
    congrArg ((dats (F := F) m ρ 0 c).arrAt (1 : Fin 2)) (cfg0_N : cfg0.N = t₀.val + 1)
  rw [h1, (dats (F := F) m ρ 0 c).arrAt_succ (1 : Fin 2) t₀, flush0_1 t₀, if_pos rfl]
  exact Memref.write_access_unit_zero_univ (Elt F) main_v1 (funext fun a => Nat.zero_mul _) _ _ _

/-- The run's frame: the argument array of every device ends unchanged. -/
theorem frame_of_run (m : (ℓ : Loc nD τ sig) → Buf (Elt F) ℓ) (ρ : Dev nD → PrngReg)
    (hrun : θ_run defs (onTc (τ := τ) (main (F := F))) (s0 m ρ) (QC m ρ)) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run _ _ _).mono (fun r h c => (h c (0 : Fin 2)).trans (finalA_x m ρ c)) hrun

/-- The run's value: the result array of every device ends holding the output staging buffer's final contents,
    and the argument array unchanged. -/
theorem value_of_run (m : (ℓ : Loc nD τ sig) → Buf (Elt F) ℓ) (ρ : Dev nD → PrngReg)
    (hrun : θ_run defs (onTc (τ := τ) (main (F := F))) (s0 m ρ) (QC m ρ)) :
    θ_run defs (onTc (τ := τ) (main (F := F))) ⟨m, fun _ => 0, ρ⟩
      (fun r => ∀ c : Dev nD, r.2.mem ((c.tc : Thread nD τ).loc main_v1) = W m c
        ∧ r.2.mem ((c.tc : Thread nD τ).loc main_arg0) = m ((c.tc : Thread nD τ).loc main_arg0)) :=
  (θ_run _ _ _).mono (fun r h c => ⟨(h c (1 : Fin 2)).trans (finalA_out m ρ c), (h c (0 : Fin 2)).trans (finalA_x m ρ c)⟩) hrun

/-- info: 'Cert.KernelIdeal.AG.finalA_x' depends on axioms: [propext, Classical.choice, Quot.sound] -/
#guard_msgs in #print axioms finalA_x

/-- info: 'Cert.KernelIdeal.AG.finalA_out' depends on axioms: [propext, Classical.choice, Quot.sound] -/
#guard_msgs in #print axioms finalA_out

/-- info: 'Cert.KernelIdeal.AG.frame_of_run' depends on axioms: [propext, Classical.choice, Quot.sound] -/
#guard_msgs in #print axioms frame_of_run

/-- info: 'Cert.KernelIdeal.AG.value_of_run' depends on axioms: [propext, Classical.choice, Quot.sound] -/
#guard_msgs in #print axioms value_of_run

end Cert.KernelIdeal.AG

end
-- ==== Proof.KI.Land.lean ====
/-
  The value steps of the all-gather's landings. Every transfer of the kernel writes whole rows of a device's output
  staging buffer; on the rows it writes, what it wrote is the receiving device's final contents W. Three kinds:
  the local copy of the device's block onto its own half; the transfer of a 64-row chunk of the device's quarter to
  the neighbour across the middle axis, whose received half takes it; and the forward of a 64-row chunk of the
  received half to the same rows of a device with the same middle coordinate, where the final contents agree.
-/
import proofs.«900664_g7700000000000665_dist_ag_v7x_xyz2x2x2_y_m2048_n512_f32_1_alg».proof.Proof.KI.Cells

noncomputable section

namespace Cert.KernelIdeal.AG

open Cert.KernelIdeal Cert.KernelIdeal.Gen
open Idealize.ShloMosaic Idealize.ShloMosaic.TcCoe
open Idealize.ShloMosaic.ValueIdx (ix2 eq_ix2)

variable {F : FTy → Type} [FloatOps F]

/-! ## Row slices of the two staging buffers -/

/-- A slice of the output staging buffer of `n` rows from row `lo`, every column, is that set of rows. -/
theorem set_oslice_rows (c : Dev nD) (off sz : Fin 2 → ℕ) (lo n : ℕ) (h : off = ![lo, 0]) (hsz : sz = ![n, 512])
    (inb : ∀ a, off a + sz a ≤ S4096x512.size a) :
    ((oM.slice (Rect.unit (s := S4096x512) off sz inb) (fun _ => rfl)).view.set : Finset (Idx (oLoc c))) = rowsO c lo n := by
  subst h; subst hsz
  show ((View.whole cc0_stg1_0).slice (Rect.unit (s := S4096x512) ![lo, 0] ![n, 512] inb)).set = _
  rw [View.set_slice_whole]
  ext i
  rw [Rect.mem_set_unit, mem_rowsO]
  constructor
  · intro h; exact h (0 : Fin 2)
  · intro h0 a
    match a with
    | ⟨0, _⟩ => exact h0
    | ⟨1, _⟩ => exact ⟨Nat.zero_le _, by show _ < 0 + 512; rw [Nat.zero_add]; exact (i _).isLt⟩

/-- Where such a slice's index lands in the buffer: `lo` rows further down, the same column. -/
theorem emb_oslice (off sz : Fin 2 → ℕ) (lo : ℕ) (h : off = ![lo, 0]) (inb : ∀ a, off a + sz a ≤ S4096x512.size a)
    (y : (Rect.unit (s := S4096x512) off sz inb).shape.Idx) :
    (((oM.slice (Rect.unit (s := S4096x512) off sz inb) (fun _ => rfl)).view.emb y : S4096x512.Idx) 0).val = lo + (y 0).val
    ∧ (((oM.slice (Rect.unit (s := S4096x512) off sz inb) (fun _ => rfl)).view.emb y : S4096x512.Idx) 1).val = (y 1).val := by
  subst h
  constructor
  · show lo + 1 * (y 0).val = lo + (y 0).val
    rw [Nat.one_mul]
  · show 0 + 1 * (y 1).val = (y 1).val
    rw [Nat.one_mul, Nat.zero_add]

/-- The input staging buffer's 64-row slices, likewise. -/
theorem set_xslice (c : Dev nD) (off : Fin 2 → ℕ) (lo : ℕ) (h : off = ![lo, 0]) (inb : ∀ a, off a + S64x512.size a ≤ S2048x512.size a) :
    ((xM.slice (Rect.unit (s := S2048x512) off S64x512.size inb) (fun _ => rfl)).view.set : Finset (Idx (xLoc c))) = rowsX c lo 64 := by
  subst h
  show ((View.whole cc0_stg0_0).slice (Rect.unit (s := S2048x512) ![lo, 0] S64x512.size inb)).set = _
  rw [View.set_slice_whole]
  ext i
  rw [Rect.mem_set_unit, mem_rowsX]
  constructor
  · intro h; exact h (0 : Fin 2)
  · intro h0 a
    match a with
    | ⟨0, _⟩ => exact h0
    | ⟨1, _⟩ => exact ⟨Nat.zero_le _, by show _ < 0 + 512; rw [Nat.zero_add]; exact (i _).isLt⟩

/-- Where an index of a row slice of the input staging buffer lands: `lo` rows further down, the same column. -/
theorem emb_xslice (off sz : Fin 2 → ℕ) (lo : ℕ) (h : off = ![lo, 0]) (inb : ∀ a, off a + sz a ≤ S2048x512.size a)
    (y : (Rect.unit (s := S2048x512) off sz inb).shape.Idx) :
    (((xM.slice (Rect.unit (s := S2048x512) off sz inb) (fun _ => rfl)).view.emb y : S2048x512.Idx) 0).val = lo + (y 0).val
    ∧ (((xM.slice (Rect.unit (s := S2048x512) off sz inb) (fun _ => rfl)).view.emb y : S2048x512.Idx) 1).val = (y 1).val := by
  subst h
  constructor
  · show lo + 1 * (y 0).val = lo + (y 0).val
    rw [Nat.one_mul]
  · show 0 + 1 * (y 1).val = (y 1).val
    rw [Nat.one_mul, Nat.zero_add]

/-- A payload written through a row slice of the output staging buffer: if the payload at each of the slice's
    indices is `G` at the element that index lands on, then on the slice's rows the buffer holds `G`. -/
theorem land_rows (p : Dev nD) (off sz : Fin 2 → ℕ) (lo n : ℕ) (h : off = ![lo, 0]) (hsz : sz = ![n, 512])
    (inb : ∀ a, off a + sz a ≤ S4096x512.size a) (fd : Buf (Elt F) (oLoc p))
    (w : (Rect.unit (s := S4096x512) off sz inb).shape.Idx → Elt F .f32) (G : Buf (Elt F) (oLoc p))
    (hw : ∀ y, w y = G ((oM.slice (Rect.unit (s := S4096x512) off sz inb) (fun _ => rfl)).view.emb y)) :
    ∀ idx ∈ rowsO p lo n,
      ((oM.slice (Rect.unit (s := S4096x512) off sz inb) (fun _ => rfl)).view.write (Elt F) fd w Finset.univ) idx = G idx := by
  intro idx hidx
  rw [← set_oslice_rows p off sz lo n h hsz inb] at hidx
  obtain ⟨y, rfl⟩ := View.exists_emb_of_mem_set _ hidx
  rw [View.write_emb_of_mem _ _ (Finset.mem_univ y), cast_eq]
  exact hw y

/-- The final contents at a row of the device's own half: the device's block at that row of the half. -/
theorem W_own (m : (ℓ : Loc nD τ sig) → Buf (Elt F) ℓ) (c : Dev nD) (idx : S4096x512.Idx) (h : (idx 0).val / 2048 = yc c) :
    W m c idx = X m c (ix2 (⟨(idx 0).val % 2048, Nat.mod_lt _ (by decide)⟩ : Fin 2048) (idx 1)) := by
  unfold W; rw [if_pos h]
/-- On a row of the half it receives: the contributing device's block at that row of the half. -/
theorem W_recv (m : (ℓ : Loc nD τ sig) → Buf (Elt F) ℓ) (c : Dev nD) (idx : S4096x512.Idx) (h : (idx 0).val / 2048 ≠ yc c) :
    W m c idx = X m (srcDev c ((idx 0).val % 2048 / 512)) (ix2 (⟨(idx 0).val % 2048, Nat.mod_lt _ (by decide)⟩ : Fin 2048) (idx 1)) := by
  unfold W; rw [if_neg h]

/-- A block's element is named by its device and its two coordinates. -/
theorem X_congr (m : (ℓ : Loc nD τ sig) → Buf (Elt F) ℓ) (d d' : Dev nD) (hd : d = d') (z : S2048x512.Idx) (r : Fin 2048) (q : Fin 512)
    (h0 : (z 0).val = r.val) (h1 : (z 1).val = q.val) : X m d z = X m d' (ix2 r q) := by
  subst hd
  congr 1
  funext a
  match a with
  | ⟨0, _⟩ => exact Fin.ext h0
  | ⟨1, _⟩ => exact Fin.ext h1

/-! ## The local copy -/

/-- The local copy's destination is the device's own half. -/
theorem set_copy (c : Dev nD) :
    ((oM.slice (Rect.unit (s := S4096x512) (k0_off1 c) S2048x512.size (k0_off1_inb c)) (fun _ => rfl)).view.set : Finset (Idx (oLoc c)))
      = rowsO c (ownBase c) 2048 :=
  set_oslice_rows c _ _ _ _ (off1_row c) rfl _

/-- The local copy writes the device's block onto its own half, which ends holding that block. -/
theorem land_copy (m : (ℓ : Loc nD τ sig) → Buf (Elt F) ℓ) (c : Dev nD) (fd : Buf (Elt F) (oLoc c)) : ∀ idx ∈ rowsO c (ownBase c) 2048,
    ((oM.slice (Rect.unit (s := S4096x512) (k0_off1 c) S2048x512.size (k0_off1_inb c)) (fun _ => rfl)).view.write (Elt F) fd
      ((xM : Memref sig .tc .vmem S2048x512 .f32).view.read (Elt F) (X m c)) Finset.univ) idx = W m c idx := by
  refine land_rows c (k0_off1 c) S2048x512.size (ownBase c) 2048 (off1_row c) rfl (k0_off1_inb c) fd _ (W m c) ?_
  intro y
  obtain ⟨e0, e1⟩ := emb_oslice (k0_off1 c) S2048x512.size (ownBase c) (off1_row c) (k0_off1_inb c) y
  have hy0 : (y 0).val < 2048 := (y 0).isLt
  have hyc := yc_le c
  unfold ownBase at e0
  rw [W_own m c _ (by omega)]
  show X m c y = _
  exact X_congr m c c rfl _ _ _ (by show (y 0).val = (_ : ℕ) % 2048; omega) (by show (y 1).val = (_ : ℕ); omega)

/-! ## The transfer to the neighbour across the middle axis -/

/-- Seen from the neighbour across the middle axis, the device contributing the quarter 2·x + z is the device itself. -/
theorem srcDev_yP (c : Dev nD) : srcDev (yP c) (kM c) = c := by
  apply Fin.ext
  show 4 * (kM c / 2 % 2) + 2 * (1 - yc (yP c)) + kM c % 2 = c.val
  rw [yc_yP]
  have h1 := val_eq c; have h2 := xc_le c; have h3 := yc_le c; have h4 := zc_le c
  unfold kM
  omega

/-- Chunk `i` of the device's quarter of its block lands in the neighbour's received half, on rows where the
    neighbour's final contents are those rows of the device's block. -/
theorem land_y (m : (ℓ : Loc nD τ sig) → Buf (Elt F) ℓ) (c : Dev nD) (i : Fin 8) (fd : Buf (Elt F) (oLoc (yP c))) :
    ∀ idx ∈ rowsO (yP c) (recvBase (yP c) + 64 * (8 * kM c + i.val)) 64,
      ((oM.slice (Rect.unit (s := S4096x512) (k0_off2 c (BitVec.ofNat 32 (64 * i.val))) S64x512.size (k0_off2_inb c i)) (fun _ => rfl)).view.write (Elt F) fd
        ((xM.slice (Rect.unit (s := S2048x512) (k0_off3 c (BitVec.ofNat 32 (64 * i.val))) S64x512.size (k0_off3_inb c i)) (fun _ => rfl)).view.read (Elt F) (X m c))
        Finset.univ) idx
      = W m (yP c) idx := by
  refine land_rows (yP c) (k0_off2 c (BitVec.ofNat 32 (64 * i.val))) S64x512.size _ 64 (off2_row c i) rfl (k0_off2_inb c i) fd _ (W m (yP c)) ?_
  intro y
  obtain ⟨e0, e1⟩ := emb_oslice _ S64x512.size _ (off2_row c i) (k0_off2_inb c i) y
  obtain ⟨s0, s1⟩ := emb_xslice _ S64x512.size _ (off3_row c i) (k0_off3_inb c i) y
  have hy0 : (y 0).val < 64 := (y 0).isLt
  have hi := i.isLt
  have hyc := yc_le c
  have hk := kM_lt c
  rw [recvBase_yP] at e0
  unfold ownBase at e0
  rw [W_recv m (yP c) _ (by rw [yc_yP]; omega)]
  rw [View.read_apply, cast_eq]
  refine X_congr m c _ ?_ _ _ _ ?_ ?_
  · have hq : ∀ r : ℕ, r = 2048 * yc c + 64 * (8 * kM c + i.val) + (y 0).val → r % 2048 / 512 = kM c := by
      intro r hr; omega
    rw [hq _ e0]; exact (srcDev_yP c).symm
  · show (_ : ℕ) = (_ : ℕ) % 2048; omega
  · show (_ : ℕ) = (_ : ℕ); omega

/-! ## The forwards between devices on the same side of the middle axis -/

/-- Which device contributes a quarter of the received half depends on the receiver only through its middle coordinate. -/
theorem srcDev_congr (c p : Dev nD) (hy : yc p = yc c) (k : ℕ) : srcDev p k = srcDev c k := by
  apply Fin.ext
  show 4 * (k / 2 % 2) + 2 * (1 - yc p) + k % 2 = 4 * (k / 2 % 2) + 2 * (1 - yc c) + k % 2
  rw [hy]

/-- On the received half the final contents depend on the device only through its middle coordinate. -/
theorem W_recv_congr (m : (ℓ : Loc nD τ sig) → Buf (Elt F) ℓ) (c p : Dev nD) (hy : yc p = yc c) (idx : S4096x512.Idx) (h : (idx 0).val / 2048 ≠ yc c) :
    W m p idx = W m c idx := by
  rw [W_recv m p idx (by rw [hy]; exact h), W_recv m c idx h, srcDev_congr c p hy]

/-- A chunk of the received half forwarded to the same rows of a device with the same middle coordinate lands on
    rows where that device's final contents are the sender's. -/
theorem land_fwd (m : (ℓ : Loc nD τ sig) → Buf (Elt F) ℓ) (c p : Dev nD) (hy : yc p = yc c) (off : Fin 2 → ℕ) (lo : ℕ) (hoff : off = ![lo, 0])
    (h1 : recvBase c ≤ lo) (h2 : lo + 64 ≤ recvBase c + 2048)
    (inb : ∀ a, off a + S64x512.size a ≤ S4096x512.size a) (fd : Buf (Elt F) (oLoc p)) :
    ∀ idx ∈ rowsO p lo 64,
      ((oM.slice (Rect.unit (s := S4096x512) off S64x512.size inb) (fun _ => rfl)).view.write (Elt F) fd
        ((oM.slice (Rect.unit (s := S4096x512) off S64x512.size inb) (fun _ => rfl)).view.read (Elt F) (W m c)) Finset.univ) idx
      = W m p idx := by
  refine land_rows p off S64x512.size lo 64 hoff rfl inb fd _ (W m p) ?_
  intro y
  obtain ⟨e0, e1⟩ := emb_oslice off S64x512.size lo hoff inb y
  have hy0 : (y 0).val < 64 := (y 0).isLt
  have hyc := yc_le c
  unfold recvBase at h1 h2
  rw [View.read_apply, cast_eq]
  exact (W_recv_congr m c p hy _ (by omega)).symm

/-- info: 'Cert.KernelIdeal.AG.set_copy' depends on axioms: [propext, Classical.choice, Quot.sound] -/
#guard_msgs in #print axioms set_copy

/-- info: 'Cert.KernelIdeal.AG.set_xslice' depends on axioms: [propext, Classical.choice, Quot.sound] -/
#guard_msgs in #print axioms set_xslice

/-- info: 'Cert.KernelIdeal.AG.land_copy' depends on axioms: [propext, Classical.choice, Quot.sound] -/
#guard_msgs in #print axioms land_copy

/-- info: 'Cert.KernelIdeal.AG.land_y' depends on axioms: [propext, Classical.choice, Quot.sound] -/
#guard_msgs in #print axioms land_y

/-- info: 'Cert.KernelIdeal.AG.W_recv_congr' depends on axioms: [propext, Classical.choice, Quot.sound] -/
#guard_msgs in #print axioms W_recv_congr

/-- info: 'Cert.KernelIdeal.AG.land_fwd' depends on axioms: [propext, Classical.choice, Quot.sound] -/
#guard_msgs in #print axioms land_fwd

end Cert.KernelIdeal.AG

end
-- ==== Proof.KI.Steps.lean ====
/-
  One rule per kind of step of a device's body, each stated over the device's own resources: a signal to a neighbour's
  barrier cell, the wait for the three neighbours, the local copy, the five kinds of transfer to a neighbour, and the
  wait on a DMA cell, after which that cell (one round, one duty) is closed at once.
-/
import proofs.«900664_g7700000000000665_dist_ag_v7x_xyz2x2x2_y_m2048_n512_f32_1_alg».proof.Proof.KI.Iface
import proofs.«900664_g7700000000000665_dist_ag_v7x_xyz2x2x2_y_m2048_n512_f32_1_alg».proof.Proof.KI.Land

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records: any cell's invariant and reached mark -/

theorem inv_bar (K : Dev nD × Fin 66 → ℕ) (c : Dev nD) : records m K ⊢ cellInv ER (agRd m) (K (c, 0)) (barCell c) := by
  unfold records
  exact (BI.sep_and.trans and_elimL).trans (bigSep_elim (Finset.mem_univ ((c, 0) : Dev nD × Fin 66)))
theorem inv_dma (K : Dev nD × Fin 66 → ℕ) (c : Dev nD) (n : DmaSem sig) (h : 2 ≤ n.val) :
    records m K ⊢ cellInv ER (agRd m) (K (c, ⟨n.val - 1, by have := n.isLt; have : n.val < 67 := n.isLt; omega⟩)) (dCell c n) := by
  have hk : kcell ((c, ⟨n.val - 1, by have : n.val < 67 := n.isLt; omega⟩) : Dev nD × Fin 66) = dCell c n := by
    refine Prod.ext rfl ?_
    show (if h : n.val - 1 = 0 then SemLoc.reg barS else SemLoc.dma ⟨n.val - 1 + 1, _⟩) = SemLoc.dma n
    rw [dif_neg (by omega)]
    congr 1
    exact Fin.ext (by show n.val - 1 + 1 = n.val; omega)
  unfold records
  refine (BI.sep_and.trans and_elimL).trans ((bigSep_elim (Finset.mem_univ ((c, ⟨n.val - 1, by have : n.val < 67 := n.isLt; omega⟩) : Dev nD × Fin 66))).trans ?_)
  exact Entails.of_eq (congrArg (cellInv ER (agRd m) (K (c, ⟨n.val - 1, by have : n.val < 67 := n.isLt; omega⟩))) hk)
theorem reached_bar (K : Dev nD × Fin 66 → ℕ) (c : Dev nD) : records m K ⊢ reached ER (barCell c) 0 := by
  unfold records
  exact (BI.sep_and.trans and_elimR).trans (bigSep_elim (Finset.mem_univ ((c, 0) : Dev nD × Fin 66)))
theorem reached_dma (K : Dev nD × Fin 66 → ℕ) (c : Dev nD) (n : DmaSem sig) (h : 2 ≤ n.val) : records m K ⊢ reached ER (dCell c n) 0 := by
  have hk : kcell ((c, ⟨n.val - 1, by have : n.val < 67 := n.isLt; omega⟩) : Dev nD × Fin 66) = dCell c n := by
    refine Prod.ext rfl ?_
    show (if h : n.val - 1 = 0 then SemLoc.reg barS else SemLoc.dma ⟨n.val - 1 + 1, _⟩) = SemLoc.dma n
    rw [dif_neg (by omega)]
    congr 1
    exact Fin.ext (by show n.val - 1 + 1 = n.val; omega)
  unfold records
  refine (BI.sep_and.trans and_elimR).trans ((bigSep_elim (Finset.mem_univ ((c, ⟨n.val - 1, by have : n.val < 67 := n.isLt; omega⟩) : Dev nD × Fin 66))).trans ?_)
  exact Entails.of_eq (congrArg (fun g => reached ER g 0) hk)

/-! ## What each kind of DMA cell hands back -/

theorem dmaPay_copy (c : Dev nD) : dmaPay m c (copyS : DmaSem sig).val
    = iprop((oLoc c ↦[rowsO c (ownBase c) 2048]{fullShare} W m c) ∗ (xLoc c ↦[Finset.univ]{fullShare.left} X m c)) := by
  show dmaPay m c 2 = _
  unfold dmaPay
  exact if_pos rfl
theorem dmaPay_ySend (c : Dev nD) (i : Fin 8) : dmaPay m c (ySend i).val = (xLoc c ↦[rowsX c (64 * (8 * kM c + i.val)) 64]{fullShare.right} X m c : sProp 𝕄) := by
  have hi := i.isLt
  show dmaPay m c (3 + i.val) = _
  unfold dmaPay
  rw [if_neg (by omega), if_pos (by omega), Nat.add_sub_cancel_left]
theorem dmaPay_yRecv (c : Dev nD) (i : Fin 8) : dmaPay m c (yRecv i).val = chunk m c (8 * kM c + i.val) fullShare := by
  have hi := i.isLt
  show dmaPay m c (11 + i.val) = _
  unfold dmaPay
  rw [if_neg (by omega), if_neg (by omega), if_pos (by omega), Nat.add_sub_cancel_left]
theorem dmaPay_x2Send (c : Dev nD) (i : Fin 8) : dmaPay m c (x2Send i).val = chunk m c (8 * kM c + i.val) fullShare.left := by
  have hi := i.isLt
  show dmaPay m c (19 + i.val) = _
  unfold dmaPay
  rw [if_neg (by omega), if_neg (by omega), if_neg (by omega), if_pos (by omega), Nat.add_sub_cancel_left]
theorem dmaPay_x2Recv (c : Dev nD) (i : Fin 8) : dmaPay m c (x2Recv i).val = chunk m c (8 * kX c + i.val) fullShare := by
  have hi := i.isLt
  show dmaPay m c (27 + i.val) = _
  unfold dmaPay
  rw [if_neg (by omega), if_neg (by omega), if_neg (by omega), if_neg (by omega), if_pos (by omega), Nat.add_sub_cancel_left]
theorem dmaPay_z2Send (c : Dev nD) (i : Fin 8) : dmaPay m c (z2Send i).val = chunk m c (8 * kM c + i.val) fullShare.right := by
  have hi := i.isLt
  show dmaPay m c (35 + i.val) = _
  unfold dmaPay
  rw [if_neg (by omega), if_neg (by omega), if_neg (by omega), if_neg (by omega), if_neg (by omega), if_pos (by omega), Nat.add_sub_cancel_left]
theorem dmaPay_z2Recv (c : Dev nD) (i : Fin 8) : dmaPay m c (z2Recv i).val = chunk m c (8 * kZ c + i.val) fullShare := by
  have hi := i.isLt
  show dmaPay m c (43 + i.val) = _
  unfold dmaPay
  rw [if_neg (by omega), if_neg (by omega), if_neg (by omega), if_neg (by omega), if_neg (by omega), if_neg (by omega), if_pos (by omega), Nat.add_sub_cancel_left]
theorem dmaPay_x3Send (c : Dev nD) (j : Fin 4) : dmaPay m c (x3Send j).val = chunk m c (8 * kZ c + j.val) fullShare := by
  have hi := j.isLt
  show dmaPay m c (51 + j.val) = _
  unfold dmaPay
  rw [if_neg (by omega), if_neg (by omega), if_neg (by omega), if_neg (by omega), if_neg (by omega), if_neg (by omega), if_neg (by omega), if_pos (by omega), Nat.add_sub_cancel_left]
theorem dmaPay_x3Recv (c : Dev nD) (j : Fin 4) : dmaPay m c (x3Recv j).val = chunk m c (8 * kD c + j.val) fullShare := by
  have hi := j.isLt
  show dmaPay m c (55 + j.val) = _
  unfold dmaPay
  rw [if_neg (by omega), if_neg (by omega), if_neg (by omega), if_neg (by omega), if_neg (by omega), if_neg (by omega), if_neg (by omega), if_neg (by omega), if_pos (by omega), Nat.add_sub_cancel_left]
theorem dmaPay_z3Send (c : Dev nD) (j : Fin 4) : dmaPay m c (z3Send j).val = chunk m c (8 * kX c + 4 + j.val) fullShare := by
  have hi := j.isLt
  show dmaPay m c (59 + j.val) = _
  unfold dmaPay
  rw [if_neg (by omega), if_neg (by omega), if_neg (by omega), if_neg (by omega), if_neg (by omega), if_neg (by omega), if_neg (by omega), if_neg (by omega), if_neg (by omega), if_pos (by omega), Nat.add_sub_cancel_left]
theorem dmaPay_z3Recv (c : Dev nD) (j : Fin 4) : dmaPay m c (z3Recv j).val = chunk m c (8 * kD c + 4 + j.val) fullShare := by
  have hi := j.isLt
  show dmaPay m c (63 + j.val) = _
  unfold dmaPay
  rw [if_neg (by omega), if_neg (by omega), if_neg (by omega), if_neg (by omega), if_neg (by omega), if_neg (by omega), if_neg (by omega), if_neg (by omega), if_neg (by omega), if_neg (by omega), Nat.add_sub_cancel_left]

/-- What a device hands each neighbour with its barrier unit: its own chunks that this neighbour will write. -/
theorem barPay_y (c : Dev nD) : barPay (F := F) (yP c) 0 = bigSep (Finset.univ : Finset (Fin 8)) fun i => someChunk (F := F) c (8 * kM c + i.val) := by
  unfold barPay
  rw [if_pos rfl, yP_yP, kM_yP]
theorem barPay_x (c : Dev nD) : barPay (F := F) (xP c) 1
    = iprop((bigSep (Finset.univ : Finset (Fin 8)) fun i => someChunk (F := F) c (8 * kX c + i.val)) ∗ bigSep (Finset.univ : Finset (Fin 4)) fun j => someChunk (F := F) c (8 * kD c + j.val)) := by
  unfold barPay
  rw [if_neg (by decide), if_pos rfl, xP_xP, kM_xP, kZ_xP]
theorem barPay_z (c : Dev nD) : barPay (F := F) (zP c) 2
    = iprop((bigSep (Finset.univ : Finset (Fin 8)) fun i => someChunk (F := F) c (8 * kZ c + i.val)) ∗ bigSep (Finset.univ : Finset (Fin 4)) fun j => someChunk (F := F) c (8 * kD c + 4 + j.val)) := by
  unfold barPay
  rw [if_neg (by decide), if_neg (by decide), zP_zP, kM_zP, kX_zP]

/-! ## The steps -/

/-- A signal of one unit to neighbour `p`'s barrier cell, paying its duty `d` with the chunks `p` will write. -/
theorem wp_sig (K : Dev nD × Fin 66 → ℕ) (c : Dev nD) (d : Fin 3) (p : Dev nD) (O : CellTallies nD τ sig Unit) (W : Waits sig Unit) {k' : ℕ} (hk' : k' = 1)
    (hr : τ.routes (c : Thread nD τ) (p : Thread nD τ) = true)
    {α : Type} {Q : α → sProp 𝕄} {k : PUnit → Prog (TpuEff nD τ sig (Elt F) Λ₀ .tc) α} :
    iprop(records m K ∗ owes (c : Thread nD τ) (O + tallyAt (barCell p) () 1) W ∗ dutyTok ER (barCell p) 0 d ∗ barPay (F := F) p d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS k') k) Q) := by
  subst hk'
  iintro ⟨#Hrec, HO, Htok, Hpay⟩ Hk
  iapply (Rounds.wp_signal 𝒱₀ ER (agRd m) (c : Thread nD τ) none (dst := (p : Thread nD τ)) (κ := K (p, 0)) (d := d)
      (by rw [duties_bar]; exact Finset.mem_univ _) (amount_bar m p d) () O rfl (hr := hr)) $$ [HO Htok Hpay]
  · isplitr; · iapply (inv_bar m K p); iexact Hrec
    isplitl [HO]; · iexact HO
    isplitl [Htok]; · iexact Htok
    isplitl [Hpay]; · rw [payload_bar]; iexact Hpay
    iapply (reached_bar m K p); iexact Hrec
  iexact Hk

/-- The wait for the three units of the barrier cell: the three neighbours' chunks come with it. -/
theorem wp_barwait (K : Dev nD × Fin 66 → ℕ) (c : Dev nD) (O : CellTallies nD τ sig Unit) (W : Waits sig Unit)
    {w : TpuEff nD τ sig (Elt F) Λ₀ .tc PUnit} (hw : ∀ Kc : PUnit → sProp 𝕄, wpE (defs₀ (F := F)) 𝒱₀ (c : Thread nD τ) none Set.univ w Kc = waitSpec (c : Thread nD τ) Set.univ (.reg barS) 3 Kc)
    {α : Type} {Q : α → sProp 𝕄} {k : PUnit → Prog (TpuEff nD τ sig (Elt F) Λ₀ .tc) α} :
    iprop(records m K ∗ cred (tallyAt (barCell c) () 3) ∗ owes (c : Thread nD τ) O W ∗ MayWait (c : Thread nD τ) (.reg barS) () O ∗ atPos ER (barCell c) 0 ∅ 0)
      ⊢ iprop(((owes (c : Thread nD τ) O (insert (SemLoc.reg barS, ()) W) ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hmw, Hat⟩ Hk
  iapply (Rounds.wp_wait_rest_token 𝒱₀ ER (agRd m) (c : Thread nD τ) none (κ := K (c, 0))
      hw (Set.mem_univ _) () (O := O) (W := W) (R := 0) (m := 0) (T := ∅) (by rw [expect_bar])) $$ [Hc HO Hmw Hat]
  · isplitr; · iapply (inv_bar m K c); iexact Hrec
    isplitl [Hc]; · iexact Hc
    isplitl [HO]; · iexact HO
    isplitl [Hmw]; · iexact Hmw
    iexact Hat
  iintro ⟨HO, -, -, Hpay⟩
  ihave Hp := (Entails.of_eq (rest_bar m c)) $$ Hpay
  iapply Hk
  isplitl [HO]; · iexact HO
  iexact Hp

/-- The local copy of the device's block into its own half of the output buffer. -/
theorem wp_ysend (K : Dev nD × Fin 66 → ℕ) (c : Dev nD) (i : Fin 8) (p : Dev nD) (hp : p = yP c) (O : CellTallies nD τ sig Unit) (W : Waits sig Unit) (fd : Buf (Elt F) (oLoc (yP c)))
    {hsc : (oM.slice (Rect.unit (s := S4096x512) (k0_off2 c (BitVec.ofNat 32 (64 * i.val))) S64x512.size (k0_off2_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ (xLoc c ↦[rowsX c (64 * (8 * kM c + i.val)) 64]{fullShare.right} X m c)
        ∗ (oLoc (yP c) ↦[rowsO (yP c) (recvBase (yP c) + 64 * (8 * kM c + i.val)) 64]{fullShare} fd)
        ∗ owes (c : Thread nD τ) (O + tallyAt (dCell (yP c) (yRecv i)) () N64) W
        ∗ dutyTok ER (dCell c (ySend i)) 0 0 ∗ dutyTok ER (dCell (yP c) (yRecv i)) 0 0)
      ⊢ iprop(((cred (tallyAt (dCell c (ySend i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S2048x512) (k0_off3 c (BitVec.ofNat 32 (64 * i.val))) S64x512.size (k0_off3_inb c i)) (fun _ => rfl))
                (.remote (Dev.tc p : Thread nD τ) (oM.slice (Rect.unit (s := S4096x512) (k0_off2 c (BitVec.ofNat 32 (64 * i.val))) S64x512.size (k0_off2_inb c i)) (fun _ => rfl)) (.dma (ySend i)) hsc)
                (.dma (yRecv i)) hsrc hdst hsem) k) Q) := by
  subst hp
  have hi := i.isLt
  have key := Rounds.wp_send_pointsTo 𝒱₀ ER (agRd m) (c : Thread nD τ) none (defs := defs₀ (F := F)) (Γ := .empty)
      (sp := .vmem) (sp' := .vmem) (s := S64x512) (e := .f32)
      (c' := (Dev.tc (yP c) : Thread nD τ))
      (src := (xM.slice (Rect.unit (s := S2048x512) (k0_off3 c (BitVec.ofNat 32 (64 * i.val))) S64x512.size (k0_off3_inb c i)) (fun _ => rfl) : Memref sig .tc .vmem S64x512 .f32))
      (dst := (oM.slice (Rect.unit (s := S4096x512) (k0_off2 c (BitVec.ofNat 32 (64 * i.val))) S64x512.size (k0_off2_inb c i)) (fun _ => rfl) : Memref sig .tc .vmem S64x512 .f32))
      (hsc := hsc) (sS := .dma (ySend i)) (sem := .dma (yRecv i)) (hsrc := hsrc) (hdst := hdst) (hsem := hsem) (k := k) (Q := Q)
      (q := fullShare.right) (fs := X m c) (fd := fd)
      (κ₁ := K (c, ⟨(ySend i).val - 1, by show 3 + i.val - 1 < 66; omega⟩)) (κ₂ := K (yP c, ⟨(yRecv i).val - 1, by show 11 + i.val - 1 < 66; omega⟩))
      (r₁ := 0) (r₂ := 0) (d₁ := 0) (d₂ := 0)
      (by rw [duties_dma m c (ySend i) (by show 2 ≤ 3 + i.val; omega)]; exact Finset.mem_singleton_self _)
      (by rw [duties_dma m (yP c) (yRecv i) (by show 2 ≤ 11 + i.val; omega)]; exact Finset.mem_singleton_self _)
      () () N64 (by unfold N64; rfl)
      (amount_dma m c (ySend i) (by show 3 + i.val ≠ 2; omega) 0) (amount_dma m (yP c) (yRecv i) (by show 11 + i.val ≠ 2; omega) 0)
      (O₀ := O + tallyAt (dCell (yP c) (yRecv i)) () N64) O rfl (W := W) (Es := Set.univ)
      (by rw [payload_dma, dmaPay_ySend, set_xslice c _ _ (off3_row c i) (k0_off3_inb c i)])
      (by rw [payload_dma, dmaPay_yRecv, kM_yP, set_oslice (yP c) _ _ (off2_row c i) (k0_off2_inb c i)]
          unfold chunk
          exact Entails.of_eq (pointsTo_congr (land_y m c i fd)))

  refine BIBase.Entails.trans ?_ key
  rw [set_xslice c _ _ (off3_row c i) (k0_off3_inb c i), set_oslice (yP c) _ _ (off2_row c i) (k0_off2_inb c i)]
  iintro ⟨#Hrec, Hsrc, Hdst, HO, Htok₁, Htok₂⟩
  isplitr; · iapply (inv_dma m K c (ySend i) (by show 2 ≤ 3 + i.val; omega)); iexact Hrec
  isplitr; · iapply (inv_dma m K (yP c) (yRecv i) (by show 2 ≤ 11 + i.val; omega)); iexact Hrec
  isplitl [Hsrc]; · iexact Hsrc
  isplitl [Hdst]; · iexact Hdst
  isplitl [HO]; · iexact HO
  isplitl [Htok₁]; · iexact Htok₁
  isplitr; · iapply (reached_dma m K c (ySend i) (by show 2 ≤ 3 + i.val; omega)); iexact Hrec
  isplitl [Htok₂]; · iexact Htok₂
  iapply (reached_dma m K (yP c) (yRecv i) (by show 2 ≤ 11 + i.val; omega)); iexact Hrec

theorem wp_x2send (K : Dev nD × Fin 66 → ℕ) (c : Dev nD) (i : Fin 8) (p : Dev nD) (hp : p = xP c) (O : CellTallies nD τ sig Unit) (W : Waits sig Unit) (fd : Buf (Elt F) (oLoc (xP c)))
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.left
        ∗ (oLoc (xP c) ↦[rowsO (xP c) (recvBase (xP c) + 64 * (8 * kM c + i.val)) 64]{fullShare} fd)
        ∗ owes (c : Thread nD τ) (O + tallyAt (dCell (xP c) (x2Recv i)) () N64) W
        ∗ dutyTok ER (dCell c (x2Send i)) 0 0 ∗ dutyTok ER (dCell (xP c) (x2Recv i)) 0 0)
      ⊢ iprop(((cred (tallyAt (dCell c (x2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (x2Send i)) hsc)
                (.dma (x2Recv i)) hsrc hdst hsem) k) Q) := by
  subst hp
  have hi := i.isLt
  have hk := kM_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (xP c) : Thread nD τ))
      (src := (oM.slice (Rect.unit (s := S4096x512) (k0_off4 c (BitVec.ofNat 32 (64 * i.val))) S64x512.size (k0_off4_inb c i)) (fun _ => rfl) : Memref sig .tc .vmem S64x512 .f32))
      (dst := (oM.slice (Rect.unit (s := S4096x512) (k0_off4 c (BitVec.ofNat 32 (64 * i.val))) S64x512.size (k0_off4_inb c i)) (fun _ => rfl) : Memref sig .tc .vmem S64x512 .f32))
      (hsc := hsc) (sS := .dma (x2Send i)) (sem := .dma (x2Recv i)) (hsrc := hsrc) (hdst := hdst) (hsem := hsem) (k := k) (Q := Q)
      (q := fullShare.left) (fs := AG.W m c) (fd := fd)
      (κ₁ := K (c, ⟨(x2Send i).val - 1, by show 19 + i.val - 1 < 66; omega⟩)) (κ₂ := K (xP c, ⟨(x2Recv i).val - 1, by show 27 + i.val - 1 < 66; omega⟩))
      (r₁ := 0) (r₂ := 0) (d₁ := 0) (d₂ := 0)
      (by rw [duties_dma m c (x2Send i) (by show 2 ≤ 19 + i.val; omega)]; exact Finset.mem_singleton_self _)
      (by rw [duties_dma m (xP c) (x2Recv i) (by show 2 ≤ 27 + i.val; omega)]; exact Finset.mem_singleton_self _)
      () () N64 (by unfold N64; rfl)
      (amount_dma m c (x2Send i) (by show 19 + i.val ≠ 2; omega) 0) (amount_dma m (xP c) (x2Recv i) (by show 27 + i.val ≠ 2; omega) 0)
      (O₀ := O + tallyAt (dCell (xP c) (x2Recv i)) () N64) O rfl (W := W) (Es := Set.univ)
      (by rw [payload_dma, dmaPay_x2Send]; unfold chunk; rw [set_oslice c _ _ (off4_row c i) (k0_off4_inb c i)])
      (by rw [payload_dma, dmaPay_x2Recv, kX_xP]; unfold chunk
          rw [recvBase_xP, set_oslice (xP c) _ _ (off4_row c i) (k0_off4_inb c i)]
          exact Entails.of_eq (pointsTo_congr (land_fwd m c (xP c) (yc_xP c) _ _ (off4_row c i) (by omega) (by omega) (k0_off4_inb c i) fd)))
  unfold chunk
  rw [recvBase_xP, ← set_oslice c _ _ (off4_row c i) (k0_off4_inb c i), ← set_oslice (xP c) _ _ (off4_row c i) (k0_off4_inb c i)]
  refine BIBase.Entails.trans ?_ key
  iintro ⟨#Hrec, Hsrc, Hdst, HO, Htok₁, Htok₂⟩
  isplitr; · iapply (inv_dma m K c (x2Send i) (by show 2 ≤ 19 + i.val; omega)); iexact Hrec
  isplitr; · iapply (inv_dma m K (xP c) (x2Recv i) (by show 2 ≤ 27 + i.val; omega)); iexact Hrec
  isplitl [Hsrc]; · iexact Hsrc
  isplitl [Hdst]; · iexact Hdst
  isplitl [HO]; · iexact HO
  isplitl [Htok₁]; · iexact Htok₁
  isplitr; · iapply (reached_dma m K c (x2Send i) (by show 2 ≤ 19 + i.val; omega)); iexact Hrec
  isplitl [Htok₂]; · iexact Htok₂
  iapply (reached_dma m K (xP c) (x2Recv i) (by show 2 ≤ 27 + i.val; omega)); iexact Hrec

theorem wp_z2send (K : Dev nD × Fin 66 → ℕ) (c : Dev nD) (i : Fin 8) (p : Dev nD) (hp : p = zP c) (O : CellTallies nD τ sig Unit) (W : Waits sig Unit) (fd : Buf (Elt F) (oLoc (zP c)))
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.right
        ∗ (oLoc (zP c) ↦[rowsO (zP c) (recvBase (zP c) + 64 * (8 * kM c + i.val)) 64]{fullShare} fd)
        ∗ owes (c : Thread nD τ) (O + tallyAt (dCell (zP c) (z2Recv i)) () N64) W
        ∗ dutyTok ER (dCell c (z2Send i)) 0 0 ∗ dutyTok ER (dCell (zP c) (z2Recv i)) 0 0)
      ⊢ iprop(((cred (tallyAt (dCell c (z2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (z2Send i)) hsc)
                (.dma (z2Recv i)) hsrc hdst hsem) k) Q) := by
  subst hp
  have hi := i.isLt
  have hk := kM_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (zP c) : Thread nD τ))
      (src := (oM.slice (Rect.unit (s := S4096x512) (k0_off4 c (BitVec.ofNat 32 (64 * i.val))) S64x512.size (k0_off4_inb c i)) (fun _ => rfl) : Memref sig .tc .vmem S64x512 .f32))
      (dst := (oM.slice (Rect.unit (s := S4096x512) (k0_off4 c (BitVec.ofNat 32 (64 * i.val))) S64x512.size (k0_off4_inb c i)) (fun _ => rfl) : Memref sig .tc .vmem S64x512 .f32))
      (hsc := hsc) (sS := .dma (z2Send i)) (sem := .dma (z2Recv i)) (hsrc := hsrc) (hdst := hdst) (hsem := hsem) (k := k) (Q := Q)
      (q := fullShare.right) (fs := AG.W m c) (fd := fd)
      (κ₁ := K (c, ⟨(z2Send i).val - 1, by show 35 + i.val - 1 < 66; omega⟩)) (κ₂ := K (zP c, ⟨(z2Recv i).val - 1, by show 43 + i.val - 1 < 66; omega⟩))
      (r₁ := 0) (r₂ := 0) (d₁ := 0) (d₂ := 0)
      (by rw [duties_dma m c (z2Send i) (by show 2 ≤ 35 + i.val; omega)]; exact Finset.mem_singleton_self _)
      (by rw [duties_dma m (zP c) (z2Recv i) (by show 2 ≤ 43 + i.val; omega)]; exact Finset.mem_singleton_self _)
      () () N64 (by unfold N64; rfl)
      (amount_dma m c (z2Send i) (by show 35 + i.val ≠ 2; omega) 0) (amount_dma m (zP c) (z2Recv i) (by show 43 + i.val ≠ 2; omega) 0)
      (O₀ := O + tallyAt (dCell (zP c) (z2Recv i)) () N64) O rfl (W := W) (Es := Set.univ)
      (by rw [payload_dma, dmaPay_z2Send]; unfold chunk; rw [set_oslice c _ _ (off4_row c i) (k0_off4_inb c i)])
      (by rw [payload_dma, dmaPay_z2Recv, kZ_zP]; unfold chunk
          rw [recvBase_zP, set_oslice (zP c) _ _ (off4_row c i) (k0_off4_inb c i)]
          exact Entails.of_eq (pointsTo_congr (land_fwd m c (zP c) (yc_zP c) _ _ (off4_row c i) (by omega) (by omega) (k0_off4_inb c i) fd)))
  unfold chunk
  rw [recvBase_zP, ← set_oslice c _ _ (off4_row c i) (k0_off4_inb c i), ← set_oslice (zP c) _ _ (off4_row c i) (k0_off4_inb c i)]
  refine BIBase.Entails.trans ?_ key
  iintro ⟨#Hrec, Hsrc, Hdst, HO, Htok₁, Htok₂⟩
  isplitr; · iapply (inv_dma m K c (z2Send i) (by show 2 ≤ 35 + i.val; omega)); iexact Hrec
  isplitr; · iapply (inv_dma m K (zP c) (z2Recv i) (by show 2 ≤ 43 + i.val; omega)); iexact Hrec
  isplitl [Hsrc]; · iexact Hsrc
  isplitl [Hdst]; · iexact Hdst
  isplitl [HO]; · iexact HO
  isplitl [Htok₁]; · iexact Htok₁
  isplitr; · iapply (reached_dma m K c (z2Send i) (by show 2 ≤ 35 + i.val; omega)); iexact Hrec
  isplitl [Htok₂]; · iexact Htok₂
  iapply (reached_dma m K (zP c) (z2Recv i) (by show 2 ≤ 43 + i.val; omega)); iexact Hrec

/-- The wait on one of the device's DMA cells for its one transfer's credit; the cell's round is over and it is closed. -/
theorem wp_dwait (K : Dev nD × Fin 66 → ℕ) (c : Dev nD) (n : DmaSem sig) (h2 : 2 ≤ n.val) (N : ℕ) (hN : (agRd (F := F) m).expect (dCell c n) 0 = N)
    (O : CellTallies nD τ sig Unit) (W : Waits sig Unit)
    {w : TpuEff nD τ sig (Elt F) Λ₀ .tc PUnit} (hw : ∀ Kc : PUnit → sProp 𝕄, wpE (defs₀ (F := F)) 𝒱₀ (c : Thread nD τ) none Set.univ w Kc = waitSpec (c : Thread nD τ) Set.univ (.dma n) N Kc)
    {α : Type} {Q : α → sProp 𝕄} {k : PUnit → Prog (TpuEff nD τ sig (Elt F) Λ₀ .tc) α} :
    iprop(records m K ∗ cred (tallyAt (dCell c n) () N) ∗ owes (c : Thread nD τ) O W ∗ MayWait (c : Thread nD τ) (.dma n) () O ∗ atPos ER (dCell c n) 0 ∅ 0)
      ⊢ iprop(((owes (c : Thread nD τ) O (insert (SemLoc.dma n, ()) W) ∗ semVal (dCell c n) 0 ∗ dmaPay m c n.val)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hmw, Hat⟩ Hk
  iapply (Rounds.wp_wait_rest_token 𝒱₀ ER (agRd m) (c : Thread nD τ) none
      (κ := K (c, ⟨n.val - 1, by have : n.val < 67 := n.isLt; omega⟩))
      hw (Set.mem_univ _) () (O := O) (W := W) (R := 0) (m := 0) (T := ∅) (by rw [Nat.zero_add, hN])) $$ [Hc HO Hmw Hat]
  · isplitr; · iapply (inv_dma m K c n h2); iexact Hrec
    isplitl [Hc]; · iexact Hc
    isplitl [HO]; · iexact HO
    isplitl [Hmw]; · iexact Hmw
    iexact Hat
  iintro ⟨HO, Hat, -, Hpay⟩
  ihave Hp := (Entails.of_eq (rest_dma m c n h2)) $$ Hpay
  imod (Rounds.cell_close ER (agRd m) (Set.mem_univ (K (c, ⟨n.val - 1, by have : n.val < 67 := n.isLt; omega⟩))) (fun h => h) (R := 0 + 1) (duties_later m (dCell c n))) $$ [Hat] with Hz
  · isplitr; · iapply (inv_dma m K c n h2); iexact Hrec
    iexact Hat
  iapply Hk
  isplitl [HO]; · iexact HO
  isplitl [Hz]; · iexact Hz
  iexact Hp

/-- info: 'Cert.KernelIdeal.AG.wp_sig' depends on axioms: [propext, Classical.choice, Quot.sound] -/
#guard_msgs in #print axioms wp_sig

/-- info: 'Cert.KernelIdeal.AG.wp_barwait' depends on axioms: [propext, Classical.choice, Quot.sound] -/
#guard_msgs in #print axioms wp_barwait

/-- info: 'Cert.KernelIdeal.AG.wp_ysend' depends on axioms: [propext, Classical.choice, Quot.sound] -/
#guard_msgs in #print axioms wp_ysend

/-- info: 'Cert.KernelIdeal.AG.wp_x2send' depends on axioms: [propext, Classical.choice, Quot.sound] -/
#guard_msgs in #print axioms wp_x2send

/-- info: 'Cert.KernelIdeal.AG.wp_z2send' depends on axioms: [propext, Classical.choice, Quot.sound] -/
#guard_msgs in #print axioms wp_z2send

/-- info: 'Cert.KernelIdeal.AG.wp_dwait' depends on axioms: [propext, Classical.choice, Quot.sound] -/
#guard_msgs in #print axioms wp_dwait

end Cert.KernelIdeal.AG

end
-- ==== Proof.KI.SchedC.lean ====
/-
  The amount the copy cell's one round expects: the credit of the 2048-row own half.
-/
import proofs.«900664_g7700000000000665_dist_ag_v7x_xyz2x2x2_y_m2048_n512_f32_1_alg».proof.Proof.KI.Sched

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.ShloMosaic.Rounds

variable {F : FTy → Type} [FloatOps F]

/-- A DMA cell's one round expects its one duty's amount. -/
theorem expect_dma_any (m : (ℓ : Loc nD τ sig) → Buf (Elt F) ℓ) (c : Dev nD) (n : DmaSem sig) (h2 : 2 ≤ n.val) :
    (agRd (F := F) m).expect (dCell c n) 0 = if n.val = 2 then Nh else N64 := by
  unfold Schedule.expect Schedule.amountOf
  rw [duties_dma m c n h2, Finset.sum_singleton]
  rfl

theorem expect_copy (m : (ℓ : Loc nD τ sig) → Buf (Elt F) ℓ) (c : Dev nD) : (agRd (F := F) m).expect (dCell c copyS) 0 = Nh :=
  (expect_dma_any m c copyS (le_refl 2)).trans (if_pos rfl)

end Cert.KernelIdeal.AG

end
-- ==== Proof.KI.Steps2.lean ====
/-
  Three of the steps of a device's body: the local copy of its block into its own half of the output buffer, and the
  second forwards of received chunks to the neighbours along the first and the last mesh axis. Each is the transfer
  rule applied to the device's own resources: the source is read at the share held, the destination rows are owned
  outright, and on the rows written the destination ends at the receiving device's final contents.
-/
import proofs.«900664_g7700000000000665_dist_ag_v7x_xyz2x2x2_y_m2048_n512_f32_1_alg».proof.Proof.KI.Steps
import proofs.«900664_g7700000000000665_dist_ag_v7x_xyz2x2x2_y_m2048_n512_f32_1_alg».proof.Proof.KI.SchedC

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The local copy of the device's block into its own half of the output buffer. -/
theorem wp_copy_own (m : (ℓ : Loc nD τ sig) → Buf (Elt F) ℓ) (K : Dev nD × Fin 66 → ℕ) (c : Dev nD) (fd : Buf (Elt F) (oLoc c)) {hsrc hdst hsem}
    {α : Type} {Q : α → sProp 𝕄} {k : PUnit → Prog (TpuEff nD τ sig (Elt F) Λ₀ .tc) α} :
    iprop(records m K ∗ (xLoc c ↦[Finset.univ]{fullShare.left} X m c) ∗ (oLoc c ↦[rowsO c (ownBase c) 2048]{fullShare} fd) ∗ dutyTok ER (dCell c copyS) 0 0)
      ⊢ iprop((cred (tallyAt (dCell c copyS) () Nh) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM : Memref sig .tc .vmem S2048x512 .f32)
                (.here (oM.slice (Rect.unit (s := S4096x512) (k0_off1 c) S2048x512.size (k0_off1_inb c)) (fun _ => rfl))) (.dma copyS) hsrc hdst hsem) k) Q) := by
  have hx : ((xM : Memref sig .tc .vmem S2048x512 .f32).view.set : Finset (Idx (xLoc c))) = Finset.univ := View.set_whole _
  have key := Rounds.wp_copy_pointsTo 𝒱₀ ER (agRd m) (c : Thread nD τ) none (defs := defs₀ (F := F)) (Γ := .empty)
      (sp := .vmem) (sp' := .vmem) (s := S2048x512) (e := .f32)
      (src := (xM : Memref sig .tc .vmem S2048x512 .f32))
      (dst := (oM.slice (Rect.unit (s := S4096x512) (k0_off1 c) S2048x512.size (k0_off1_inb c)) (fun _ => rfl) : Memref sig .tc .vmem S2048x512 .f32))
      (sem := .dma copyS) (hsrc := hsrc) (hdst := hdst) (hsem := hsem) (k := k) (Q := Q)
      (q := fullShare.left) (fs := X m c) (fd := fd) (r := 0) (d := 0)
      (κ := K (c, ⟨(copyS : DmaSem sig).val - 1, by show 2 - 1 < 66; omega⟩))
      (by rw [duties_dma m c copyS (le_refl 2)]; exact Finset.mem_singleton_self _)
      () Nh (by unfold Nh; rfl) (amount_copy m c 0)
      (by rw [payload_dma, dmaPay_copy, set_copy c, hx]
          exact sep_mono (Entails.of_eq (pointsTo_congr (land_copy m c fd))) .rfl)
      (Es := Set.univ)
  refine BIBase.Entails.trans ?_ key
  rw [set_copy c, hx]
  iintro ⟨#Hrec, Hx, Ho, Htok⟩
  isplitr; · iapply (inv_dma m K c copyS (le_refl 2)); iexact Hrec
  isplitl [Hx]; · iexact Hx
  isplitl [Ho]; · iexact Ho
  isplitl [Htok]; · iexact Htok
  iapply (reached_dma m K c copyS (le_refl 2)); iexact Hrec

/-- The second forward to the neighbour along the first mesh axis: chunk `i` (0..3) of the quarter the neighbour along
    the last axis contributed, read at its final contents, lands on the same rows of the neighbour, whose final
    contents there are the same. -/
theorem wp_x3send (m : (ℓ : Loc nD τ sig) → Buf (Elt F) ℓ) (K : Dev nD × Fin 66 → ℕ) (c : Dev nD) (i : Fin 4) (p : Dev nD) (hp : p = xP c) (O : CellTallies nD τ sig Unit) (W : Waits sig Unit) (fd : Buf (Elt F) (oLoc (xP c)))
    {hsc : (oM.slice (Rect.unit (s := S4096x512) (k0_off5 c (BitVec.ofNat 32 (64 * i.val))) S64x512.size (k0_off5_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kZ c + i.val) fullShare
        ∗ (oLoc (xP c) ↦[rowsO (xP c) (recvBase (xP c) + 64 * (8 * kZ c + i.val)) 64]{fullShare} fd)
        ∗ owes (c : Thread nD τ) (O + tallyAt (dCell (xP c) (x3Recv i)) () N64) W
        ∗ dutyTok ER (dCell c (x3Send i)) 0 0 ∗ dutyTok ER (dCell (xP c) (x3Recv i)) 0 0)
      ⊢ iprop(((cred (tallyAt (dCell c (x3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off5 c (BitVec.ofNat 32 (64 * i.val))) S64x512.size (k0_off5_inb c i)) (fun _ => rfl))
                (.remote (Dev.tc p : Thread nD τ) (oM.slice (Rect.unit (s := S4096x512) (k0_off5 c (BitVec.ofNat 32 (64 * i.val))) S64x512.size (k0_off5_inb c i)) (fun _ => rfl)) (.dma (x3Send i)) hsc)
                (.dma (x3Recv i)) hsrc hdst hsem) k) Q) := by
  subst hp
  have hi := i.isLt
  have hk := kZ_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (xP c) : Thread nD τ))
      (src := (oM.slice (Rect.unit (s := S4096x512) (k0_off5 c (BitVec.ofNat 32 (64 * i.val))) S64x512.size (k0_off5_inb c i)) (fun _ => rfl) : Memref sig .tc .vmem S64x512 .f32))
      (dst := (oM.slice (Rect.unit (s := S4096x512) (k0_off5 c (BitVec.ofNat 32 (64 * i.val))) S64x512.size (k0_off5_inb c i)) (fun _ => rfl) : Memref sig .tc .vmem S64x512 .f32))
      (hsc := hsc) (sS := .dma (x3Send i)) (sem := .dma (x3Recv i)) (hsrc := hsrc) (hdst := hdst) (hsem := hsem) (k := k) (Q := Q)
      (q := fullShare) (fs := AG.W m c) (fd := fd)
      (κ₁ := K (c, ⟨(x3Send i).val - 1, by show 51 + i.val - 1 < 66; omega⟩)) (κ₂ := K (xP c, ⟨(x3Recv i).val - 1, by show 55 + i.val - 1 < 66; omega⟩))
      (r₁ := 0) (r₂ := 0) (d₁ := 0) (d₂ := 0)
      (by rw [duties_dma m c (x3Send i) (by show 2 ≤ 51 + i.val; omega)]; exact Finset.mem_singleton_self _)
      (by rw [duties_dma m (xP c) (x3Recv i) (by show 2 ≤ 55 + i.val; omega)]; exact Finset.mem_singleton_self _)
      () () N64 (by unfold N64; rfl)
      (amount_dma m c (x3Send i) (by show 51 + i.val ≠ 2; omega) 0) (amount_dma m (xP c) (x3Recv i) (by show 55 + i.val ≠ 2; omega) 0)
      (O₀ := O + tallyAt (dCell (xP c) (x3Recv i)) () N64) O rfl (W := W) (Es := Set.univ)
      (by rw [payload_dma, dmaPay_x3Send]; unfold chunk; rw [set_oslice c _ _ (off5_row c i) (k0_off5_inb c i)])
      (by rw [payload_dma, dmaPay_x3Recv, kD_xP]; unfold chunk
          rw [recvBase_xP, set_oslice (xP c) _ _ (off5_row c i) (k0_off5_inb c i)]
          exact Entails.of_eq (pointsTo_congr (land_fwd m c (xP c) (yc_xP c) _ _ (off5_row c i) (by omega) (by omega) (k0_off5_inb c i) fd)))
  unfold chunk
  rw [recvBase_xP, ← set_oslice c _ _ (off5_row c i) (k0_off5_inb c i), ← set_oslice (xP c) _ _ (off5_row c i) (k0_off5_inb c i)]
  refine BIBase.Entails.trans ?_ key
  iintro ⟨#Hrec, Hsrc, Hdst, HO, Htok₁, Htok₂⟩
  isplitr; · iapply (inv_dma m K c (x3Send i) (by show 2 ≤ 51 + i.val; omega)); iexact Hrec
  isplitr; · iapply (inv_dma m K (xP c) (x3Recv i) (by show 2 ≤ 55 + i.val; omega)); iexact Hrec
  isplitl [Hsrc]; · iexact Hsrc
  isplitl [Hdst]; · iexact Hdst
  isplitl [HO]; · iexact HO
  isplitl [Htok₁]; · iexact Htok₁
  isplitr; · iapply (reached_dma m K c (x3Send i) (by show 2 ≤ 51 + i.val; omega)); iexact Hrec
  isplitl [Htok₂]; · iexact Htok₂
  iapply (reached_dma m K (xP c) (x3Recv i) (by show 2 ≤ 55 + i.val; omega)); iexact Hrec

/-- The second forward to the neighbour along the last mesh axis: chunk `4 + i` (i in 0..3) of the quarter the neighbour
    along the first axis contributed, likewise. -/
theorem wp_z3send (m : (ℓ : Loc nD τ sig) → Buf (Elt F) ℓ) (K : Dev nD × Fin 66 → ℕ) (c : Dev nD) (i : Fin 4) (p : Dev nD) (hp : p = zP c) (O : CellTallies nD τ sig Unit) (W : Waits sig Unit) (fd : Buf (Elt F) (oLoc (zP c)))
    {hsc : (oM.slice (Rect.unit (s := S4096x512) (k0_off6 c (BitVec.ofNat 32 (256 + 64 * i.val))) S64x512.size (k0_off6_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kX c + 4 + i.val) fullShare
        ∗ (oLoc (zP c) ↦[rowsO (zP c) (recvBase (zP c) + 64 * (8 * kX c + 4 + i.val)) 64]{fullShare} fd)
        ∗ owes (c : Thread nD τ) (O + tallyAt (dCell (zP c) (z3Recv i)) () N64) W
        ∗ dutyTok ER (dCell c (z3Send i)) 0 0 ∗ dutyTok ER (dCell (zP c) (z3Recv i)) 0 0)
      ⊢ iprop(((cred (tallyAt (dCell c (z3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off6 c (BitVec.ofNat 32 (256 + 64 * i.val))) S64x512.size (k0_off6_inb c i)) (fun _ => rfl))
                (.remote (Dev.tc p : Thread nD τ) (oM.slice (Rect.unit (s := S4096x512) (k0_off6 c (BitVec.ofNat 32 (256 + 64 * i.val))) S64x512.size (k0_off6_inb c i)) (fun _ => rfl)) (.dma (z3Send i)) hsc)
                (.dma (z3Recv i)) hsrc hdst hsem) k) Q) := by
  subst hp
  have hi := i.isLt
  have hk := kX_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (zP c) : Thread nD τ))
      (src := (oM.slice (Rect.unit (s := S4096x512) (k0_off6 c (BitVec.ofNat 32 (256 + 64 * i.val))) S64x512.size (k0_off6_inb c i)) (fun _ => rfl) : Memref sig .tc .vmem S64x512 .f32))
      (dst := (oM.slice (Rect.unit (s := S4096x512) (k0_off6 c (BitVec.ofNat 32 (256 + 64 * i.val))) S64x512.size (k0_off6_inb c i)) (fun _ => rfl) : Memref sig .tc .vmem S64x512 .f32))
      (hsc := hsc) (sS := .dma (z3Send i)) (sem := .dma (z3Recv i)) (hsrc := hsrc) (hdst := hdst) (hsem := hsem) (k := k) (Q := Q)
      (q := fullShare) (fs := AG.W m c) (fd := fd)
      (κ₁ := K (c, ⟨(z3Send i).val - 1, by show 59 + i.val - 1 < 66; omega⟩)) (κ₂ := K (zP c, ⟨(z3Recv i).val - 1, by show 63 + i.val - 1 < 66; omega⟩))
      (r₁ := 0) (r₂ := 0) (d₁ := 0) (d₂ := 0)
      (by rw [duties_dma m c (z3Send i) (by show 2 ≤ 59 + i.val; omega)]; exact Finset.mem_singleton_self _)
      (by rw [duties_dma m (zP c) (z3Recv i) (by show 2 ≤ 63 + i.val; omega)]; exact Finset.mem_singleton_self _)
      () () N64 (by unfold N64; rfl)
      (amount_dma m c (z3Send i) (by show 59 + i.val ≠ 2; omega) 0) (amount_dma m (zP c) (z3Recv i) (by show 63 + i.val ≠ 2; omega) 0)
      (O₀ := O + tallyAt (dCell (zP c) (z3Recv i)) () N64) O rfl (W := W) (Es := Set.univ)
      (by rw [payload_dma, dmaPay_z3Send]; unfold chunk; rw [set_oslice c _ _ (off6_row c i) (k0_off6_inb c i)])
      (by rw [payload_dma, dmaPay_z3Recv, kD_zP]; unfold chunk
          rw [recvBase_zP, set_oslice (zP c) _ _ (off6_row c i) (k0_off6_inb c i)]
          exact Entails.of_eq (pointsTo_congr (land_fwd m c (zP c) (yc_zP c) _ _ (off6_row c i) (by omega) (by omega) (k0_off6_inb c i) fd)))
  unfold chunk
  rw [recvBase_zP, ← set_oslice c _ _ (off6_row c i) (k0_off6_inb c i), ← set_oslice (zP c) _ _ (off6_row c i) (k0_off6_inb c i)]
  refine BIBase.Entails.trans ?_ key
  iintro ⟨#Hrec, Hsrc, Hdst, HO, Htok₁, Htok₂⟩
  isplitr; · iapply (inv_dma m K c (z3Send i) (by show 2 ≤ 59 + i.val; omega)); iexact Hrec
  isplitr; · iapply (inv_dma m K (zP c) (z3Recv i) (by show 2 ≤ 63 + i.val; omega)); iexact Hrec
  isplitl [Hsrc]; · iexact Hsrc
  isplitl [Hdst]; · iexact Hdst
  isplitl [HO]; · iexact HO
  isplitl [Htok₁]; · iexact Htok₁
  isplitr; · iapply (reached_dma m K c (z3Send i) (by show 2 ≤ 59 + i.val; omega)); iexact Hrec
  isplitl [Htok₂]; · iexact Htok₂
  iapply (reached_dma m K (zP c) (z3Recv i) (by show 2 ≤ 63 + i.val; omega)); iexact Hrec

/-- info: 'Cert.KernelIdeal.AG.wp_copy_own' depends on axioms: [propext, Classical.choice, Quot.sound] -/
#guard_msgs in #print axioms wp_copy_own

/-- info: 'Cert.KernelIdeal.AG.wp_x3send' depends on axioms: [propext, Classical.choice, Quot.sound] -/
#guard_msgs in #print axioms wp_x3send

/-- info: 'Cert.KernelIdeal.AG.wp_z3send' depends on axioms: [propext, Classical.choice, Quot.sound] -/
#guard_msgs in #print axioms wp_z3send

end Cert.KernelIdeal.AG

end
-- ==== Proof.KI.Steps3.lean ====
/-
  The five kinds of transfer to a neighbour once more, the destination chunk taken at some contents: the chunk a
  neighbour lent with its barrier unit is opened here, and the rule for that kind of transfer applied at its contents.
-/
import proofs.«900664_g7700000000000665_dist_ag_v7x_xyz2x2x2_y_m2048_n512_f32_1_alg».proof.Proof.KI.Steps2

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem wp_ysend' (m : (ℓ : Loc nD τ sig) → Buf (Elt F) ℓ) (K : Dev nD × Fin 66 → ℕ) (c : Dev nD) (i : Fin 8) (p : Dev nD) (hp : p = yP c) (O : CellTallies nD τ sig Unit) (W : Waits sig Unit)
    {hsc : (oM.slice (Rect.unit (s := S4096x512) (k0_off2 c (BitVec.ofNat 32 (64 * i.val))) S64x512.size (k0_off2_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ (xLoc c ↦[rowsX c (64 * (8 * kM c + i.val)) 64]{fullShare.right} X m c)
        ∗ someChunk (F := F) (yP c) (8 * kM c + i.val)
        ∗ owes (c : Thread nD τ) (O + tallyAt (dCell (yP c) (yRecv i)) () N64) W
        ∗ dutyTok ER (dCell c (ySend i)) 0 0 ∗ dutyTok ER (dCell (yP c) (yRecv i)) 0 0)
      ⊢ iprop(((cred (tallyAt (dCell c (ySend i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S2048x512) (k0_off3 c (BitVec.ofNat 32 (64 * i.val))) S64x512.size (k0_off3_inb c i)) (fun _ => rfl))
                (.remote (Dev.tc p : Thread nD τ) (oM.slice (Rect.unit (s := S4096x512) (k0_off2 c (BitVec.ofNat 32 (64 * i.val))) S64x512.size (k0_off2_inb c i)) (fun _ => rfl)) (.dma (ySend i)) hsc)
                (.dma (yRecv i)) hsrc hdst hsem) k) Q) := by
  unfold someChunk
  iintro ⟨#Hrec, Hsrc, ⟨%fd, Hdst⟩, HO, Htok₁, Htok₂⟩
  iapply (wp_ysend m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_x2send' (m : (ℓ : Loc nD τ sig) → Buf (Elt F) ℓ) (K : Dev nD × Fin 66 → ℕ) (c : Dev nD) (i : Fin 8) (p : Dev nD) (hp : p = xP c) (O : CellTallies nD τ sig Unit) (W : Waits sig Unit)
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.left
        ∗ someChunk (F := F) (xP c) (8 * kM c + i.val)
        ∗ owes (c : Thread nD τ) (O + tallyAt (dCell (xP c) (x2Recv i)) () N64) W
        ∗ dutyTok ER (dCell c (x2Send i)) 0 0 ∗ dutyTok ER (dCell (xP c) (x2Recv i)) 0 0)
      ⊢ iprop(((cred (tallyAt (dCell c (x2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (x2Send i)) hsc)
                (.dma (x2Recv i)) hsrc hdst hsem) k) Q) := by
  unfold someChunk
  iintro ⟨#Hrec, Hsrc, ⟨%fd, Hdst⟩, HO, Htok₁, Htok₂⟩
  iapply (wp_x2send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_z2send' (m : (ℓ : Loc nD τ sig) → Buf (Elt F) ℓ) (K : Dev nD × Fin 66 → ℕ) (c : Dev nD) (i : Fin 8) (p : Dev nD) (hp : p = zP c) (O : CellTallies nD τ sig Unit) (W : Waits sig Unit)
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.right
        ∗ someChunk (F := F) (zP c) (8 * kM c + i.val)
        ∗ owes (c : Thread nD τ) (O + tallyAt (dCell (zP c) (z2Recv i)) () N64) W
        ∗ dutyTok ER (dCell c (z2Send i)) 0 0 ∗ dutyTok ER (dCell (zP c) (z2Recv i)) 0 0)
      ⊢ iprop(((cred (tallyAt (dCell c (z2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (z2Send i)) hsc)
                (.dma (z2Recv i)) hsrc hdst hsem) k) Q) := by
  unfold someChunk
  iintro ⟨#Hrec, Hsrc, ⟨%fd, Hdst⟩, HO, Htok₁, Htok₂⟩
  iapply (wp_z2send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_x3send' (m : (ℓ : Loc nD τ sig) → Buf (Elt F) ℓ) (K : Dev nD × Fin 66 → ℕ) (c : Dev nD) (i : Fin 4) (p : Dev nD) (hp : p = xP c) (O : CellTallies nD τ sig Unit) (W : Waits sig Unit)
    {hsc : (oM.slice (Rect.unit (s := S4096x512) (k0_off5 c (BitVec.ofNat 32 (64 * i.val))) S64x512.size (k0_off5_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kZ c + i.val) fullShare
        ∗ someChunk (F := F) (xP c) (8 * kZ c + i.val)
        ∗ owes (c : Thread nD τ) (O + tallyAt (dCell (xP c) (x3Recv i)) () N64) W
        ∗ dutyTok ER (dCell c (x3Send i)) 0 0 ∗ dutyTok ER (dCell (xP c) (x3Recv i)) 0 0)
      ⊢ iprop(((cred (tallyAt (dCell c (x3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off5 c (BitVec.ofNat 32 (64 * i.val))) S64x512.size (k0_off5_inb c i)) (fun _ => rfl))
                (.remote (Dev.tc p : Thread nD τ) (oM.slice (Rect.unit (s := S4096x512) (k0_off5 c (BitVec.ofNat 32 (64 * i.val))) S64x512.size (k0_off5_inb c i)) (fun _ => rfl)) (.dma (x3Send i)) hsc)
                (.dma (x3Recv i)) hsrc hdst hsem) k) Q) := by
  unfold someChunk
  iintro ⟨#Hrec, Hsrc, ⟨%fd, Hdst⟩, HO, Htok₁, Htok₂⟩
  iapply (wp_x3send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_z3send' (m : (ℓ : Loc nD τ sig) → Buf (Elt F) ℓ) (K : Dev nD × Fin 66 → ℕ) (c : Dev nD) (i : Fin 4) (p : Dev nD) (hp : p = zP c) (O : CellTallies nD τ sig Unit) (W : Waits sig Unit)
    {hsc : (oM.slice (Rect.unit (s := S4096x512) (k0_off6 c (BitVec.ofNat 32 (256 + 64 * i.val))) S64x512.size (k0_off6_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kX c + 4 + i.val) fullShare
        ∗ someChunk (F := F) (zP c) (8 * kX c + 4 + i.val)
        ∗ owes (c : Thread nD τ) (O + tallyAt (dCell (zP c) (z3Recv i)) () N64) W
        ∗ dutyTok ER (dCell c (z3Send i)) 0 0 ∗ dutyTok ER (dCell (zP c) (z3Recv i)) 0 0)
      ⊢ iprop(((cred (tallyAt (dCell c (z3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off6 c (BitVec.ofNat 32 (256 + 64 * i.val))) S64x512.size (k0_off6_inb c i)) (fun _ => rfl))
                (.remote (Dev.tc p : Thread nD τ) (oM.slice (Rect.unit (s := S4096x512) (k0_off6 c (BitVec.ofNat 32 (256 + 64 * i.val))) S64x512.size (k0_off6_inb c i)) (fun _ => rfl)) (.dma (z3Send i)) hsc)
                (.dma (z3Recv i)) hsrc hdst hsem) k) Q) := by
  unfold someChunk
  iintro ⟨#Hrec, Hsrc, ⟨%fd, Hdst⟩, HO, Htok₁, Htok₂⟩
  iapply (wp_z3send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

/-- info: 'Cert.KernelIdeal.AG.wp_ysend'' depends on axioms: [propext, Classical.choice, Quot.sound] -/
#guard_msgs in #print axioms wp_ysend'

/-- info: 'Cert.KernelIdeal.AG.wp_x2send'' depends on axioms: [propext, Classical.choice, Quot.sound] -/
#guard_msgs in #print axioms wp_x2send'

/-- info: 'Cert.KernelIdeal.AG.wp_z2send'' depends on axioms: [propext, Classical.choice, Quot.sound] -/
#guard_msgs in #print axioms wp_z2send'

/-- info: 'Cert.KernelIdeal.AG.wp_x3send'' depends on axioms: [propext, Classical.choice, Quot.sound] -/
#guard_msgs in #print axioms wp_x3send'

/-- info: 'Cert.KernelIdeal.AG.wp_z3send'' depends on axioms: [propext, Classical.choice, Quot.sound] -/
#guard_msgs in #print axioms wp_z3send'

end Cert.KernelIdeal.AG

end
-- ==== Proof.KI.Credit.lean ====
/-
  What the launch deals a device as credit, and the levels that order its waits.
  Every device owes each of its three neighbours' barrier cells one unit and, per remote transfer, the arrival on the
  target's receive cell. Summed over the devices, a device's barrier cell is owed three units (one by each neighbour)
  and each of its receive cells one chunk's credit (by the one neighbour that sends into it): that is the credit the
  launch hands it. A cell may be waited on while something is still owed only if it sits below everything owed.
-/
import proofs.«900664_g7700000000000665_dist_ag_v7x_xyz2x2x2_y_m2048_n512_f32_1_alg».proof.Proof.KI.Fund

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a list of dues amounts to at one cell -/

theorem owedL_apply (l : List (GSem nD τ sig × ℕ)) (g : GSem nD τ sig) :
    owedL l g () = (l.map fun p => if p.1 = g then p.2 else 0).sum := by
  induction l with
  | nil => rfl
  | cons p l ih =>
    obtain ⟨g', k⟩ := p
    show (owedL l + tallyAt g' () k) g () = _
    rw [Pi.add_apply, Finsupp.add_apply, ih, tallyAt_apply, List.map_cons, List.sum_cons, Nat.add_comm]
    congr 1
    by_cases h : g' = g
    · rw [if_pos h, if_pos ⟨h.symm, rfl⟩]
    · rw [if_neg h, if_neg fun h' => h h'.1.symm]

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    obtain ⟨g', k⟩ := p
    rcases Pipeline.add_pos_cases (show 0 < (owedL l + tallyAt g' () k) g u from h) with h1 | h1
    · obtain ⟨p, hp, e⟩ := ih h1
      exact ⟨p, List.mem_cons_of_mem _ hp, e⟩
    · exact ⟨(g', k), List.mem_cons_self, (Pipeline.tallyAt_pos h1).1.symm⟩

theorem owedL_eq_zero {l : List (GSem nD τ sig × ℕ)} {g : GSem nD τ sig} {u : Unit} (h : ∀ p ∈ l, p.1 ≠ g) : owedL l g u = 0 := by
  by_contra hne
  obtain ⟨p, hp, e⟩ := owedL_pos (Nat.pos_of_ne_zero hne)
  exact h p hp e

/-! ## Cells: when two are the same -/

omit [FloatOps F] in
theorem bar_eq_iff {a b : Dev nD} : barCell a = barCell b ↔ a = b :=
  ⟨fun h => Fin.ext (congrArg (fun g : GSem nD τ sig => g.1.1.val) h), fun h => h ▸ rfl⟩
omit [FloatOps F] in
theorem dCell_eq_iff {a b : Dev nD} {n n' : DmaSem sig} : dCell a n = dCell b n' ↔ a = b ∧ n = n' :=
  ⟨fun h => ⟨Fin.ext (congrArg (fun g : GSem nD τ sig => g.1.1.val) h), SemLoc.dma.inj (congrArg Prod.snd h)⟩, fun h => by rw [h.1, h.2]⟩
omit [FloatOps F] in
theorem dCell_ne_bar {a b : Dev nD} {n : DmaSem sig} : dCell a n ≠ barCell b := fun h => by cases congrArg Prod.snd h
omit [FloatOps F] in
theorem dsem_eq_iff {k k' : Fin 65} : dsem k = dsem k' ↔ k = k' :=
  ⟨fun h => Fin.ext (Nat.add_right_cancel (congrArg Fin.val h)), fun h => h ▸ rfl⟩

/-! ## Sums -/

/-- Of the devices, exactly one is the image of `c` under an involution. -/
theorem sum_inv (f : Dev nD → Dev nD) (hf : ∀ d, f (f d) = d) (c : Dev nD) (n : ℕ) :
    (∑ d : Dev nD, if f d = c then n else 0) = n := by
  rw [Finset.sum_eq_single (f c) (fun d _ hd => if_neg fun h => hd (by rw [← h, hf])) (fun h => absurd (Finset.mem_univ _) h), if_pos (hf c)]

theorem sum_list_comm {α : Type} (l : List α) (f : Dev nD → α → ℕ) :
    (∑ d : Dev nD, (l.map (f d)).sum) = (l.map fun t => ∑ d : Dev nD, f d t).sum := by
  induction l with
  | nil => simp only [List.map_nil, List.sum_nil, Finset.sum_const_zero]
  | cons t l ih => simp only [List.map_cons, List.sum_cons]; rw [Finset.sum_add_distrib, ih]

theorem sum_ite_count {α : Type} (l : List α) (p : α → Prop) [DecidablePred p] (n : ℕ) :
    (l.map fun t => if p t then n else 0).sum = l.countP (fun t => decide (p t)) * n := by
  induction l with
  | nil => simp only [List.map_nil, List.sum_nil, List.countP_nil, Nat.zero_mul]
  | cons t l ih =>
    simp only [List.map_cons, List.sum_cons, List.countP_cons, ih]
    by_cases h : p t
    · simp only [h, if_true, decide_true, Nat.add_mul, Nat.one_mul]; exact Nat.add_comm _ _
    · simp only [h, if_false, decide_false, Bool.false_eq_true, Nat.add_zero, Nat.zero_add]

/-- Each receive cell is the target of exactly one of the remote transfers. -/
theorem recv_once : ∀ k ∈ recvIdx, enqs.countP (fun t => decide (t.2.1 = k)) = 1 := by decide

/-! ## What one device owes one cell -/

omit [FloatOps F] in
/-- Device `d` owes device `c`'s barrier cell a unit for each axis across which `c` is its neighbour. -/
theorem owed_bar (d c : Dev nD) :
    O₀ d (barCell c) () = (if yP d = c then 1 else 0) + ((if xP d = c then 1 else 0) + (if zP d = c then 1 else 0)) := by
  unfold O₀ plan
  rw [owedL_apply, List.map_cons, List.map_cons, List.map_cons, List.sum_cons, List.sum_cons, List.sum_cons, ← owedL_apply,
    owedL_eq_zero (l := arrivals d) (fun p hp => by
      obtain ⟨t, -, rfl⟩ := List.mem_map.mp hp
      exact dCell_ne_bar), Nat.add_zero]
  simp only [bar_eq_iff]

omit [FloatOps F] in
/-- Device `d` owes receive cell `k` of device `c` a chunk's credit for each of its transfers into that cell. -/
theorem owed_recv (d c : Dev nD) (k : Fin 65) :
    O₀ d (dCell c (dsem k)) () = (enqs.map fun t => if nb d t.2.2 = c ∧ t.2.1 = k then N64 else 0).sum := by
  unfold O₀ plan
  rw [owedL_apply, List.map_cons, List.map_cons, List.map_cons, List.sum_cons, List.sum_cons, List.sum_cons,
    if_neg (fun h => dCell_ne_bar h.symm), if_neg (fun h => dCell_ne_bar h.symm), if_neg (fun h => dCell_ne_bar h.symm),
    Nat.zero_add, Nat.zero_add, Nat.zero_add]
  unfold arrivals
  rw [List.map_map]
  refine congrArg List.sum (List.map_congr_left fun t _ => ?_)
  show (if dCell (nb d t.2.2) (dsem t.2.1) = dCell c (dsem k) then N64 else 0) = _
  exact if_congr (by rw [dCell_eq_iff, dsem_eq_iff]) rfl rfl

/-! ## The launch credit -/

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_inv yP yP_yP, sum_inv xP xP_xP, sum_inv zP zP_zP]
  rfl

omit [FloatOps F] in
theorem launch_recv (c : Dev nD) (k : Fin 65) (hk : k ∈ recvIdx) :
    tallyOn (dCell c (dsem k)) (launchCredit (Pipeline.owing O₀) 0 (dCell c (dsem k))) = (tallyAt (dCell c (dsem k)) () N64 : CellTallies nD τ sig Unit) := by
  unfold tallyAt; refine congrArg _ (Finsupp.ext fun u => ?_); cases u
  rw [Pipeline.launchCredit_owing, Finsupp.single_eq_same, Finset.sum_congr rfl fun d _ => owed_recv d c k, sum_list_comm]
  have h1 : ∀ t : Fin 65 × Fin 65 × Fin 3, (∑ d : Dev nD, if nb d t.2.2 = c ∧ t.2.1 = k then N64 else 0)
      = if t.2.1 = k then N64 else 0 := fun t => by
    by_cases hk : t.2.1 = k
    · rw [if_pos hk, Finset.sum_congr rfl fun d _ => if_congr (and_iff_left hk) rfl rfl]
      exact sum_inv (fun d => nb d t.2.2) (fun d => nb_nb t.2.2 d) c N64
    · rw [if_neg hk]
      exact Finset.sum_eq_zero fun d _ => if_neg fun h => hk h.2
  rw [List.map_congr_left fun t _ => h1 t, sum_ite_count, recv_once k hk, Nat.one_mul]

/-- The launch credit of a device: three units on its barrier cell, a chunk's credit on each receive cell. -/
theorem creds (c : Dev nD) : (Pipeline.launchCred O₀ c : sProp 𝕄) ⊢ credsOf c := by
  unfold Pipeline.launchCred credsOf
  rw [bigSep_univ_at _ (SemLoc.reg barS), launch_bar]
  refine sep_mono_right ?_
  rw [← bigSep_eq_bigSepL recvIdx (by decide),
    bigSep_congr (s := recvIdx.toFinset) (fun k hk => (congrArg cred (launch_recv c k (List.mem_toFinset.mp hk))).symm),
    ← bigSep_image_of_injOn (f := osem) (fun a _ b _ h => dsem_eq_iff.mp (SemLoc.dma.inj h))
      (fun sm : SemLoc sig => (cred (tallyOn ((c : Thread nD τ), sm) (launchCredit (Pipeline.owing O₀) 0 ((c : Thread nD τ), sm))) : sProp 𝕄))]
  refine bigSep_subset fun sm h => Finset.mem_erase.mpr ⟨?_, Finset.mem_univ _⟩
  obtain ⟨k, -, rfl⟩ := Finset.mem_image.mp h
  exact fun h => by cases h

/-! ## Levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem L_of_tc (g : GSem nD τ sig) (h : g.1.2 = .tc) : L g = {()} := if_pos h

omit [FloatOps F] in
/-- A TensorCore may wait on its cell `s` while it owes the dues `l` when every cell owed sits above `s`. -/
theorem mayWait_owedL (c : Dev nD) (s : SemLoc sig) (l : List (GSem nD τ sig × ℕ))
    (h : ∀ p ∈ l, p.1.1.2 = .tc ∧ lv ((c : Thread nD τ), s) () < lv p.1 ()) :
    (levAts L lv : sProp 𝕄) ⊢ MayWait (c : Thread nD τ) s () (owedL l) :=
  Pipeline.mayWait_of_levAts (by rw [L_tc]; exact Finset.mem_singleton_self _) fun g i hg => by
    obtain ⟨p, hp, rfl⟩ := owedL_pos hg
    cases i
    exact ⟨by rw [L_of_tc _ (h p hp).1]; exact Finset.mem_singleton_self _, (h p hp).2⟩

theorem mayWait_bar (c : Dev nD) (l : List (GSem nD τ sig × ℕ)) (h : ∀ p ∈ l, p.1.1.2 = .tc ∧ 1 < lv p.1 ()) :
    (levAts L lv : sProp 𝕄) ⊢ MayWait (c : Thread nD τ) (.reg barS) () (owedL l) := mayWait_owedL c _ l h

theorem mayWait_dma (c : Dev nD) (n : DmaSem sig) (l : List (GSem nD τ sig × ℕ)) (h : ∀ p ∈ l, p.1.1.2 = .tc ∧ lvN n.val < lv p.1 ()) :
    (levAts L lv : sProp 𝕄) ⊢ MayWait (c : Thread nD τ) (.dma n) () (owedL l) := mayWait_owedL c _ l h

/-- Every receive cell a transfer pays sits at level 2 or above. -/
theorem enqs_lv : ∀ t ∈ enqs, 2 ≤ lvN ((t.2.1 : Fin 65).val + 2) := by
  have h : (enqs.all fun t => decide (2 ≤ lvN ((t.2.1 : Fin 65).val + 2))) = true := by decide
  intro t ht
  exact of_decide_eq_true (List.all_eq_true.mp h t ht)

omit [FloatOps F] in
/-- Everything a device owes at launch is a TensorCore's cell at level 1 or above. -/
theorem plan_lv (c : Dev nD) : ∀ p ∈ plan c, p.1.1.2 = .tc ∧ 0 < lv p.1 () := by
  intro p hp
  unfold plan at hp
  rcases List.mem_cons.mp hp with rfl | hp
  · exact ⟨rfl, Nat.one_pos⟩
  rcases List.mem_cons.mp hp with rfl | hp
  · exact ⟨rfl, Nat.one_pos⟩
  rcases List.mem_cons.mp hp with rfl | hp
  · exact ⟨rfl, Nat.one_pos⟩
  obtain ⟨t, ht, rfl⟩ := List.mem_map.mp hp
  exact ⟨rfl, show 0 < lvN (t.2.1.val + 2) from lt_of_lt_of_le (by decide) (enqs_lv t ht)⟩

variable (m : (ℓ : Loc nD τ sig) → Buf (Elt F) ℓ) (ρ : Dev nD → PrngReg)

/-- The pipeline's own staging cells sit at level 0, below everything a device ever owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_dma c _ (plan c) fun p hp => ?_
      rw [show lvN ((((cfgs 0).win w).sem s : DmaSem sig)).val = 0 from by fin_cases w <;> fin_cases s <;> rfl]
      exact plan_lv c p hp
    · rw [show (dats m ρ 0 c).owed ⟨_ + 1, ht⟩ = 0 from rfl, MayWait_zero]; iintro -; iempintro

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = done c from rfl, scopedRest0_eq, ownSems0_eq]
  unfold done
  iintro H
  isplitr; · iempintro
  isplitl [H]; · iexact H
  iempintro

/-- info: 'Cert.KernelIdeal.AG.creds' depends on axioms: [propext, Classical.choice, Quot.sound] -/
#guard_msgs in #print axioms creds

/-- info: 'Cert.KernelIdeal.AG.waits' depends on axioms: [propext, Classical.choice, Quot.sound] -/
#guard_msgs in #print axioms waits

/-- info: 'Cert.KernelIdeal.AG.start_intro' depends on axioms: [propext, Classical.choice, Quot.sound] -/
#guard_msgs in #print axioms start_intro

/-- info: 'Cert.KernelIdeal.AG.phi0_intro' depends on axioms: [propext, Classical.choice, Quot.sound] -/
#guard_msgs in #print axioms phi0_intro

/-- info: 'Cert.KernelIdeal.AG.phi1_exit' depends on axioms: [propext, Classical.choice, Quot.sound] -/
#guard_msgs in #print axioms phi1_exit

end Cert.KernelIdeal.AG

end
-- ==== Proof.KI.Levels.lean ====
/-
  The level conditions at a device's waits, free of the device: after its three barrier units a device owes only
  arrivals on its neighbours' receive cells, and the level of such a cell depends only on the transfer, not on the
  device. So what a wait has to show is a condition on a suffix of the list of transfers.
-/
import proofs.«900664_g7700000000000665_dist_ag_v7x_xyz2x2x2_y_m2048_n512_f32_1_alg».proof.Proof.KI.Credit

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Past the three barrier units, what a device still owes is the arrivals of the transfers not yet issued. -/
theorem plan_drop (c : Dev nD) (j : ℕ) :
    (plan c).drop (j + 3) = (enqs.drop j).map fun t => (dCell (nb c t.2.2) (dsem t.2.1), N64) := by
  show (arrivals c).drop j = _
  unfold arrivals
  rw [List.map_drop]

theorem mem_plan_drop {c : Dev nD} {j : ℕ} {p : GSem nD τ sig × ℕ} (hp : p ∈ (plan c).drop (j + 3)) :
    ∃ t ∈ enqs.drop j, p = (dCell (nb c t.2.2) (dsem t.2.1), N64) := by
  rw [plan_drop] at hp
  obtain ⟨t, ht, rfl⟩ := List.mem_map.mp hp
  exact ⟨t, ht, rfl⟩

/-- At its barrier wait a device has paid its three units and owes every arrival: receive cells, all above level 1. -/
theorem mayWait_bar_enqs (c : Dev nD) (h : (enqs.all fun t => decide (1 < lvN (t.2.1.val + 2))) = true) :
    (levAts L lv : sProp 𝕄) ⊢ MayWait (c : Thread nD τ) (.reg barS) () (owedL ((plan c).drop 3)) :=
  mayWait_bar c _ fun p hp => by
    obtain ⟨t, ht, rfl⟩ := mem_plan_drop (j := 0) hp
    exact ⟨rfl, of_decide_eq_true (List.all_eq_true.mp h t ht)⟩

/-- At a wait on its DMA semaphore `n`, `j` transfers issued, a device owes the arrivals of the others: it may wait
    when each of their receive cells sits above `n`. -/
theorem mayWait_dma_enqs (c : Dev nD) (n : DmaSem sig) (j : ℕ)
    (h : ((enqs.drop j).all fun t => decide (lvN n.val < lvN (t.2.1.val + 2))) = true) :
    (levAts L lv : sProp 𝕄) ⊢ MayWait (c : Thread nD τ) (.dma n) () (owedL ((plan c).drop (j + 3))) :=
  mayWait_dma c n _ fun p hp => by
    obtain ⟨t, ht, rfl⟩ := mem_plan_drop hp
    exact ⟨rfl, of_decide_eq_true (List.all_eq_true.mp h t ht)⟩

/-- info: 'Cert.KernelIdeal.AG.mayWait_bar_enqs' depends on axioms: [propext, Classical.choice, Quot.sound] -/
#guard_msgs in #print axioms mayWait_bar_enqs

/-- info: 'Cert.KernelIdeal.AG.mayWait_dma_enqs' depends on axioms: [propext, Classical.choice, Quot.sound] -/
#guard_msgs in #print axioms mayWait_dma_enqs

end Cert.KernelIdeal.AG

end
-- ==== Proof.KI.Part.lean ====
/-
  Cutting the two staging buffers of a device into the rows the kernel's transfers move, and putting them back.
  The output staging buffer (4096 rows) is the device's own half and 32 chunks of 64 rows of the half it receives;
  those 32 chunks are the four quarters of the received half, in the order the device's coordinates give them; the
  input staging buffer (2048 rows) is held whole at half a share, and at the other half as the eight 64-row chunks
  of the device's own quarter and the rest.
-/
import proofs.«900664_g7700000000000665_dist_ag_v7x_xyz2x2x2_y_m2048_n512_f32_1_alg».proof.Proof.KI.Cells
import Idealize.ShloMosaic.Rules.PointsTo

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The output staging buffer by rows -/

/-- Rows from different starting points, far enough apart, are disjoint sets. -/
theorem rowsO_disjoint (c : Dev nD) (lo n lo' n' : ℕ) (h : lo + n ≤ lo' ∨ lo' + n' ≤ lo) :
    Disjoint (rowsO c lo n) (rowsO c lo' n') :=
  Finset.disjoint_left.mpr fun (i : S4096x512.Idx) h1 h2 => by
    rw [mem_rowsO] at h1 h2; omega

/-- The output staging buffer is its own half and the 32 chunks of 64 rows of the half it receives. -/
theorem out_split (c : Dev nD) (f : Buf (Elt F) (oLoc c)) :
    (oLoc c ↦{fullShare} f : sProp 𝕄)
      = iprop((oLoc c ↦[rowsO c (ownBase c) 2048]{fullShare} f)
          ∗ bigSep (Finset.univ : Finset (Fin 32)) fun j => oLoc c ↦[rowsO c (recvBase c + 64 * j.val) 64]{fullShare} f) := by
  have hyc := yc_le c
  have hO : ownBase c = 2048 * yc c := rfl
  have hR : recvBase c = 2048 - 2048 * yc c := rfl
  have hU : (Finset.univ : Finset (Idx (oLoc c)))
      = rowsO c (ownBase c) 2048 ∪ (Finset.univ : Finset (Fin 32)).biUnion (fun j => rowsO c (recvBase c + 64 * j.val) 64) := by
    refine Finset.ext fun (i : S4096x512.Idx) => ?_
    have hi : (i 0).val < 4096 := (i 0).isLt
    refine ⟨fun _ => ?_, fun _ => Finset.mem_univ _⟩
    rw [Finset.mem_union]
    by_cases h : (i 0).val / 2048 = yc c
    · left; rw [mem_rowsO]; omega
    · right
      rw [Finset.mem_biUnion]
      exact ⟨⟨((i 0).val - recvBase c) / 64, by omega⟩, Finset.mem_univ _, mem_rowsO.mpr
        ⟨by show recvBase c + 64 * (((i 0).val - recvBase c) / 64) ≤ (i 0).val; omega,
         by show (i 0).val < recvBase c + 64 * (((i 0).val - recvBase c) / 64) + 64; omega⟩⟩
  have hd : Disjoint (rowsO c (ownBase c) 2048) ((Finset.univ : Finset (Fin 32)).biUnion (fun j => rowsO c (recvBase c + 64 * j.val) 64)) :=
    (Finset.disjoint_biUnion_right _ _ _).mpr fun j _ => rowsO_disjoint c _ _ _ _ (by have := j.isLt; omega)
  have hp : ∀ j ∈ (Finset.univ : Finset (Fin 32)), ∀ j' ∈ (Finset.univ : Finset (Fin 32)), j ≠ j' →
      Disjoint (rowsO c (recvBase c + 64 * j.val) 64) (rowsO c (recvBase c + 64 * j'.val) 64) :=
    fun j _ j' _ hne => rowsO_disjoint c _ _ _ _ (by have := Fin.val_ne_of_ne hne; omega)
  calc (oLoc c ↦{fullShare} f : sProp 𝕄)
      = (oLoc c ↦[rowsO c (ownBase c) 2048 ∪ (Finset.univ : Finset (Fin 32)).biUnion (fun j => rowsO c (recvBase c + 64 * j.val) 64)]{fullShare} f) := by
        rw [← hU]
    _ = iprop((oLoc c ↦[rowsO c (ownBase c) 2048]{fullShare} f)
          ∗ (oLoc c ↦[(Finset.univ : Finset (Fin 32)).biUnion (fun j => rowsO c (recvBase c + 64 * j.val) 64)]{fullShare} f)) :=
        BI.equiv_iff.mp ⟨(pointsTo_union hd).1, (pointsTo_union hd).2⟩
    _ = _ := by rw [pointsTo_biUnion _ _ hp]

/-! ## Reindexing a run of consecutive numbers -/

/-- `Fin n` into the naturals, shifted by `a`. -/
def shiftEmb (a n : ℕ) : Fin n ↪ ℕ := ⟨fun i => a + i.val, fun i j h => Fin.ext (Nat.add_left_cancel h)⟩

theorem map_shiftEmb (a n : ℕ) : (Finset.univ : Finset (Fin n)).map (shiftEmb a n) = Finset.Ico a (a + n) := by
  ext x
  rw [Finset.mem_map, Finset.mem_Ico]
  constructor
  · rintro ⟨i, -, rfl⟩
    exact ⟨Nat.le_add_right _ _, Nat.add_lt_add_left i.isLt _⟩
  · rintro ⟨h1, h2⟩
    exact ⟨⟨x - a, by omega⟩, Finset.mem_univ _, by show a + (x - a) = x; omega⟩

/-- A separating conjunction over `a, a + 1, …, a + n − 1` indexed by `Fin n` is the one over that interval. -/
theorem bigSep_shift (Φ : ℕ → sProp 𝕄) (a n : ℕ) :
    bigSep (Finset.univ : Finset (Fin n)) (fun i => Φ (a + i.val)) = bigSep (Finset.Ico a (a + n)) Φ := by
  rw [← map_shiftEmb, bigSep_map]; rfl

/-- The 32 chunks of the received half, by the quarter they lie in: the four quarters 2·x + z, 2·(1−x) + z,
    2·x + (1−z), 2·(1−x) + (1−z) are 0, 1, 2, 3 in some order, the last one taken in two halves. -/
theorem quarters_eq (c : Dev nD) (Φ : ℕ → sProp 𝕄) :
    bigSep (Finset.univ : Finset (Fin 32)) (fun j => Φ j.val) =
      iprop((bigSep (Finset.univ : Finset (Fin 8)) fun i => Φ (8 * kM c + i.val))
        ∗ (bigSep (Finset.univ : Finset (Fin 8)) fun i => Φ (8 * kX c + i.val))
        ∗ (bigSep (Finset.univ : Finset (Fin 8)) fun i => Φ (8 * kZ c + i.val))
        ∗ (bigSep (Finset.univ : Finset (Fin 4)) fun j => Φ (8 * kD c + j.val))
        ∗ (bigSep (Finset.univ : Finset (Fin 4)) fun j => Φ (8 * kD c + 4 + j.val))) := by
  have h0 : (fun j : Fin 32 => Φ j.val) = fun j : Fin 32 => Φ (0 + j.val) := by funext j; rw [Nat.zero_add]
  rw [h0, bigSep_shift Φ 0 32, bigSep_shift Φ (8 * kM c) 8, bigSep_shift Φ (8 * kX c) 8, bigSep_shift Φ (8 * kZ c) 8,
    bigSep_shift Φ (8 * kD c) 4, bigSep_shift Φ (8 * kD c + 4) 4]
  have hx := xc_le c
  have hz := zc_le c
  have hM : kM c = 2 * xc c + zc c := rfl
  have hX : kX c = 2 * (1 - xc c) + zc c := rfl
  have hZ : kZ c = 2 * xc c + (1 - zc c) := rfl
  have hD : kD c = 2 * (1 - xc c) + (1 - zc c) := rfl
  have e : Finset.Ico 0 (0 + 32) = Finset.Ico (8 * kM c) (8 * kM c + 8) ∪ (Finset.Ico (8 * kX c) (8 * kX c + 8)
      ∪ (Finset.Ico (8 * kZ c) (8 * kZ c + 8) ∪ (Finset.Ico (8 * kD c) (8 * kD c + 4) ∪ Finset.Ico (8 * kD c + 4) (8 * kD c + 4 + 4)))) := by
    ext x; simp only [Finset.mem_union, Finset.mem_Ico]; omega
  have d1 : Disjoint (Finset.Ico (8 * kM c) (8 * kM c + 8)) (Finset.Ico (8 * kX c) (8 * kX c + 8)
      ∪ (Finset.Ico (8 * kZ c) (8 * kZ c + 8) ∪ (Finset.Ico (8 * kD c) (8 * kD c + 4) ∪ Finset.Ico (8 * kD c + 4) (8 * kD c + 4 + 4)))) :=
    Finset.disjoint_left.mpr fun x h1 h2 => by simp only [Finset.mem_union, Finset.mem_Ico] at h1 h2; omega
  have d2 : Disjoint (Finset.Ico (8 * kX c) (8 * kX c + 8))
      (Finset.Ico (8 * kZ c) (8 * kZ c + 8) ∪ (Finset.Ico (8 * kD c) (8 * kD c + 4) ∪ Finset.Ico (8 * kD c + 4) (8 * kD c + 4 + 4))) :=
    Finset.disjoint_left.mpr fun x h1 h2 => by simp only [Finset.mem_union, Finset.mem_Ico] at h1 h2; omega
  have d3 : Disjoint (Finset.Ico (8 * kZ c) (8 * kZ c + 8)) (Finset.Ico (8 * kD c) (8 * kD c + 4) ∪ Finset.Ico (8 * kD c + 4) (8 * kD c + 4 + 4)) :=
    Finset.disjoint_left.mpr fun x h1 h2 => by simp only [Finset.mem_union, Finset.mem_Ico] at h1 h2; omega
  have d4 : Disjoint (Finset.Ico (8 * kD c) (8 * kD c + 4)) (Finset.Ico (8 * kD c + 4) (8 * kD c + 4 + 4)) :=
    Finset.disjoint_left.mpr fun x h1 h2 => by simp only [Finset.mem_Ico] at h1 h2; omega
  rw [e, bigSep_union d1, bigSep_union d2, bigSep_union d3, bigSep_union d4]
  rfl

/-- The same as a bientailment. -/
theorem quarters (c : Dev nD) (Φ : ℕ → sProp 𝕄) :
    bigSep (Finset.univ : Finset (Fin 32)) (fun j => Φ j.val) ⊣⊢
      iprop((bigSep (Finset.univ : Finset (Fin 8)) fun i => Φ (8 * kM c + i.val))
        ∗ (bigSep (Finset.univ : Finset (Fin 8)) fun i => Φ (8 * kX c + i.val))
        ∗ (bigSep (Finset.univ : Finset (Fin 8)) fun i => Φ (8 * kZ c + i.val))
        ∗ (bigSep (Finset.univ : Finset (Fin 4)) fun j => Φ (8 * kD c + j.val))
        ∗ (bigSep (Finset.univ : Finset (Fin 4)) fun j => Φ (8 * kD c + 4 + j.val))) :=
  .of_eq (quarters_eq c Φ)

/-! ## The input staging buffer by share and by rows -/

theorem rowsX_disjoint (c : Dev nD) (lo n lo' n' : ℕ) (h : lo + n ≤ lo' ∨ lo' + n' ≤ lo) :
    Disjoint (rowsX c lo n) (rowsX c lo' n') :=
  Finset.disjoint_left.mpr fun (i : S2048x512.Idx) h1 h2 => by
    rw [mem_rowsX] at h1 h2; omega

/-- The device's quarter of its block is eight chunks of 64 rows. -/
theorem rowsX_quarter (c : Dev nD) :
    rowsX c (512 * kM c) 512 = (Finset.univ : Finset (Fin 8)).biUnion (fun i => rowsX c (64 * (8 * kM c + i.val)) 64) := by
  refine Finset.ext fun (i : S2048x512.Idx) => ?_
  rw [mem_rowsX, Finset.mem_biUnion]
  constructor
  · intro h
    exact ⟨⟨((i 0).val - 512 * kM c) / 64, by omega⟩, Finset.mem_univ _, mem_rowsX.mpr
      ⟨by show 64 * (8 * kM c + ((i 0).val - 512 * kM c) / 64) ≤ (i 0).val; omega,
       by show (i 0).val < 64 * (8 * kM c + ((i 0).val - 512 * kM c) / 64) + 64; omega⟩⟩
  · rintro ⟨j, -, hj⟩
    rw [mem_rowsX] at hj
    have hj8 := j.isLt
    omega

/-- The input staging buffer at the full share is the whole buffer at the left half share, and at the right half
    share the eight chunks of the device's quarter and the rest of the buffer. -/
theorem x_split_eq (c : Dev nD) (f : Buf (Elt F) (xLoc c)) :
    (xLoc c ↦{fullShare} f : sProp 𝕄)
      = iprop((xLoc c ↦{fullShare.left} f)
          ∗ (bigSep (Finset.univ : Finset (Fin 8)) fun i => xLoc c ↦[rowsX c (64 * (8 * kM c + i.val)) 64]{fullShare.right} f)
          ∗ (xLoc c ↦[Finset.univ \ rowsX c (512 * kM c) 512]{fullShare.right} f)) := by
  have hp : ∀ i ∈ (Finset.univ : Finset (Fin 8)), ∀ i' ∈ (Finset.univ : Finset (Fin 8)), i ≠ i' →
      Disjoint (rowsX c (64 * (8 * kM c + i.val)) 64) (rowsX c (64 * (8 * kM c + i'.val)) 64) :=
    fun i _ i' _ hne => rowsX_disjoint c _ _ _ _ (by have := Fin.val_ne_of_ne hne; omega)
  have hs := pointsTo_share (Ix := Unit) (Val := Elt F) (Name := ℕ) (U := UU) (Lvl := ℕ) (ℓ := xLoc c)
    (I := Finset.univ) (f := f) (PosShare.mem_left_op_right fullShare)
  have hc := pointsTo_split_subset (Ix := Unit) (Val := Elt F) (Name := ℕ) (U := UU) (Lvl := ℕ) (ℓ := xLoc c)
    (q := fullShare.right) (f := f) (Finset.subset_univ (rowsX c (512 * kM c) 512))
  have e1 : (xLoc c ↦{fullShare} f : sProp 𝕄) = iprop((xLoc c ↦{fullShare.left} f) ∗ (xLoc c ↦{fullShare.right} f)) :=
    BI.equiv_iff.mp ⟨hs.1, hs.2⟩
  have e2 : (xLoc c ↦{fullShare.right} f : sProp 𝕄)
      = iprop((xLoc c ↦[rowsX c (512 * kM c) 512]{fullShare.right} f) ∗ (xLoc c ↦[Finset.univ \ rowsX c (512 * kM c) 512]{fullShare.right} f)) :=
    BI.equiv_iff.mp ⟨hc.1, hc.2⟩
  have e3 : (xLoc c ↦[rowsX c (512 * kM c) 512]{fullShare.right} f : sProp 𝕄)
      = bigSep (Finset.univ : Finset (Fin 8)) fun i => xLoc c ↦[rowsX c (64 * (8 * kM c + i.val)) 64]{fullShare.right} f := by
    rw [rowsX_quarter c, pointsTo_biUnion _ _ hp]
  rw [e1, e2, e3]

/-- The same as a bientailment. -/
theorem x_split (c : Dev nD) (f : Buf (Elt F) (xLoc c)) :
    (xLoc c ↦{fullShare} f : sProp 𝕄)
      ⊣⊢ iprop((xLoc c ↦{fullShare.left} f)
          ∗ (bigSep (Finset.univ : Finset (Fin 8)) fun i => xLoc c ↦[rowsX c (64 * (8 * kM c + i.val)) 64]{fullShare.right} f)
          ∗ (xLoc c ↦[Finset.univ \ rowsX c (512 * kM c) 512]{fullShare.right} f)) :=
  .of_eq (x_split_eq c f)

/-- info: 'Cert.KernelIdeal.AG.out_split' depends on axioms: [propext, Classical.choice, Quot.sound] -/
#guard_msgs in #print axioms out_split

/-- info: 'Cert.KernelIdeal.AG.quarters' depends on axioms: [propext, Classical.choice, Quot.sound] -/
#guard_msgs in #print axioms quarters

/-- info: 'Cert.KernelIdeal.AG.x_split' depends on axioms: [propext, Classical.choice, Quot.sound] -/
#guard_msgs in #print axioms x_split

end Cert.KernelIdeal.AG

end
-- ==== Proof.KI.Lists.lean ====
/-
  The device's positions, tokens, launch credit and closed cells written out as products, entry by entry, in the
  program's order.
-/
import proofs.«900664_g7700000000000665_dist_ag_v7x_xyz2x2x2_y_m2048_n512_f32_1_alg».proof.Proof.KI.Iface

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem nb0 (c : Dev nD) : nb c 0 = yP c := rfl
theorem nb1 (c : Dev nD) : nb c 1 = xP c := rfl
theorem nb2 (c : Dev nD) : nb c 2 = zP c := rfl

set_option maxRecDepth 8000 in
theorem posOf_eq (c : Dev nD) : (posOf c : sProp 𝕄) = iprop(
      atPos ER (barCell c) 0 ∅ 0
      ∗ atPos ER (dCell c (dsem 9)) 0 ∅ 0
      ∗ atPos ER (dCell c (dsem 10)) 0 ∅ 0
      ∗ atPos ER (dCell c (dsem 11)) 0 ∅ 0
      ∗ atPos ER (dCell c (dsem 12)) 0 ∅ 0
      ∗ atPos ER (dCell c (dsem 13)) 0 ∅ 0
      ∗ atPos ER (dCell c (dsem 14)) 0 ∅ 0
      ∗ atPos ER (dCell c (dsem 15)) 0 ∅ 0
      ∗ atPos ER (dCell c (dsem 16)) 0 ∅ 0
      ∗ atPos ER (dCell c (dsem 41)) 0 ∅ 0
      ∗ atPos ER (dCell c (dsem 42)) 0 ∅ 0
      ∗ atPos ER (dCell c (dsem 43)) 0 ∅ 0
      ∗ atPos ER (dCell c (dsem 44)) 0 ∅ 0
      ∗ atPos ER (dCell c (dsem 29)) 0 ∅ 0
      ∗ atPos ER (dCell c (dsem 30)) 0 ∅ 0
      ∗ atPos ER (dCell c (dsem 31)) 0 ∅ 0
      ∗ atPos ER (dCell c (dsem 32)) 0 ∅ 0
      ∗ atPos ER (dCell c (dsem 45)) 0 ∅ 0
      ∗ atPos ER (dCell c (dsem 46)) 0 ∅ 0
      ∗ atPos ER (dCell c (dsem 47)) 0 ∅ 0
      ∗ atPos ER (dCell c (dsem 48)) 0 ∅ 0
      ∗ atPos ER (dCell c (dsem 25)) 0 ∅ 0
      ∗ atPos ER (dCell c (dsem 26)) 0 ∅ 0
      ∗ atPos ER (dCell c (dsem 27)) 0 ∅ 0
      ∗ atPos ER (dCell c (dsem 28)) 0 ∅ 0
      ∗ atPos ER (dCell c (dsem 53)) 0 ∅ 0
      ∗ atPos ER (dCell c (dsem 61)) 0 ∅ 0
      ∗ atPos ER (dCell c (dsem 54)) 0 ∅ 0
      ∗ atPos ER (dCell c (dsem 62)) 0 ∅ 0
      ∗ atPos ER (dCell c (dsem 55)) 0 ∅ 0
      ∗ atPos ER (dCell c (dsem 63)) 0 ∅ 0
      ∗ atPos ER (dCell c (dsem 56)) 0 ∅ 0
      ∗ atPos ER (dCell c (dsem 64)) 0 ∅ 0
      ∗ atPos ER (dCell c (dsem 1)) 0 ∅ 0
      ∗ atPos ER (dCell c (dsem 17)) 0 ∅ 0
      ∗ atPos ER (dCell c (dsem 33)) 0 ∅ 0
      ∗ atPos ER (dCell c (dsem 2)) 0 ∅ 0
      ∗ atPos ER (dCell c (dsem 18)) 0 ∅ 0
      ∗ atPos ER (dCell c (dsem 34)) 0 ∅ 0
      ∗ atPos ER (dCell c (dsem 3)) 0 ∅ 0
      ∗ atPos ER (dCell c (dsem 19)) 0 ∅ 0
      ∗ atPos ER (dCell c (dsem 35)) 0 ∅ 0
      ∗ atPos ER (dCell c (dsem 4)) 0 ∅ 0
      ∗ atPos ER (dCell c (dsem 20)) 0 ∅ 0
      ∗ atPos ER (dCell c (dsem 36)) 0 ∅ 0
      ∗ atPos ER (dCell c (dsem 5)) 0 ∅ 0
      ∗ atPos ER (dCell c (dsem 21)) 0 ∅ 0
      ∗ atPos ER (dCell c (dsem 37)) 0 ∅ 0
      ∗ atPos ER (dCell c (dsem 6)) 0 ∅ 0
      ∗ atPos ER (dCell c (dsem 22)) 0 ∅ 0
      ∗ atPos ER (dCell c (dsem 38)) 0 ∅ 0
      ∗ atPos ER (dCell c (dsem 7)) 0 ∅ 0
      ∗ atPos ER (dCell c (dsem 23)) 0 ∅ 0
      ∗ atPos ER (dCell c (dsem 39)) 0 ∅ 0
      ∗ atPos ER (dCell c (dsem 8)) 0 ∅ 0
      ∗ atPos ER (dCell c (dsem 24)) 0 ∅ 0
      ∗ atPos ER (dCell c (dsem 40)) 0 ∅ 0
      ∗ atPos ER (dCell c (dsem 49)) 0 ∅ 0
      ∗ atPos ER (dCell c (dsem 57)) 0 ∅ 0
      ∗ atPos ER (dCell c (dsem 50)) 0 ∅ 0
      ∗ atPos ER (dCell c (dsem 58)) 0 ∅ 0
      ∗ atPos ER (dCell c (dsem 51)) 0 ∅ 0
      ∗ atPos ER (dCell c (dsem 59)) 0 ∅ 0
      ∗ atPos ER (dCell c (dsem 52)) 0 ∅ 0
      ∗ atPos ER (dCell c (dsem 60)) 0 ∅ 0
      ∗ atPos ER (dCell c (dsem 0)) 0 ∅ 0) := by
  unfold posOf waitIdx; rfl

set_option maxRecDepth 8000 in
theorem toksOf_eq (c : Dev nD) : (toksOf c : sProp 𝕄) = iprop(
      dutyTok ER (barCell (yP c)) 0 0
      ∗ dutyTok ER (barCell (xP c)) 0 1
      ∗ dutyTok ER (barCell (zP c)) 0 2
      ∗ dutyTok ER (dCell c copyS) 0 0
      ∗ (dutyTok ER (dCell c (dsem 1)) 0 0 ∗ dutyTok ER (dCell (yP c) (dsem 9)) 0 0)
      ∗ (dutyTok ER (dCell c (dsem 2)) 0 0 ∗ dutyTok ER (dCell (yP c) (dsem 10)) 0 0)
      ∗ (dutyTok ER (dCell c (dsem 3)) 0 0 ∗ dutyTok ER (dCell (yP c) (dsem 11)) 0 0)
      ∗ (dutyTok ER (dCell c (dsem 4)) 0 0 ∗ dutyTok ER (dCell (yP c) (dsem 12)) 0 0)
      ∗ (dutyTok ER (dCell c (dsem 5)) 0 0 ∗ dutyTok ER (dCell (yP c) (dsem 13)) 0 0)
      ∗ (dutyTok ER (dCell c (dsem 6)) 0 0 ∗ dutyTok ER (dCell (yP c) (dsem 14)) 0 0)
      ∗ (dutyTok ER (dCell c (dsem 7)) 0 0 ∗ dutyTok ER (dCell (yP c) (dsem 15)) 0 0)
      ∗ (dutyTok ER (dCell c (dsem 8)) 0 0 ∗ dutyTok ER (dCell (yP c) (dsem 16)) 0 0)
      ∗ (dutyTok ER (dCell c (dsem 17)) 0 0 ∗ dutyTok ER (dCell (xP c) (dsem 25)) 0 0)
      ∗ (dutyTok ER (dCell c (dsem 33)) 0 0 ∗ dutyTok ER (dCell (zP c) (dsem 41)) 0 0)
      ∗ (dutyTok ER (dCell c (dsem 18)) 0 0 ∗ dutyTok ER (dCell (xP c) (dsem 26)) 0 0)
      ∗ (dutyTok ER (dCell c (dsem 34)) 0 0 ∗ dutyTok ER (dCell (zP c) (dsem 42)) 0 0)
      ∗ (dutyTok ER (dCell c (dsem 19)) 0 0 ∗ dutyTok ER (dCell (xP c) (dsem 27)) 0 0)
      ∗ (dutyTok ER (dCell c (dsem 35)) 0 0 ∗ dutyTok ER (dCell (zP c) (dsem 43)) 0 0)
      ∗ (dutyTok ER (dCell c (dsem 20)) 0 0 ∗ dutyTok ER (dCell (xP c) (dsem 28)) 0 0)
      ∗ (dutyTok ER (dCell c (dsem 36)) 0 0 ∗ dutyTok ER (dCell (zP c) (dsem 44)) 0 0)
      ∗ (dutyTok ER (dCell c (dsem 21)) 0 0 ∗ dutyTok ER (dCell (xP c) (dsem 29)) 0 0)
      ∗ (dutyTok ER (dCell c (dsem 37)) 0 0 ∗ dutyTok ER (dCell (zP c) (dsem 45)) 0 0)
      ∗ (dutyTok ER (dCell c (dsem 22)) 0 0 ∗ dutyTok ER (dCell (xP c) (dsem 30)) 0 0)
      ∗ (dutyTok ER (dCell c (dsem 38)) 0 0 ∗ dutyTok ER (dCell (zP c) (dsem 46)) 0 0)
      ∗ (dutyTok ER (dCell c (dsem 23)) 0 0 ∗ dutyTok ER (dCell (xP c) (dsem 31)) 0 0)
      ∗ (dutyTok ER (dCell c (dsem 39)) 0 0 ∗ dutyTok ER (dCell (zP c) (dsem 47)) 0 0)
      ∗ (dutyTok ER (dCell c (dsem 24)) 0 0 ∗ dutyTok ER (dCell (xP c) (dsem 32)) 0 0)
      ∗ (dutyTok ER (dCell c (dsem 40)) 0 0 ∗ dutyTok ER (dCell (zP c) (dsem 48)) 0 0)
      ∗ (dutyTok ER (dCell c (dsem 49)) 0 0 ∗ dutyTok ER (dCell (xP c) (dsem 53)) 0 0)
      ∗ (dutyTok ER (dCell c (dsem 50)) 0 0 ∗ dutyTok ER (dCell (xP c) (dsem 54)) 0 0)
      ∗ (dutyTok ER (dCell c (dsem 51)) 0 0 ∗ dutyTok ER (dCell (xP c) (dsem 55)) 0 0)
      ∗ (dutyTok ER (dCell c (dsem 52)) 0 0 ∗ dutyTok ER (dCell (xP c) (dsem 56)) 0 0)
      ∗ (dutyTok ER (dCell c (dsem 57)) 0 0 ∗ dutyTok ER (dCell (zP c) (dsem 61)) 0 0)
      ∗ (dutyTok ER (dCell c (dsem 58)) 0 0 ∗ dutyTok ER (dCell (zP c) (dsem 62)) 0 0)
      ∗ (dutyTok ER (dCell c (dsem 59)) 0 0 ∗ dutyTok ER (dCell (zP c) (dsem 63)) 0 0)
      ∗ (dutyTok ER (dCell c (dsem 60)) 0 0 ∗ dutyTok ER (dCell (zP c) (dsem 64)) 0 0)) := by
  unfold toksOf enqs; rfl

set_option maxRecDepth 8000 in
theorem credsOf_eq (c : Dev nD) : (credsOf c : sProp 𝕄) = iprop(
      cred (tallyAt (barCell c) () 3)
      ∗ cred (tallyAt (dCell c (dsem 9)) () N64)
      ∗ cred (tallyAt (dCell c (dsem 10)) () N64)
      ∗ cred (tallyAt (dCell c (dsem 11)) () N64)
      ∗ cred (tallyAt (dCell c (dsem 12)) () N64)
      ∗ cred (tallyAt (dCell c (dsem 13)) () N64)
      ∗ cred (tallyAt (dCell c (dsem 14)) () N64)
      ∗ cred (tallyAt (dCell c (dsem 15)) () N64)
      ∗ cred (tallyAt (dCell c (dsem 16)) () N64)
      ∗ cred (tallyAt (dCell c (dsem 41)) () N64)
      ∗ cred (tallyAt (dCell c (dsem 42)) () N64)
      ∗ cred (tallyAt (dCell c (dsem 43)) () N64)
      ∗ cred (tallyAt (dCell c (dsem 44)) () N64)
      ∗ cred (tallyAt (dCell c (dsem 29)) () N64)
      ∗ cred (tallyAt (dCell c (dsem 30)) () N64)
      ∗ cred (tallyAt (dCell c (dsem 31)) () N64)
      ∗ cred (tallyAt (dCell c (dsem 32)) () N64)
      ∗ cred (tallyAt (dCell c (dsem 45)) () N64)
      ∗ cred (tallyAt (dCell c (dsem 46)) () N64)
      ∗ cred (tallyAt (dCell c (dsem 47)) () N64)
      ∗ cred (tallyAt (dCell c (dsem 48)) () N64)
      ∗ cred (tallyAt (dCell c (dsem 25)) () N64)
      ∗ cred (tallyAt (dCell c (dsem 26)) () N64)
      ∗ cred (tallyAt (dCell c (dsem 27)) () N64)
      ∗ cred (tallyAt (dCell c (dsem 28)) () N64)
      ∗ cred (tallyAt (dCell c (dsem 53)) () N64)
      ∗ cred (tallyAt (dCell c (dsem 61)) () N64)
      ∗ cred (tallyAt (dCell c (dsem 54)) () N64)
      ∗ cred (tallyAt (dCell c (dsem 62)) () N64)
      ∗ cred (tallyAt (dCell c (dsem 55)) () N64)
      ∗ cred (tallyAt (dCell c (dsem 63)) () N64)
      ∗ cred (tallyAt (dCell c (dsem 56)) () N64)
      ∗ cred (tallyAt (dCell c (dsem 64)) () N64)) := by
  unfold credsOf recvIdx; rfl

set_option maxRecDepth 8000 in
theorem done_eq (c : Dev nD) : (done c : sProp 𝕄) = iprop(
      semVal ((c : Thread nD τ), osem 9) 0
      ∗ semVal ((c : Thread nD τ), osem 10) 0
      ∗ semVal ((c : Thread nD τ), osem 11) 0
      ∗ semVal ((c : Thread nD τ), osem 12) 0
      ∗ semVal ((c : Thread nD τ), osem 13) 0
      ∗ semVal ((c : Thread nD τ), osem 14) 0
      ∗ semVal ((c : Thread nD τ), osem 15) 0
      ∗ semVal ((c : Thread nD τ), osem 16) 0
      ∗ semVal ((c : Thread nD τ), osem 41) 0
      ∗ semVal ((c : Thread nD τ), osem 42) 0
      ∗ semVal ((c : Thread nD τ), osem 43) 0
      ∗ semVal ((c : Thread nD τ), osem 44) 0
      ∗ semVal ((c : Thread nD τ), osem 29) 0
      ∗ semVal ((c : Thread nD τ), osem 30) 0
      ∗ semVal ((c : Thread nD τ), osem 31) 0
      ∗ semVal ((c : Thread nD τ), osem 32) 0
      ∗ semVal ((c : Thread nD τ), osem 45) 0
      ∗ semVal ((c : Thread nD τ), osem 46) 0
      ∗ semVal ((c : Thread nD τ), osem 47) 0
      ∗ semVal ((c : Thread nD τ), osem 48) 0
      ∗ semVal ((c : Thread nD τ), osem 25) 0
      ∗ semVal ((c : Thread nD τ), osem 26) 0
      ∗ semVal ((c : Thread nD τ), osem 27) 0
      ∗ semVal ((c : Thread nD τ), osem 28) 0
      ∗ semVal ((c : Thread nD τ), osem 53) 0
      ∗ semVal ((c : Thread nD τ), osem 61) 0
      ∗ semVal ((c : Thread nD τ), osem 54) 0
      ∗ semVal ((c : Thread nD τ), osem 62) 0
      ∗ semVal ((c : Thread nD τ), osem 55) 0
      ∗ semVal ((c : Thread nD τ), osem 63) 0
      ∗ semVal ((c : Thread nD τ), osem 56) 0
      ∗ semVal ((c : Thread nD τ), osem 64) 0
      ∗ semVal ((c : Thread nD τ), osem 1) 0
      ∗ semVal ((c : Thread nD τ), osem 17) 0
      ∗ semVal ((c : Thread nD τ), osem 33) 0
      ∗ semVal ((c : Thread nD τ), osem 2) 0
      ∗ semVal ((c : Thread nD τ), osem 18) 0
      ∗ semVal ((c : Thread nD τ), osem 34) 0
      ∗ semVal ((c : Thread nD τ), osem 3) 0
      ∗ semVal ((c : Thread nD τ), osem 19) 0
      ∗ semVal ((c : Thread nD τ), osem 35) 0
      ∗ semVal ((c : Thread nD τ), osem 4) 0
      ∗ semVal ((c : Thread nD τ), osem 20) 0
      ∗ semVal ((c : Thread nD τ), osem 36) 0
      ∗ semVal ((c : Thread nD τ), osem 5) 0
      ∗ semVal ((c : Thread nD τ), osem 21) 0
      ∗ semVal ((c : Thread nD τ), osem 37) 0
      ∗ semVal ((c : Thread nD τ), osem 6) 0
      ∗ semVal ((c : Thread nD τ), osem 22) 0
      ∗ semVal ((c : Thread nD τ), osem 38) 0
      ∗ semVal ((c : Thread nD τ), osem 7) 0
      ∗ semVal ((c : Thread nD τ), osem 23) 0
      ∗ semVal ((c : Thread nD τ), osem 39) 0
      ∗ semVal ((c : Thread nD τ), osem 8) 0
      ∗ semVal ((c : Thread nD τ), osem 24) 0
      ∗ semVal ((c : Thread nD τ), osem 40) 0
      ∗ semVal ((c : Thread nD τ), osem 49) 0
      ∗ semVal ((c : Thread nD τ), osem 57) 0
      ∗ semVal ((c : Thread nD τ), osem 50) 0
      ∗ semVal ((c : Thread nD τ), osem 58) 0
      ∗ semVal ((c : Thread nD τ), osem 51) 0
      ∗ semVal ((c : Thread nD τ), osem 59) 0
      ∗ semVal ((c : Thread nD τ), osem 52) 0
      ∗ semVal ((c : Thread nD τ), osem 60) 0
      ∗ semVal ((c : Thread nD τ), osem 0) 0) := by
  unfold done waitIdx; rfl

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdeal.AG

end
-- ==== Proof.KI.Body.lean ====
/-
  One device's body of the all-gather, stepped from its ghost state to its post: every transfer's source and
  destination are rows the device holds at that moment, every wait is below what the device still owes, and at the
  end the two staging buffers are whole again, the output one holding the gathered array.
-/
import proofs.«900664_g7700000000000665_dist_ag_v7x_xyz2x2x2_y_m2048_n512_f32_1_alg».proof.Proof.KI.Steps
import proofs.«900664_g7700000000000665_dist_ag_v7x_xyz2x2x2_y_m2048_n512_f32_1_alg».proof.Proof.KI.Steps3
import proofs.«900664_g7700000000000665_dist_ag_v7x_xyz2x2x2_y_m2048_n512_f32_1_alg».proof.Proof.KI.Levels
import proofs.«900664_g7700000000000665_dist_ag_v7x_xyz2x2x2_y_m2048_n512_f32_1_alg».proof.Proof.KI.Part
import proofs.«900664_g7700000000000665_dist_ag_v7x_xyz2x2x2_y_m2048_n512_f32_1_alg».proof.Proof.KI.Lists
import proofs.«900664_g7700000000000665_dist_ag_v7x_xyz2x2x2_y_m2048_n512_f32_1_alg».proof.Proof.KI.SchedC
import proofs.«900664_g7700000000000665_dist_ag_v7x_xyz2x2x2_y_m2048_n512_f32_1_alg».proof.Proof.KI.Credit
import proofs.«900664_g7700000000000665_dist_ag_v7x_xyz2x2x2_y_m2048_n512_f32_1_alg».proof.Proof.Gen.KernelIdeal.Points

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The level conditions at a wait, as a computation over the list of what is still owed. -/
theorem mayWait_bar_all (c : Dev nD) (l : List (GSem nD τ sig × ℕ))
    (h : (l.all fun p => decide (p.1.1.2 = .tc ∧ 1 < lv p.1 ())) = true) :
    (levAts L lv : sProp 𝕄) ⊢ MayWait (c : Thread nD τ) (.reg barS) () (owedL l) :=
  mayWait_bar c l fun p hp => of_decide_eq_true (List.all_eq_true.mp h p hp)
theorem mayWait_dma_all (c : Dev nD) (n : DmaSem sig) (l : List (GSem nD τ sig × ℕ))
    (h : (l.all fun p => decide (p.1.1.2 = .tc ∧ lvN n.val < lv p.1 ())) = true) :
    (levAts L lv : sProp 𝕄) ⊢ MayWait (c : Thread nD τ) (.dma n) () (owedL l) :=
  mayWait_dma c n l fun p hp => of_decide_eq_true (List.all_eq_true.mp h p hp)

/-- The wait on a DMA cell whose transfer moved a 64-row chunk of the output buffer, handing back what the cell's one
    duty carries (given in evaluated form): the amount is the chunk's credit, whatever the chunk's offset. -/
theorem wp_dwait64 (K : Dev nD × Fin 66 → ℕ) (c : Dev nD) (n : DmaSem sig) (h2 : 2 ≤ n.val) (hn : n.val ≠ 2)
    (O : CellTallies nD τ sig Unit) (W₀ : Waits sig Unit) (off : Fin 2 → ℕ) (inb : ∀ a, off a + S64x512.size a ≤ S4096x512.size a)
    (P : sProp 𝕄) (hp : dmaPay m c (n : DmaSem sig).val = P)
    {sp' : Space} {s' : Shape} {e' : EltTy} {src : Memref sig .tc sp' s' e'} {hsrc hdst}
    {α : Type} {Q : α → sProp 𝕄} {k : PUnit → Prog (TpuEff nD τ sig (Elt F) Λ₀ .tc) α} :
    iprop(records m K ∗ cred (tallyAt (dCell c (n)) () N64) ∗ owes (c : Thread nD τ) O W₀ ∗ MayWait (c : Thread nD τ) (.dma (n)) () O ∗ atPos ER (dCell c (n)) 0 ∅ 0)
      ⊢ iprop(((owes (c : Thread nD τ) O (insert (SemLoc.dma (n), ()) W₀) ∗ semVal (dCell c (n)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (n) src (oM.slice (Rect.unit (s := S4096x512) off S64x512.size inb) (fun _ => rfl)) hsrc hdst) k) Q) := by
  subst hp
  exact wp_dwait m K c (n) h2 N64 (expect_dma m c n h2 hn) O W₀ (fun Kc => rfl)

/-- The same when the view named is a 64-row chunk of the input buffer (the send side of a transfer out of it). -/
theorem wp_dwait64x (K : Dev nD × Fin 66 → ℕ) (c : Dev nD) (n : DmaSem sig) (h2 : 2 ≤ n.val) (hn : n.val ≠ 2)
    (O : CellTallies nD τ sig Unit) (W₀ : Waits sig Unit) (off : Fin 2 → ℕ) (inb : ∀ a, off a + S64x512.size a ≤ S2048x512.size a)
    (P : sProp 𝕄) (hp : dmaPay m c (n : DmaSem sig).val = P)
    {sp' : Space} {s' : Shape} {e' : EltTy} {src : Memref sig .tc sp' s' e'} {hsrc hdst}
    {α : Type} {Q : α → sProp 𝕄} {k : PUnit → Prog (TpuEff nD τ sig (Elt F) Λ₀ .tc) α} :
    iprop(records m K ∗ cred (tallyAt (dCell c (n)) () N64) ∗ owes (c : Thread nD τ) O W₀ ∗ MayWait (c : Thread nD τ) (.dma (n)) () O ∗ atPos ER (dCell c (n)) 0 ∅ 0)
      ⊢ iprop(((owes (c : Thread nD τ) O (insert (SemLoc.dma (n), ()) W₀) ∗ semVal (dCell c (n)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (n) src (xM.slice (Rect.unit (s := S2048x512) off S64x512.size inb) (fun _ => rfl)) hsrc hdst) k) Q) := by
  subst hp
  exact wp_dwait m K c (n) h2 N64 (expect_dma m c n h2 hn) O W₀ (fun Kc => rfl)

/-- The wait on the copy cell: the amount is the own half's credit. -/
theorem wp_dwaitH (K : Dev nD × Fin 66 → ℕ) (c : Dev nD)
    (O : CellTallies nD τ sig Unit) (W₀ : Waits sig Unit) (off : Fin 2 → ℕ) (inb : ∀ a, off a + S2048x512.size a ≤ S4096x512.size a)
    (P : sProp 𝕄) (hp : dmaPay m c (copyS : DmaSem sig).val = P)
    {sp' : Space} {s' : Shape} {e' : EltTy} {src : Memref sig .tc sp' s' e'} {hsrc hdst}
    {α : Type} {Q : α → sProp 𝕄} {k : PUnit → Prog (TpuEff nD τ sig (Elt F) Λ₀ .tc) α} :
    iprop(records m K ∗ cred (tallyAt (dCell c (copyS)) () Nh) ∗ owes (c : Thread nD τ) O W₀ ∗ MayWait (c : Thread nD τ) (.dma (copyS)) () O ∗ atPos ER (dCell c (copyS)) 0 ∅ 0)
      ⊢ iprop(((owes (c : Thread nD τ) O (insert (SemLoc.dma (copyS), ()) W₀) ∗ semVal (dCell c (copyS)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (copyS) src (oM.slice (Rect.unit (s := S4096x512) off S2048x512.size inb) (fun _ => rfl)) hsrc hdst) k) Q) := by
  subst hp
  exact wp_dwait m K c (copyS) (le_refl 2) Nh (expect_copy m c) O W₀ (fun Kc => rfl)

/-- A chunk held at known contents is a chunk held at some contents. -/
theorem some_of (c : Dev nD) (j : ℕ) (f : Buf (Elt F) (oLoc c)) :
    (oLoc c ↦[rowsO c (recvBase c + 64 * j) 64]{fullShare} f : sProp 𝕄) ⊢ someChunk (F := F) c j := by
  unfold someChunk; iintro H; iexists f; iexact H

theorem some_group8 (c : Dev nD) (a : ℕ) (f : Buf (Elt F) (oLoc c)) :
    (bigSep (Finset.univ : Finset (Fin 8)) fun i => (oLoc c ↦[rowsO c (recvBase c + 64 * (a + i.val)) 64]{fullShare} f : sProp 𝕄))
      ⊢ bigSep (Finset.univ : Finset (Fin 8)) fun i => someChunk (F := F) c (a + i.val) :=
  bigSep_mono fun i _ => some_of c _ f
theorem some_group4 (c : Dev nD) (a : ℕ) (f : Buf (Elt F) (oLoc c)) :
    (bigSep (Finset.univ : Finset (Fin 4)) fun i => (oLoc c ↦[rowsO c (recvBase c + 64 * (a + i.val)) 64]{fullShare} f : sProp 𝕄))
      ⊢ bigSep (Finset.univ : Finset (Fin 4)) fun i => someChunk (F := F) c (a + i.val) :=
  bigSep_mono fun i _ => some_of c _ f

theorem barPay0 (c : Dev nD) : barPay (F := F) c 0 = bigSep (Finset.univ : Finset (Fin 8)) fun i => someChunk (F := F) (yP c) (8 * kM c + i.val) := rfl
theorem barPay1 (c : Dev nD) : barPay (F := F) c 1
    = iprop((bigSep (Finset.univ : Finset (Fin 8)) fun i => someChunk (F := F) (xP c) (8 * kM c + i.val))
      ∗ bigSep (Finset.univ : Finset (Fin 4)) fun j => someChunk (F := F) (xP c) (8 * kZ c + j.val)) := rfl
theorem barPay2 (c : Dev nD) : barPay (F := F) c 2
    = iprop((bigSep (Finset.univ : Finset (Fin 8)) fun i => someChunk (F := F) (zP c) (8 * kM c + i.val))
      ∗ bigSep (Finset.univ : Finset (Fin 4)) fun j => someChunk (F := F) (zP c) (8 * kX c + 4 + j.val)) := rfl

/-- A landed chunk is lent out as two half shares, one to each of two concurrent readers, and comes back whole. -/
theorem chunk_halve (c : Dev nD) (j : ℕ) : chunk m c j fullShare ⊢ iprop(chunk m c j fullShare.left ∗ chunk m c j fullShare.right) := by
  unfold chunk; exact (pointsTo_share (PosShare.mem_left_op_right fullShare)).1
theorem chunk_join (c : Dev nD) (j : ℕ) : iprop(chunk m c j fullShare.left ∗ chunk m c j fullShare.right) ⊢ chunk m c j fullShare := by
  unfold chunk; exact (pointsTo_share (PosShare.mem_left_op_right fullShare)).2

/-- The input staging buffer from its pieces: the half share that the local copy read, the eight chunks the transfers to
    the y-neighbour read, and the rest. -/
theorem rejoin_x (c : Dev nD) :
    iprop((xLoc c ↦[Finset.univ]{fullShare.left} X m c)
      ∗ (xLoc c ↦[rowsX c (64 * (8 * kM c + ((0 : Fin 8) : ℕ))) 64]{fullShare.right} X m c)
      ∗ (xLoc c ↦[rowsX c (64 * (8 * kM c + ((1 : Fin 8) : ℕ))) 64]{fullShare.right} X m c)
      ∗ (xLoc c ↦[rowsX c (64 * (8 * kM c + ((2 : Fin 8) : ℕ))) 64]{fullShare.right} X m c)
      ∗ (xLoc c ↦[rowsX c (64 * (8 * kM c + ((3 : Fin 8) : ℕ))) 64]{fullShare.right} X m c)
      ∗ (xLoc c ↦[rowsX c (64 * (8 * kM c + ((4 : Fin 8) : ℕ))) 64]{fullShare.right} X m c)
      ∗ (xLoc c ↦[rowsX c (64 * (8 * kM c + ((5 : Fin 8) : ℕ))) 64]{fullShare.right} X m c)
      ∗ (xLoc c ↦[rowsX c (64 * (8 * kM c + ((6 : Fin 8) : ℕ))) 64]{fullShare.right} X m c)
      ∗ (xLoc c ↦[rowsX c (64 * (8 * kM c + ((7 : Fin 8) : ℕ))) 64]{fullShare.right} X m c)
      ∗ (xLoc c ↦[Finset.univ \ rowsX c (512 * kM c) 512]{fullShare.right} X m c))
      ⊢ (xLoc c ↦{fullShare} X m c : sProp 𝕄) := by
  rw [x_split_eq c (X m c), bigSep_fin8]
  iintro ⟨HxL, Xr0, Xr1, Xr2, Xr3, Xr4, Xr5, Xr6, Xr7, HxRest⟩
  isplitl [HxL]; · iexact HxL
  isplitl [Xr0 Xr1 Xr2 Xr3 Xr4 Xr5 Xr6 Xr7]
  · isplitl [Xr0]; · iexact Xr0
    isplitl [Xr1]; · iexact Xr1
    isplitl [Xr2]; · iexact Xr2
    isplitl [Xr3]; · iexact Xr3
    isplitl [Xr4]; · iexact Xr4
    isplitl [Xr5]; · iexact Xr5
    isplitl [Xr6]; · iexact Xr6
    iexact Xr7
  iexact HxRest

/-- The output staging buffer from its pieces, each holding its final contents: the own half and the 32 chunks of the
    received half, as the four quarters deliver them. -/
theorem rejoin_out (c : Dev nD) :
    iprop((oLoc c ↦[rowsO c (ownBase c) 2048]{fullShare} W m c)
      ∗ (chunk m c (8 * kM c + ((0 : Fin 8) : ℕ)) fullShare
        ∗ chunk m c (8 * kM c + ((1 : Fin 8) : ℕ)) fullShare
        ∗ chunk m c (8 * kM c + ((2 : Fin 8) : ℕ)) fullShare
        ∗ chunk m c (8 * kM c + ((3 : Fin 8) : ℕ)) fullShare
        ∗ chunk m c (8 * kM c + ((4 : Fin 8) : ℕ)) fullShare
        ∗ chunk m c (8 * kM c + ((5 : Fin 8) : ℕ)) fullShare
        ∗ chunk m c (8 * kM c + ((6 : Fin 8) : ℕ)) fullShare
        ∗ chunk m c (8 * kM c + ((7 : Fin 8) : ℕ)) fullShare)
      ∗ (chunk m c (8 * kX c + ((0 : Fin 8) : ℕ)) fullShare
        ∗ chunk m c (8 * kX c + ((1 : Fin 8) : ℕ)) fullShare
        ∗ chunk m c (8 * kX c + ((2 : Fin 8) : ℕ)) fullShare
        ∗ chunk m c (8 * kX c + ((3 : Fin 8) : ℕ)) fullShare
        ∗ chunk m c (8 * kX c + 4 + ((0 : Fin 4) : ℕ)) fullShare
        ∗ chunk m c (8 * kX c + 4 + ((1 : Fin 4) : ℕ)) fullShare
        ∗ chunk m c (8 * kX c + 4 + ((2 : Fin 4) : ℕ)) fullShare
        ∗ chunk m c (8 * kX c + 4 + ((3 : Fin 4) : ℕ)) fullShare)
      ∗ (chunk m c (8 * kZ c + ((0 : Fin 4) : ℕ)) fullShare
        ∗ chunk m c (8 * kZ c + ((1 : Fin 4) : ℕ)) fullShare
        ∗ chunk m c (8 * kZ c + ((2 : Fin 4) : ℕ)) fullShare
        ∗ chunk m c (8 * kZ c + ((3 : Fin 4) : ℕ)) fullShare
        ∗ chunk m c (8 * kZ c + ((4 : Fin 8) : ℕ)) fullShare
        ∗ chunk m c (8 * kZ c + ((5 : Fin 8) : ℕ)) fullShare
        ∗ chunk m c (8 * kZ c + ((6 : Fin 8) : ℕ)) fullShare
        ∗ chunk m c (8 * kZ c + ((7 : Fin 8) : ℕ)) fullShare)
      ∗ (chunk m c (8 * kD c + ((0 : Fin 4) : ℕ)) fullShare
        ∗ chunk m c (8 * kD c + ((1 : Fin 4) : ℕ)) fullShare
        ∗ chunk m c (8 * kD c + ((2 : Fin 4) : ℕ)) fullShare
        ∗ chunk m c (8 * kD c + ((3 : Fin 4) : ℕ)) fullShare
        ∗ chunk m c (8 * kD c + 4 + ((0 : Fin 4) : ℕ)) fullShare
        ∗ chunk m c (8 * kD c + 4 + ((1 : Fin 4) : ℕ)) fullShare
        ∗ chunk m c (8 * kD c + 4 + ((2 : Fin 4) : ℕ)) fullShare
        ∗ chunk m c (8 * kD c + 4 + ((3 : Fin 4) : ℕ)) fullShare))
      ⊢ (oLoc c ↦{fullShare} W m c : sProp 𝕄) := by
  unfold chunk
  rw [out_split c (W m c), quarters_eq c fun j => (oLoc c ↦[rowsO c (recvBase c + 64 * j) 64]{fullShare} W m c : sProp 𝕄),
    bigSep_fin8, bigSep_fin8, bigSep_fin8, bigSep_fin4, bigSep_fin4]
  iintro ⟨Hown, ⟨Pm0, Pm1, Pm2, Pm3, Pm4, Pm5, Pm6, Pm7⟩, ⟨Px0, Px1, Px2, Px3, Px4, Px5, Px6, Px7⟩, ⟨Pz0, Pz1, Pz2, Pz3, Pz4, Pz5, Pz6, Pz7⟩, ⟨Pd0, Pd1, Pd2, Pd3, Pd4, Pd5, Pd6, Pd7⟩⟩
  isplitl [Hown]; · iexact Hown
  isplitl [Pm0 Pm1 Pm2 Pm3 Pm4 Pm5 Pm6 Pm7]
  · isplitl [Pm0]; · iexact Pm0
    isplitl [Pm1]; · iexact Pm1
    isplitl [Pm2]; · iexact Pm2
    isplitl [Pm3]; · iexact Pm3
    isplitl [Pm4]; · iexact Pm4
    isplitl [Pm5]; · iexact Pm5
    isplitl [Pm6]; · iexact Pm6
    iexact Pm7
  isplitl [Px0 Px1 Px2 Px3 Px4 Px5 Px6 Px7]
  · isplitl [Px0]; · iexact Px0
    isplitl [Px1]; · iexact Px1
    isplitl [Px2]; · iexact Px2
    isplitl [Px3]; · iexact Px3
    isplitl [Px4]; · iexact Px4
    isplitl [Px5]; · iexact Px5
    isplitl [Px6]; · iexact Px6
    iexact Px7
  isplitl [Pz0 Pz1 Pz2 Pz3 Pz4 Pz5 Pz6 Pz7]
  · isplitl [Pz0]; · iexact Pz0
    isplitl [Pz1]; · iexact Pz1
    isplitl [Pz2]; · iexact Pz2
    isplitl [Pz3]; · iexact Pz3
    isplitl [Pz4]; · iexact Pz4
    isplitl [Pz5]; · iexact Pz5
    isplitl [Pz6]; · iexact Pz6
    iexact Pz7
  isplitl [Pd0 Pd1 Pd2 Pd3]
  · isplitl [Pd0]; · iexact Pd0
    isplitl [Pd1]; · iexact Pd1
    isplitl [Pd2]; · iexact Pd2
    iexact Pd3
  isplitl [Pd4]; · iexact Pd4
  isplitl [Pd5]; · iexact Pd5
  isplitl [Pd6]; · iexact Pd6
  iexact Pd7

/-- The barrier wait with the operation spelt: the amount is the three neighbours' units. -/
theorem wp_barwait' (K : Dev nD × Fin 66 → ℕ) (c : Dev nD) (O : CellTallies nD τ sig Unit) (W₀ : Waits sig Unit) {k' : ℕ} (hk' : k' = 3)
    {α : Type} {Q : α → sProp 𝕄} {k : PUnit → Prog (TpuEff nD τ sig (Elt F) Λ₀ .tc) α} :
    iprop(records m K ∗ cred (tallyAt (barCell c) () 3) ∗ owes (c : Thread nD τ) O W₀ ∗ MayWait (c : Thread nD τ) (.reg barS) () O ∗ atPos ER (barCell c) 0 ∅ 0)
      ⊢ iprop(((owes (c : Thread nD τ) O (insert (SemLoc.reg barS, ()) W₀) ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  exact wp_barwait m K c O W₀ (fun Kc => rfl)

/-- The x- and the z-neighbour's payloads, written out. -/
theorem pay12 (c : Dev nD) : (iprop(barPay (F := F) c 1 ∗ barPay (F := F) c 2) : sProp 𝕄)
    = iprop(((bigSep (Finset.univ : Finset (Fin 8)) fun i => someChunk (F := F) (xP c) (8 * kM c + i.val))
        ∗ bigSep (Finset.univ : Finset (Fin 4)) fun j => someChunk (F := F) (xP c) (8 * kZ c + j.val))
      ∗ ((bigSep (Finset.univ : Finset (Fin 8)) fun i => someChunk (F := F) (zP c) (8 * kM c + i.val))
        ∗ bigSep (Finset.univ : Finset (Fin 4)) fun j => someChunk (F := F) (zP c) (8 * kX c + 4 + j.val))) := by
  rw [barPay1, barPay2]

set_option maxRecDepth 65536 in
set_option maxHeartbeats 60000000 in
theorem sound_body (K : Dev nD × Fin 66 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4 cc0_scratch5 cc0_scratch6 cc0_scratch7 cc0_scratch8 cc0_scratch9 cc0_scratch10) Kt := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c]
  unfold bodyPre ghost
  rw [posOf_eq, toksOf_eq, credsOf_eq]
  iintro ⟨⟨⟨⟨#HR, ⟨HatB, A9, A10, A11, A12, A13, A14, A15, A16, A41, A42, A43, A44, A29, A30, A31, A32, A45, A46, A47, A48, A25, A26, A27, A28, A53, A61, A54, A62, A55, A63, A56, A64, A1, A17, A33, A2, A18, A34, A3, A19, A35, A4, A20, A36, A5, A21, A37, A6, A22, A38, A7, A23, A39, A8, A24, A40, A49, A57, A50, A58, A51, A59, A52, A60, A0⟩, ⟨HtBy, HtBx, HtBz, HtC, ⟨S1, R9⟩, ⟨S2, R10⟩, ⟨S3, R11⟩, ⟨S4, R12⟩, ⟨S5, R13⟩, ⟨S6, R14⟩, ⟨S7, R15⟩, ⟨S8, R16⟩, ⟨S17, R25⟩, ⟨S33, R41⟩, ⟨S18, R26⟩, ⟨S34, R42⟩, ⟨S19, R27⟩, ⟨S35, R43⟩, ⟨S20, R28⟩, ⟨S36, R44⟩, ⟨S21, R29⟩, ⟨S37, R45⟩, ⟨S22, R30⟩, ⟨S38, R46⟩, ⟨S23, R31⟩, ⟨S39, R47⟩, ⟨S24, R32⟩, ⟨S40, R48⟩, ⟨S49, R53⟩, ⟨S50, R54⟩, ⟨S51, R55⟩, ⟨S52, R56⟩, ⟨S57, R61⟩, ⟨S58, R62⟩, ⟨S59, R63⟩, ⟨S60, R64⟩⟩⟩, ⟨HcB, C9, C10, C11, C12, C13, C14, C15, C16, C41, C42, C43, C44, C29, C30, C31, C32, C45, C46, C47, C48, C25, C26, C27, C28, C53, C61, C54, C62, C55, C63, C56, C64⟩, #Hlev⟩, Ho, ⟨%d0, %g0, %hg0, Hx⟩, ⟨%d1, %g1, %hg1, Hout⟩⟩, Hk⟩
  have hx : g0 = X m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the output staging buffer: the own half and the 32 chunks of the received half, by quarter
  ihave Hout := (Entails.of_eq (out_split c g1)) $$ Hout
  icases Hout with ⟨Hown, Hch⟩
  ihave Hch := (Entails.of_eq (quarters_eq c fun j => (oLoc c ↦[rowsO c (recvBase c + 64 * j) 64]{fullShare} g1 : sProp 𝕄))) $$ Hch
  icases Hch with ⟨GM, GX, GZ, GDl, GDh⟩
  -- the input staging buffer: a half share whole for the local copy, the other half share by chunk for the y-neighbour
  ihave Hx := (Entails.of_eq (x_split_eq c (X m c))) $$ Hx
  icases Hx with ⟨HxL, Hxq, HxRest⟩
  ihave Hxq := (Entails.of_eq (bigSep_fin8 _)) $$ Hxq
  icases Hxq with ⟨Xq0, Xq1, Xq2, Xq3, Xq4, Xq5, Xq6, Xq7⟩
  -- the three signals: each neighbour is lent the chunks it will write
  iapply (wp_sig m K c 0 (yP c) (owedL ((plan c).drop 1)) W rfl (by routes)) $$ [HO HtBy GM]
  · isplitr; · iexact HR
    isplitl [HO]; · iexact HO
    isplitl [HtBy]; · iexact HtBy
    rw [barPay_y]; iapply (some_group8 c (8 * kM c) g1); iexact GM
  iintro HO
  iapply (wp_sig m K c 1 (xP c) (owedL ((plan c).drop 2)) W rfl (by routes)) $$ [HO HtBx GX GDl]
  · isplitr; · iexact HR
    isplitl [HO]; · iexact HO
    isplitl [HtBx]; · iexact HtBx
    rw [barPay_x]
    isplitl [GX]; · iapply (some_group8 c (8 * kX c) g1); iexact GX
    iapply (some_group4 c (8 * kD c) g1); iexact GDl
  iintro HO
  iapply (wp_sig m K c 2 (zP c) (owedL ((plan c).drop 3)) W rfl (by routes)) $$ [HO HtBz GZ GDh]
  · isplitr; · iexact HR
    isplitl [HO]; · iexact HO
    isplitl [HtBz]; · iexact HtBz
    rw [barPay_z]
    isplitl [GZ]; · iapply (some_group8 c (8 * kZ c) g1); iexact GZ
    iapply (some_group4 c (8 * kD c + 4) g1); iexact GDh
  iintro HO
  -- the wait for the three neighbours: their chunks come with it
  iapply (wp_barwait' m K c (owedL ((plan c).drop 3)) W rfl) $$ [HcB HO HatB]
  · isplitr; · iexact HR
    isplitl [HcB]; · iexact HcB
    isplitl [HO]; · iexact HO
    isplitr; · iapply (mayWait_bar_enqs c (by decide)); iexact Hlev
    iexact HatB
  iintro ⟨HO, B0, Bs⟩
  ihave B0 := (Entails.of_eq ((barPay0 (F := F) c).trans (bigSep_fin8 _))) $$ B0
  icases B0 with ⟨Dy0, Dy1, Dy2, Dy3, Dy4, Dy5, Dy6, Dy7⟩
  ihave Bs := (Entails.of_eq (pay12 (F := F) c)) $$ Bs
  icases Bs with ⟨⟨B1a, B1b⟩, B2a, B2b⟩
  ihave B1a := (Entails.of_eq (bigSep_fin8 _)) $$ B1a
  icases B1a with ⟨Dx0, Dx1, Dx2, Dx3, Dx4, Dx5, Dx6, Dx7⟩
  ihave B1b := (Entails.of_eq (bigSep_fin4 _)) $$ B1b
  icases B1b with ⟨Ex0, Ex1, Ex2, Ex3⟩
  ihave B2a := (Entails.of_eq (bigSep_fin8 _)) $$ B2a
  icases B2a with ⟨Dz0, Dz1, Dz2, Dz3, Dz4, Dz5, Dz6, Dz7⟩
  ihave B2b := (Entails.of_eq (bigSep_fin4 _)) $$ B2b
  icases B2b with ⟨Ez0, Ez1, Ez2, Ez3⟩
  -- the local copy
  iapply (wp_copy_own m K c g1) $$ [HxL Hown HtC]
  · isplitr; · iexact HR
    isplitl [HxL]; · iexact HxL
    isplitl [Hown]; · iexact Hown
    iexact HtC
  iintro CS0
  -- the eight transfers to the y-neighbour
  iapply (wp_ysend' m K c 0 _ (dev4_eq c) (owedL ((plan c).drop 4)) _) $$ [HO Xq0 Dy0 S1 R9]
  · isplitr; · iexact HR
    isplitl [Xq0]; · iexact Xq0
    isplitl [Dy0]; · iexact Dy0
    isplitl [HO]; · iexact HO
    isplitl [S1]; · iexact S1
    iexact R9
  iintro ⟨CS1, HO⟩
  iapply (wp_ysend' m K c 1 _ (dev5_eq c) (owedL ((plan c).drop 5)) _) $$ [HO Xq1 Dy1 S2 R10]
  · isplitr; · iexact HR
    isplitl [Xq1]; · iexact Xq1
    isplitl [Dy1]; · iexact Dy1
    isplitl [HO]; · iexact HO
    isplitl [S2]; · iexact S2
    iexact R10
  iintro ⟨CS2, HO⟩
  iapply (wp_ysend' m K c 2 _ (dev6_eq c) (owedL ((plan c).drop 6)) _) $$ [HO Xq2 Dy2 S3 R11]
  · isplitr; · iexact HR
    isplitl [Xq2]; · iexact Xq2
    isplitl [Dy2]; · iexact Dy2
    isplitl [HO]; · iexact HO
    isplitl [S3]; · iexact S3
    iexact R11
  iintro ⟨CS3, HO⟩
  iapply (wp_ysend' m K c 3 _ (dev7_eq c) (owedL ((plan c).drop 7)) _) $$ [HO Xq3 Dy3 S4 R12]
  · isplitr; · iexact HR
    isplitl [Xq3]; · iexact Xq3
    isplitl [Dy3]; · iexact Dy3
    isplitl [HO]; · iexact HO
    isplitl [S4]; · iexact S4
    iexact R12
  iintro ⟨CS4, HO⟩
  iapply (wp_ysend' m K c 4 _ (dev8_eq c) (owedL ((plan c).drop 8)) _) $$ [HO Xq4 Dy4 S5 R13]
  · isplitr; · iexact HR
    isplitl [Xq4]; · iexact Xq4
    isplitl [Dy4]; · iexact Dy4
    isplitl [HO]; · iexact HO
    isplitl [S5]; · iexact S5
    iexact R13
  iintro ⟨CS5, HO⟩
  iapply (wp_ysend' m K c 5 _ (dev9_eq c) (owedL ((plan c).drop 9)) _) $$ [HO Xq5 Dy5 S6 R14]
  · isplitr; · iexact HR
    isplitl [Xq5]; · iexact Xq5
    isplitl [Dy5]; · iexact Dy5
    isplitl [HO]; · iexact HO
    isplitl [S6]; · iexact S6
    iexact R14
  iintro ⟨CS6, HO⟩
  iapply (wp_ysend' m K c 6 _ (dev10_eq c) (owedL ((plan c).drop 10)) _) $$ [HO Xq6 Dy6 S7 R15]
  · isplitr; · iexact HR
    isplitl [Xq6]; · iexact Xq6
    isplitl [Dy6]; · iexact Dy6
    isplitl [HO]; · iexact HO
    isplitl [S7]; · iexact S7
    iexact R15
  iintro ⟨CS7, HO⟩
  iapply (wp_ysend' m K c 7 _ (dev11_eq c) (owedL ((plan c).drop 11)) _) $$ [HO Xq7 Dy7 S8 R16]
  · isplitr; · iexact HR
    isplitl [Xq7]; · iexact Xq7
    isplitl [Dy7]; · iexact Dy7
    isplitl [HO]; · iexact HO
    isplitl [S8]; · iexact S8
    iexact R16
  iintro ⟨CS8, HO⟩
  -- as each chunk from the y-neighbour lands, forward it to the x- and the z-neighbour
  iapply (wp_dwait64 m K c (yRecv 0) (by decide) (by decide) (owedL ((plan c).drop 11)) _ _ _ _ (dmaPay_yRecv m c 0)) $$ [C9 HO A9]
  · isplitr; · iexact HR
    isplitl [C9]; · iexact C9
    isplitl [HO]; · iexact HO
    isplitr; · iapply (mayWait_dma_enqs c (yRecv 0) 8 (by decide)); iexact Hlev
    iexact A9
  iintro ⟨HO, Z9, Pm0⟩
  ihave Pm0 := (chunk_halve m c _) $$ Pm0
  icases Pm0 with ⟨PL0, PR0⟩
  iapply (wp_x2send' m K c 0 _ (dev12_eq c) (owedL ((plan c).drop 12)) _) $$ [HO PL0 Dx0 S17 R25]
  · isplitr; · iexact HR
    isplitl [PL0]; · iexact PL0
    isplitl [Dx0]; · iexact Dx0
    isplitl [HO]; · iexact HO
    isplitl [S17]; · iexact S17
    iexact R25
  iintro ⟨CS17, HO⟩
  iapply (wp_z2send' m K c 0 _ (dev13_eq c) (owedL ((plan c).drop 13)) _) $$ [HO PR0 Dz0 S33 R41]
  · isplitr; · iexact HR
    isplitl [PR0]; · iexact PR0
    isplitl [Dz0]; · iexact Dz0
    isplitl [HO]; · iexact HO
    isplitl [S33]; · iexact S33
    iexact R41
  iintro ⟨CS33, HO⟩
  iapply (wp_dwait64 m K c (yRecv 1) (by decide) (by decide) (owedL ((plan c).drop 13)) _ _ _ _ (dmaPay_yRecv m c 1)) $$ [C10 HO A10]
  · isplitr; · iexact HR
    isplitl [C10]; · iexact C10
    isplitl [HO]; · iexact HO
    isplitr; · iapply (mayWait_dma_enqs c (yRecv 1) 10 (by decide)); iexact Hlev
    iexact A10
  iintro ⟨HO, Z10, Pm1⟩
  ihave Pm1 := (chunk_halve m c _) $$ Pm1
  icases Pm1 with ⟨PL1, PR1⟩
  iapply (wp_x2send' m K c 1 _ (dev14_eq c) (owedL ((plan c).drop 14)) _) $$ [HO PL1 Dx1 S18 R26]
  · isplitr; · iexact HR
    isplitl [PL1]; · iexact PL1
    isplitl [Dx1]; · iexact Dx1
    isplitl [HO]; · iexact HO
    isplitl [S18]; · iexact S18
    iexact R26
  iintro ⟨CS18, HO⟩
  iapply (wp_z2send' m K c 1 _ (dev15_eq c) (owedL ((plan c).drop 15)) _) $$ [HO PR1 Dz1 S34 R42]
  · isplitr; · iexact HR
    isplitl [PR1]; · iexact PR1
    isplitl [Dz1]; · iexact Dz1
    isplitl [HO]; · iexact HO
    isplitl [S34]; · iexact S34
    iexact R42
  iintro ⟨CS34, HO⟩
  iapply (wp_dwait64 m K c (yRecv 2) (by decide) (by decide) (owedL ((plan c).drop 15)) _ _ _ _ (dmaPay_yRecv m c 2)) $$ [C11 HO A11]
  · isplitr; · iexact HR
    isplitl [C11]; · iexact C11
    isplitl [HO]; · iexact HO
    isplitr; · iapply (mayWait_dma_enqs c (yRecv 2) 12 (by decide)); iexact Hlev
    iexact A11
  iintro ⟨HO, Z11, Pm2⟩
  ihave Pm2 := (chunk_halve m c _) $$ Pm2
  icases Pm2 with ⟨PL2, PR2⟩
  iapply (wp_x2send' m K c 2 _ (dev16_eq c) (owedL ((plan c).drop 16)) _) $$ [HO PL2 Dx2 S19 R27]
  · isplitr; · iexact HR
    isplitl [PL2]; · iexact PL2
    isplitl [Dx2]; · iexact Dx2
    isplitl [HO]; · iexact HO
    isplitl [S19]; · iexact S19
    iexact R27
  iintro ⟨CS19, HO⟩
  iapply (wp_z2send' m K c 2 _ (dev17_eq c) (owedL ((plan c).drop 17)) _) $$ [HO PR2 Dz2 S35 R43]
  · isplitr; · iexact HR
    isplitl [PR2]; · iexact PR2
    isplitl [Dz2]; · iexact Dz2
    isplitl [HO]; · iexact HO
    isplitl [S35]; · iexact S35
    iexact R43
  iintro ⟨CS35, HO⟩
  iapply (wp_dwait64 m K c (yRecv 3) (by decide) (by decide) (owedL ((plan c).drop 17)) _ _ _ _ (dmaPay_yRecv m c 3)) $$ [C12 HO A12]
  · isplitr; · iexact HR
    isplitl [C12]; · iexact C12
    isplitl [HO]; · iexact HO
    isplitr; · iapply (mayWait_dma_enqs c (yRecv 3) 14 (by decide)); iexact Hlev
    iexact A12
  iintro ⟨HO, Z12, Pm3⟩
  ihave Pm3 := (chunk_halve m c _) $$ Pm3
  icases Pm3 with ⟨PL3, PR3⟩
  iapply (wp_x2send' m K c 3 _ (dev18_eq c) (owedL ((plan c).drop 18)) _) $$ [HO PL3 Dx3 S20 R28]
  · isplitr; · iexact HR
    isplitl [PL3]; · iexact PL3
    isplitl [Dx3]; · iexact Dx3
    isplitl [HO]; · iexact HO
    isplitl [S20]; · iexact S20
    iexact R28
  iintro ⟨CS20, HO⟩
  iapply (wp_z2send' m K c 3 _ (dev19_eq c) (owedL ((plan c).drop 19)) _) $$ [HO PR3 Dz3 S36 R44]
  · isplitr; · iexact HR
    isplitl [PR3]; · iexact PR3
    isplitl [Dz3]; · iexact Dz3
    isplitl [HO]; · iexact HO
    isplitl [S36]; · iexact S36
    iexact R44
  iintro ⟨CS36, HO⟩
  iapply (wp_dwait64 m K c (yRecv 4) (by decide) (by decide) (owedL ((plan c).drop 19)) _ _ _ _ (dmaPay_yRecv m c 4)) $$ [C13 HO A13]
  · isplitr; · iexact HR
    isplitl [C13]; · iexact C13
    isplitl [HO]; · iexact HO
    isplitr; · iapply (mayWait_dma_enqs c (yRecv 4) 16 (by decide)); iexact Hlev
    iexact A13
  iintro ⟨HO, Z13, Pm4⟩
  ihave Pm4 := (chunk_halve m c _) $$ Pm4
  icases Pm4 with ⟨PL4, PR4⟩
  iapply (wp_x2send' m K c 4 _ (dev20_eq c) (owedL ((plan c).drop 20)) _) $$ [HO PL4 Dx4 S21 R29]
  · isplitr; · iexact HR
    isplitl [PL4]; · iexact PL4
    isplitl [Dx4]; · iexact Dx4
    isplitl [HO]; · iexact HO
    isplitl [S21]; · iexact S21
    iexact R29
  iintro ⟨CS21, HO⟩
  iapply (wp_z2send' m K c 4 _ (dev21_eq c) (owedL ((plan c).drop 21)) _) $$ [HO PR4 Dz4 S37 R45]
  · isplitr; · iexact HR
    isplitl [PR4]; · iexact PR4
    isplitl [Dz4]; · iexact Dz4
    isplitl [HO]; · iexact HO
    isplitl [S37]; · iexact S37
    iexact R45
  iintro ⟨CS37, HO⟩
  iapply (wp_dwait64 m K c (yRecv 5) (by decide) (by decide) (owedL ((plan c).drop 21)) _ _ _ _ (dmaPay_yRecv m c 5)) $$ [C14 HO A14]
  · isplitr; · iexact HR
    isplitl [C14]; · iexact C14
    isplitl [HO]; · iexact HO
    isplitr; · iapply (mayWait_dma_enqs c (yRecv 5) 18 (by decide)); iexact Hlev
    iexact A14
  iintro ⟨HO, Z14, Pm5⟩
  ihave Pm5 := (chunk_halve m c _) $$ Pm5
  icases Pm5 with ⟨PL5, PR5⟩
  iapply (wp_x2send' m K c 5 _ (dev22_eq c) (owedL ((plan c).drop 22)) _) $$ [HO PL5 Dx5 S22 R30]
  · isplitr; · iexact HR
    isplitl [PL5]; · iexact PL5
    isplitl [Dx5]; · iexact Dx5
    isplitl [HO]; · iexact HO
    isplitl [S22]; · iexact S22
    iexact R30
  iintro ⟨CS22, HO⟩
  iapply (wp_z2send' m K c 5 _ (dev23_eq c) (owedL ((plan c).drop 23)) _) $$ [HO PR5 Dz5 S38 R46]
  · isplitr; · iexact HR
    isplitl [PR5]; · iexact PR5
    isplitl [Dz5]; · iexact Dz5
    isplitl [HO]; · iexact HO
    isplitl [S38]; · iexact S38
    iexact R46
  iintro ⟨CS38, HO⟩
  iapply (wp_dwait64 m K c (yRecv 6) (by decide) (by decide) (owedL ((plan c).drop 23)) _ _ _ _ (dmaPay_yRecv m c 6)) $$ [C15 HO A15]
  · isplitr; · iexact HR
    isplitl [C15]; · iexact C15
    isplitl [HO]; · iexact HO
    isplitr; · iapply (mayWait_dma_enqs c (yRecv 6) 20 (by decide)); iexact Hlev
    iexact A15
  iintro ⟨HO, Z15, Pm6⟩
  ihave Pm6 := (chunk_halve m c _) $$ Pm6
  icases Pm6 with ⟨PL6, PR6⟩
  iapply (wp_x2send' m K c 6 _ (dev24_eq c) (owedL ((plan c).drop 24)) _) $$ [HO PL6 Dx6 S23 R31]
  · isplitr; · iexact HR
    isplitl [PL6]; · iexact PL6
    isplitl [Dx6]; · iexact Dx6
    isplitl [HO]; · iexact HO
    isplitl [S23]; · iexact S23
    iexact R31
  iintro ⟨CS23, HO⟩
  iapply (wp_z2send' m K c 6 _ (dev25_eq c) (owedL ((plan c).drop 25)) _) $$ [HO PR6 Dz6 S39 R47]
  · isplitr; · iexact HR
    isplitl [PR6]; · iexact PR6
    isplitl [Dz6]; · iexact Dz6
    isplitl [HO]; · iexact HO
    isplitl [S39]; · iexact S39
    iexact R47
  iintro ⟨CS39, HO⟩
  iapply (wp_dwait64 m K c (yRecv 7) (by decide) (by decide) (owedL ((plan c).drop 25)) _ _ _ _ (dmaPay_yRecv m c 7)) $$ [C16 HO A16]
  · isplitr; · iexact HR
    isplitl [C16]; · iexact C16
    isplitl [HO]; · iexact HO
    isplitr; · iapply (mayWait_dma_enqs c (yRecv 7) 22 (by decide)); iexact Hlev
    iexact A16
  iintro ⟨HO, Z16, Pm7⟩
  ihave Pm7 := (chunk_halve m c _) $$ Pm7
  icases Pm7 with ⟨PL7, PR7⟩
  iapply (wp_x2send' m K c 7 _ (dev26_eq c) (owedL ((plan c).drop 26)) _) $$ [HO PL7 Dx7 S24 R32]
  · isplitr; · iexact HR
    isplitl [PL7]; · iexact PL7
    isplitl [Dx7]; · iexact Dx7
    isplitl [HO]; · iexact HO
    isplitl [S24]; · iexact S24
    iexact R32
  iintro ⟨CS24, HO⟩
  iapply (wp_z2send' m K c 7 _ (dev27_eq c) (owedL ((plan c).drop 27)) _) $$ [HO PR7 Dz7 S40 R48]
  · isplitr; · iexact HR
    isplitl [PR7]; · iexact PR7
    isplitl [Dz7]; · iexact Dz7
    isplitl [HO]; · iexact HO
    isplitl [S40]; · iexact S40
    iexact R48
  iintro ⟨CS40, HO⟩
  -- chunks 0..3 from the z-neighbour go on to the x-neighbour
  iapply (wp_dwait64 m K c (z2Recv 0) (by decide) (by decide) (owedL ((plan c).drop 27)) _ _ _ _ (dmaPay_z2Recv m c 0)) $$ [C41 HO A41]
  · isplitr; · iexact HR
    isplitl [C41]; · iexact C41
    isplitl [HO]; · iexact HO
    isplitr; · iapply (mayWait_dma_enqs c (z2Recv 0) 24 (by decide)); iexact Hlev
    iexact A41
  iintro ⟨HO, Z41, Pz0⟩
  iapply (wp_x3send' m K c 0 _ (dev28_eq c) (owedL ((plan c).drop 28)) _) $$ [HO Pz0 Ex0 S49 R53]
  · isplitr; · iexact HR
    isplitl [Pz0]; · iexact Pz0
    isplitl [Ex0]; · iexact Ex0
    isplitl [HO]; · iexact HO
    isplitl [S49]; · iexact S49
    iexact R53
  iintro ⟨CS49, HO⟩
  iapply (wp_dwait64 m K c (z2Recv 1) (by decide) (by decide) (owedL ((plan c).drop 28)) _ _ _ _ (dmaPay_z2Recv m c 1)) $$ [C42 HO A42]
  · isplitr; · iexact HR
    isplitl [C42]; · iexact C42
    isplitl [HO]; · iexact HO
    isplitr; · iapply (mayWait_dma_enqs c (z2Recv 1) 25 (by decide)); iexact Hlev
    iexact A42
  iintro ⟨HO, Z42, Pz1⟩
  iapply (wp_x3send' m K c 1 _ (dev29_eq c) (owedL ((plan c).drop 29)) _) $$ [HO Pz1 Ex1 S50 R54]
  · isplitr; · iexact HR
    isplitl [Pz1]; · iexact Pz1
    isplitl [Ex1]; · iexact Ex1
    isplitl [HO]; · iexact HO
    isplitl [S50]; · iexact S50
    iexact R54
  iintro ⟨CS50, HO⟩
  iapply (wp_dwait64 m K c (z2Recv 2) (by decide) (by decide) (owedL ((plan c).drop 29)) _ _ _ _ (dmaPay_z2Recv m c 2)) $$ [C43 HO A43]
  · isplitr; · iexact HR
    isplitl [C43]; · iexact C43
    isplitl [HO]; · iexact HO
    isplitr; · iapply (mayWait_dma_enqs c (z2Recv 2) 26 (by decide)); iexact Hlev
    iexact A43
  iintro ⟨HO, Z43, Pz2⟩
  iapply (wp_x3send' m K c 2 _ (dev30_eq c) (owedL ((plan c).drop 30)) _) $$ [HO Pz2 Ex2 S51 R55]
  · isplitr; · iexact HR
    isplitl [Pz2]; · iexact Pz2
    isplitl [Ex2]; · iexact Ex2
    isplitl [HO]; · iexact HO
    isplitl [S51]; · iexact S51
    iexact R55
  iintro ⟨CS51, HO⟩
  iapply (wp_dwait64 m K c (z2Recv 3) (by decide) (by decide) (owedL ((plan c).drop 30)) _ _ _ _ (dmaPay_z2Recv m c 3)) $$ [C44 HO A44]
  · isplitr; · iexact HR
    isplitl [C44]; · iexact C44
    isplitl [HO]; · iexact HO
    isplitr; · iapply (mayWait_dma_enqs c (z2Recv 3) 27 (by decide)); iexact Hlev
    iexact A44
  iintro ⟨HO, Z44, Pz3⟩
  iapply (wp_x3send' m K c 3 _ (dev31_eq c) (owedL ((plan c).drop 31)) _) $$ [HO Pz3 Ex3 S52 R56]
  · isplitr; · iexact HR
    isplitl [Pz3]; · iexact Pz3
    isplitl [Ex3]; · iexact Ex3
    isplitl [HO]; · iexact HO
    isplitl [S52]; · iexact S52
    iexact R56
  iintro ⟨CS52, HO⟩
  -- chunks 4..7 from the x-neighbour go on to the z-neighbour
  iapply (wp_dwait64 m K c (x2Recv 4) (by decide) (by decide) (owedL ((plan c).drop 31)) _ _ _ _ (dmaPay_x2Recv m c 4)) $$ [C29 HO A29]
  · isplitr; · iexact HR
    isplitl [C29]; · iexact C29
    isplitl [HO]; · iexact HO
    isplitr; · iapply (mayWait_dma_enqs c (x2Recv 4) 28 (by decide)); iexact Hlev
    iexact A29
  iintro ⟨HO, Z29, Px4⟩
  iapply (wp_z3send' m K c 0 _ (dev32_eq c) (owedL ((plan c).drop 32)) _) $$ [HO Px4 Ez0 S57 R61]
  · isplitr; · iexact HR
    isplitl [Px4]; · iexact Px4
    isplitl [Ez0]; · iexact Ez0
    isplitl [HO]; · iexact HO
    isplitl [S57]; · iexact S57
    iexact R61
  iintro ⟨CS57, HO⟩
  iapply (wp_dwait64 m K c (x2Recv 5) (by decide) (by decide) (owedL ((plan c).drop 32)) _ _ _ _ (dmaPay_x2Recv m c 5)) $$ [C30 HO A30]
  · isplitr; · iexact HR
    isplitl [C30]; · iexact C30
    isplitl [HO]; · iexact HO
    isplitr; · iapply (mayWait_dma_enqs c (x2Recv 5) 29 (by decide)); iexact Hlev
    iexact A30
  iintro ⟨HO, Z30, Px5⟩
  iapply (wp_z3send' m K c 1 _ (dev33_eq c) (owedL ((plan c).drop 33)) _) $$ [HO Px5 Ez1 S58 R62]
  · isplitr; · iexact HR
    isplitl [Px5]; · iexact Px5
    isplitl [Ez1]; · iexact Ez1
    isplitl [HO]; · iexact HO
    isplitl [S58]; · iexact S58
    iexact R62
  iintro ⟨CS58, HO⟩
  iapply (wp_dwait64 m K c (x2Recv 6) (by decide) (by decide) (owedL ((plan c).drop 33)) _ _ _ _ (dmaPay_x2Recv m c 6)) $$ [C31 HO A31]
  · isplitr; · iexact HR
    isplitl [C31]; · iexact C31
    isplitl [HO]; · iexact HO
    isplitr; · iapply (mayWait_dma_enqs c (x2Recv 6) 30 (by decide)); iexact Hlev
    iexact A31
  iintro ⟨HO, Z31, Px6⟩
  iapply (wp_z3send' m K c 2 _ (dev34_eq c) (owedL ((plan c).drop 34)) _) $$ [HO Px6 Ez2 S59 R63]
  · isplitr; · iexact HR
    isplitl [Px6]; · iexact Px6
    isplitl [Ez2]; · iexact Ez2
    isplitl [HO]; · iexact HO
    isplitl [S59]; · iexact S59
    iexact R63
  iintro ⟨CS59, HO⟩
  iapply (wp_dwait64 m K c (x2Recv 7) (by decide) (by decide) (owedL ((plan c).drop 34)) _ _ _ _ (dmaPay_x2Recv m c 7)) $$ [C32 HO A32]
  · isplitr; · iexact HR
    isplitl [C32]; · iexact C32
    isplitl [HO]; · iexact HO
    isplitr; · iapply (mayWait_dma_enqs c (x2Recv 7) 31 (by decide)); iexact Hlev
    iexact A32
  iintro ⟨HO, Z32, Px7⟩
  iapply (wp_z3send' m K c 3 _ (dev35_eq c) (owedL ((plan c).drop 35)) _) $$ [HO Px7 Ez3 S60 R64]
  · isplitr; · iexact HR
    isplitl [Px7]; · iexact Px7
    isplitl [Ez3]; · iexact Ez3
    isplitl [HO]; · iexact HO
    isplitl [S60]; · iexact S60
    iexact R64
  iintro ⟨CS60, HO⟩
  -- nothing is owed any more; the remaining landings
  iapply (wp_dwait64 m K c (z2Recv 4) (by decide) (by decide) (owedL ((plan c).drop 35)) _ _ _ _ (dmaPay_z2Recv m c 4)) $$ [C45 HO A45]
  · isplitr; · iexact HR
    isplitl [C45]; · iexact C45
    isplitl [HO]; · iexact HO
    isplitr; · iapply (mayWait_dma_enqs c (z2Recv 4) 32 (by decide)); iexact Hlev
    iexact A45
  iintro ⟨HO, Z45, Pz4⟩
  iapply (wp_dwait64 m K c (z2Recv 5) (by decide) (by decide) (owedL ((plan c).drop 35)) _ _ _ _ (dmaPay_z2Recv m c 5)) $$ [C46 HO A46]
  · isplitr; · iexact HR
    isplitl [C46]; · iexact C46
    isplitl [HO]; · iexact HO
    isplitr; · iapply (mayWait_dma_enqs c (z2Recv 5) 32 (by decide)); iexact Hlev
    iexact A46
  iintro ⟨HO, Z46, Pz5⟩
  iapply (wp_dwait64 m K c (z2Recv 6) (by decide) (by decide) (owedL ((plan c).drop 35)) _ _ _ _ (dmaPay_z2Recv m c 6)) $$ [C47 HO A47]
  · isplitr; · iexact HR
    isplitl [C47]; · iexact C47
    isplitl [HO]; · iexact HO
    isplitr; · iapply (mayWait_dma_enqs c (z2Recv 6) 32 (by decide)); iexact Hlev
    iexact A47
  iintro ⟨HO, Z47, Pz6⟩
  iapply (wp_dwait64 m K c (z2Recv 7) (by decide) (by decide) (owedL ((plan c).drop 35)) _ _ _ _ (dmaPay_z2Recv m c 7)) $$ [C48 HO A48]
  · isplitr; · iexact HR
    isplitl [C48]; · iexact C48
    isplitl [HO]; · iexact HO
    isplitr; · iapply (mayWait_dma_enqs c (z2Recv 7) 32 (by decide)); iexact Hlev
    iexact A48
  iintro ⟨HO, Z48, Pz7⟩
  iapply (wp_dwait64 m K c (x2Recv 0) (by decide) (by decide) (owedL ((plan c).drop 35)) _ _ _ _ (dmaPay_x2Recv m c 0)) $$ [C25 HO A25]
  · isplitr; · iexact HR
    isplitl [C25]; · iexact C25
    isplitl [HO]; · iexact HO
    isplitr; · iapply (mayWait_dma_enqs c (x2Recv 0) 32 (by decide)); iexact Hlev
    iexact A25
  iintro ⟨HO, Z25, Px0⟩
  iapply (wp_dwait64 m K c (x2Recv 1) (by decide) (by decide) (owedL ((plan c).drop 35)) _ _ _ _ (dmaPay_x2Recv m c 1)) $$ [C26 HO A26]
  · isplitr; · iexact HR
    isplitl [C26]; · iexact C26
    isplitl [HO]; · iexact HO
    isplitr; · iapply (mayWait_dma_enqs c (x2Recv 1) 32 (by decide)); iexact Hlev
    iexact A26
  iintro ⟨HO, Z26, Px1⟩
  iapply (wp_dwait64 m K c (x2Recv 2) (by decide) (by decide) (owedL ((plan c).drop 35)) _ _ _ _ (dmaPay_x2Recv m c 2)) $$ [C27 HO A27]
  · isplitr; · iexact HR
    isplitl [C27]; · iexact C27
    isplitl [HO]; · iexact HO
    isplitr; · iapply (mayWait_dma_enqs c (x2Recv 2) 32 (by decide)); iexact Hlev
    iexact A27
  iintro ⟨HO, Z27, Px2⟩
  iapply (wp_dwait64 m K c (x2Recv 3) (by decide) (by decide) (owedL ((plan c).drop 35)) _ _ _ _ (dmaPay_x2Recv m c 3)) $$ [C28 HO A28]
  · isplitr; · iexact HR
    isplitl [C28]; · iexact C28
    isplitl [HO]; · iexact HO
    isplitr; · iapply (mayWait_dma_enqs c (x2Recv 3) 32 (by decide)); iexact Hlev
    iexact A28
  iintro ⟨HO, Z28, Px3⟩
  iapply (wp_dwait64 m K c (x3Recv 0) (by decide) (by decide) (owedL ((plan c).drop 35)) _ _ _ _ (dmaPay_x3Recv m c 0)) $$ [C53 HO A53]
  · isplitr; · iexact HR
    isplitl [C53]; · iexact C53
    isplitl [HO]; · iexact HO
    isplitr; · iapply (mayWait_dma_enqs c (x3Recv 0) 32 (by decide)); iexact Hlev
    iexact A53
  iintro ⟨HO, Z53, Pd0⟩
  iapply (wp_dwait64 m K c (z3Recv 0) (by decide) (by decide) (owedL ((plan c).drop 35)) _ _ _ _ (dmaPay_z3Recv m c 0)) $$ [C61 HO A61]
  · isplitr; · iexact HR
    isplitl [C61]; · iexact C61
    isplitl [HO]; · iexact HO
    isplitr; · iapply (mayWait_dma_enqs c (z3Recv 0) 32 (by decide)); iexact Hlev
    iexact A61
  iintro ⟨HO, Z61, Pd4⟩
  iapply (wp_dwait64 m K c (x3Recv 1) (by decide) (by decide) (owedL ((plan c).drop 35)) _ _ _ _ (dmaPay_x3Recv m c 1)) $$ [C54 HO A54]
  · isplitr; · iexact HR
    isplitl [C54]; · iexact C54
    isplitl [HO]; · iexact HO
    isplitr; · iapply (mayWait_dma_enqs c (x3Recv 1) 32 (by decide)); iexact Hlev
    iexact A54
  iintro ⟨HO, Z54, Pd1⟩
  iapply (wp_dwait64 m K c (z3Recv 1) (by decide) (by decide) (owedL ((plan c).drop 35)) _ _ _ _ (dmaPay_z3Recv m c 1)) $$ [C62 HO A62]
  · isplitr; · iexact HR
    isplitl [C62]; · iexact C62
    isplitl [HO]; · iexact HO
    isplitr; · iapply (mayWait_dma_enqs c (z3Recv 1) 32 (by decide)); iexact Hlev
    iexact A62
  iintro ⟨HO, Z62, Pd5⟩
  iapply (wp_dwait64 m K c (x3Recv 2) (by decide) (by decide) (owedL ((plan c).drop 35)) _ _ _ _ (dmaPay_x3Recv m c 2)) $$ [C55 HO A55]
  · isplitr; · iexact HR
    isplitl [C55]; · iexact C55
    isplitl [HO]; · iexact HO
    isplitr; · iapply (mayWait_dma_enqs c (x3Recv 2) 32 (by decide)); iexact Hlev
    iexact A55
  iintro ⟨HO, Z55, Pd2⟩
  iapply (wp_dwait64 m K c (z3Recv 2) (by decide) (by decide) (owedL ((plan c).drop 35)) _ _ _ _ (dmaPay_z3Recv m c 2)) $$ [C63 HO A63]
  · isplitr; · iexact HR
    isplitl [C63]; · iexact C63
    isplitl [HO]; · iexact HO
    isplitr; · iapply (mayWait_dma_enqs c (z3Recv 2) 32 (by decide)); iexact Hlev
    iexact A63
  iintro ⟨HO, Z63, Pd6⟩
  iapply (wp_dwait64 m K c (x3Recv 3) (by decide) (by decide) (owedL ((plan c).drop 35)) _ _ _ _ (dmaPay_x3Recv m c 3)) $$ [C56 HO A56]
  · isplitr; · iexact HR
    isplitl [C56]; · iexact C56
    isplitl [HO]; · iexact HO
    isplitr; · iapply (mayWait_dma_enqs c (x3Recv 3) 32 (by decide)); iexact Hlev
    iexact A56
  iintro ⟨HO, Z56, Pd3⟩
  iapply (wp_dwait64 m K c (z3Recv 3) (by decide) (by decide) (owedL ((plan c).drop 35)) _ _ _ _ (dmaPay_z3Recv m c 3)) $$ [C64 HO A64]
  · isplitr; · iexact HR
    isplitl [C64]; · iexact C64
    isplitl [HO]; · iexact HO
    isplitr; · iapply (mayWait_dma_enqs c (z3Recv 3) 32 (by decide)); iexact Hlev
    iexact A64
  iintro ⟨HO, Z64, Pd7⟩
  -- the sends have read their sources: the shares come back
  iapply (wp_dwait64x m K c (ySend 0) (by decide) (by decide) (owedL ((plan c).drop 35)) _ _ _ _ (dmaPay_ySend m c 0)) $$ [CS1 HO A1]
  · isplitr; · iexact HR
    isplitl [CS1]; · iexact CS1
    isplitl [HO]; · iexact HO
    isplitr; · iapply (mayWait_dma_enqs c (ySend 0) 32 (by decide)); iexact Hlev
    iexact A1
  iintro ⟨HO, Z1, Xr0⟩
  iapply (wp_dwait64 m K c (x2Send 0) (by decide) (by decide) (owedL ((plan c).drop 35)) _ _ _ _ (dmaPay_x2Send m c 0)) $$ [CS17 HO A17]
  · isplitr; · iexact HR
    isplitl [CS17]; · iexact CS17
    isplitl [HO]; · iexact HO
    isplitr; · iapply (mayWait_dma_enqs c (x2Send 0) 32 (by decide)); iexact Hlev
    iexact A17
  iintro ⟨HO, Z17, PL0⟩
  iapply (wp_dwait64 m K c (z2Send 0) (by decide) (by decide) (owedL ((plan c).drop 35)) _ _ _ _ (dmaPay_z2Send m c 0)) $$ [CS33 HO A33]
  · isplitr; · iexact HR
    isplitl [CS33]; · iexact CS33
    isplitl [HO]; · iexact HO
    isplitr; · iapply (mayWait_dma_enqs c (z2Send 0) 32 (by decide)); iexact Hlev
    iexact A33
  iintro ⟨HO, Z33, PR0⟩
  ihave Pm0 := (chunk_join m c _) $$ [PL0 PR0]
  · isplitl [PL0]; · iexact PL0
    iexact PR0
  iapply (wp_dwait64x m K c (ySend 1) (by decide) (by decide) (owedL ((plan c).drop 35)) _ _ _ _ (dmaPay_ySend m c 1)) $$ [CS2 HO A2]
  · isplitr; · iexact HR
    isplitl [CS2]; · iexact CS2
    isplitl [HO]; · iexact HO
    isplitr; · iapply (mayWait_dma_enqs c (ySend 1) 32 (by decide)); iexact Hlev
    iexact A2
  iintro ⟨HO, Z2, Xr1⟩
  iapply (wp_dwait64 m K c (x2Send 1) (by decide) (by decide) (owedL ((plan c).drop 35)) _ _ _ _ (dmaPay_x2Send m c 1)) $$ [CS18 HO A18]
  · isplitr; · iexact HR
    isplitl [CS18]; · iexact CS18
    isplitl [HO]; · iexact HO
    isplitr; · iapply (mayWait_dma_enqs c (x2Send 1) 32 (by decide)); iexact Hlev
    iexact A18
  iintro ⟨HO, Z18, PL1⟩
  iapply (wp_dwait64 m K c (z2Send 1) (by decide) (by decide) (owedL ((plan c).drop 35)) _ _ _ _ (dmaPay_z2Send m c 1)) $$ [CS34 HO A34]
  · isplitr; · iexact HR
    isplitl [CS34]; · iexact CS34
    isplitl [HO]; · iexact HO
    isplitr; · iapply (mayWait_dma_enqs c (z2Send 1) 32 (by decide)); iexact Hlev
    iexact A34
  iintro ⟨HO, Z34, PR1⟩
  ihave Pm1 := (chunk_join m c _) $$ [PL1 PR1]
  · isplitl [PL1]; · iexact PL1
    iexact PR1
  iapply (wp_dwait64x m K c (ySend 2) (by decide) (by decide) (owedL ((plan c).drop 35)) _ _ _ _ (dmaPay_ySend m c 2)) $$ [CS3 HO A3]
  · isplitr; · iexact HR
    isplitl [CS3]; · iexact CS3
    isplitl [HO]; · iexact HO
    isplitr; · iapply (mayWait_dma_enqs c (ySend 2) 32 (by decide)); iexact Hlev
    iexact A3
  iintro ⟨HO, Z3, Xr2⟩
  iapply (wp_dwait64 m K c (x2Send 2) (by decide) (by decide) (owedL ((plan c).drop 35)) _ _ _ _ (dmaPay_x2Send m c 2)) $$ [CS19 HO A19]
  · isplitr; · iexact HR
    isplitl [CS19]; · iexact CS19
    isplitl [HO]; · iexact HO
    isplitr; · iapply (mayWait_dma_enqs c (x2Send 2) 32 (by decide)); iexact Hlev
    iexact A19
  iintro ⟨HO, Z19, PL2⟩
  iapply (wp_dwait64 m K c (z2Send 2) (by decide) (by decide) (owedL ((plan c).drop 35)) _ _ _ _ (dmaPay_z2Send m c 2)) $$ [CS35 HO A35]
  · isplitr; · iexact HR
    isplitl [CS35]; · iexact CS35
    isplitl [HO]; · iexact HO
    isplitr; · iapply (mayWait_dma_enqs c (z2Send 2) 32 (by decide)); iexact Hlev
    iexact A35
  iintro ⟨HO, Z35, PR2⟩
  ihave Pm2 := (chunk_join m c _) $$ [PL2 PR2]
  · isplitl [PL2]; · iexact PL2
    iexact PR2
  iapply (wp_dwait64x m K c (ySend 3) (by decide) (by decide) (owedL ((plan c).drop 35)) _ _ _ _ (dmaPay_ySend m c 3)) $$ [CS4 HO A4]
  · isplitr; · iexact HR
    isplitl [CS4]; · iexact CS4
    isplitl [HO]; · iexact HO
    isplitr; · iapply (mayWait_dma_enqs c (ySend 3) 32 (by decide)); iexact Hlev
    iexact A4
  iintro ⟨HO, Z4, Xr3⟩
  iapply (wp_dwait64 m K c (x2Send 3) (by decide) (by decide) (owedL ((plan c).drop 35)) _ _ _ _ (dmaPay_x2Send m c 3)) $$ [CS20 HO A20]
  · isplitr; · iexact HR
    isplitl [CS20]; · iexact CS20
    isplitl [HO]; · iexact HO
    isplitr; · iapply (mayWait_dma_enqs c (x2Send 3) 32 (by decide)); iexact Hlev
    iexact A20
  iintro ⟨HO, Z20, PL3⟩
  iapply (wp_dwait64 m K c (z2Send 3) (by decide) (by decide) (owedL ((plan c).drop 35)) _ _ _ _ (dmaPay_z2Send m c 3)) $$ [CS36 HO A36]
  · isplitr; · iexact HR
    isplitl [CS36]; · iexact CS36
    isplitl [HO]; · iexact HO
    isplitr; · iapply (mayWait_dma_enqs c (z2Send 3) 32 (by decide)); iexact Hlev
    iexact A36
  iintro ⟨HO, Z36, PR3⟩
  ihave Pm3 := (chunk_join m c _) $$ [PL3 PR3]
  · isplitl [PL3]; · iexact PL3
    iexact PR3
  iapply (wp_dwait64x m K c (ySend 4) (by decide) (by decide) (owedL ((plan c).drop 35)) _ _ _ _ (dmaPay_ySend m c 4)) $$ [CS5 HO A5]
  · isplitr; · iexact HR
    isplitl [CS5]; · iexact CS5
    isplitl [HO]; · iexact HO
    isplitr; · iapply (mayWait_dma_enqs c (ySend 4) 32 (by decide)); iexact Hlev
    iexact A5
  iintro ⟨HO, Z5, Xr4⟩
  iapply (wp_dwait64 m K c (x2Send 4) (by decide) (by decide) (owedL ((plan c).drop 35)) _ _ _ _ (dmaPay_x2Send m c 4)) $$ [CS21 HO A21]
  · isplitr; · iexact HR
    isplitl [CS21]; · iexact CS21
    isplitl [HO]; · iexact HO
    isplitr; · iapply (mayWait_dma_enqs c (x2Send 4) 32 (by decide)); iexact Hlev
    iexact A21
  iintro ⟨HO, Z21, PL4⟩
  iapply (wp_dwait64 m K c (z2Send 4) (by decide) (by decide) (owedL ((plan c).drop 35)) _ _ _ _ (dmaPay_z2Send m c 4)) $$ [CS37 HO A37]
  · isplitr; · iexact HR
    isplitl [CS37]; · iexact CS37
    isplitl [HO]; · iexact HO
    isplitr; · iapply (mayWait_dma_enqs c (z2Send 4) 32 (by decide)); iexact Hlev
    iexact A37
  iintro ⟨HO, Z37, PR4⟩
  ihave Pm4 := (chunk_join m c _) $$ [PL4 PR4]
  · isplitl [PL4]; · iexact PL4
    iexact PR4
  iapply (wp_dwait64x m K c (ySend 5) (by decide) (by decide) (owedL ((plan c).drop 35)) _ _ _ _ (dmaPay_ySend m c 5)) $$ [CS6 HO A6]
  · isplitr; · iexact HR
    isplitl [CS6]; · iexact CS6
    isplitl [HO]; · iexact HO
    isplitr; · iapply (mayWait_dma_enqs c (ySend 5) 32 (by decide)); iexact Hlev
    iexact A6
  iintro ⟨HO, Z6, Xr5⟩
  iapply (wp_dwait64 m K c (x2Send 5) (by decide) (by decide) (owedL ((plan c).drop 35)) _ _ _ _ (dmaPay_x2Send m c 5)) $$ [CS22 HO A22]
  · isplitr; · iexact HR
    isplitl [CS22]; · iexact CS22
    isplitl [HO]; · iexact HO
    isplitr; · iapply (mayWait_dma_enqs c (x2Send 5) 32 (by decide)); iexact Hlev
    iexact A22
  iintro ⟨HO, Z22, PL5⟩
  iapply (wp_dwait64 m K c (z2Send 5) (by decide) (by decide) (owedL ((plan c).drop 35)) _ _ _ _ (dmaPay_z2Send m c 5)) $$ [CS38 HO A38]
  · isplitr; · iexact HR
    isplitl [CS38]; · iexact CS38
    isplitl [HO]; · iexact HO
    isplitr; · iapply (mayWait_dma_enqs c (z2Send 5) 32 (by decide)); iexact Hlev
    iexact A38
  iintro ⟨HO, Z38, PR5⟩
  ihave Pm5 := (chunk_join m c _) $$ [PL5 PR5]
  · isplitl [PL5]; · iexact PL5
    iexact PR5
  iapply (wp_dwait64x m K c (ySend 6) (by decide) (by decide) (owedL ((plan c).drop 35)) _ _ _ _ (dmaPay_ySend m c 6)) $$ [CS7 HO A7]
  · isplitr; · iexact HR
    isplitl [CS7]; · iexact CS7
    isplitl [HO]; · iexact HO
    isplitr; · iapply (mayWait_dma_enqs c (ySend 6) 32 (by decide)); iexact Hlev
    iexact A7
  iintro ⟨HO, Z7, Xr6⟩
  iapply (wp_dwait64 m K c (x2Send 6) (by decide) (by decide) (owedL ((plan c).drop 35)) _ _ _ _ (dmaPay_x2Send m c 6)) $$ [CS23 HO A23]
  · isplitr; · iexact HR
    isplitl [CS23]; · iexact CS23
    isplitl [HO]; · iexact HO
    isplitr; · iapply (mayWait_dma_enqs c (x2Send 6) 32 (by decide)); iexact Hlev
    iexact A23
  iintro ⟨HO, Z23, PL6⟩
  iapply (wp_dwait64 m K c (z2Send 6) (by decide) (by decide) (owedL ((plan c).drop 35)) _ _ _ _ (dmaPay_z2Send m c 6)) $$ [CS39 HO A39]
  · isplitr; · iexact HR
    isplitl [CS39]; · iexact CS39
    isplitl [HO]; · iexact HO
    isplitr; · iapply (mayWait_dma_enqs c (z2Send 6) 32 (by decide)); iexact Hlev
    iexact A39
  iintro ⟨HO, Z39, PR6⟩
  ihave Pm6 := (chunk_join m c _) $$ [PL6 PR6]
  · isplitl [PL6]; · iexact PL6
    iexact PR6
  iapply (wp_dwait64x m K c (ySend 7) (by decide) (by decide) (owedL ((plan c).drop 35)) _ _ _ _ (dmaPay_ySend m c 7)) $$ [CS8 HO A8]
  · isplitr; · iexact HR
    isplitl [CS8]; · iexact CS8
    isplitl [HO]; · iexact HO
    isplitr; · iapply (mayWait_dma_enqs c (ySend 7) 32 (by decide)); iexact Hlev
    iexact A8
  iintro ⟨HO, Z8, Xr7⟩
  iapply (wp_dwait64 m K c (x2Send 7) (by decide) (by decide) (owedL ((plan c).drop 35)) _ _ _ _ (dmaPay_x2Send m c 7)) $$ [CS24 HO A24]
  · isplitr; · iexact HR
    isplitl [CS24]; · iexact CS24
    isplitl [HO]; · iexact HO
    isplitr; · iapply (mayWait_dma_enqs c (x2Send 7) 32 (by decide)); iexact Hlev
    iexact A24
  iintro ⟨HO, Z24, PL7⟩
  iapply (wp_dwait64 m K c (z2Send 7) (by decide) (by decide) (owedL ((plan c).drop 35)) _ _ _ _ (dmaPay_z2Send m c 7)) $$ [CS40 HO A40]
  · isplitr; · iexact HR
    isplitl [CS40]; · iexact CS40
    isplitl [HO]; · iexact HO
    isplitr; · iapply (mayWait_dma_enqs c (z2Send 7) 32 (by decide)); iexact Hlev
    iexact A40
  iintro ⟨HO, Z40, PR7⟩
  ihave Pm7 := (chunk_join m c _) $$ [PL7 PR7]
  · isplitl [PL7]; · iexact PL7
    iexact PR7
  iapply (wp_dwait64 m K c (x3Send 0) (by decide) (by decide) (owedL ((plan c).drop 35)) _ _ _ _ (dmaPay_x3Send m c 0)) $$ [CS49 HO A49]
  · isplitr; · iexact HR
    isplitl [CS49]; · iexact CS49
    isplitl [HO]; · iexact HO
    isplitr; · iapply (mayWait_dma_enqs c (x3Send 0) 32 (by decide)); iexact Hlev
    iexact A49
  iintro ⟨HO, Z49, Pz0⟩
  iapply (wp_dwait64 m K c (z3Send 0) (by decide) (by decide) (owedL ((plan c).drop 35)) _ _ _ _ (dmaPay_z3Send m c 0)) $$ [CS57 HO A57]
  · isplitr; · iexact HR
    isplitl [CS57]; · iexact CS57
    isplitl [HO]; · iexact HO
    isplitr; · iapply (mayWait_dma_enqs c (z3Send 0) 32 (by decide)); iexact Hlev
    iexact A57
  iintro ⟨HO, Z57, Px4⟩
  iapply (wp_dwait64 m K c (x3Send 1) (by decide) (by decide) (owedL ((plan c).drop 35)) _ _ _ _ (dmaPay_x3Send m c 1)) $$ [CS50 HO A50]
  · isplitr; · iexact HR
    isplitl [CS50]; · iexact CS50
    isplitl [HO]; · iexact HO
    isplitr; · iapply (mayWait_dma_enqs c (x3Send 1) 32 (by decide)); iexact Hlev
    iexact A50
  iintro ⟨HO, Z50, Pz1⟩
  iapply (wp_dwait64 m K c (z3Send 1) (by decide) (by decide) (owedL ((plan c).drop 35)) _ _ _ _ (dmaPay_z3Send m c 1)) $$ [CS58 HO A58]
  · isplitr; · iexact HR
    isplitl [CS58]; · iexact CS58
    isplitl [HO]; · iexact HO
    isplitr; · iapply (mayWait_dma_enqs c (z3Send 1) 32 (by decide)); iexact Hlev
    iexact A58
  iintro ⟨HO, Z58, Px5⟩
  iapply (wp_dwait64 m K c (x3Send 2) (by decide) (by decide) (owedL ((plan c).drop 35)) _ _ _ _ (dmaPay_x3Send m c 2)) $$ [CS51 HO A51]
  · isplitr; · iexact HR
    isplitl [CS51]; · iexact CS51
    isplitl [HO]; · iexact HO
    isplitr; · iapply (mayWait_dma_enqs c (x3Send 2) 32 (by decide)); iexact Hlev
    iexact A51
  iintro ⟨HO, Z51, Pz2⟩
  iapply (wp_dwait64 m K c (z3Send 2) (by decide) (by decide) (owedL ((plan c).drop 35)) _ _ _ _ (dmaPay_z3Send m c 2)) $$ [CS59 HO A59]
  · isplitr; · iexact HR
    isplitl [CS59]; · iexact CS59
    isplitl [HO]; · iexact HO
    isplitr; · iapply (mayWait_dma_enqs c (z3Send 2) 32 (by decide)); iexact Hlev
    iexact A59
  iintro ⟨HO, Z59, Px6⟩
  iapply (wp_dwait64 m K c (x3Send 3) (by decide) (by decide) (owedL ((plan c).drop 35)) _ _ _ _ (dmaPay_x3Send m c 3)) $$ [CS52 HO A52]
  · isplitr; · iexact HR
    isplitl [CS52]; · iexact CS52
    isplitl [HO]; · iexact HO
    isplitr; · iapply (mayWait_dma_enqs c (x3Send 3) 32 (by decide)); iexact Hlev
    iexact A52
  iintro ⟨HO, Z52, Pz3⟩
  iapply (wp_dwait64 m K c (z3Send 3) (by decide) (by decide) (owedL ((plan c).drop 35)) _ _ _ _ (dmaPay_z3Send m c 3)) $$ [CS60 HO A60]
  · isplitr; · iexact HR
    isplitl [CS60]; · iexact CS60
    isplitl [HO]; · iexact HO
    isplitr; · iapply (mayWait_dma_enqs c (z3Send 3) 32 (by decide)); iexact Hlev
    iexact A60
  iintro ⟨HO, Z60, Px7⟩
  -- the local copy has landed: the own half holds the device's block
  iapply (wp_dwaitH m K c (owedL ((plan c).drop 35)) _ _ _ _ (dmaPay_copy m c)) $$ [CS0 HO A0]
  · isplitr; · iexact HR
    isplitl [CS0]; · iexact CS0
    isplitl [HO]; · iexact HO
    isplitr; · iapply (mayWait_dma_enqs c (copyS) 32 (by decide)); iexact Hlev
    iexact A0
  iintro ⟨HO, Z0, Hown, HxL⟩
  -- the input staging buffer whole again
  ihave Hx := (rejoin_x m c) $$ [HxL Xr0 Xr1 Xr2 Xr3 Xr4 Xr5 Xr6 Xr7 HxRest]
  · isplitl [HxL]; · iexact HxL
    isplitl [Xr0]; · iexact Xr0
    isplitl [Xr1]; · iexact Xr1
    isplitl [Xr2]; · iexact Xr2
    isplitl [Xr3]; · iexact Xr3
    isplitl [Xr4]; · iexact Xr4
    isplitl [Xr5]; · iexact Xr5
    isplitl [Xr6]; · iexact Xr6
    isplitl [Xr7]; · iexact Xr7
    iexact HxRest
  -- the output staging buffer whole again, holding the gathered array
  ihave Hout := (rejoin_out m c) $$ [Hown Pm0 Pm1 Pm2 Pm3 Pm4 Pm5 Pm6 Pm7 Px0 Px1 Px2 Px3 Px4 Px5 Px6 Px7 Pz0 Pz1 Pz2 Pz3 Pz4 Pz5 Pz6 Pz7 Pd0 Pd1 Pd2 Pd3 Pd4 Pd5 Pd6 Pd7]
  · isplitl [Hown]; · iexact Hown
    isplitl [Pm0 Pm1 Pm2 Pm3 Pm4 Pm5 Pm6 Pm7]
    · isplitl [Pm0]; · iexact Pm0
      isplitl [Pm1]; · iexact Pm1
      isplitl [Pm2]; · iexact Pm2
      isplitl [Pm3]; · iexact Pm3
      isplitl [Pm4]; · iexact Pm4
      isplitl [Pm5]; · iexact Pm5
      isplitl [Pm6]; · iexact Pm6
      iexact Pm7
    isplitl [Px0 Px1 Px2 Px3 Px4 Px5 Px6 Px7]
    · isplitl [Px0]; · iexact Px0
      isplitl [Px1]; · iexact Px1
      isplitl [Px2]; · iexact Px2
      isplitl [Px3]; · iexact Px3
      isplitl [Px4]; · iexact Px4
      isplitl [Px5]; · iexact Px5
      isplitl [Px6]; · iexact Px6
      iexact Px7
    isplitl [Pz0 Pz1 Pz2 Pz3 Pz4 Pz5 Pz6 Pz7]
    · isplitl [Pz0]; · iexact Pz0
      isplitl [Pz1]; · iexact Pz1
      isplitl [Pz2]; · iexact Pz2
      isplitl [Pz3]; · iexact Pz3
      isplitl [Pz4]; · iexact Pz4
      isplitl [Pz5]; · iexact Pz5
      isplitl [Pz6]; · iexact Pz6
      iexact Pz7
    isplitl [Pd0]; · iexact Pd0
    isplitl [Pd1]; · iexact Pd1
    isplitl [Pd2]; · iexact Pd2
    isplitl [Pd3]; · iexact Pd3
    isplitl [Pd4]; · iexact Pd4
    isplitl [Pd5]; · iexact Pd5
    isplitl [Pd6]; · iexact Pd6
    iexact Pd7
  rw [wp_ret]; imodintro
  iapply Hk
  unfold bodyPost
  rw [done_eq]
  isplitl [Z9 Z10 Z11 Z12 Z13 Z14 Z15 Z16 Z41 Z42 Z43 Z44 Z29 Z30 Z31 Z32 Z45 Z46 Z47 Z48 Z25 Z26 Z27 Z28 Z53 Z61 Z54 Z62 Z55 Z63 Z56 Z64 Z1 Z17 Z33 Z2 Z18 Z34 Z3 Z19 Z35 Z4 Z20 Z36 Z5 Z21 Z37 Z6 Z22 Z38 Z7 Z23 Z39 Z8 Z24 Z40 Z49 Z57 Z50 Z58 Z51 Z59 Z52 Z60 Z0]
  · isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z41]; · iexact Z41
    isplitl [Z42]; · iexact Z42
    isplitl [Z43]; · iexact Z43
    isplitl [Z44]; · iexact Z44
    isplitl [Z29]; · iexact Z29
    isplitl [Z30]; · iexact Z30
    isplitl [Z31]; · iexact Z31
    isplitl [Z32]; · iexact Z32
    isplitl [Z45]; · iexact Z45
    isplitl [Z46]; · iexact Z46
    isplitl [Z47]; · iexact Z47
    isplitl [Z48]; · iexact Z48
    isplitl [Z25]; · iexact Z25
    isplitl [Z26]; · iexact Z26
    isplitl [Z27]; · iexact Z27
    isplitl [Z28]; · iexact Z28
    isplitl [Z53]; · iexact Z53
    isplitl [Z61]; · iexact Z61
    isplitl [Z54]; · iexact Z54
    isplitl [Z62]; · iexact Z62
    isplitl [Z55]; · iexact Z55
    isplitl [Z63]; · iexact Z63
    isplitl [Z56]; · iexact Z56
    isplitl [Z64]; · iexact Z64
    isplitl [Z1]; · iexact Z1
    isplitl [Z17]; · iexact Z17
    isplitl [Z33]; · iexact Z33
    isplitl [Z2]; · iexact Z2
    isplitl [Z18]; · iexact Z18
    isplitl [Z34]; · iexact Z34
    isplitl [Z3]; · iexact Z3
    isplitl [Z19]; · iexact Z19
    isplitl [Z35]; · iexact Z35
    isplitl [Z4]; · iexact Z4
    isplitl [Z20]; · iexact Z20
    isplitl [Z36]; · iexact Z36
    isplitl [Z5]; · iexact Z5
    isplitl [Z21]; · iexact Z21
    isplitl [Z37]; · iexact Z37
    isplitl [Z6]; · iexact Z6
    isplitl [Z22]; · iexact Z22
    isplitl [Z38]; · iexact Z38
    isplitl [Z7]; · iexact Z7
    isplitl [Z23]; · iexact Z23
    isplitl [Z39]; · iexact Z39
    isplitl [Z8]; · iexact Z8
    isplitl [Z24]; · iexact Z24
    isplitl [Z40]; · iexact Z40
    isplitl [Z49]; · iexact Z49
    isplitl [Z57]; · iexact Z57
    isplitl [Z50]; · iexact Z50
    isplitl [Z58]; · iexact Z58
    isplitl [Z51]; · iexact Z51
    isplitl [Z59]; · iexact Z59
    isplitl [Z52]; · iexact Z52
    isplitl [Z60]; · iexact Z60
    iexact Z0
  isplitl [HO]
  · unfold Dat.owesAt Pipeline.owesWithin
    rw [show (dats m ρ 0 c).owed t₀.succ = 0 from rfl]
    iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

end Cert.KernelIdeal.AG

end
-- ==== Proof.KI.Oblig.lean ====
/-
  The pipeline's body obligation on each core, from the body's stepped run: what the pipeline hands the body at the
  one grid point is the body's precondition with the ghost names opened, and what the body hands back is what the
  pipeline asks for.
-/
import proofs.«900664_g7700000000000665_dist_ag_v7x_xyz2x2x2_y_m2048_n512_f32_1_alg».proof.Proof.KI.Body
import proofs.«900664_g7700000000000665_dist_ag_v7x_xyz2x2x2_y_m2048_n512_f32_1_alg».proof.Proof.Gen.KernelIdeal.Points

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-- Holding a whole buffer at named contents, as the pipeline states it and as a points-to of the whole buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the one grid point: the body's invariant, what the core owes, and the two
    staging buffers whole. -/
def bodyPre' (m : (ℓ : Loc nD τ sig) → Buf (Elt F) ℓ) (ρ : Dev nD → PrngReg) (c : Dev nD) : sProp 𝕄 :=
  iprop(start m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The pipeline's body obligation on core `c`, from the body's stepped run. -/
theorem body_obligation (m : (ℓ : Loc nD τ sig) → Buf (Elt F) ℓ) (ρ : Dev nD → PrngReg) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9 cc0_scratch10)
    (fun _ => bodyPost m ρ c)
  unfold bodyPre' start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-- The same in the form the launch takes. -/
theorem body_obligation_loose (m : (ℓ : Loc nD τ sig) → Buf (Elt F) ℓ) (ρ : Dev nD → PrngReg) (c : Dev nD) :
    BodyObligationLoose (dats (F := F) m ρ 0 c) (defs₀ (F := F)) 𝒱₀ () Set.univ :=
  (body_obligation m ρ c).loose

end Cert.KernelIdeal.AG

end
-- ==== Proof.KI.Run.lean ====
/-
  The run of the all-gather. The launch theorem for a kernel whose devices owe each other units at launch and whose
  protocol runs on the barrier semaphore, which is not scoped to the launch, is applied to the proof data of the one
  region: the launch element is split between the pipeline library's algebra and the protocol's, the protocol's half is
  funded and dealt, every device's cells are put under their invariants under one update, the launch credit and the
  levels make the start of the body, and what the body leaves closes the region. Every weakly fair execution from a
  memory with all counters at zero terminates, with every window's array of every device at its final contents.
-/
import proofs.«900664_g7700000000000665_dist_ag_v7x_xyz2x2x2_y_m2048_n512_f32_1_alg».proof.Proof.KI.Fund
import proofs.«900664_g7700000000000665_dist_ag_v7x_xyz2x2x2_y_m2048_n512_f32_1_alg».proof.Proof.KI.Final
import proofs.«900664_g7700000000000665_dist_ag_v7x_xyz2x2x2_y_m2048_n512_f32_1_alg».proof.Proof.KI.Oblig
import proofs.«900664_g7700000000000665_dist_ag_v7x_xyz2x2x2_y_m2048_n512_f32_1_alg».proof.Proof.KI.Credit

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000 in
/-- On the 2 × 2 × 2 mesh, for any float values and any generator registers, from any memory whose semaphore counters
    are all zero: every weakly fair execution of the eight kernels — they meet on the barrier semaphore, then pass their
    blocks across the three axes of the mesh — terminates, and in every final state each window's array of each device
    holds its final contents. -/
theorem run_main (m : (ℓ : Loc nD τ sig) → Buf (Elt F) ℓ) (ρ : Dev nD → PrngReg) : θ_run defs (onTc (τ := τ) (main (F := F))) (s0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AG.run_main' depends on axioms: [propext, Classical.choice, Quot.sound] -/
#guard_msgs in #print axioms run_main

end Cert.KernelIdeal.AG

end
-- ==== Proof.K.Mesh.lean ====
/-
  The 2×2×2 mesh of the all-gather. A device is c = 4·x + 2·y + z. Its three neighbours differ from it in exactly one
  coordinate: the y-neighbour holds the OTHER half of the gathered array, the x- and z-neighbours hold the same half.
  The kernel's device chains name these three neighbours, and its slice offsets are rows of the two staging buffers:
  the own half starts at row 2048·y, the received half at row 2048·(1−y); the received half is four quarters of 512
  rows, quarter k = 2·x' + z' being the quarter that the device (x', 1−y, z') contributes; a quarter is eight chunks of
  64 rows.
-/
import proofs.«900664_g7700000000000665_dist_ag_v7x_xyz2x2x2_y_m2048_n512_f32_1_alg».proof.Proof.Gen.Kernel

namespace Cert.Kernel.AG

open Cert.Kernel Cert.Kernel.Gen Idealize.ShloMosaic

/-- The mesh coordinates of a device. -/
def xc (c : Dev nD) : ℕ := c.val / 4
def yc (c : Dev nD) : ℕ := (c.val / 2) % 2
def zc (c : Dev nD) : ℕ := c.val % 2

theorem val_lt (c : Dev nD) : c.val < 8 := c.isLt
theorem xc_le (c : Dev nD) : xc c ≤ 1 := by have := val_lt c; unfold xc; omega
theorem yc_le (c : Dev nD) : yc c ≤ 1 := by unfold yc; omega
theorem zc_le (c : Dev nD) : zc c ≤ 1 := by unfold zc; omega
theorem val_eq (c : Dev nD) : c.val = 4 * xc c + 2 * yc c + zc c := by unfold xc yc zc; omega

/-- The neighbour across the y axis, the x axis, the z axis. -/
def yP (c : Dev nD) : Dev nD := ⟨(4 * (c.val / 4) + (c.val % 2) + 2) - 2 * ((c.val / 2) % 2), by have := val_lt c; show _ < 8; omega⟩
def xP (c : Dev nD) : Dev nD := ⟨(2 * ((c.val / 2) % 2) + (c.val % 2) + 4) - 4 * (c.val / 4), by have := val_lt c; show _ < 8; omega⟩
def zP (c : Dev nD) : Dev nD := ⟨(4 * (c.val / 4) + 2 * ((c.val / 2) % 2) + 1) - (c.val % 2), by have := val_lt c; show _ < 8; omega⟩

theorem yP_yP (c : Dev nD) : yP (yP c) = c := by revert c; decide
theorem xP_xP (c : Dev nD) : xP (xP c) = c := by revert c; decide
theorem zP_zP (c : Dev nD) : zP (zP c) = c := by revert c; decide
theorem xP_zP (c : Dev nD) : xP (zP c) = zP (xP c) := by revert c; decide

theorem yc_yP (c : Dev nD) : yc (yP c) = 1 - yc c := by revert c; decide
theorem xc_yP (c : Dev nD) : xc (yP c) = xc c := by revert c; decide
theorem zc_yP (c : Dev nD) : zc (yP c) = zc c := by revert c; decide
theorem yc_xP (c : Dev nD) : yc (xP c) = yc c := by revert c; decide
theorem xc_xP (c : Dev nD) : xc (xP c) = 1 - xc c := by revert c; decide
theorem zc_xP (c : Dev nD) : zc (xP c) = zc c := by revert c; decide
theorem yc_zP (c : Dev nD) : yc (zP c) = yc c := by revert c; decide
theorem xc_zP (c : Dev nD) : xc (zP c) = xc c := by revert c; decide
theorem zc_zP (c : Dev nD) : zc (zP c) = 1 - zc c := by revert c; decide

theorem yP_ne (c : Dev nD) : yP c ≠ c := by revert c; decide
theorem xP_ne (c : Dev nD) : xP c ≠ c := by revert c; decide
theorem zP_ne (c : Dev nD) : zP c ≠ c := by revert c; decide
theorem yP_ne_xP (c : Dev nD) : yP c ≠ xP c := by revert c; decide
theorem yP_ne_zP (c : Dev nD) : yP c ≠ zP c := by revert c; decide
theorem xP_ne_zP (c : Dev nD) : xP c ≠ zP c := by revert c; decide

/-! ## The kernel's device chains name the three neighbours -/

theorem dev1_eq (c : Dev nD) : (⟨k0_dev1 c, k0_dev1_lt c⟩ : Dev nD) = yP c := Fin.ext (k0_dev1_eq c)
theorem dev4_eq (c : Dev nD) : (⟨k0_dev4 c, k0_dev4_lt c⟩ : Dev nD) = yP c := Fin.ext (k0_dev4_eq c)
theorem dev5_eq (c : Dev nD) : (⟨k0_dev5 c, k0_dev5_lt c⟩ : Dev nD) = yP c := Fin.ext (k0_dev5_eq c)
theorem dev6_eq (c : Dev nD) : (⟨k0_dev6 c, k0_dev6_lt c⟩ : Dev nD) = yP c := Fin.ext (k0_dev6_eq c)
theorem dev7_eq (c : Dev nD) : (⟨k0_dev7 c, k0_dev7_lt c⟩ : Dev nD) = yP c := Fin.ext (k0_dev7_eq c)
theorem dev8_eq (c : Dev nD) : (⟨k0_dev8 c, k0_dev8_lt c⟩ : Dev nD) = yP c := Fin.ext (k0_dev8_eq c)
theorem dev9_eq (c : Dev nD) : (⟨k0_dev9 c, k0_dev9_lt c⟩ : Dev nD) = yP c := Fin.ext (k0_dev9_eq c)
theorem dev10_eq (c : Dev nD) : (⟨k0_dev10 c, k0_dev10_lt c⟩ : Dev nD) = yP c := Fin.ext (k0_dev10_eq c)
theorem dev11_eq (c : Dev nD) : (⟨k0_dev11 c, k0_dev11_lt c⟩ : Dev nD) = yP c := Fin.ext (k0_dev11_eq c)
theorem dev2_eq (c : Dev nD) : (⟨k0_dev2 c, k0_dev2_lt c⟩ : Dev nD) = xP c := Fin.ext (k0_dev2_eq c)
theorem dev12_eq (c : Dev nD) : (⟨k0_dev12 c, k0_dev12_lt c⟩ : Dev nD) = xP c := Fin.ext (k0_dev12_eq c)
theorem dev14_eq (c : Dev nD) : (⟨k0_dev14 c, k0_dev14_lt c⟩ : Dev nD) = xP c := Fin.ext (k0_dev14_eq c)
theorem dev16_eq (c : Dev nD) : (⟨k0_dev16 c, k0_dev16_lt c⟩ : Dev nD) = xP c := Fin.ext (k0_dev16_eq c)
theorem dev18_eq (c : Dev nD) : (⟨k0_dev18 c, k0_dev18_lt c⟩ : Dev nD) = xP c := Fin.ext (k0_dev18_eq c)
theorem dev20_eq (c : Dev nD) : (⟨k0_dev20 c, k0_dev20_lt c⟩ : Dev nD) = xP c := Fin.ext (k0_dev20_eq c)
theorem dev22_eq (c : Dev nD) : (⟨k0_dev22 c, k0_dev22_lt c⟩ : Dev nD) = xP c := Fin.ext (k0_dev22_eq c)
theorem dev24_eq (c : Dev nD) : (⟨k0_dev24 c, k0_dev24_lt c⟩ : Dev nD) = xP c := Fin.ext (k0_dev24_eq c)
theorem dev26_eq (c : Dev nD) : (⟨k0_dev26 c, k0_dev26_lt c⟩ : Dev nD) = xP c := Fin.ext (k0_dev26_eq c)
theorem dev28_eq (c : Dev nD) : (⟨k0_dev28 c, k0_dev28_lt c⟩ : Dev nD) = xP c := Fin.ext (k0_dev28_eq c)
theorem dev29_eq (c : Dev nD) : (⟨k0_dev29 c, k0_dev29_lt c⟩ : Dev nD) = xP c := Fin.ext (k0_dev29_eq c)
theorem dev30_eq (c : Dev nD) : (⟨k0_dev30 c, k0_dev30_lt c⟩ : Dev nD) = xP c := Fin.ext (k0_dev30_eq c)
theorem dev31_eq (c : Dev nD) : (⟨k0_dev31 c, k0_dev31_lt c⟩ : Dev nD) = xP c := Fin.ext (k0_dev31_eq c)
theorem dev3_eq (c : Dev nD) : (⟨k0_dev3 c, k0_dev3_lt c⟩ : Dev nD) = zP c := Fin.ext (k0_dev3_eq c)
theorem dev13_eq (c : Dev nD) : (⟨k0_dev13 c, k0_dev13_lt c⟩ : Dev nD) = zP c := Fin.ext (k0_dev13_eq c)
theorem dev15_eq (c : Dev nD) : (⟨k0_dev15 c, k0_dev15_lt c⟩ : Dev nD) = zP c := Fin.ext (k0_dev15_eq c)
theorem dev17_eq (c : Dev nD) : (⟨k0_dev17 c, k0_dev17_lt c⟩ : Dev nD) = zP c := Fin.ext (k0_dev17_eq c)
theorem dev19_eq (c : Dev nD) : (⟨k0_dev19 c, k0_dev19_lt c⟩ : Dev nD) = zP c := Fin.ext (k0_dev19_eq c)
theorem dev21_eq (c : Dev nD) : (⟨k0_dev21 c, k0_dev21_lt c⟩ : Dev nD) = zP c := Fin.ext (k0_dev21_eq c)
theorem dev23_eq (c : Dev nD) : (⟨k0_dev23 c, k0_dev23_lt c⟩ : Dev nD) = zP c := Fin.ext (k0_dev23_eq c)
theorem dev25_eq (c : Dev nD) : (⟨k0_dev25 c, k0_dev25_lt c⟩ : Dev nD) = zP c := Fin.ext (k0_dev25_eq c)
theorem dev27_eq (c : Dev nD) : (⟨k0_dev27 c, k0_dev27_lt c⟩ : Dev nD) = zP c := Fin.ext (k0_dev27_eq c)
theorem dev32_eq (c : Dev nD) : (⟨k0_dev32 c, k0_dev32_lt c⟩ : Dev nD) = zP c := Fin.ext (k0_dev32_eq c)
theorem dev33_eq (c : Dev nD) : (⟨k0_dev33 c, k0_dev33_lt c⟩ : Dev nD) = zP c := Fin.ext (k0_dev33_eq c)
theorem dev34_eq (c : Dev nD) : (⟨k0_dev34 c, k0_dev34_lt c⟩ : Dev nD) = zP c := Fin.ext (k0_dev34_eq c)
theorem dev35_eq (c : Dev nD) : (⟨k0_dev35 c, k0_dev35_lt c⟩ : Dev nD) = zP c := Fin.ext (k0_dev35_eq c)

/-! ## Rows -/

/-- First row of the device's own half of the gathered array, and of the half it receives. -/
def ownBase (c : Dev nD) : ℕ := 2048 * yc c
def recvBase (c : Dev nD) : ℕ := 2048 - 2048 * yc c
/-- The quarter (0..3) of a half that the device itself contributes, and the quarters its x-, z- and diagonal
    neighbours contribute. -/
def kM (c : Dev nD) : ℕ := 2 * xc c + zc c
def kX (c : Dev nD) : ℕ := 2 * (1 - xc c) + zc c
def kZ (c : Dev nD) : ℕ := 2 * xc c + (1 - zc c)
def kD (c : Dev nD) : ℕ := 2 * (1 - xc c) + (1 - zc c)

theorem recvBase_yP (c : Dev nD) : recvBase (yP c) = ownBase c := by
  unfold recvBase ownBase; rw [yc_yP]; have := yc_le c; omega
theorem recvBase_xP (c : Dev nD) : recvBase (xP c) = recvBase c := by unfold recvBase; rw [yc_xP]
theorem recvBase_zP (c : Dev nD) : recvBase (zP c) = recvBase c := by unfold recvBase; rw [yc_zP]
theorem kM_yP (c : Dev nD) : kM (yP c) = kM c := by unfold kM; rw [xc_yP, zc_yP]
theorem kX_xP (c : Dev nD) : kX (xP c) = kM c := by unfold kX kM; rw [xc_xP, zc_xP]; have := xc_le c; omega
theorem kZ_zP (c : Dev nD) : kZ (zP c) = kM c := by unfold kZ kM; rw [xc_zP, zc_zP]; have := zc_le c; omega
theorem kD_xP (c : Dev nD) : kD (xP c) = kZ c := by unfold kD kZ; rw [xc_xP, zc_xP]; have := xc_le c; omega
theorem kM_xP (c : Dev nD) : kM (xP c) = kX c := by unfold kM kX; rw [xc_xP, zc_xP]
theorem kM_zP (c : Dev nD) : kM (zP c) = kZ c := by unfold kM kZ; rw [xc_zP, zc_zP]
theorem kZ_xP (c : Dev nD) : kZ (xP c) = kD c := by unfold kZ kD; rw [xc_xP, zc_xP]
theorem kX_zP (c : Dev nD) : kX (zP c) = kD c := by unfold kX kD; rw [xc_zP, zc_zP]
theorem kM_lt (c : Dev nD) : kM c < 4 := by have := xc_le c; have := zc_le c; unfold kM; omega
theorem kX_lt (c : Dev nD) : kX c < 4 := by have := zc_le c; unfold kX; omega
theorem kZ_lt (c : Dev nD) : kZ c < 4 := by have := xc_le c; unfold kZ; omega
theorem kD_lt (c : Dev nD) : kD c < 4 := by unfold kD; omega
theorem kD_zP (c : Dev nD) : kD (zP c) = kX c := by unfold kD kX; rw [xc_zP, zc_zP]; have := zc_le c; omega

/-! ## The kernel's slice offsets, as rows -/

theorem off1_row (c : Dev nD) : k0_off1 c = ![ownBase c, 0] := k0_off1_eq c
/-- Destination of the i-th transfer to the y-neighbour: in ITS received half, the sender's quarter. -/
theorem off2_row (c : Dev nD) (r : Fin 8) :
    k0_off2 c (BitVec.ofNat 32 (64 * r.val)) = ![recvBase (yP c) + 64 * (8 * kM c + r.val), 0] := by
  rw [k0_off2_eq, recvBase_yP]; unfold ownBase kM xc yc zc
  have := val_lt c; have := r.isLt
  congr 1; omega
/-- Its source: the sender's quarter of its own block. -/
theorem off3_row (c : Dev nD) (r : Fin 8) :
    k0_off3 c (BitVec.ofNat 32 (64 * r.val)) = ![64 * (8 * kM c + r.val), 0] := by
  rw [k0_off3_eq]; unfold kM xc zc
  have := val_lt c; have := r.isLt
  congr 1; omega
/-- Source and destination of the forwards to the x- and z-neighbours: the y-neighbour's quarter of the received half. -/
theorem off4_row (c : Dev nD) (r : Fin 8) :
    k0_off4 c (BitVec.ofNat 32 (64 * r.val)) = ![recvBase c + 64 * (8 * kM c + r.val), 0] := by
  rw [k0_off4_eq]; unfold recvBase kM xc yc zc
  have := val_lt c; have := r.isLt
  congr 1; omega
/-- Source and destination of the second forward to the x-neighbour: chunks 0..3 of the z-neighbour's quarter. -/
theorem off5_row (c : Dev nD) (r : Fin 4) :
    k0_off5 c (BitVec.ofNat 32 (64 * r.val)) = ![recvBase c + 64 * (8 * kZ c + r.val), 0] := by
  rw [k0_off5_eq]; unfold recvBase kZ xc yc zc
  have := val_lt c; have := r.isLt
  congr 1; omega
/-- Source and destination of the second forward to the z-neighbour: chunks 4..7 of the x-neighbour's quarter. -/
theorem off6_row (c : Dev nD) (r : Fin 4) :
    k0_off6 c (BitVec.ofNat 32 (256 + 64 * r.val)) = ![recvBase c + 64 * (8 * kX c + 4 + r.val), 0] := by
  rw [k0_off6_eq]; unfold recvBase kX xc yc zc
  have := val_lt c; have := r.isLt
  congr 1; omega

end Cert.Kernel.AG
-- ==== Proof.K.Cells.lean ====
/-
  The two staging buffers of the all-gather seen as rows, and what they hold.
  The input staging buffer holds the device's block X_c (2048 rows). The output staging buffer (4096 rows) ends as W_c:
  rows of the device's own half hold X_c, and quarter k = 2·x' + z' of the received half holds the same rows of
  X_d for d = (x', 1−y, z'), the device that contributes that quarter. Every transfer of the kernel moves 64 whole
  rows (the local copy 2048), so every region a transfer reads or writes is a set of rows.
-/
import proofs.«900664_g7700000000000665_dist_ag_v7x_xyz2x2x2_y_m2048_n512_f32_1_alg».proof.Proof.K.Mesh
import proofs.«900664_g7700000000000665_dist_ag_v7x_xyz2x2x2_y_m2048_n512_f32_1_alg».proof.Proof.Gen.Kernel.Skeleton
import proofs.«900664_g7700000000000665_dist_ag_v7x_xyz2x2x2_y_m2048_n512_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

/-- The resource algebra: the pipeline library's copy and the protocol's, whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S2048x512 .f32 := Memref.whole cc0_stg0_0
abbrev oM : Memref sig .tc .vmem S4096x512 .f32 := Memref.whole cc0_stg1_0
abbrev xLoc (c : Dev nD) : Loc nD τ sig := (c : Thread nD τ).loc cc0_stg0_0
abbrev oLoc (c : Dev nD) : Loc nD τ sig := (c : Thread nD τ).loc cc0_stg1_0

/-- Rows `lo ≤ r < lo + n` of the output staging buffer, of the input staging buffer. -/
def rowsO (c : Dev nD) (lo n : ℕ) : Finset (Idx (oLoc c)) :=
  Finset.univ.filter fun (i : S4096x512.Idx) => lo ≤ (i 0).val ∧ (i 0).val < lo + n
def rowsX (c : Dev nD) (lo n : ℕ) : Finset (Idx (xLoc c)) :=
  Finset.univ.filter fun (i : S2048x512.Idx) => lo ≤ (i 0).val ∧ (i 0).val < lo + n

theorem mem_rowsO {c : Dev nD} {lo n : ℕ} {i : S4096x512.Idx} : i ∈ rowsO c lo n ↔ lo ≤ (i 0).val ∧ (i 0).val < lo + n := by
  unfold rowsO; rw [Finset.mem_filter]; exact and_iff_right (Finset.mem_univ _)
theorem mem_rowsX {c : Dev nD} {lo n : ℕ} {i : S2048x512.Idx} : i ∈ rowsX c lo n ↔ lo ≤ (i 0).val ∧ (i 0).val < lo + n := by
  unfold rowsX; rw [Finset.mem_filter]; exact and_iff_right (Finset.mem_univ _)

/-- A 64-row slice of the output staging buffer at column 0 is a set of rows. -/
theorem set_oslice (c : Dev nD) (off : Fin 2 → ℕ) (lo : ℕ) (h : off = ![lo, 0]) (inb : ∀ a, off a + S64x512.size a ≤ S4096x512.size a) :
    ((oM.slice (Rect.unit (s := S4096x512) off S64x512.size inb) (fun _ => rfl)).view.set : Finset (Idx (oLoc c))) = rowsO c lo 64 := by
  subst h
  show ((View.whole cc0_stg1_0).slice (Rect.unit (s := S4096x512) ![lo, 0] S64x512.size inb)).set = _
  rw [View.set_slice_whole]
  ext i
  rw [Rect.mem_set_unit, mem_rowsO]
  constructor
  · intro h; exact h (0 : Fin 2)
  · intro h0 a
    match a with
    | ⟨0, _⟩ => exact h0
    | ⟨1, _⟩ => exact ⟨Nat.zero_le _, by show _ < 0 + 512; rw [Nat.zero_add]; exact (i _).isLt⟩

variable (m : (ℓ : Loc nD τ sig) → Buf (Elt F) ℓ)

/-- What device `d`'s input staging buffer holds in the body: its block of the argument array. -/
def X (d : Dev nD) : (cc0_stg0_0 : Ref sig .tc).ty.Contents (Elt F) :=
  (win0_0.blk (0 : Fin 1)).view.read (Elt F) (m ((d : Thread nD τ).loc main_arg0))

/-- The device (x', 1−y, z') that contributes quarter k = 2·x' + z' of device `c`'s received half. -/
def srcDev (c : Dev nD) (k : ℕ) : Dev nD := ⟨4 * (k / 2 % 2) + 2 * (1 - yc c) + k % 2, by show _ < 8; omega⟩

/-- What device `c`'s output staging buffer ends holding. -/
def W (c : Dev nD) : (cc0_stg1_0 : Ref sig .tc).ty.Contents (Elt F) := fun (i : S4096x512.Idx) =>
  if (i 0).val / 2048 = yc c then X m c (ix2 (⟨(i 0).val % 2048, Nat.mod_lt _ (by decide)⟩ : Fin 2048) (i 1))
  else X m (srcDev c ((i 0).val % 2048 / 512)) (ix2 (⟨(i 0).val % 2048, Nat.mod_lt _ (by decide)⟩ : Fin 2048) (i 1))

end Cert.Kernel.AG

end
-- ==== Proof.K.Sched.lean ====
/-
  The protocol of the all-gather as rounds. Every semaphore is used for one round.
  A device's barrier cell receives one unit from each of its three neighbours; the unit from a neighbour carries the
  rows of THAT neighbour's output staging buffer which this device will overwrite (eight chunks in the y-neighbour, eight
  plus four in the x- and in the z-neighbour). Each DMA semaphore carries one transfer: a receive cell is paid when its
  chunk has landed and hands the owner that chunk holding its final contents; a send cell is paid when the source has
  been read and hands back the share of the source that was lent; the copy cell hands back the own half written and
  the lent share of the input block.
-/
import proofs.«900664_g7700000000000665_dist_ag_v7x_xyz2x2x2_y_m2048_n512_f32_1_alg».proof.Proof.K.Cells

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The barrier semaphore of the collective (not scoped to the launch). -/
abbrev barS : Sem sig := (SemArray.scalar (sig.barrier 0 rfl) : Sems sig S_).sem
abbrev barCell (c : Dev nD) : GSem nD τ sig := ((c : Thread nD τ), .reg barS)
abbrev dCell (c : Dev nD) (n : DmaSem sig) : GSem nD τ sig := ((c : Thread nD τ), .dma n)

/-- The DMA semaphores by role: the local copy's; then per chunk the send and receive semaphores of the five groups of
    transfers (to the y-neighbour; first forward to the x- and z-neighbour; second forward to the x- and z-neighbour). -/
abbrev copyS : DmaSem sig := ⟨2, by decide⟩
abbrev ySend (i : Fin 8) : DmaSem sig := ⟨3 + i.val, by have := i.isLt; show _ < 67; omega⟩
abbrev yRecv (i : Fin 8) : DmaSem sig := ⟨11 + i.val, by have := i.isLt; show _ < 67; omega⟩
abbrev x2Send (i : Fin 8) : DmaSem sig := ⟨19 + i.val, by have := i.isLt; show _ < 67; omega⟩
abbrev x2Recv (i : Fin 8) : DmaSem sig := ⟨27 + i.val, by have := i.isLt; show _ < 67; omega⟩
abbrev z2Send (i : Fin 8) : DmaSem sig := ⟨35 + i.val, by have := i.isLt; show _ < 67; omega⟩
abbrev z2Recv (i : Fin 8) : DmaSem sig := ⟨43 + i.val, by have := i.isLt; show _ < 67; omega⟩
abbrev x3Send (j : Fin 4) : DmaSem sig := ⟨51 + j.val, by have := j.isLt; show _ < 67; omega⟩
abbrev x3Recv (j : Fin 4) : DmaSem sig := ⟨55 + j.val, by have := j.isLt; show _ < 67; omega⟩
abbrev z3Send (j : Fin 4) : DmaSem sig := ⟨59 + j.val, by have := j.isLt; show _ < 67; omega⟩
abbrev z3Recv (j : Fin 4) : DmaSem sig := ⟨63 + j.val, by have := j.isLt; show _ < 67; omega⟩

/-- The credit of a 64-row chunk, of the 2048-row own half. -/
def N64 : ℕ := (oM.slice (Rect.unit (s := S4096x512) ![0, 0] S64x512.size (by decide)) (fun _ => rfl)).view.dmaCredit
def Nh : ℕ := (oM.slice (Rect.unit (s := S4096x512) ![0, 0] S2048x512.size (by decide)) (fun _ => rfl)).view.dmaCredit
theorem N64_pos : 0 < N64 := by unfold N64; exact View.dmaCredit_pos _ (by decide)
theorem Nh_pos : 0 < Nh := by unfold Nh; exact View.dmaCredit_pos _ (by decide)

/-! ## Payloads -/

variable (m : (ℓ : Loc nD τ sig) → Buf (Elt F) ℓ)

/-- Chunk `j` (0..31) of device `c'`'s received half, at some contents: what a neighbour is lent to write into. -/
def someChunk (c' : Dev nD) (j : ℕ) : sProp 𝕄 :=
  iprop(∃ f : Buf (Elt F) (oLoc c'), oLoc c' ↦[rowsO c' (recvBase c' + 64 * j) 64]{fullShare} f)
/-- Chunk `j` of device `c`'s received half holding its final contents, at share `q`. -/
def chunk (c : Dev nD) (j : ℕ) (q : PosShare TreeShare) : sProp 𝕄 :=
  oLoc c ↦[rowsO c (recvBase c + 64 * j) 64]{q} W m c

/-- What the unit of duty `d` on device `c`'s barrier cell carries: duty 0 is paid by the y-neighbour, 1 by the
    x-neighbour, 2 by the z-neighbour, each with the chunks of ITS received half that `c` will write. -/
def barPay (c : Dev nD) (d : Fin 3) : sProp 𝕄 :=
  if d = 0 then bigSep (Finset.univ : Finset (Fin 8)) fun i => someChunk (F := F) (yP c) (8 * kM c + i.val)
  else if d = 1 then
    iprop((bigSep (Finset.univ : Finset (Fin 8)) fun i => someChunk (F := F) (xP c) (8 * kM c + i.val))
      ∗ bigSep (Finset.univ : Finset (Fin 4)) fun j => someChunk (F := F) (xP c) (8 * kZ c + j.val))
  else
    iprop((bigSep (Finset.univ : Finset (Fin 8)) fun i => someChunk (F := F) (zP c) (8 * kM c + i.val))
      ∗ bigSep (Finset.univ : Finset (Fin 4)) fun j => someChunk (F := F) (zP c) (8 * kX c + 4 + j.val))

/-- What DMA semaphore `n` of device `c` hands its owner when its one transfer has paid it. -/
def dmaPay (c : Dev nD) (n : ℕ) : sProp 𝕄 :=
  if n = 2 then iprop((oLoc c ↦[rowsO c (ownBase c) 2048]{fullShare} W m c) ∗ (xLoc c ↦[Finset.univ]{fullShare.left} X m c))
  else if n < 11 then (xLoc c ↦[rowsX c (64 * (8 * kM c + (n - 3))) 64]{fullShare.right} X m c)
  else if n < 19 then chunk m c (8 * kM c + (n - 11)) fullShare
  else if n < 27 then chunk m c (8 * kM c + (n - 19)) fullShare.left
  else if n < 35 then chunk m c (8 * kX c + (n - 27)) fullShare
  else if n < 43 then chunk m c (8 * kM c + (n - 35)) fullShare.right
  else if n < 51 then chunk m c (8 * kZ c + (n - 43)) fullShare
  else if n < 55 then chunk m c (8 * kZ c + (n - 51)) fullShare
  else if n < 59 then chunk m c (8 * kD c + (n - 55)) fullShare
  else if n < 63 then chunk m c (8 * kX c + 4 + (n - 59)) fullShare
  else chunk m c (8 * kD c + 4 + (n - 63)) fullShare

/-! ## The schedule -/

/-- One round, round 0: a TensorCore's barrier cell has three duties of one unit; each of its DMA semaphores 2..66 one
    duty of its transfer's credit. (DMA semaphores 0 and 1 are the pipeline's own.) -/
def agRd : Rounds.Schedule (GSem nD τ sig) (Fin 3) 𝕄 where
  duties g r := if r = 0 ∧ g.1.2 = .tc then (match g.2 with | .reg _ => Finset.univ | .dma n => if 2 ≤ n.val then {0} else ∅) else ∅
  unitless _ := False
  amount g _ _ := match g.2 with | .reg _ => 1 | .dma n => if n.val = 2 then Nh else N64
  payload g _ d := match g.2 with | .reg _ => barPay g.1.1 d | .dma n => dmaPay m g.1.1 n.val
  amount_pos g _ _ _ := by
    rcases g with ⟨t, s⟩
    cases s with
    | reg _ => exact Nat.one_pos
    | dma n => show 0 < (if n.val = 2 then Nh else N64); split
               · exact Nh_pos
               · exact N64_pos

instance someChunk_storable (c' : Dev nD) (j : ℕ) : BI.Storable (upEmb : UEmb _ 𝕄) (someChunk (F := F) c' j) := by unfold someChunk; infer_instance
instance chunk_storable (c : Dev nD) (j : ℕ) (q : PosShare TreeShare) : BI.Storable (upEmb : UEmb _ 𝕄) (chunk m c j q) := by unfold chunk; infer_instance
instance barPay_storable (c : Dev nD) (d : Fin 3) : BI.Storable (upEmb : UEmb _ 𝕄) (barPay (F := F) c d) := by
  unfold barPay; (repeat' split) <;> infer_instance
instance dmaPay_storable (c : Dev nD) (n : ℕ) : BI.Storable (upEmb : UEmb _ 𝕄) (dmaPay m c n) := by
  unfold dmaPay; (repeat' split) <;> infer_instance
instance agRd_payload_storable (g : GSem nD τ sig) (r : ℕ) (d : Fin 3) :
    BI.Storable (upEmb : UEmb _ 𝕄) ((agRd (F := F) m).payload g r d) := by
  rcases g with ⟨t, s⟩
  cases s with
  | reg _ => show BI.Storable upEmb (barPay t.1 d); infer_instance
  | dma n => show BI.Storable upEmb (dmaPay m t.1 n.val); infer_instance

/-! ## The tables -/

section Tables
variable (c : Dev nD)

omit [FloatOps F] in
theorem duties_bar : (agRd (F := F) m).duties (barCell c) 0 = Finset.univ := by dsimp only [agRd]; exact if_pos ⟨rfl, rfl⟩
omit [FloatOps F] in
theorem duties_dma (n : DmaSem sig) (h : 2 ≤ n.val) : (agRd (F := F) m).duties (dCell c n) 0 = {0} := by
  dsimp only [agRd]; rw [if_pos ⟨rfl, rfl⟩]; exact if_pos h
omit [FloatOps F] in
theorem duties_later (g : GSem nD τ sig) : ∀ r, 1 ≤ r → (agRd (F := F) m).duties g r = ∅ :=
  fun r hr => by dsimp only [agRd]; rw [if_neg fun h => by omega]
omit [FloatOps F] in
theorem amount_bar (d : Fin 3) : (agRd (F := F) m).amount (barCell c) 0 d = 1 := rfl
omit [FloatOps F] in
theorem amount_copy (d : Fin 3) : (agRd (F := F) m).amount (dCell c copyS) 0 d = Nh := rfl
omit [FloatOps F] in
theorem amount_dma (n : DmaSem sig) (h : n.val ≠ 2) (d : Fin 3) : (agRd (F := F) m).amount (dCell c n) 0 d = N64 := by
  dsimp only [agRd]; exact if_neg h
omit [FloatOps F] in
theorem expect_bar : (agRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_dma (n : DmaSem sig) (h2 : 2 ≤ n.val) (h : n.val ≠ 2) : (agRd (F := F) m).expect (dCell c n) 0 = N64 := by
  unfold Schedule.expect Schedule.amountOf; rw [duties_dma m c n h2, Finset.sum_singleton]
  exact amount_dma m c n h 0
omit [FloatOps F] in
theorem payload_bar (d : Fin 3) : (agRd (F := F) m).payload (barCell c) 0 d = barPay c d := rfl
omit [FloatOps F] in
theorem payload_dma (n : DmaSem sig) (d : Fin 3) : (agRd (F := F) m).payload (dCell c n) 0 d = dmaPay m c n.val := rfl

omit [FloatOps F] in
/-- The whole of a DMA cell's round: its one payload. -/
theorem rest_dma (n : DmaSem sig) (h : 2 ≤ n.val) :
    bigSep ((agRd (F := F) m).duties (dCell c n) 0 \ ∅) (fun d => (agRd (F := F) m).payload (dCell c n) 0 d) = dmaPay m c n.val := by
  rw [Finset.sdiff_empty, duties_dma m c n h, bigSep_singleton, payload_dma]
omit [FloatOps F] in
/-- The whole of the barrier cell's round: the three neighbours' chunks. -/
theorem rest_bar : bigSep ((agRd (F := F) m).duties (barCell c) 0 \ ∅) (fun d => (agRd (F := F) m).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons, bigSepL_singleton]
  rfl

end Tables

end Cert.Kernel.AG

end
-- ==== Proof.K.Iface.lean ====
/-
  What one device holds when the kernel's body starts and what it must hand back, for the launch and for the body.
  Resources are listed in the order in which the program uses them: the transfers in the order they are issued, the
  semaphore cells in the order they are waited on.
-/
import proofs.«900664_g7700000000000665_dist_ag_v7x_xyz2x2x2_y_m2048_n512_f32_1_alg».proof.Proof.K.Sched

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s0 : MemSt nD τ sig (Elt F) := ⟨m, fun _ => 0, ρ⟩

/-- The neighbour across axis `d`: 0 the y axis, 1 the x axis, 2 the z axis. Duty `d` of a barrier cell is paid by it. -/
def nb (c : Dev nD) (d : Fin 3) : Dev nD := if d = 0 then yP c else if d = 1 then xP c else zP c

/-- The kernel's own DMA semaphores 2..66, by index 0..64. -/
abbrev dsem (k : Fin 65) : DmaSem sig := ⟨k.val + 2, by have := k.isLt; show _ < 67; omega⟩
abbrev osem : Fin 65 → SemLoc sig := fun k => .dma (dsem k)
/-- All 66 cells of a device: the barrier cell, then the DMA cells. -/
abbrev csem (k : Fin 66) : SemLoc sig := if h : k.val = 0 then .reg barS else .dma ⟨k.val + 1, by have := k.isLt; show _ < 67; omega⟩
abbrev kcell (ck : Dev nD × Fin 66) : GSem nD τ sig := ((ck.1 : Thread nD τ), csem ck.2)

/-- The own DMA cells in the order the program waits on them: the receives of the three stages as they are consumed,
    then the sends, then the local copy. -/
def waitIdx : List (Fin 65) := [9, 10, 11, 12, 13, 14, 15, 16, 41, 42, 43, 44, 29, 30, 31, 32, 45, 46, 47, 48, 25, 26, 27, 28, 53, 61, 54, 62, 55, 63, 56, 64, 1, 17, 33, 2, 18, 34, 3, 19, 35, 4, 20, 36, 5, 21, 37, 6, 22, 38, 7, 23, 39, 8, 24, 40, 49, 57, 50, 58, 51, 59, 52, 60, 0]
/-- Its first 32: the receive cells, which other devices pay. -/
def recvIdx : List (Fin 65) := [9, 10, 11, 12, 13, 14, 15, 16, 41, 42, 43, 44, 29, 30, 31, 32, 45, 46, 47, 48, 25, 26, 27, 28, 53, 61, 54, 62, 55, 63, 56, 64]
/-- The remote transfers in the order they are issued: (send cell, receive cell on the target, axis of the target). -/
def enqs : List (Fin 65 × Fin 65 × Fin 3) := [(1, 9, 0), (2, 10, 0), (3, 11, 0), (4, 12, 0), (5, 13, 0), (6, 14, 0), (7, 15, 0), (8, 16, 0), (17, 25, 1), (33, 41, 2), (18, 26, 1), (34, 42, 2), (19, 27, 1), (35, 43, 2), (20, 28, 1), (36, 44, 2), (21, 29, 1), (37, 45, 2), (22, 30, 1), (38, 46, 2), (23, 31, 1), (39, 47, 2), (24, 32, 1), (40, 48, 2), (49, 53, 1), (50, 54, 1), (51, 55, 1), (52, 56, 1), (57, 61, 2), (58, 62, 2), (59, 63, 2), (60, 64, 2)]

/-! ## What a device owes at launch, in the order it pays -/

def owedL : List (GSem nD τ sig × ℕ) → CellTallies nD τ sig Unit
  | [] => 0
  | (g, k) :: l => owedL l + tallyAt g () k

/-- The arrivals it owes its neighbours' receive cells. -/
def arrivals (c : Dev nD) : List (GSem nD τ sig × ℕ) := enqs.map fun t => (dCell (nb c t.2.2) (dsem t.2.1), N64)
/-- Everything: the three barrier units, then the arrivals. -/
def plan (c : Dev nD) : List (GSem nD τ sig × ℕ) :=
  (barCell (yP c), 1) :: (barCell (xP c), 1) :: (barCell (zP c), 1) :: arrivals c
def O₀ (c : Dev nD) : CellTallies nD τ sig Unit := owedL (plan c)

/-! ## Levels: a cell may be waited on only below everything still owed -/

def L (g : GSem nD τ sig) : Finset Unit := if g.1.2 = .tc then {()} else ∅
/-- Barrier 1; the y-stage receives 2; the first forwards' receives 3; the second forwards' receives 4; the rest 0. -/
def lvN (n : ℕ) : ℕ :=
  if 11 ≤ n ∧ n < 19 then 2 else if (27 ≤ n ∧ n < 35) ∨ (43 ≤ n ∧ n < 51) then 3 else if (55 ≤ n ∧ n < 59) ∨ 63 ≤ n then 4 else 0
def lv (g : GSem nD τ sig) (_ : Unit) : ℕ := match g.2 with | .reg _ => 1 | .dma n => lvN n.val

/-! ## The ghost state -/

/-- Every cell's invariant, at the names `K` the launch allocated, and that every cell has reached round 0. -/
def records (K : Dev nD × Fin 66 → ℕ) : sProp 𝕄 :=
  iprop((bigSep Finset.univ fun ck : Dev nD × Fin 66 => cellInv ER (agRd m) (K ck) (kcell ck))
    ∗ bigSep Finset.univ fun ck : Dev nD × Fin 66 => reached ER (kcell ck) 0)

instance records_persistent (K : Dev nD × Fin 66 → ℕ) : BI.Persistent (records m K) := by unfold records; infer_instance

/-- The device's positions at round 0 of its own cells. -/
def posOf (c : Dev nD) : sProp 𝕄 :=
  iprop(atPos ER (barCell c) 0 ∅ 0 ∗ bigSepL waitIdx fun k => atPos ER (dCell c (dsem k)) 0 ∅ 0)
/-- The tokens of the duties it pays: one unit on each neighbour's barrier cell; its copy; per remote transfer the
    departure on its own send cell and the arrival on the target's receive cell. -/
def toksOf (c : Dev nD) : sProp 𝕄 :=
  iprop(dutyTok ER (barCell (yP c)) 0 0 ∗ dutyTok ER (barCell (xP c)) 0 1 ∗ dutyTok ER (barCell (zP c)) 0 2
    ∗ dutyTok ER (dCell c copyS) 0 0
    ∗ bigSepL enqs fun t => iprop(dutyTok ER (dCell c (dsem t.1)) 0 0 ∗ dutyTok ER (dCell (nb c t.2.2) (dsem t.2.1)) 0 0))
/-- The credit it is dealt at launch: what others owe its barrier and receive cells. -/
def credsOf (c : Dev nD) : sProp 𝕄 :=
  iprop(cred (tallyAt (barCell c) () 3) ∗ bigSepL recvIdx fun k => cred (tallyAt (dCell c (dsem k)) () N64))

def ghost (K : Dev nD × Fin 66 → ℕ) (c : Dev nD) : sProp 𝕄 := iprop(records m K ∗ posOf c ∗ toksOf c)

/-- What the body starts from. -/
def start (c : Dev nD) : sProp 𝕄 := iprop((∃ K, ghost m K c) ∗ credsOf c ∗ levAts L lv)
/-- What it ends with: its own DMA cells closed, their counters at zero. -/
def done (c : Dev nD) : sProp 𝕄 := bigSepL waitIdx fun k => semVal ((c : Thread nD τ), osem k) 0

/-! ## The pipeline's proof data -/

def dats (_ : Fin 1) (c : Dev nD) : Dat τ (Elt F) Unit ℕ UU ℕ cfg0 c where
  A w := (s0 m ρ).mem ((cfg0.win w).arr.view.loc (c : Thread nD τ))
  after w _ := match w with
    | ⟨0, _⟩ => X m c
    | ⟨1, _⟩ => W m c
  Φ t := match t with
    | ⟨0, _⟩ => start m c
    | ⟨_ + 1, _⟩ => done c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer whole, at named contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- The body's precondition with the ghost names opened, and its postcondition. -/
def bodyPre (K : Dev nD × Fin 66 → ℕ) (c : Dev nD) : sProp 𝕄 :=
  iprop((ghost m K c ∗ credsOf c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(done c ∗ (dats m ρ 0 c).owesAt () t₀.succ ∗ stg c cc0_stg0_0 (X m c) ∗ stg c cc0_stg1_0 (W m c))

end Cert.Kernel.AG

end
-- ==== Proof.K.Fund.lean ====
/-
  The launch of the all-gather, its funding half. The protocol's algebra starts from the launch element over the 66
  cells of every device (the barrier cell and the DMA cells 2..66) and over the duty tokens of their one round. It
  deals every device the round state, the position and the reached mark of its own cells and the tokens of its own
  cells' duties. Under one update every device puts its cells under their invariants; the tokens then go to the
  devices that PAY the duties: duty d of a barrier cell to the neighbour across axis d, the arrival on a receive cell
  to the neighbour that sends to it; the departure and copy tokens stay where they are.
-/
import proofs.«900664_g7700000000000665_dist_ag_v7x_xyz2x2x2_y_m2048_n512_f32_1_alg».proof.Proof.K.Iface
import proofs.«900664_g7700000000000665_dist_ag_v7x_xyz2x2x2_y_m2048_n512_f32_1_alg».proof.Proof.Gen.Kernel.Launch
import Mathlib.Data.Fintype.Basic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores, the shares, the cells -/

theorem ownSemFacts : Pipeline.OwnSemFacts cfg0.spec osem := by decide

theorem share_eq (m : (ℓ : Loc nD τ sig) → Buf (Elt F) ℓ) (ρ : Dev nD → PrngReg) (c : Dev nD) (w : Fin cfg0.W) : (dats m ρ 0 c).share w = fullShare := by unfold Dat.share; split <;> rfl

/-- Cell 0 of a device is its barrier cell, cell k + 1 its DMA cell of index k. -/
theorem csem_zero : csem 0 = .reg barS := rfl
theorem csem_succ (k : Fin 65) : csem k.succ = osem k := by
  unfold csem; rw [dif_neg (by show k.val + 1 ≠ 0; omega)]
  exact congrArg SemLoc.dma (Fin.ext (by show k.succ.val + 1 = k.val + 2; rw [Fin.val_succ]))

theorem csem_injective : Function.Injective csem := by
  intro k k' h
  unfold csem at h
  by_cases h0 : k.val = 0 <;> by_cases h0' : k'.val = 0
  · exact Fin.ext (h0.trans h0'.symm)
  · rw [dif_pos h0, dif_neg h0'] at h; cases h
  · rw [dif_neg h0, dif_pos h0'] at h; cases h
  · rw [dif_neg h0, dif_neg h0'] at h
    have h1 := congrArg Fin.val (SemLoc.dma.inj h)
    exact Fin.ext (Nat.add_right_cancel h1)

theorem kcell_injective : Function.Injective (kcell : Dev nD × Fin 66 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: the 66 of every device. -/
def agCells : Finset (GSem nD τ sig) := Finset.univ.map ⟨kcell, kcell_injective⟩

/-! ## The duty tokens as minted -/

/-- A device's own cells' duty tokens: the three duties of its barrier cell, duty 0 of each of its 65 DMA cells. -/
abbrev tokOf (cj : Dev nD × (Fin 3 ⊕ Fin 65)) : GSem nD τ sig × ℕ × Fin 3 := match cj.2 with
  | .inl d => (barCell cj.1, 0, d)
  | .inr k => (dCell cj.1 (dsem k), 0, 0)

theorem tokOf_injective : Function.Injective (tokOf : Dev nD × (Fin 3 ⊕ Fin 65) → GSem nD τ sig × ℕ × Fin 3) := by
  rintro ⟨c, j⟩ ⟨c', j'⟩ h
  have h1 : c = c' := by
    have := congrArg (fun x : GSem nD τ sig × ℕ × Fin 3 => x.1.1.1) h
    rcases j with d | k <;> rcases j' with d' | k' <;> exact this
  subst h1
  have h2 := congrArg (fun x : GSem nD τ sig × ℕ × Fin 3 => x.1.2) h
  have h3 := congrArg (fun x : GSem nD τ sig × ℕ × Fin 3 => x.2.2) h
  rcases j with d | k <;> rcases j' with d' | k'
  · have : d = d' := h3
    rw [this]
  · cases h2
  · cases h2
  · have h4 : dsem k = dsem k' := SemLoc.dma.inj h2
    have : k = k' := Fin.ext (Nat.add_right_cancel (congrArg Fin.val h4))
    rw [this]

def agToks : Finset (GSem nD τ sig × ℕ × Fin 3) := Finset.univ.map ⟨tokOf, tokOf_injective⟩

/-- The launch element: the pipeline library's copy and the protocol's. -/
def u₀ : UU :=
  (initOf (Pipeline.cells cfgs cellOf_inj) (Pipeline.launchToks cfgs cellOf_inj), initOf agCells agToks)

/-- The duty tokens of device `c`'s own cells. -/
def toks (c : Dev nD) : sProp 𝕄 :=
  iprop((bigSep Finset.univ fun d : Fin 3 => dutyTok ER (barCell c) 0 d)
    ∗ bigSep Finset.univ fun k : Fin 65 => dutyTok ER (dCell c (dsem k)) 0 0)

/-- What the launch element deals device `c`. -/
def G (m : (ℓ : Loc nD τ sig) → Buf (Elt F) ℓ) (c : Dev nD) : sProp 𝕄 :=
  iprop((bigSep Finset.univ fun k : Fin 66 => roundState ER (agRd m) (kcell (c, k)) 0)
    ∗ (bigSep Finset.univ fun k : Fin 66 => iprop(atPos ER (kcell (c, k)) 0 ∅ 0 ∗ reached ER (kcell (c, k)) 0)) ∗ toks (F := F) c)

/-- What the global step makes of it. -/
def G' (m : (ℓ : Loc nD τ sig) → Buf (Elt F) ℓ) (c : Dev nD) : sProp 𝕄 := iprop(∃ K, ghost m K c)

theorem fund (m : (ℓ : Loc nD τ sig) → Buf (Elt F) ℓ) : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : Fin 66 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The 65 DMA semaphores are the kernel's own, in the order it waits on them; -/
theorem ownSems0_eq (c : Dev nD) : (Pipeline.ownSems0 (Ix := Unit) (Name := ℕ) (U := UU) (Lvl := ℕ) (Val := Elt F) (τ := τ) osem c : sProp 𝕄)
    = bigSepL waitIdx fun k => semVal ((c : Thread nD τ), osem k) 0 :=
  Pipeline.ownSems0_eq_of_list c osem waitIdx (by decide) (by decide)
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over the 66 cells of a device is its barrier cell's member and its DMA cells'. -/
theorem bigSep_cells (Φ : Fin 66 → sProp 𝕄) :
    bigSep Finset.univ Φ = iprop(Φ 0 ∗ bigSep Finset.univ fun k : Fin 65 => Φ k.succ) := by
  rw [Fin.univ_succ, Finset.cons_eq_insert, BI.bigSep_insert (by simp), BI.bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [unscopedSems0_eq, bigSep_cells]
  unfold Pipeline.ownSems0
  iintro ⟨HS, HB⟩
  isplitl [HB]; · iexact HB
  iapply (Entails.of_eq (bigSep_congr (s := Finset.univ) fun (k : Fin 65) _ =>
    show (semVal ((c : Thread nD τ), osem k) 0 : sProp 𝕄) = semVal (kcell (c, k.succ)) 0 from by
      show _ = semVal ((c : Thread nD τ), csem k.succ) 0
      rw [csem_succ]))
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (agRd m) κ (kcell (c, k))))
          ∗ (bigSep Finset.univ fun k : Fin 66 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (agRd m) (kcell (c, k)) 0)
      ⊢ (|={Set.univ}=> bigSep Finset.univ fun k => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step -/

/-- Cell k + 1 of a device is its DMA cell of index k. -/
theorem kcell_succ (c : Dev nD) (k : Fin 65) : kcell (c, k.succ) = dCell c (dsem k) := by
  show ((c : Thread nD τ), csem k.succ) = _
  rw [csem_succ]

/-- The positions of a device's 66 cells, in the order it waits on them. -/
theorem pos_eq (c : Dev nD) : (bigSep Finset.univ fun k : Fin 66 => (atPos ER (kcell (c, k)) 0 ∅ 0 : sProp 𝕄)) = posOf c := by
  unfold posOf
  rw [bigSep_cells, ← bigSep_univ_eq_bigSepL waitIdx (by decide) (by decide),
    bigSep_congr (s := Finset.univ) fun (k : Fin 65) _ => show (atPos ER (kcell (c, k.succ)) 0 ∅ 0 : sProp 𝕄) = atPos ER (dCell c (dsem k)) 0 ∅ 0 from by rw [kcell_succ]]
  rfl

/-- The neighbour across an axis is an involution of the devices. -/
theorem nb_nb : ∀ (d : Fin 3) (c : Dev nD), nb (nb c d) d = c := by decide
def yE : Dev nD ≃ Dev nD := ⟨yP, yP, yP_yP, yP_yP⟩
def xE : Dev nD ≃ Dev nD := ⟨xP, xP, xP_xP, xP_xP⟩
def zE : Dev nD ≃ Dev nD := ⟨zP, zP, zP_zP, zP_zP⟩
def nbE (d : Fin 3) : Dev nD ≃ Dev nD := ⟨fun c => nb c d, fun c => nb c d, nb_nb d, nb_nb d⟩

/-- A chain over a list of pairs, flattened, is the chain of the pairs. -/
theorem bigSepL_pairs {J I : Type} (f g : J → I) (Φ : I → sProp 𝕄) (l : List J) :
    bigSepL (l.flatMap fun t => [f t, g t]) Φ = bigSepL l fun t => iprop(Φ (f t) ∗ Φ (g t)) := by
  induction l with
  | nil => rfl
  | cons t l ih =>
    show bigSepL (f t :: g t :: l.flatMap fun t => [f t, g t]) Φ = _
    rw [bigSepL_cons, bigSepL_cons, bigSepL_cons, ih]
    exact Idealize.SL.BI.Entails.antisymm Idealize.SL.BI.sep_assoc' Idealize.SL.BI.sep_assoc

/-- Dealing along a list: the second half of every member may be taken, over all devices, from the device that a
    permutation (the member's own) names. -/
theorem bigSepL_deal {J : Type} (e : J → Dev nD ≃ Dev nD) (Φ Ψ : Dev nD → J → sProp 𝕄) (l : List J) :
    (bigSep Finset.univ fun c : Dev nD => bigSepL l fun j => iprop(Φ c j ∗ Ψ c j))
      = bigSep Finset.univ fun c : Dev nD => bigSepL l fun j => iprop(Φ c j ∗ Ψ (e j c) j) := by
  induction l with
  | nil => rfl
  | cons j l ih =>
    rw [bigSep_congr (s := Finset.univ) fun (c : Dev nD) _ => bigSepL_cons j l fun j => iprop(Φ c j ∗ Ψ c j),
      bigSep_congr (s := Finset.univ) fun (c : Dev nD) _ => bigSepL_cons j l fun j => iprop(Φ c j ∗ Ψ (e j c) j)]
    show (bigSep Finset.univ fun c : Dev nD => iprop((Φ c j ∗ Ψ c j) ∗ bigSepL l fun j => iprop(Φ c j ∗ Ψ c j)))
      = bigSep Finset.univ fun c : Dev nD => iprop((Φ c j ∗ Ψ (e j c) j) ∗ bigSepL l fun j => iprop(Φ c j ∗ Ψ (e j c) j))
    rw [bigSep_sep', bigSep_sep', ih, bigSep_sep', bigSep_sep', bigSep_univ_equiv (e j) (fun c => Ψ c j)]

/-- The 65 DMA cells in the order of the transfers: the copy's, then per remote transfer its send cell and its receive cell. -/
def tokIdx : List (Fin 65) := 0 :: enqs.flatMap fun t => [t.1, t.2.1]

theorem bigSep_tokIdx (Θ : Fin 65 → sProp 𝕄) :
    bigSep Finset.univ Θ = iprop(Θ 0 ∗ bigSepL enqs fun t => iprop(Θ t.1 ∗ Θ t.2.1)) := by
  rw [bigSep_univ_eq_bigSepL tokIdx (by decide) (by decide)]
  unfold tokIdx
  rw [bigSepL_cons, bigSepL_pairs]
  rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- A device's own cells' tokens, in the order of the transfers. -/
theorem toks_eq (c : Dev nD) : (toks c : sProp 𝕄)
    = iprop((dutyTok ER (barCell c) 0 0 ∗ dutyTok ER (barCell c) 0 1 ∗ dutyTok ER (barCell c) 0 2)
        ∗ dutyTok ER (dCell c copyS) 0 0
        ∗ bigSepL enqs fun t => iprop(dutyTok ER (dCell c (dsem t.1)) 0 0 ∗ dutyTok ER (dCell c (dsem t.2.1)) 0 0)) := by
  unfold toks
  rw [bigSep_fin3, bigSep_tokIdx]
  rfl

/-- The tokens dealt to their payers: duty 0, 1, 2 of a barrier cell to the neighbour across the y, x, z axis; the arrival
    on a receive cell to the neighbour across the transfer's axis, which sends to it. -/
theorem toks_deal : (bigSep Finset.univ fun c : Dev nD => (toks c : sProp 𝕄)) ⊢ bigSep Finset.univ fun c : Dev nD => toksOf c := by
  rw [bigSep_congr (s := Finset.univ) fun (c : Dev nD) _ => toks_eq (F := F) c]
  unfold toksOf
  rw [bigSep_sep', bigSep_sep', bigSep_sep', bigSep_sep', bigSep_sep', bigSep_sep', bigSep_sep', bigSep_sep',
    bigSep_univ_equiv yE (fun c : Dev nD => (dutyTok ER (barCell c) 0 0 : sProp 𝕄)),
    bigSep_univ_equiv xE (fun c : Dev nD => (dutyTok ER (barCell c) 0 1 : sProp 𝕄)),
    bigSep_univ_equiv zE (fun c : Dev nD => (dutyTok ER (barCell c) 0 2 : sProp 𝕄)),
    bigSepL_deal (fun t : Fin 65 × Fin 65 × Fin 3 => nbE t.2.2) (fun c t => (dutyTok ER (dCell c (dsem t.1)) 0 0 : sProp 𝕄))
      (fun c t => (dutyTok ER (dCell c (dsem t.2.1)) 0 0 : sProp 𝕄)) enqs]
  iintro ⟨⟨H1, H2, H3⟩, H4, H5⟩
  isplitl [H1]; · iexact H1
  isplitl [H2]; · iexact H2
  isplitl [H3]; · iexact H3
  isplitl [H4]; · iexact H4
  iexact H5

theorem ghost_intro (m : (ℓ : Loc nD τ sig) → Buf (Elt F) ℓ) (K : Dev nD × Fin 66 → ℕ) (c : Dev nD) : iprop(records m K ∗ posOf c ∗ toksOf c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop((bigSep Finset.univ fun k => iprop(∃ κ : ℕ, cellInv ER (agRd m) κ (kcell (c, k))))
          ∗ (bigSep Finset.univ fun k : Fin 66 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 66 => iprop(∃ κ : ℕ, cellInv ER (agRd m) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (agRd m) κ (kcell ck) : sProp 𝕄))) $$ HI
  icases HK with ⟨%K, #HI⟩
  ihave Htk := (toks_deal (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 66 => (atPos ER (kcell (c, k)) 0 ∅ 0 : sProp 𝕄)) toksOf).symm).trans
      (bigSep_mono fun c _ => show _ ⊢ iprop(posOf c ∗ toksOf c) from Entails.of_eq (by rw [pos_eq])))
    isplitl [Hat]; · iexact Hat
    iexact Htk

/-- The global step: own AND unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch element split: the pipeline library's half as it is, the protocol's half funded. -/
theorem hu₀ (m : (ℓ : Loc nD τ sig) → Buf (Elt F) ℓ) : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund m) $$ HX with HG
  imodintro
  isplitl [HP] <;> iassumption

/-- info: 'Cert.Kernel.AG.hu₀' depends on axioms: [propext, Classical.choice, Quot.sound] -/
#guard_msgs in #print axioms hu₀

/-- info: 'Cert.Kernel.AG.glob' depends on axioms: [propext, Classical.choice, Quot.sound] -/
#guard_msgs in #print axioms glob

end Cert.Kernel.AG

end
-- ==== Proof.K.Whole.lean ====
/-
  The output staging buffer's final contents, row by row, are the whole gathered array: a device's input staging
  buffer holds its block of the argument array, that block is rows 2048·y .. 2048·y + 2047 of the whole array for
  the device's middle mesh coordinate y, and each row r of the output comes from a device whose middle coordinate
  is r / 2048, at row r % 2048 of its block.
-/
import proofs.«900664_g7700000000000665_dist_ag_v7x_xyz2x2x2_y_m2048_n512_f32_1_alg».proof.Proof.K.Cells
import proofs.«900664_g7700000000000665_dist_ag_v7x_xyz2x2x2_y_m2048_n512_f32_1_alg».proof.Proof.BlockOf

noncomputable section

namespace Cert.Kernel.AG

open Cert.Kernel Cert.Kernel.Gen
open Idealize.ShloMosaic Idealize.ShloMosaic.TcCoe
open Idealize.ShloMosaic.ValueIdx (ix2 eq_ix2)

variable {F : FTy → Type} [FloatOps F]

/-- The one window block is the whole argument array (offsets zero, the array's own sizes), so reading the
    argument buffer through it gives the buffer's contents. -/
theorem X_eq (m : (ℓ : Loc nD τ sig) → Buf (Elt F) ℓ) (d : Dev nD) :
    X m d = m ((d : Thread nD τ).loc main_arg0) := by
  unfold X
  exact Memref.read_access_unit_zero (Elt F) main_arg0 (funext fun a => Nat.zero_mul _) _ _

/-- The device contributing a quarter of the received half lies across the middle axis: its middle coordinate
    is 1 − y. -/
theorem yc_srcDev (c : Dev nD) (k : ℕ) : ((srcDev c k).val / 2) % 2 = 1 - yc c := by
  have hy := yc_le c
  show ((4 * (k / 2 % 2) + 2 * (1 - yc c) + k % 2) / 2) % 2 = 1 - yc c
  omega

/-- If every device's argument buffer holds its block of `whole` (cut along the rows in two by the middle mesh
    axis), every device's output staging buffer ends holding `whole`. Row r of the output is row r % 2048 of the
    block of a device with middle coordinate r / 2048: the device itself when r / 2048 = y, and otherwise a device
    with middle coordinate 1 − y = r / 2048; that block's row r % 2048 is row 2048 · (r / 2048) + r % 2048 = r of
    `whole`. -/
theorem W_whole (m : (ℓ : Loc nD τ sig) → Buf (Elt F) ℓ) (whole : (⟨2, ![4096, 512]⟩ : Shape).Idx → Elt F .f32)
    (h : ∀ c : Dev nD, m ((c.tc : Thread nD τ).loc main_arg0)
      = Layout.blockN ⟨2, ![2048, 512]⟩ ⟨2, ![4096, 512]⟩ (Layout.meshBlock [2, 2, 2] ![[1], []] c) whole)
    (c : Dev nD) :
    W m c = whole := by
  funext i
  have hi : (i 0).val < 4096 := (i 0).isLt
  have hyc := yc_le c
  unfold W
  split
  · rename_i hy
    rw [X_eq, h c, Cert.AGBlock.block_row]
    refine (congrArg whole ?_).trans (congrArg whole (eq_ix2 i).symm)
    congr 1
    apply Fin.ext
    show 2048 * ((c.val / 2) % 2) + (i 0).val % 2048 = (i 0).val
    unfold yc at hy
    omega
  · rename_i hy
    rw [X_eq, h (srcDev c _), Cert.AGBlock.block_row]
    refine (congrArg whole ?_).trans (congrArg whole (eq_ix2 i).symm)
    congr 1
    apply Fin.ext
    show 2048 * (((srcDev c ((i 0).val % 2048 / 512)).val / 2) % 2) + (i 0).val % 2048 = (i 0).val
    rw [yc_srcDev]
    omega

/-- info: 'Cert.Kernel.AG.X_eq' depends on axioms: [propext, Classical.choice, Quot.sound] -/
#guard_msgs in #print axioms X_eq

/-- info: 'Cert.Kernel.AG.W_whole' depends on axioms: [propext, Classical.choice, Quot.sound] -/
#guard_msgs in #print axioms W_whole

end Cert.Kernel.AG

end
-- ==== Proof.K.Final.lean ====
/-
  Reading the kernel's two arrays off a run. The launch's post names every window's array after the run; the input
  window's array is never written, and the output window, the whole array written back at the one grid point, ends
  holding what the body left in the output staging buffer. From these the run's frame and its value.
-/
import proofs.«900664_g7700000000000665_dist_ag_v7x_xyz2x2x2_y_m2048_n512_f32_1_alg».proof.Proof.K.Iface
import proofs.«900664_g7700000000000665_dist_ag_v7x_xyz2x2x2_y_m2048_n512_f32_1_alg».proof.Proof.K.Whole
import proofs.«900664_g7700000000000665_dist_ag_v7x_xyz2x2x2_y_m2048_n512_f32_1_alg».proof.Proof.Gen.Kernel.Points

noncomputable section

namespace Cert.Kernel.AG

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

/-- Each window's array after the run: what the launch theorem's post names. -/
def finalA (m : (ℓ : Loc nD τ sig) → Buf (Elt F) ℓ) (ρ : Dev nD → PrngReg) (c : Dev nD) (w : Fin cfg0.W) :
    Buf (Elt F) ((cfg0.win w).arr.view.loc (c : Thread nD τ)) := (dats m ρ 0 c).arrAt w cfg0.N

/-- The run's post: every window's array of every device ends at `finalA`. -/
def QC (m : (ℓ : Loc nD τ sig) → Buf (Elt F) ℓ) (ρ : Dev nD → PrngReg) : PUnit × MemSt nD τ sig (Elt F) → Prop :=
  fun r => ∀ c : Dev nD, ∀ w : Fin cfg0.W, r.2.mem ((cfg0.win w).arr.view.loc (c : Thread nD τ)) = finalA m ρ c w

/-- The input window's array is never written: it ends as it was at launch. -/
theorem finalA_x (m : (ℓ : Loc nD τ sig) → Buf (Elt F) ℓ) (ρ : Dev nD → PrngReg) (c : Dev nD) :
    finalA m ρ c (0 : Fin 2) = (s0 m ρ).mem (win0_0.arr.view.loc (c : Thread nD τ)) :=
  (dats (F := F) m ρ 0 c).arrAt_in (0 : Fin 2) rfl _

/-- The output window is the whole array, written back at the one grid point: the array ends holding what the body
    left in the output staging buffer. -/
theorem finalA_out (m : (ℓ : Loc nD τ sig) → Buf (Elt F) ℓ) (ρ : Dev nD → PrngReg) (c : Dev nD) :
    (finalA m ρ c (1 : Fin 2) : Buf (Elt F) ((c : Thread nD τ).loc main_v1)) = W m c := by
  have h1 : finalA m ρ c (1 : Fin 2) = (dats (F := F) m ρ 0 c).arrAt (1 : Fin 2) (t₀.val + 1) :=
    congrArg ((dats (F := F) m ρ 0 c).arrAt (1 : Fin 2)) (cfg0_N : cfg0.N = t₀.val + 1)
  rw [h1, (dats (F := F) m ρ 0 c).arrAt_succ (1 : Fin 2) t₀, flush0_1 t₀, if_pos rfl]
  exact Memref.write_access_unit_zero_univ (Elt F) main_v1 (funext fun a => Nat.zero_mul _) _ _ _

/-- The run's frame: the argument array of every device ends unchanged. -/
theorem frame_of_run (m : (ℓ : Loc nD τ sig) → Buf (Elt F) ℓ) (ρ : Dev nD → PrngReg)
    (hrun : θ_run defs (onTc (τ := τ) (main (F := F))) (s0 m ρ) (QC m ρ)) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run _ _ _).mono (fun r h c => (h c (0 : Fin 2)).trans (finalA_x m ρ c)) hrun

/-- The run's value: the result array of every device ends holding the output staging buffer's final contents,
    and the argument array unchanged. -/
theorem value_of_run (m : (ℓ : Loc nD τ sig) → Buf (Elt F) ℓ) (ρ : Dev nD → PrngReg)
    (hrun : θ_run defs (onTc (τ := τ) (main (F := F))) (s0 m ρ) (QC m ρ)) :
    θ_run defs (onTc (τ := τ) (main (F := F))) ⟨m, fun _ => 0, ρ⟩
      (fun r => ∀ c : Dev nD, r.2.mem ((c.tc : Thread nD τ).loc main_v1) = W m c
        ∧ r.2.mem ((c.tc : Thread nD τ).loc main_arg0) = m ((c.tc : Thread nD τ).loc main_arg0)) :=
  (θ_run _ _ _).mono (fun r h c => ⟨(h c (1 : Fin 2)).trans (finalA_out m ρ c), (h c (0 : Fin 2)).trans (finalA_x m ρ c)⟩) hrun

/-- info: 'Cert.Kernel.AG.finalA_x' depends on axioms: [propext, Classical.choice, Quot.sound] -/
#guard_msgs in #print axioms finalA_x

/-- info: 'Cert.Kernel.AG.finalA_out' depends on axioms: [propext, Classical.choice, Quot.sound] -/
#guard_msgs in #print axioms finalA_out

/-- info: 'Cert.Kernel.AG.frame_of_run' depends on axioms: [propext, Classical.choice, Quot.sound] -/
#guard_msgs in #print axioms frame_of_run

/-- info: 'Cert.Kernel.AG.value_of_run' depends on axioms: [propext, Classical.choice, Quot.sound] -/
#guard_msgs in #print axioms value_of_run

end Cert.Kernel.AG

end
-- ==== Proof.K.Land.lean ====
/-
  The value steps of the all-gather's landings. Every transfer of the kernel writes whole rows of a device's output
  staging buffer; on the rows it writes, what it wrote is the receiving device's final contents W. Three kinds:
  the local copy of the device's block onto its own half; the transfer of a 64-row chunk of the device's quarter to
  the neighbour across the middle axis, whose received half takes it; and the forward of a 64-row chunk of the
  received half to the same rows of a device with the same middle coordinate, where the final contents agree.
-/
import proofs.«900664_g7700000000000665_dist_ag_v7x_xyz2x2x2_y_m2048_n512_f32_1_alg».proof.Proof.K.Cells

noncomputable section

namespace Cert.Kernel.AG

open Cert.Kernel Cert.Kernel.Gen
open Idealize.ShloMosaic Idealize.ShloMosaic.TcCoe
open Idealize.ShloMosaic.ValueIdx (ix2 eq_ix2)

variable {F : FTy → Type} [FloatOps F]

/-! ## Row slices of the two staging buffers -/

/-- A slice of the output staging buffer of `n` rows from row `lo`, every column, is that set of rows. -/
theorem set_oslice_rows (c : Dev nD) (off sz : Fin 2 → ℕ) (lo n : ℕ) (h : off = ![lo, 0]) (hsz : sz = ![n, 512])
    (inb : ∀ a, off a + sz a ≤ S4096x512.size a) :
    ((oM.slice (Rect.unit (s := S4096x512) off sz inb) (fun _ => rfl)).view.set : Finset (Idx (oLoc c))) = rowsO c lo n := by
  subst h; subst hsz
  show ((View.whole cc0_stg1_0).slice (Rect.unit (s := S4096x512) ![lo, 0] ![n, 512] inb)).set = _
  rw [View.set_slice_whole]
  ext i
  rw [Rect.mem_set_unit, mem_rowsO]
  constructor
  · intro h; exact h (0 : Fin 2)
  · intro h0 a
    match a with
    | ⟨0, _⟩ => exact h0
    | ⟨1, _⟩ => exact ⟨Nat.zero_le _, by show _ < 0 + 512; rw [Nat.zero_add]; exact (i _).isLt⟩

/-- Where such a slice's index lands in the buffer: `lo` rows further down, the same column. -/
theorem emb_oslice (off sz : Fin 2 → ℕ) (lo : ℕ) (h : off = ![lo, 0]) (inb : ∀ a, off a + sz a ≤ S4096x512.size a)
    (y : (Rect.unit (s := S4096x512) off sz inb).shape.Idx) :
    (((oM.slice (Rect.unit (s := S4096x512) off sz inb) (fun _ => rfl)).view.emb y : S4096x512.Idx) 0).val = lo + (y 0).val
    ∧ (((oM.slice (Rect.unit (s := S4096x512) off sz inb) (fun _ => rfl)).view.emb y : S4096x512.Idx) 1).val = (y 1).val := by
  subst h
  constructor
  · show lo + 1 * (y 0).val = lo + (y 0).val
    rw [Nat.one_mul]
  · show 0 + 1 * (y 1).val = (y 1).val
    rw [Nat.one_mul, Nat.zero_add]

/-- The input staging buffer's 64-row slices, likewise. -/
theorem set_xslice (c : Dev nD) (off : Fin 2 → ℕ) (lo : ℕ) (h : off = ![lo, 0]) (inb : ∀ a, off a + S64x512.size a ≤ S2048x512.size a) :
    ((xM.slice (Rect.unit (s := S2048x512) off S64x512.size inb) (fun _ => rfl)).view.set : Finset (Idx (xLoc c))) = rowsX c lo 64 := by
  subst h
  show ((View.whole cc0_stg0_0).slice (Rect.unit (s := S2048x512) ![lo, 0] S64x512.size inb)).set = _
  rw [View.set_slice_whole]
  ext i
  rw [Rect.mem_set_unit, mem_rowsX]
  constructor
  · intro h; exact h (0 : Fin 2)
  · intro h0 a
    match a with
    | ⟨0, _⟩ => exact h0
    | ⟨1, _⟩ => exact ⟨Nat.zero_le _, by show _ < 0 + 512; rw [Nat.zero_add]; exact (i _).isLt⟩

/-- Where an index of a row slice of the input staging buffer lands: `lo` rows further down, the same column. -/
theorem emb_xslice (off sz : Fin 2 → ℕ) (lo : ℕ) (h : off = ![lo, 0]) (inb : ∀ a, off a + sz a ≤ S2048x512.size a)
    (y : (Rect.unit (s := S2048x512) off sz inb).shape.Idx) :
    (((xM.slice (Rect.unit (s := S2048x512) off sz inb) (fun _ => rfl)).view.emb y : S2048x512.Idx) 0).val = lo + (y 0).val
    ∧ (((xM.slice (Rect.unit (s := S2048x512) off sz inb) (fun _ => rfl)).view.emb y : S2048x512.Idx) 1).val = (y 1).val := by
  subst h
  constructor
  · show lo + 1 * (y 0).val = lo + (y 0).val
    rw [Nat.one_mul]
  · show 0 + 1 * (y 1).val = (y 1).val
    rw [Nat.one_mul, Nat.zero_add]

/-- A payload written through a row slice of the output staging buffer: if the payload at each of the slice's
    indices is `G` at the element that index lands on, then on the slice's rows the buffer holds `G`. -/
theorem land_rows (p : Dev nD) (off sz : Fin 2 → ℕ) (lo n : ℕ) (h : off = ![lo, 0]) (hsz : sz = ![n, 512])
    (inb : ∀ a, off a + sz a ≤ S4096x512.size a) (fd : Buf (Elt F) (oLoc p))
    (w : (Rect.unit (s := S4096x512) off sz inb).shape.Idx → Elt F .f32) (G : Buf (Elt F) (oLoc p))
    (hw : ∀ y, w y = G ((oM.slice (Rect.unit (s := S4096x512) off sz inb) (fun _ => rfl)).view.emb y)) :
    ∀ idx ∈ rowsO p lo n,
      ((oM.slice (Rect.unit (s := S4096x512) off sz inb) (fun _ => rfl)).view.write (Elt F) fd w Finset.univ) idx = G idx := by
  intro idx hidx
  rw [← set_oslice_rows p off sz lo n h hsz inb] at hidx
  obtain ⟨y, rfl⟩ := View.exists_emb_of_mem_set _ hidx
  rw [View.write_emb_of_mem _ _ (Finset.mem_univ y), cast_eq]
  exact hw y

/-- The final contents at a row of the device's own half: the device's block at that row of the half. -/
theorem W_own (m : (ℓ : Loc nD τ sig) → Buf (Elt F) ℓ) (c : Dev nD) (idx : S4096x512.Idx) (h : (idx 0).val / 2048 = yc c) :
    W m c idx = X m c (ix2 (⟨(idx 0).val % 2048, Nat.mod_lt _ (by decide)⟩ : Fin 2048) (idx 1)) := by
  unfold W; rw [if_pos h]
/-- On a row of the half it receives: the contributing device's block at that row of the half. -/
theorem W_recv (m : (ℓ : Loc nD τ sig) → Buf (Elt F) ℓ) (c : Dev nD) (idx : S4096x512.Idx) (h : (idx 0).val / 2048 ≠ yc c) :
    W m c idx = X m (srcDev c ((idx 0).val % 2048 / 512)) (ix2 (⟨(idx 0).val % 2048, Nat.mod_lt _ (by decide)⟩ : Fin 2048) (idx 1)) := by
  unfold W; rw [if_neg h]

/-- A block's element is named by its device and its two coordinates. -/
theorem X_congr (m : (ℓ : Loc nD τ sig) → Buf (Elt F) ℓ) (d d' : Dev nD) (hd : d = d') (z : S2048x512.Idx) (r : Fin 2048) (q : Fin 512)
    (h0 : (z 0).val = r.val) (h1 : (z 1).val = q.val) : X m d z = X m d' (ix2 r q) := by
  subst hd
  congr 1
  funext a
  match a with
  | ⟨0, _⟩ => exact Fin.ext h0
  | ⟨1, _⟩ => exact Fin.ext h1

/-! ## The local copy -/

/-- The local copy's destination is the device's own half. -/
theorem set_copy (c : Dev nD) :
    ((oM.slice (Rect.unit (s := S4096x512) (k0_off1 c) S2048x512.size (k0_off1_inb c)) (fun _ => rfl)).view.set : Finset (Idx (oLoc c)))
      = rowsO c (ownBase c) 2048 :=
  set_oslice_rows c _ _ _ _ (off1_row c) rfl _

/-- The local copy writes the device's block onto its own half, which ends holding that block. -/
theorem land_copy (m : (ℓ : Loc nD τ sig) → Buf (Elt F) ℓ) (c : Dev nD) (fd : Buf (Elt F) (oLoc c)) : ∀ idx ∈ rowsO c (ownBase c) 2048,
    ((oM.slice (Rect.unit (s := S4096x512) (k0_off1 c) S2048x512.size (k0_off1_inb c)) (fun _ => rfl)).view.write (Elt F) fd
      ((xM : Memref sig .tc .vmem S2048x512 .f32).view.read (Elt F) (X m c)) Finset.univ) idx = W m c idx := by
  refine land_rows c (k0_off1 c) S2048x512.size (ownBase c) 2048 (off1_row c) rfl (k0_off1_inb c) fd _ (W m c) ?_
  intro y
  obtain ⟨e0, e1⟩ := emb_oslice (k0_off1 c) S2048x512.size (ownBase c) (off1_row c) (k0_off1_inb c) y
  have hy0 : (y 0).val < 2048 := (y 0).isLt
  have hyc := yc_le c
  unfold ownBase at e0
  rw [W_own m c _ (by omega)]
  show X m c y = _
  exact X_congr m c c rfl _ _ _ (by show (y 0).val = (_ : ℕ) % 2048; omega) (by show (y 1).val = (_ : ℕ); omega)

/-! ## The transfer to the neighbour across the middle axis -/

/-- Seen from the neighbour across the middle axis, the device contributing the quarter 2·x + z is the device itself. -/
theorem srcDev_yP (c : Dev nD) : srcDev (yP c) (kM c) = c := by
  apply Fin.ext
  show 4 * (kM c / 2 % 2) + 2 * (1 - yc (yP c)) + kM c % 2 = c.val
  rw [yc_yP]
  have h1 := val_eq c; have h2 := xc_le c; have h3 := yc_le c; have h4 := zc_le c
  unfold kM
  omega

/-- Chunk `i` of the device's quarter of its block lands in the neighbour's received half, on rows where the
    neighbour's final contents are those rows of the device's block. -/
theorem land_y (m : (ℓ : Loc nD τ sig) → Buf (Elt F) ℓ) (c : Dev nD) (i : Fin 8) (fd : Buf (Elt F) (oLoc (yP c))) :
    ∀ idx ∈ rowsO (yP c) (recvBase (yP c) + 64 * (8 * kM c + i.val)) 64,
      ((oM.slice (Rect.unit (s := S4096x512) (k0_off2 c (BitVec.ofNat 32 (64 * i.val))) S64x512.size (k0_off2_inb c i)) (fun _ => rfl)).view.write (Elt F) fd
        ((xM.slice (Rect.unit (s := S2048x512) (k0_off3 c (BitVec.ofNat 32 (64 * i.val))) S64x512.size (k0_off3_inb c i)) (fun _ => rfl)).view.read (Elt F) (X m c))
        Finset.univ) idx
      = W m (yP c) idx := by
  refine land_rows (yP c) (k0_off2 c (BitVec.ofNat 32 (64 * i.val))) S64x512.size _ 64 (off2_row c i) rfl (k0_off2_inb c i) fd _ (W m (yP c)) ?_
  intro y
  obtain ⟨e0, e1⟩ := emb_oslice _ S64x512.size _ (off2_row c i) (k0_off2_inb c i) y
  obtain ⟨s0, s1⟩ := emb_xslice _ S64x512.size _ (off3_row c i) (k0_off3_inb c i) y
  have hy0 : (y 0).val < 64 := (y 0).isLt
  have hi := i.isLt
  have hyc := yc_le c
  have hk := kM_lt c
  rw [recvBase_yP] at e0
  unfold ownBase at e0
  rw [W_recv m (yP c) _ (by rw [yc_yP]; omega)]
  rw [View.read_apply, cast_eq]
  refine X_congr m c _ ?_ _ _ _ ?_ ?_
  · have hq : ∀ r : ℕ, r = 2048 * yc c + 64 * (8 * kM c + i.val) + (y 0).val → r % 2048 / 512 = kM c := by
      intro r hr; omega
    rw [hq _ e0]; exact (srcDev_yP c).symm
  · show (_ : ℕ) = (_ : ℕ) % 2048; omega
  · show (_ : ℕ) = (_ : ℕ); omega

/-! ## The forwards between devices on the same side of the middle axis -/

/-- Which device contributes a quarter of the received half depends on the receiver only through its middle coordinate. -/
theorem srcDev_congr (c p : Dev nD) (hy : yc p = yc c) (k : ℕ) : srcDev p k = srcDev c k := by
  apply Fin.ext
  show 4 * (k / 2 % 2) + 2 * (1 - yc p) + k % 2 = 4 * (k / 2 % 2) + 2 * (1 - yc c) + k % 2
  rw [hy]

/-- On the received half the final contents depend on the device only through its middle coordinate. -/
theorem W_recv_congr (m : (ℓ : Loc nD τ sig) → Buf (Elt F) ℓ) (c p : Dev nD) (hy : yc p = yc c) (idx : S4096x512.Idx) (h : (idx 0).val / 2048 ≠ yc c) :
    W m p idx = W m c idx := by
  rw [W_recv m p idx (by rw [hy]; exact h), W_recv m c idx h, srcDev_congr c p hy]

/-- A chunk of the received half forwarded to the same rows of a device with the same middle coordinate lands on
    rows where that device's final contents are the sender's. -/
theorem land_fwd (m : (ℓ : Loc nD τ sig) → Buf (Elt F) ℓ) (c p : Dev nD) (hy : yc p = yc c) (off : Fin 2 → ℕ) (lo : ℕ) (hoff : off = ![lo, 0])
    (h1 : recvBase c ≤ lo) (h2 : lo + 64 ≤ recvBase c + 2048)
    (inb : ∀ a, off a + S64x512.size a ≤ S4096x512.size a) (fd : Buf (Elt F) (oLoc p)) :
    ∀ idx ∈ rowsO p lo 64,
      ((oM.slice (Rect.unit (s := S4096x512) off S64x512.size inb) (fun _ => rfl)).view.write (Elt F) fd
        ((oM.slice (Rect.unit (s := S4096x512) off S64x512.size inb) (fun _ => rfl)).view.read (Elt F) (W m c)) Finset.univ) idx
      = W m p idx := by
  refine land_rows p off S64x512.size lo 64 hoff rfl inb fd _ (W m p) ?_
  intro y
  obtain ⟨e0, e1⟩ := emb_oslice off S64x512.size lo hoff inb y
  have hy0 : (y 0).val < 64 := (y 0).isLt
  have hyc := yc_le c
  unfold recvBase at h1 h2
  rw [View.read_apply, cast_eq]
  exact (W_recv_congr m c p hy _ (by omega)).symm

/-- info: 'Cert.Kernel.AG.set_copy' depends on axioms: [propext, Classical.choice, Quot.sound] -/
#guard_msgs in #print axioms set_copy

/-- info: 'Cert.Kernel.AG.set_xslice' depends on axioms: [propext, Classical.choice, Quot.sound] -/
#guard_msgs in #print axioms set_xslice

/-- info: 'Cert.Kernel.AG.land_copy' depends on axioms: [propext, Classical.choice, Quot.sound] -/
#guard_msgs in #print axioms land_copy

/-- info: 'Cert.Kernel.AG.land_y' depends on axioms: [propext, Classical.choice, Quot.sound] -/
#guard_msgs in #print axioms land_y

/-- info: 'Cert.Kernel.AG.W_recv_congr' depends on axioms: [propext, Classical.choice, Quot.sound] -/
#guard_msgs in #print axioms W_recv_congr

/-- info: 'Cert.Kernel.AG.land_fwd' depends on axioms: [propext, Classical.choice, Quot.sound] -/
#guard_msgs in #print axioms land_fwd

end Cert.Kernel.AG

end
-- ==== Proof.K.Steps.lean ====
/-
  One rule per kind of step of a device's body, each stated over the device's own resources: a signal to a neighbour's
  barrier cell, the wait for the three neighbours, the local copy, the five kinds of transfer to a neighbour, and the
  wait on a DMA cell, after which that cell (one round, one duty) is closed at once.
-/
import proofs.«900664_g7700000000000665_dist_ag_v7x_xyz2x2x2_y_m2048_n512_f32_1_alg».proof.Proof.K.Iface
import proofs.«900664_g7700000000000665_dist_ag_v7x_xyz2x2x2_y_m2048_n512_f32_1_alg».proof.Proof.K.Land

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records: any cell's invariant and reached mark -/

theorem inv_bar (K : Dev nD × Fin 66 → ℕ) (c : Dev nD) : records m K ⊢ cellInv ER (agRd m) (K (c, 0)) (barCell c) := by
  unfold records
  exact (BI.sep_and.trans and_elimL).trans (bigSep_elim (Finset.mem_univ ((c, 0) : Dev nD × Fin 66)))
theorem inv_dma (K : Dev nD × Fin 66 → ℕ) (c : Dev nD) (n : DmaSem sig) (h : 2 ≤ n.val) :
    records m K ⊢ cellInv ER (agRd m) (K (c, ⟨n.val - 1, by have := n.isLt; have : n.val < 67 := n.isLt; omega⟩)) (dCell c n) := by
  have hk : kcell ((c, ⟨n.val - 1, by have : n.val < 67 := n.isLt; omega⟩) : Dev nD × Fin 66) = dCell c n := by
    refine Prod.ext rfl ?_
    show (if h : n.val - 1 = 0 then SemLoc.reg barS else SemLoc.dma ⟨n.val - 1 + 1, _⟩) = SemLoc.dma n
    rw [dif_neg (by omega)]
    congr 1
    exact Fin.ext (by show n.val - 1 + 1 = n.val; omega)
  unfold records
  refine (BI.sep_and.trans and_elimL).trans ((bigSep_elim (Finset.mem_univ ((c, ⟨n.val - 1, by have : n.val < 67 := n.isLt; omega⟩) : Dev nD × Fin 66))).trans ?_)
  exact Entails.of_eq (congrArg (cellInv ER (agRd m) (K (c, ⟨n.val - 1, by have : n.val < 67 := n.isLt; omega⟩))) hk)
theorem reached_bar (K : Dev nD × Fin 66 → ℕ) (c : Dev nD) : records m K ⊢ reached ER (barCell c) 0 := by
  unfold records
  exact (BI.sep_and.trans and_elimR).trans (bigSep_elim (Finset.mem_univ ((c, 0) : Dev nD × Fin 66)))
theorem reached_dma (K : Dev nD × Fin 66 → ℕ) (c : Dev nD) (n : DmaSem sig) (h : 2 ≤ n.val) : records m K ⊢ reached ER (dCell c n) 0 := by
  have hk : kcell ((c, ⟨n.val - 1, by have : n.val < 67 := n.isLt; omega⟩) : Dev nD × Fin 66) = dCell c n := by
    refine Prod.ext rfl ?_
    show (if h : n.val - 1 = 0 then SemLoc.reg barS else SemLoc.dma ⟨n.val - 1 + 1, _⟩) = SemLoc.dma n
    rw [dif_neg (by omega)]
    congr 1
    exact Fin.ext (by show n.val - 1 + 1 = n.val; omega)
  unfold records
  refine (BI.sep_and.trans and_elimR).trans ((bigSep_elim (Finset.mem_univ ((c, ⟨n.val - 1, by have : n.val < 67 := n.isLt; omega⟩) : Dev nD × Fin 66))).trans ?_)
  exact Entails.of_eq (congrArg (fun g => reached ER g 0) hk)

/-! ## What each kind of DMA cell hands back -/

theorem dmaPay_copy (c : Dev nD) : dmaPay m c (copyS : DmaSem sig).val
    = iprop((oLoc c ↦[rowsO c (ownBase c) 2048]{fullShare} W m c) ∗ (xLoc c ↦[Finset.univ]{fullShare.left} X m c)) := by
  show dmaPay m c 2 = _
  unfold dmaPay
  exact if_pos rfl
theorem dmaPay_ySend (c : Dev nD) (i : Fin 8) : dmaPay m c (ySend i).val = (xLoc c ↦[rowsX c (64 * (8 * kM c + i.val)) 64]{fullShare.right} X m c : sProp 𝕄) := by
  have hi := i.isLt
  show dmaPay m c (3 + i.val) = _
  unfold dmaPay
  rw [if_neg (by omega), if_pos (by omega), Nat.add_sub_cancel_left]
theorem dmaPay_yRecv (c : Dev nD) (i : Fin 8) : dmaPay m c (yRecv i).val = chunk m c (8 * kM c + i.val) fullShare := by
  have hi := i.isLt
  show dmaPay m c (11 + i.val) = _
  unfold dmaPay
  rw [if_neg (by omega), if_neg (by omega), if_pos (by omega), Nat.add_sub_cancel_left]
theorem dmaPay_x2Send (c : Dev nD) (i : Fin 8) : dmaPay m c (x2Send i).val = chunk m c (8 * kM c + i.val) fullShare.left := by
  have hi := i.isLt
  show dmaPay m c (19 + i.val) = _
  unfold dmaPay
  rw [if_neg (by omega), if_neg (by omega), if_neg (by omega), if_pos (by omega), Nat.add_sub_cancel_left]
theorem dmaPay_x2Recv (c : Dev nD) (i : Fin 8) : dmaPay m c (x2Recv i).val = chunk m c (8 * kX c + i.val) fullShare := by
  have hi := i.isLt
  show dmaPay m c (27 + i.val) = _
  unfold dmaPay
  rw [if_neg (by omega), if_neg (by omega), if_neg (by omega), if_neg (by omega), if_pos (by omega), Nat.add_sub_cancel_left]
theorem dmaPay_z2Send (c : Dev nD) (i : Fin 8) : dmaPay m c (z2Send i).val = chunk m c (8 * kM c + i.val) fullShare.right := by
  have hi := i.isLt
  show dmaPay m c (35 + i.val) = _
  unfold dmaPay
  rw [if_neg (by omega), if_neg (by omega), if_neg (by omega), if_neg (by omega), if_neg (by omega), if_pos (by omega), Nat.add_sub_cancel_left]
theorem dmaPay_z2Recv (c : Dev nD) (i : Fin 8) : dmaPay m c (z2Recv i).val = chunk m c (8 * kZ c + i.val) fullShare := by
  have hi := i.isLt
  show dmaPay m c (43 + i.val) = _
  unfold dmaPay
  rw [if_neg (by omega), if_neg (by omega), if_neg (by omega), if_neg (by omega), if_neg (by omega), if_neg (by omega), if_pos (by omega), Nat.add_sub_cancel_left]
theorem dmaPay_x3Send (c : Dev nD) (j : Fin 4) : dmaPay m c (x3Send j).val = chunk m c (8 * kZ c + j.val) fullShare := by
  have hi := j.isLt
  show dmaPay m c (51 + j.val) = _
  unfold dmaPay
  rw [if_neg (by omega), if_neg (by omega), if_neg (by omega), if_neg (by omega), if_neg (by omega), if_neg (by omega), if_neg (by omega), if_pos (by omega), Nat.add_sub_cancel_left]
theorem dmaPay_x3Recv (c : Dev nD) (j : Fin 4) : dmaPay m c (x3Recv j).val = chunk m c (8 * kD c + j.val) fullShare := by
  have hi := j.isLt
  show dmaPay m c (55 + j.val) = _
  unfold dmaPay
  rw [if_neg (by omega), if_neg (by omega), if_neg (by omega), if_neg (by omega), if_neg (by omega), if_neg (by omega), if_neg (by omega), if_neg (by omega), if_pos (by omega), Nat.add_sub_cancel_left]
theorem dmaPay_z3Send (c : Dev nD) (j : Fin 4) : dmaPay m c (z3Send j).val = chunk m c (8 * kX c + 4 + j.val) fullShare := by
  have hi := j.isLt
  show dmaPay m c (59 + j.val) = _
  unfold dmaPay
  rw [if_neg (by omega), if_neg (by omega), if_neg (by omega), if_neg (by omega), if_neg (by omega), if_neg (by omega), if_neg (by omega), if_neg (by omega), if_neg (by omega), if_pos (by omega), Nat.add_sub_cancel_left]
theorem dmaPay_z3Recv (c : Dev nD) (j : Fin 4) : dmaPay m c (z3Recv j).val = chunk m c (8 * kD c + 4 + j.val) fullShare := by
  have hi := j.isLt
  show dmaPay m c (63 + j.val) = _
  unfold dmaPay
  rw [if_neg (by omega), if_neg (by omega), if_neg (by omega), if_neg (by omega), if_neg (by omega), if_neg (by omega), if_neg (by omega), if_neg (by omega), if_neg (by omega), if_neg (by omega), Nat.add_sub_cancel_left]

/-- What a device hands each neighbour with its barrier unit: its own chunks that this neighbour will write. -/
theorem barPay_y (c : Dev nD) : barPay (F := F) (yP c) 0 = bigSep (Finset.univ : Finset (Fin 8)) fun i => someChunk (F := F) c (8 * kM c + i.val) := by
  unfold barPay
  rw [if_pos rfl, yP_yP, kM_yP]
theorem barPay_x (c : Dev nD) : barPay (F := F) (xP c) 1
    = iprop((bigSep (Finset.univ : Finset (Fin 8)) fun i => someChunk (F := F) c (8 * kX c + i.val)) ∗ bigSep (Finset.univ : Finset (Fin 4)) fun j => someChunk (F := F) c (8 * kD c + j.val)) := by
  unfold barPay
  rw [if_neg (by decide), if_pos rfl, xP_xP, kM_xP, kZ_xP]
theorem barPay_z (c : Dev nD) : barPay (F := F) (zP c) 2
    = iprop((bigSep (Finset.univ : Finset (Fin 8)) fun i => someChunk (F := F) c (8 * kZ c + i.val)) ∗ bigSep (Finset.univ : Finset (Fin 4)) fun j => someChunk (F := F) c (8 * kD c + 4 + j.val)) := by
  unfold barPay
  rw [if_neg (by decide), if_neg (by decide), zP_zP, kM_zP, kX_zP]

/-! ## The steps -/

/-- A signal of one unit to neighbour `p`'s barrier cell, paying its duty `d` with the chunks `p` will write. -/
theorem wp_sig (K : Dev nD × Fin 66 → ℕ) (c : Dev nD) (d : Fin 3) (p : Dev nD) (O : CellTallies nD τ sig Unit) (W : Waits sig Unit) {k' : ℕ} (hk' : k' = 1)
    (hr : τ.routes (c : Thread nD τ) (p : Thread nD τ) = true)
    {α : Type} {Q : α → sProp 𝕄} {k : PUnit → Prog (TpuEff nD τ sig (Elt F) Λ₀ .tc) α} :
    iprop(records m K ∗ owes (c : Thread nD τ) (O + tallyAt (barCell p) () 1) W ∗ dutyTok ER (barCell p) 0 d ∗ barPay (F := F) p d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS k') k) Q) := by
  subst hk'
  iintro ⟨#Hrec, HO, Htok, Hpay⟩ Hk
  iapply (Rounds.wp_signal 𝒱₀ ER (agRd m) (c : Thread nD τ) none (dst := (p : Thread nD τ)) (κ := K (p, 0)) (d := d)
      (by rw [duties_bar]; exact Finset.mem_univ _) (amount_bar m p d) () O rfl (hr := hr)) $$ [HO Htok Hpay]
  · isplitr; · iapply (inv_bar m K p); iexact Hrec
    isplitl [HO]; · iexact HO
    isplitl [Htok]; · iexact Htok
    isplitl [Hpay]; · rw [payload_bar]; iexact Hpay
    iapply (reached_bar m K p); iexact Hrec
  iexact Hk

/-- The wait for the three units of the barrier cell: the three neighbours' chunks come with it. -/
theorem wp_barwait (K : Dev nD × Fin 66 → ℕ) (c : Dev nD) (O : CellTallies nD τ sig Unit) (W : Waits sig Unit)
    {w : TpuEff nD τ sig (Elt F) Λ₀ .tc PUnit} (hw : ∀ Kc : PUnit → sProp 𝕄, wpE (defs₀ (F := F)) 𝒱₀ (c : Thread nD τ) none Set.univ w Kc = waitSpec (c : Thread nD τ) Set.univ (.reg barS) 3 Kc)
    {α : Type} {Q : α → sProp 𝕄} {k : PUnit → Prog (TpuEff nD τ sig (Elt F) Λ₀ .tc) α} :
    iprop(records m K ∗ cred (tallyAt (barCell c) () 3) ∗ owes (c : Thread nD τ) O W ∗ MayWait (c : Thread nD τ) (.reg barS) () O ∗ atPos ER (barCell c) 0 ∅ 0)
      ⊢ iprop(((owes (c : Thread nD τ) O (insert (SemLoc.reg barS, ()) W) ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hmw, Hat⟩ Hk
  iapply (Rounds.wp_wait_rest_token 𝒱₀ ER (agRd m) (c : Thread nD τ) none (κ := K (c, 0))
      hw (Set.mem_univ _) () (O := O) (W := W) (R := 0) (m := 0) (T := ∅) (by rw [expect_bar])) $$ [Hc HO Hmw Hat]
  · isplitr; · iapply (inv_bar m K c); iexact Hrec
    isplitl [Hc]; · iexact Hc
    isplitl [HO]; · iexact HO
    isplitl [Hmw]; · iexact Hmw
    iexact Hat
  iintro ⟨HO, -, -, Hpay⟩
  ihave Hp := (Entails.of_eq (rest_bar m c)) $$ Hpay
  iapply Hk
  isplitl [HO]; · iexact HO
  iexact Hp

/-- The local copy of the device's block into its own half of the output buffer. -/
theorem wp_ysend (K : Dev nD × Fin 66 → ℕ) (c : Dev nD) (i : Fin 8) (p : Dev nD) (hp : p = yP c) (O : CellTallies nD τ sig Unit) (W : Waits sig Unit) (fd : Buf (Elt F) (oLoc (yP c)))
    {hsc : (oM.slice (Rect.unit (s := S4096x512) (k0_off2 c (BitVec.ofNat 32 (64 * i.val))) S64x512.size (k0_off2_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ (xLoc c ↦[rowsX c (64 * (8 * kM c + i.val)) 64]{fullShare.right} X m c)
        ∗ (oLoc (yP c) ↦[rowsO (yP c) (recvBase (yP c) + 64 * (8 * kM c + i.val)) 64]{fullShare} fd)
        ∗ owes (c : Thread nD τ) (O + tallyAt (dCell (yP c) (yRecv i)) () N64) W
        ∗ dutyTok ER (dCell c (ySend i)) 0 0 ∗ dutyTok ER (dCell (yP c) (yRecv i)) 0 0)
      ⊢ iprop(((cred (tallyAt (dCell c (ySend i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S2048x512) (k0_off3 c (BitVec.ofNat 32 (64 * i.val))) S64x512.size (k0_off3_inb c i)) (fun _ => rfl))
                (.remote (Dev.tc p : Thread nD τ) (oM.slice (Rect.unit (s := S4096x512) (k0_off2 c (BitVec.ofNat 32 (64 * i.val))) S64x512.size (k0_off2_inb c i)) (fun _ => rfl)) (.dma (ySend i)) hsc)
                (.dma (yRecv i)) hsrc hdst hsem) k) Q) := by
  subst hp
  have hi := i.isLt
  have key := Rounds.wp_send_pointsTo 𝒱₀ ER (agRd m) (c : Thread nD τ) none (defs := defs₀ (F := F)) (Γ := .empty)
      (sp := .vmem) (sp' := .vmem) (s := S64x512) (e := .f32)
      (c' := (Dev.tc (yP c) : Thread nD τ))
      (src := (xM.slice (Rect.unit (s := S2048x512) (k0_off3 c (BitVec.ofNat 32 (64 * i.val))) S64x512.size (k0_off3_inb c i)) (fun _ => rfl) : Memref sig .tc .vmem S64x512 .f32))
      (dst := (oM.slice (Rect.unit (s := S4096x512) (k0_off2 c (BitVec.ofNat 32 (64 * i.val))) S64x512.size (k0_off2_inb c i)) (fun _ => rfl) : Memref sig .tc .vmem S64x512 .f32))
      (hsc := hsc) (sS := .dma (ySend i)) (sem := .dma (yRecv i)) (hsrc := hsrc) (hdst := hdst) (hsem := hsem) (k := k) (Q := Q)
      (q := fullShare.right) (fs := X m c) (fd := fd)
      (κ₁ := K (c, ⟨(ySend i).val - 1, by show 3 + i.val - 1 < 66; omega⟩)) (κ₂ := K (yP c, ⟨(yRecv i).val - 1, by show 11 + i.val - 1 < 66; omega⟩))
      (r₁ := 0) (r₂ := 0) (d₁ := 0) (d₂ := 0)
      (by rw [duties_dma m c (ySend i) (by show 2 ≤ 3 + i.val; omega)]; exact Finset.mem_singleton_self _)
      (by rw [duties_dma m (yP c) (yRecv i) (by show 2 ≤ 11 + i.val; omega)]; exact Finset.mem_singleton_self _)
      () () N64 (by unfold N64; rfl)
      (amount_dma m c (ySend i) (by show 3 + i.val ≠ 2; omega) 0) (amount_dma m (yP c) (yRecv i) (by show 11 + i.val ≠ 2; omega) 0)
      (O₀ := O + tallyAt (dCell (yP c) (yRecv i)) () N64) O rfl (W := W) (Es := Set.univ)
      (by rw [payload_dma, dmaPay_ySend, set_xslice c _ _ (off3_row c i) (k0_off3_inb c i)])
      (by rw [payload_dma, dmaPay_yRecv, kM_yP, set_oslice (yP c) _ _ (off2_row c i) (k0_off2_inb c i)]
          unfold chunk
          exact Entails.of_eq (pointsTo_congr (land_y m c i fd)))

  refine BIBase.Entails.trans ?_ key
  rw [set_xslice c _ _ (off3_row c i) (k0_off3_inb c i), set_oslice (yP c) _ _ (off2_row c i) (k0_off2_inb c i)]
  iintro ⟨#Hrec, Hsrc, Hdst, HO, Htok₁, Htok₂⟩
  isplitr; · iapply (inv_dma m K c (ySend i) (by show 2 ≤ 3 + i.val; omega)); iexact Hrec
  isplitr; · iapply (inv_dma m K (yP c) (yRecv i) (by show 2 ≤ 11 + i.val; omega)); iexact Hrec
  isplitl [Hsrc]; · iexact Hsrc
  isplitl [Hdst]; · iexact Hdst
  isplitl [HO]; · iexact HO
  isplitl [Htok₁]; · iexact Htok₁
  isplitr; · iapply (reached_dma m K c (ySend i) (by show 2 ≤ 3 + i.val; omega)); iexact Hrec
  isplitl [Htok₂]; · iexact Htok₂
  iapply (reached_dma m K (yP c) (yRecv i) (by show 2 ≤ 11 + i.val; omega)); iexact Hrec

theorem wp_x2send (K : Dev nD × Fin 66 → ℕ) (c : Dev nD) (i : Fin 8) (p : Dev nD) (hp : p = xP c) (O : CellTallies nD τ sig Unit) (W : Waits sig Unit) (fd : Buf (Elt F) (oLoc (xP c)))
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.left
        ∗ (oLoc (xP c) ↦[rowsO (xP c) (recvBase (xP c) + 64 * (8 * kM c + i.val)) 64]{fullShare} fd)
        ∗ owes (c : Thread nD τ) (O + tallyAt (dCell (xP c) (x2Recv i)) () N64) W
        ∗ dutyTok ER (dCell c (x2Send i)) 0 0 ∗ dutyTok ER (dCell (xP c) (x2Recv i)) 0 0)
      ⊢ iprop(((cred (tallyAt (dCell c (x2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (x2Send i)) hsc)
                (.dma (x2Recv i)) hsrc hdst hsem) k) Q) := by
  subst hp
  have hi := i.isLt
  have hk := kM_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (xP c) : Thread nD τ))
      (src := (oM.slice (Rect.unit (s := S4096x512) (k0_off4 c (BitVec.ofNat 32 (64 * i.val))) S64x512.size (k0_off4_inb c i)) (fun _ => rfl) : Memref sig .tc .vmem S64x512 .f32))
      (dst := (oM.slice (Rect.unit (s := S4096x512) (k0_off4 c (BitVec.ofNat 32 (64 * i.val))) S64x512.size (k0_off4_inb c i)) (fun _ => rfl) : Memref sig .tc .vmem S64x512 .f32))
      (hsc := hsc) (sS := .dma (x2Send i)) (sem := .dma (x2Recv i)) (hsrc := hsrc) (hdst := hdst) (hsem := hsem) (k := k) (Q := Q)
      (q := fullShare.left) (fs := AG.W m c) (fd := fd)
      (κ₁ := K (c, ⟨(x2Send i).val - 1, by show 19 + i.val - 1 < 66; omega⟩)) (κ₂ := K (xP c, ⟨(x2Recv i).val - 1, by show 27 + i.val - 1 < 66; omega⟩))
      (r₁ := 0) (r₂ := 0) (d₁ := 0) (d₂ := 0)
      (by rw [duties_dma m c (x2Send i) (by show 2 ≤ 19 + i.val; omega)]; exact Finset.mem_singleton_self _)
      (by rw [duties_dma m (xP c) (x2Recv i) (by show 2 ≤ 27 + i.val; omega)]; exact Finset.mem_singleton_self _)
      () () N64 (by unfold N64; rfl)
      (amount_dma m c (x2Send i) (by show 19 + i.val ≠ 2; omega) 0) (amount_dma m (xP c) (x2Recv i) (by show 27 + i.val ≠ 2; omega) 0)
      (O₀ := O + tallyAt (dCell (xP c) (x2Recv i)) () N64) O rfl (W := W) (Es := Set.univ)
      (by rw [payload_dma, dmaPay_x2Send]; unfold chunk; rw [set_oslice c _ _ (off4_row c i) (k0_off4_inb c i)])
      (by rw [payload_dma, dmaPay_x2Recv, kX_xP]; unfold chunk
          rw [recvBase_xP, set_oslice (xP c) _ _ (off4_row c i) (k0_off4_inb c i)]
          exact Entails.of_eq (pointsTo_congr (land_fwd m c (xP c) (yc_xP c) _ _ (off4_row c i) (by omega) (by omega) (k0_off4_inb c i) fd)))
  unfold chunk
  rw [recvBase_xP, ← set_oslice c _ _ (off4_row c i) (k0_off4_inb c i), ← set_oslice (xP c) _ _ (off4_row c i) (k0_off4_inb c i)]
  refine BIBase.Entails.trans ?_ key
  iintro ⟨#Hrec, Hsrc, Hdst, HO, Htok₁, Htok₂⟩
  isplitr; · iapply (inv_dma m K c (x2Send i) (by show 2 ≤ 19 + i.val; omega)); iexact Hrec
  isplitr; · iapply (inv_dma m K (xP c) (x2Recv i) (by show 2 ≤ 27 + i.val; omega)); iexact Hrec
  isplitl [Hsrc]; · iexact Hsrc
  isplitl [Hdst]; · iexact Hdst
  isplitl [HO]; · iexact HO
  isplitl [Htok₁]; · iexact Htok₁
  isplitr; · iapply (reached_dma m K c (x2Send i) (by show 2 ≤ 19 + i.val; omega)); iexact Hrec
  isplitl [Htok₂]; · iexact Htok₂
  iapply (reached_dma m K (xP c) (x2Recv i) (by show 2 ≤ 27 + i.val; omega)); iexact Hrec

theorem wp_z2send (K : Dev nD × Fin 66 → ℕ) (c : Dev nD) (i : Fin 8) (p : Dev nD) (hp : p = zP c) (O : CellTallies nD τ sig Unit) (W : Waits sig Unit) (fd : Buf (Elt F) (oLoc (zP c)))
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.right
        ∗ (oLoc (zP c) ↦[rowsO (zP c) (recvBase (zP c) + 64 * (8 * kM c + i.val)) 64]{fullShare} fd)
        ∗ owes (c : Thread nD τ) (O + tallyAt (dCell (zP c) (z2Recv i)) () N64) W
        ∗ dutyTok ER (dCell c (z2Send i)) 0 0 ∗ dutyTok ER (dCell (zP c) (z2Recv i)) 0 0)
      ⊢ iprop(((cred (tallyAt (dCell c (z2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (z2Send i)) hsc)
                (.dma (z2Recv i)) hsrc hdst hsem) k) Q) := by
  subst hp
  have hi := i.isLt
  have hk := kM_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (zP c) : Thread nD τ))
      (src := (oM.slice (Rect.unit (s := S4096x512) (k0_off4 c (BitVec.ofNat 32 (64 * i.val))) S64x512.size (k0_off4_inb c i)) (fun _ => rfl) : Memref sig .tc .vmem S64x512 .f32))
      (dst := (oM.slice (Rect.unit (s := S4096x512) (k0_off4 c (BitVec.ofNat 32 (64 * i.val))) S64x512.size (k0_off4_inb c i)) (fun _ => rfl) : Memref sig .tc .vmem S64x512 .f32))
      (hsc := hsc) (sS := .dma (z2Send i)) (sem := .dma (z2Recv i)) (hsrc := hsrc) (hdst := hdst) (hsem := hsem) (k := k) (Q := Q)
      (q := fullShare.right) (fs := AG.W m c) (fd := fd)
      (κ₁ := K (c, ⟨(z2Send i).val - 1, by show 35 + i.val - 1 < 66; omega⟩)) (κ₂ := K (zP c, ⟨(z2Recv i).val - 1, by show 43 + i.val - 1 < 66; omega⟩))
      (r₁ := 0) (r₂ := 0) (d₁ := 0) (d₂ := 0)
      (by rw [duties_dma m c (z2Send i) (by show 2 ≤ 35 + i.val; omega)]; exact Finset.mem_singleton_self _)
      (by rw [duties_dma m (zP c) (z2Recv i) (by show 2 ≤ 43 + i.val; omega)]; exact Finset.mem_singleton_self _)
      () () N64 (by unfold N64; rfl)
      (amount_dma m c (z2Send i) (by show 35 + i.val ≠ 2; omega) 0) (amount_dma m (zP c) (z2Recv i) (by show 43 + i.val ≠ 2; omega) 0)
      (O₀ := O + tallyAt (dCell (zP c) (z2Recv i)) () N64) O rfl (W := W) (Es := Set.univ)
      (by rw [payload_dma, dmaPay_z2Send]; unfold chunk; rw [set_oslice c _ _ (off4_row c i) (k0_off4_inb c i)])
      (by rw [payload_dma, dmaPay_z2Recv, kZ_zP]; unfold chunk
          rw [recvBase_zP, set_oslice (zP c) _ _ (off4_row c i) (k0_off4_inb c i)]
          exact Entails.of_eq (pointsTo_congr (land_fwd m c (zP c) (yc_zP c) _ _ (off4_row c i) (by omega) (by omega) (k0_off4_inb c i) fd)))
  unfold chunk
  rw [recvBase_zP, ← set_oslice c _ _ (off4_row c i) (k0_off4_inb c i), ← set_oslice (zP c) _ _ (off4_row c i) (k0_off4_inb c i)]
  refine BIBase.Entails.trans ?_ key
  iintro ⟨#Hrec, Hsrc, Hdst, HO, Htok₁, Htok₂⟩
  isplitr; · iapply (inv_dma m K c (z2Send i) (by show 2 ≤ 35 + i.val; omega)); iexact Hrec
  isplitr; · iapply (inv_dma m K (zP c) (z2Recv i) (by show 2 ≤ 43 + i.val; omega)); iexact Hrec
  isplitl [Hsrc]; · iexact Hsrc
  isplitl [Hdst]; · iexact Hdst
  isplitl [HO]; · iexact HO
  isplitl [Htok₁]; · iexact Htok₁
  isplitr; · iapply (reached_dma m K c (z2Send i) (by show 2 ≤ 35 + i.val; omega)); iexact Hrec
  isplitl [Htok₂]; · iexact Htok₂
  iapply (reached_dma m K (zP c) (z2Recv i) (by show 2 ≤ 43 + i.val; omega)); iexact Hrec

/-- The wait on one of the device's DMA cells for its one transfer's credit; the cell's round is over and it is closed. -/
theorem wp_dwait (K : Dev nD × Fin 66 → ℕ) (c : Dev nD) (n : DmaSem sig) (h2 : 2 ≤ n.val) (N : ℕ) (hN : (agRd (F := F) m).expect (dCell c n) 0 = N)
    (O : CellTallies nD τ sig Unit) (W : Waits sig Unit)
    {w : TpuEff nD τ sig (Elt F) Λ₀ .tc PUnit} (hw : ∀ Kc : PUnit → sProp 𝕄, wpE (defs₀ (F := F)) 𝒱₀ (c : Thread nD τ) none Set.univ w Kc = waitSpec (c : Thread nD τ) Set.univ (.dma n) N Kc)
    {α : Type} {Q : α → sProp 𝕄} {k : PUnit → Prog (TpuEff nD τ sig (Elt F) Λ₀ .tc) α} :
    iprop(records m K ∗ cred (tallyAt (dCell c n) () N) ∗ owes (c : Thread nD τ) O W ∗ MayWait (c : Thread nD τ) (.dma n) () O ∗ atPos ER (dCell c n) 0 ∅ 0)
      ⊢ iprop(((owes (c : Thread nD τ) O (insert (SemLoc.dma n, ()) W) ∗ semVal (dCell c n) 0 ∗ dmaPay m c n.val)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hmw, Hat⟩ Hk
  iapply (Rounds.wp_wait_rest_token 𝒱₀ ER (agRd m) (c : Thread nD τ) none
      (κ := K (c, ⟨n.val - 1, by have : n.val < 67 := n.isLt; omega⟩))
      hw (Set.mem_univ _) () (O := O) (W := W) (R := 0) (m := 0) (T := ∅) (by rw [Nat.zero_add, hN])) $$ [Hc HO Hmw Hat]
  · isplitr; · iapply (inv_dma m K c n h2); iexact Hrec
    isplitl [Hc]; · iexact Hc
    isplitl [HO]; · iexact HO
    isplitl [Hmw]; · iexact Hmw
    iexact Hat
  iintro ⟨HO, Hat, -, Hpay⟩
  ihave Hp := (Entails.of_eq (rest_dma m c n h2)) $$ Hpay
  imod (Rounds.cell_close ER (agRd m) (Set.mem_univ (K (c, ⟨n.val - 1, by have : n.val < 67 := n.isLt; omega⟩))) (fun h => h) (R := 0 + 1) (duties_later m (dCell c n))) $$ [Hat] with Hz
  · isplitr; · iapply (inv_dma m K c n h2); iexact Hrec
    iexact Hat
  iapply Hk
  isplitl [HO]; · iexact HO
  isplitl [Hz]; · iexact Hz
  iexact Hp

/-- info: 'Cert.Kernel.AG.wp_sig' depends on axioms: [propext, Classical.choice, Quot.sound] -/
#guard_msgs in #print axioms wp_sig

/-- info: 'Cert.Kernel.AG.wp_barwait' depends on axioms: [propext, Classical.choice, Quot.sound] -/
#guard_msgs in #print axioms wp_barwait

/-- info: 'Cert.Kernel.AG.wp_ysend' depends on axioms: [propext, Classical.choice, Quot.sound] -/
#guard_msgs in #print axioms wp_ysend

/-- info: 'Cert.Kernel.AG.wp_x2send' depends on axioms: [propext, Classical.choice, Quot.sound] -/
#guard_msgs in #print axioms wp_x2send

/-- info: 'Cert.Kernel.AG.wp_z2send' depends on axioms: [propext, Classical.choice, Quot.sound] -/
#guard_msgs in #print axioms wp_z2send

/-- info: 'Cert.Kernel.AG.wp_dwait' depends on axioms: [propext, Classical.choice, Quot.sound] -/
#guard_msgs in #print axioms wp_dwait

end Cert.Kernel.AG

end
-- ==== Proof.K.SchedC.lean ====
/-
  The amount the copy cell's one round expects: the credit of the 2048-row own half.
-/
import proofs.«900664_g7700000000000665_dist_ag_v7x_xyz2x2x2_y_m2048_n512_f32_1_alg».proof.Proof.K.Sched

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.ShloMosaic.Rounds

variable {F : FTy → Type} [FloatOps F]

/-- A DMA cell's one round expects its one duty's amount. -/
theorem expect_dma_any (m : (ℓ : Loc nD τ sig) → Buf (Elt F) ℓ) (c : Dev nD) (n : DmaSem sig) (h2 : 2 ≤ n.val) :
    (agRd (F := F) m).expect (dCell c n) 0 = if n.val = 2 then Nh else N64 := by
  unfold Schedule.expect Schedule.amountOf
  rw [duties_dma m c n h2, Finset.sum_singleton]
  rfl

theorem expect_copy (m : (ℓ : Loc nD τ sig) → Buf (Elt F) ℓ) (c : Dev nD) : (agRd (F := F) m).expect (dCell c copyS) 0 = Nh :=
  (expect_dma_any m c copyS (le_refl 2)).trans (if_pos rfl)

end Cert.Kernel.AG

end
-- ==== Proof.K.Steps2.lean ====
/-
  Three of the steps of a device's body: the local copy of its block into its own half of the output buffer, and the
  second forwards of received chunks to the neighbours along the first and the last mesh axis. Each is the transfer
  rule applied to the device's own resources: the source is read at the share held, the destination rows are owned
  outright, and on the rows written the destination ends at the receiving device's final contents.
-/
import proofs.«900664_g7700000000000665_dist_ag_v7x_xyz2x2x2_y_m2048_n512_f32_1_alg».proof.Proof.K.Steps
import proofs.«900664_g7700000000000665_dist_ag_v7x_xyz2x2x2_y_m2048_n512_f32_1_alg».proof.Proof.K.SchedC

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The local copy of the device's block into its own half of the output buffer. -/
theorem wp_copy_own (m : (ℓ : Loc nD τ sig) → Buf (Elt F) ℓ) (K : Dev nD × Fin 66 → ℕ) (c : Dev nD) (fd : Buf (Elt F) (oLoc c)) {hsrc hdst hsem}
    {α : Type} {Q : α → sProp 𝕄} {k : PUnit → Prog (TpuEff nD τ sig (Elt F) Λ₀ .tc) α} :
    iprop(records m K ∗ (xLoc c ↦[Finset.univ]{fullShare.left} X m c) ∗ (oLoc c ↦[rowsO c (ownBase c) 2048]{fullShare} fd) ∗ dutyTok ER (dCell c copyS) 0 0)
      ⊢ iprop((cred (tallyAt (dCell c copyS) () Nh) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM : Memref sig .tc .vmem S2048x512 .f32)
                (.here (oM.slice (Rect.unit (s := S4096x512) (k0_off1 c) S2048x512.size (k0_off1_inb c)) (fun _ => rfl))) (.dma copyS) hsrc hdst hsem) k) Q) := by
  have hx : ((xM : Memref sig .tc .vmem S2048x512 .f32).view.set : Finset (Idx (xLoc c))) = Finset.univ := View.set_whole _
  have key := Rounds.wp_copy_pointsTo 𝒱₀ ER (agRd m) (c : Thread nD τ) none (defs := defs₀ (F := F)) (Γ := .empty)
      (sp := .vmem) (sp' := .vmem) (s := S2048x512) (e := .f32)
      (src := (xM : Memref sig .tc .vmem S2048x512 .f32))
      (dst := (oM.slice (Rect.unit (s := S4096x512) (k0_off1 c) S2048x512.size (k0_off1_inb c)) (fun _ => rfl) : Memref sig .tc .vmem S2048x512 .f32))
      (sem := .dma copyS) (hsrc := hsrc) (hdst := hdst) (hsem := hsem) (k := k) (Q := Q)
      (q := fullShare.left) (fs := X m c) (fd := fd) (r := 0) (d := 0)
      (κ := K (c, ⟨(copyS : DmaSem sig).val - 1, by show 2 - 1 < 66; omega⟩))
      (by rw [duties_dma m c copyS (le_refl 2)]; exact Finset.mem_singleton_self _)
      () Nh (by unfold Nh; rfl) (amount_copy m c 0)
      (by rw [payload_dma, dmaPay_copy, set_copy c, hx]
          exact sep_mono (Entails.of_eq (pointsTo_congr (land_copy m c fd))) .rfl)
      (Es := Set.univ)
  refine BIBase.Entails.trans ?_ key
  rw [set_copy c, hx]
  iintro ⟨#Hrec, Hx, Ho, Htok⟩
  isplitr; · iapply (inv_dma m K c copyS (le_refl 2)); iexact Hrec
  isplitl [Hx]; · iexact Hx
  isplitl [Ho]; · iexact Ho
  isplitl [Htok]; · iexact Htok
  iapply (reached_dma m K c copyS (le_refl 2)); iexact Hrec

/-- The second forward to the neighbour along the first mesh axis: chunk `i` (0..3) of the quarter the neighbour along
    the last axis contributed, read at its final contents, lands on the same rows of the neighbour, whose final
    contents there are the same. -/
theorem wp_x3send (m : (ℓ : Loc nD τ sig) → Buf (Elt F) ℓ) (K : Dev nD × Fin 66 → ℕ) (c : Dev nD) (i : Fin 4) (p : Dev nD) (hp : p = xP c) (O : CellTallies nD τ sig Unit) (W : Waits sig Unit) (fd : Buf (Elt F) (oLoc (xP c)))
    {hsc : (oM.slice (Rect.unit (s := S4096x512) (k0_off5 c (BitVec.ofNat 32 (64 * i.val))) S64x512.size (k0_off5_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kZ c + i.val) fullShare
        ∗ (oLoc (xP c) ↦[rowsO (xP c) (recvBase (xP c) + 64 * (8 * kZ c + i.val)) 64]{fullShare} fd)
        ∗ owes (c : Thread nD τ) (O + tallyAt (dCell (xP c) (x3Recv i)) () N64) W
        ∗ dutyTok ER (dCell c (x3Send i)) 0 0 ∗ dutyTok ER (dCell (xP c) (x3Recv i)) 0 0)
      ⊢ iprop(((cred (tallyAt (dCell c (x3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off5 c (BitVec.ofNat 32 (64 * i.val))) S64x512.size (k0_off5_inb c i)) (fun _ => rfl))
                (.remote (Dev.tc p : Thread nD τ) (oM.slice (Rect.unit (s := S4096x512) (k0_off5 c (BitVec.ofNat 32 (64 * i.val))) S64x512.size (k0_off5_inb c i)) (fun _ => rfl)) (.dma (x3Send i)) hsc)
                (.dma (x3Recv i)) hsrc hdst hsem) k) Q) := by
  subst hp
  have hi := i.isLt
  have hk := kZ_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (xP c) : Thread nD τ))
      (src := (oM.slice (Rect.unit (s := S4096x512) (k0_off5 c (BitVec.ofNat 32 (64 * i.val))) S64x512.size (k0_off5_inb c i)) (fun _ => rfl) : Memref sig .tc .vmem S64x512 .f32))
      (dst := (oM.slice (Rect.unit (s := S4096x512) (k0_off5 c (BitVec.ofNat 32 (64 * i.val))) S64x512.size (k0_off5_inb c i)) (fun _ => rfl) : Memref sig .tc .vmem S64x512 .f32))
      (hsc := hsc) (sS := .dma (x3Send i)) (sem := .dma (x3Recv i)) (hsrc := hsrc) (hdst := hdst) (hsem := hsem) (k := k) (Q := Q)
      (q := fullShare) (fs := AG.W m c) (fd := fd)
      (κ₁ := K (c, ⟨(x3Send i).val - 1, by show 51 + i.val - 1 < 66; omega⟩)) (κ₂ := K (xP c, ⟨(x3Recv i).val - 1, by show 55 + i.val - 1 < 66; omega⟩))
      (r₁ := 0) (r₂ := 0) (d₁ := 0) (d₂ := 0)
      (by rw [duties_dma m c (x3Send i) (by show 2 ≤ 51 + i.val; omega)]; exact Finset.mem_singleton_self _)
      (by rw [duties_dma m (xP c) (x3Recv i) (by show 2 ≤ 55 + i.val; omega)]; exact Finset.mem_singleton_self _)
      () () N64 (by unfold N64; rfl)
      (amount_dma m c (x3Send i) (by show 51 + i.val ≠ 2; omega) 0) (amount_dma m (xP c) (x3Recv i) (by show 55 + i.val ≠ 2; omega) 0)
      (O₀ := O + tallyAt (dCell (xP c) (x3Recv i)) () N64) O rfl (W := W) (Es := Set.univ)
      (by rw [payload_dma, dmaPay_x3Send]; unfold chunk; rw [set_oslice c _ _ (off5_row c i) (k0_off5_inb c i)])
      (by rw [payload_dma, dmaPay_x3Recv, kD_xP]; unfold chunk
          rw [recvBase_xP, set_oslice (xP c) _ _ (off5_row c i) (k0_off5_inb c i)]
          exact Entails.of_eq (pointsTo_congr (land_fwd m c (xP c) (yc_xP c) _ _ (off5_row c i) (by omega) (by omega) (k0_off5_inb c i) fd)))
  unfold chunk
  rw [recvBase_xP, ← set_oslice c _ _ (off5_row c i) (k0_off5_inb c i), ← set_oslice (xP c) _ _ (off5_row c i) (k0_off5_inb c i)]
  refine BIBase.Entails.trans ?_ key
  iintro ⟨#Hrec, Hsrc, Hdst, HO, Htok₁, Htok₂⟩
  isplitr; · iapply (inv_dma m K c (x3Send i) (by show 2 ≤ 51 + i.val; omega)); iexact Hrec
  isplitr; · iapply (inv_dma m K (xP c) (x3Recv i) (by show 2 ≤ 55 + i.val; omega)); iexact Hrec
  isplitl [Hsrc]; · iexact Hsrc
  isplitl [Hdst]; · iexact Hdst
  isplitl [HO]; · iexact HO
  isplitl [Htok₁]; · iexact Htok₁
  isplitr; · iapply (reached_dma m K c (x3Send i) (by show 2 ≤ 51 + i.val; omega)); iexact Hrec
  isplitl [Htok₂]; · iexact Htok₂
  iapply (reached_dma m K (xP c) (x3Recv i) (by show 2 ≤ 55 + i.val; omega)); iexact Hrec

/-- The second forward to the neighbour along the last mesh axis: chunk `4 + i` (i in 0..3) of the quarter the neighbour
    along the first axis contributed, likewise. -/
theorem wp_z3send (m : (ℓ : Loc nD τ sig) → Buf (Elt F) ℓ) (K : Dev nD × Fin 66 → ℕ) (c : Dev nD) (i : Fin 4) (p : Dev nD) (hp : p = zP c) (O : CellTallies nD τ sig Unit) (W : Waits sig Unit) (fd : Buf (Elt F) (oLoc (zP c)))
    {hsc : (oM.slice (Rect.unit (s := S4096x512) (k0_off6 c (BitVec.ofNat 32 (256 + 64 * i.val))) S64x512.size (k0_off6_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kX c + 4 + i.val) fullShare
        ∗ (oLoc (zP c) ↦[rowsO (zP c) (recvBase (zP c) + 64 * (8 * kX c + 4 + i.val)) 64]{fullShare} fd)
        ∗ owes (c : Thread nD τ) (O + tallyAt (dCell (zP c) (z3Recv i)) () N64) W
        ∗ dutyTok ER (dCell c (z3Send i)) 0 0 ∗ dutyTok ER (dCell (zP c) (z3Recv i)) 0 0)
      ⊢ iprop(((cred (tallyAt (dCell c (z3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off6 c (BitVec.ofNat 32 (256 + 64 * i.val))) S64x512.size (k0_off6_inb c i)) (fun _ => rfl))
                (.remote (Dev.tc p : Thread nD τ) (oM.slice (Rect.unit (s := S4096x512) (k0_off6 c (BitVec.ofNat 32 (256 + 64 * i.val))) S64x512.size (k0_off6_inb c i)) (fun _ => rfl)) (.dma (z3Send i)) hsc)
                (.dma (z3Recv i)) hsrc hdst hsem) k) Q) := by
  subst hp
  have hi := i.isLt
  have hk := kX_lt c
  have key := Rounds.wp_send_pointsTo 𝒱₀ ER (agRd m) (c : Thread nD τ) none (defs := defs₀ (F := F)) (Γ := .empty)
      (sp := .vmem) (sp' := .vmem) (s := S64x512) (e := .f32)
      (c' := (Dev.tc (zP c) : Thread nD τ))
      (src := (oM.slice (Rect.unit (s := S4096x512) (k0_off6 c (BitVec.ofNat 32 (256 + 64 * i.val))) S64x512.size (k0_off6_inb c i)) (fun _ => rfl) : Memref sig .tc .vmem S64x512 .f32))
      (dst := (oM.slice (Rect.unit (s := S4096x512) (k0_off6 c (BitVec.ofNat 32 (256 + 64 * i.val))) S64x512.size (k0_off6_inb c i)) (fun _ => rfl) : Memref sig .tc .vmem S64x512 .f32))
      (hsc := hsc) (sS := .dma (z3Send i)) (sem := .dma (z3Recv i)) (hsrc := hsrc) (hdst := hdst) (hsem := hsem) (k := k) (Q := Q)
      (q := fullShare) (fs := AG.W m c) (fd := fd)
      (κ₁ := K (c, ⟨(z3Send i).val - 1, by show 59 + i.val - 1 < 66; omega⟩)) (κ₂ := K (zP c, ⟨(z3Recv i).val - 1, by show 63 + i.val - 1 < 66; omega⟩))
      (r₁ := 0) (r₂ := 0) (d₁ := 0) (d₂ := 0)
      (by rw [duties_dma m c (z3Send i) (by show 2 ≤ 59 + i.val; omega)]; exact Finset.mem_singleton_self _)
      (by rw [duties_dma m (zP c) (z3Recv i) (by show 2 ≤ 63 + i.val; omega)]; exact Finset.mem_singleton_self _)
      () () N64 (by unfold N64; rfl)
      (amount_dma m c (z3Send i) (by show 59 + i.val ≠ 2; omega) 0) (amount_dma m (zP c) (z3Recv i) (by show 63 + i.val ≠ 2; omega) 0)
      (O₀ := O + tallyAt (dCell (zP c) (z3Recv i)) () N64) O rfl (W := W) (Es := Set.univ)
      (by rw [payload_dma, dmaPay_z3Send]; unfold chunk; rw [set_oslice c _ _ (off6_row c i) (k0_off6_inb c i)])
      (by rw [payload_dma, dmaPay_z3Recv, kD_zP]; unfold chunk
          rw [recvBase_zP, set_oslice (zP c) _ _ (off6_row c i) (k0_off6_inb c i)]
          exact Entails.of_eq (pointsTo_congr (land_fwd m c (zP c) (yc_zP c) _ _ (off6_row c i) (by omega) (by omega) (k0_off6_inb c i) fd)))
  unfold chunk
  rw [recvBase_zP, ← set_oslice c _ _ (off6_row c i) (k0_off6_inb c i), ← set_oslice (zP c) _ _ (off6_row c i) (k0_off6_inb c i)]
  refine BIBase.Entails.trans ?_ key
  iintro ⟨#Hrec, Hsrc, Hdst, HO, Htok₁, Htok₂⟩
  isplitr; · iapply (inv_dma m K c (z3Send i) (by show 2 ≤ 59 + i.val; omega)); iexact Hrec
  isplitr; · iapply (inv_dma m K (zP c) (z3Recv i) (by show 2 ≤ 63 + i.val; omega)); iexact Hrec
  isplitl [Hsrc]; · iexact Hsrc
  isplitl [Hdst]; · iexact Hdst
  isplitl [HO]; · iexact HO
  isplitl [Htok₁]; · iexact Htok₁
  isplitr; · iapply (reached_dma m K c (z3Send i) (by show 2 ≤ 59 + i.val; omega)); iexact Hrec
  isplitl [Htok₂]; · iexact Htok₂
  iapply (reached_dma m K (zP c) (z3Recv i) (by show 2 ≤ 63 + i.val; omega)); iexact Hrec

/-- info: 'Cert.Kernel.AG.wp_copy_own' depends on axioms: [propext, Classical.choice, Quot.sound] -/
#guard_msgs in #print axioms wp_copy_own

/-- info: 'Cert.Kernel.AG.wp_x3send' depends on axioms: [propext, Classical.choice, Quot.sound] -/
#guard_msgs in #print axioms wp_x3send

/-- info: 'Cert.Kernel.AG.wp_z3send' depends on axioms: [propext, Classical.choice, Quot.sound] -/
#guard_msgs in #print axioms wp_z3send

end Cert.Kernel.AG

end
-- ==== Proof.K.Steps3.lean ====
/-
  The five kinds of transfer to a neighbour once more, the destination chunk taken at some contents: the chunk a
  neighbour lent with its barrier unit is opened here, and the rule for that kind of transfer applied at its contents.
-/
import proofs.«900664_g7700000000000665_dist_ag_v7x_xyz2x2x2_y_m2048_n512_f32_1_alg».proof.Proof.K.Steps2

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem wp_ysend' (m : (ℓ : Loc nD τ sig) → Buf (Elt F) ℓ) (K : Dev nD × Fin 66 → ℕ) (c : Dev nD) (i : Fin 8) (p : Dev nD) (hp : p = yP c) (O : CellTallies nD τ sig Unit) (W : Waits sig Unit)
    {hsc : (oM.slice (Rect.unit (s := S4096x512) (k0_off2 c (BitVec.ofNat 32 (64 * i.val))) S64x512.size (k0_off2_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ (xLoc c ↦[rowsX c (64 * (8 * kM c + i.val)) 64]{fullShare.right} X m c)
        ∗ someChunk (F := F) (yP c) (8 * kM c + i.val)
        ∗ owes (c : Thread nD τ) (O + tallyAt (dCell (yP c) (yRecv i)) () N64) W
        ∗ dutyTok ER (dCell c (ySend i)) 0 0 ∗ dutyTok ER (dCell (yP c) (yRecv i)) 0 0)
      ⊢ iprop(((cred (tallyAt (dCell c (ySend i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S2048x512) (k0_off3 c (BitVec.ofNat 32 (64 * i.val))) S64x512.size (k0_off3_inb c i)) (fun _ => rfl))
                (.remote (Dev.tc p : Thread nD τ) (oM.slice (Rect.unit (s := S4096x512) (k0_off2 c (BitVec.ofNat 32 (64 * i.val))) S64x512.size (k0_off2_inb c i)) (fun _ => rfl)) (.dma (ySend i)) hsc)
                (.dma (yRecv i)) hsrc hdst hsem) k) Q) := by
  unfold someChunk
  iintro ⟨#Hrec, Hsrc, ⟨%fd, Hdst⟩, HO, Htok₁, Htok₂⟩
  iapply (wp_ysend m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_x2send' (m : (ℓ : Loc nD τ sig) → Buf (Elt F) ℓ) (K : Dev nD × Fin 66 → ℕ) (c : Dev nD) (i : Fin 8) (p : Dev nD) (hp : p = xP c) (O : CellTallies nD τ sig Unit) (W : Waits sig Unit)
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.left
        ∗ someChunk (F := F) (xP c) (8 * kM c + i.val)
        ∗ owes (c : Thread nD τ) (O + tallyAt (dCell (xP c) (x2Recv i)) () N64) W
        ∗ dutyTok ER (dCell c (x2Send i)) 0 0 ∗ dutyTok ER (dCell (xP c) (x2Recv i)) 0 0)
      ⊢ iprop(((cred (tallyAt (dCell c (x2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (x2Send i)) hsc)
                (.dma (x2Recv i)) hsrc hdst hsem) k) Q) := by
  unfold someChunk
  iintro ⟨#Hrec, Hsrc, ⟨%fd, Hdst⟩, HO, Htok₁, Htok₂⟩
  iapply (wp_x2send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_z2send' (m : (ℓ : Loc nD τ sig) → Buf (Elt F) ℓ) (K : Dev nD × Fin 66 → ℕ) (c : Dev nD) (i : Fin 8) (p : Dev nD) (hp : p = zP c) (O : CellTallies nD τ sig Unit) (W : Waits sig Unit)
    {hsc : (oM.slice (Rect.unit (s := S4096x512) (k0_off4 c (BitVec.ofNat 32 (64 * i.val))) S64x512.size (k0_off4_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kM c + i.val) fullShare.right
        ∗ someChunk (F := F) (zP c) (8 * kM c + i.val)
        ∗ owes (c : Thread nD τ) (O + tallyAt (dCell (zP c) (z2Recv i)) () N64) W
        ∗ dutyTok ER (dCell c (z2Send i)) 0 0 ∗ dutyTok ER (dCell (zP c) (z2Recv i)) 0 0)
      ⊢ iprop(((cred (tallyAt (dCell c (z2Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off4 c (BitVec.ofNat 32 (64 * i.val))) S64x512.size (k0_off4_inb c i)) (fun _ => rfl))
                (.remote (Dev.tc p : Thread nD τ) (oM.slice (Rect.unit (s := S4096x512) (k0_off4 c (BitVec.ofNat 32 (64 * i.val))) S64x512.size (k0_off4_inb c i)) (fun _ => rfl)) (.dma (z2Send i)) hsc)
                (.dma (z2Recv i)) hsrc hdst hsem) k) Q) := by
  unfold someChunk
  iintro ⟨#Hrec, Hsrc, ⟨%fd, Hdst⟩, HO, Htok₁, Htok₂⟩
  iapply (wp_z2send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_x3send' (m : (ℓ : Loc nD τ sig) → Buf (Elt F) ℓ) (K : Dev nD × Fin 66 → ℕ) (c : Dev nD) (i : Fin 4) (p : Dev nD) (hp : p = xP c) (O : CellTallies nD τ sig Unit) (W : Waits sig Unit)
    {hsc : (oM.slice (Rect.unit (s := S4096x512) (k0_off5 c (BitVec.ofNat 32 (64 * i.val))) S64x512.size (k0_off5_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kZ c + i.val) fullShare
        ∗ someChunk (F := F) (xP c) (8 * kZ c + i.val)
        ∗ owes (c : Thread nD τ) (O + tallyAt (dCell (xP c) (x3Recv i)) () N64) W
        ∗ dutyTok ER (dCell c (x3Send i)) 0 0 ∗ dutyTok ER (dCell (xP c) (x3Recv i)) 0 0)
      ⊢ iprop(((cred (tallyAt (dCell c (x3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off5 c (BitVec.ofNat 32 (64 * i.val))) S64x512.size (k0_off5_inb c i)) (fun _ => rfl))
                (.remote (Dev.tc p : Thread nD τ) (oM.slice (Rect.unit (s := S4096x512) (k0_off5 c (BitVec.ofNat 32 (64 * i.val))) S64x512.size (k0_off5_inb c i)) (fun _ => rfl)) (.dma (x3Send i)) hsc)
                (.dma (x3Recv i)) hsrc hdst hsem) k) Q) := by
  unfold someChunk
  iintro ⟨#Hrec, Hsrc, ⟨%fd, Hdst⟩, HO, Htok₁, Htok₂⟩
  iapply (wp_x3send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

theorem wp_z3send' (m : (ℓ : Loc nD τ sig) → Buf (Elt F) ℓ) (K : Dev nD × Fin 66 → ℕ) (c : Dev nD) (i : Fin 4) (p : Dev nD) (hp : p = zP c) (O : CellTallies nD τ sig Unit) (W : Waits sig Unit)
    {hsc : (oM.slice (Rect.unit (s := S4096x512) (k0_off6 c (BitVec.ofNat 32 (256 + 64 * i.val))) S64x512.size (k0_off6_inb c i)) (fun _ => rfl) : Memref sig (Dev.tc p : Thread nD τ).2.kind .vmem S64x512 .f32).view.ref.isScScratch = false}
    {hsrc hdst hsem} {α : Type} {Q : α → sProp 𝕄} {k : PUnit → Prog (TpuEff nD τ sig (Elt F) Λ₀ .tc) α} :
    iprop(records m K ∗ chunk m c (8 * kX c + 4 + i.val) fullShare
        ∗ someChunk (F := F) (zP c) (8 * kX c + 4 + i.val)
        ∗ owes (c : Thread nD τ) (O + tallyAt (dCell (zP c) (z3Recv i)) () N64) W
        ∗ dutyTok ER (dCell c (z3Send i)) 0 0 ∗ dutyTok ER (dCell (zP c) (z3Recv i)) 0 0)
      ⊢ iprop(((cred (tallyAt (dCell c (z3Send i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) (k0_off6 c (BitVec.ofNat 32 (256 + 64 * i.val))) S64x512.size (k0_off6_inb c i)) (fun _ => rfl))
                (.remote (Dev.tc p : Thread nD τ) (oM.slice (Rect.unit (s := S4096x512) (k0_off6 c (BitVec.ofNat 32 (256 + 64 * i.val))) S64x512.size (k0_off6_inb c i)) (fun _ => rfl)) (.dma (z3Send i)) hsc)
                (.dma (z3Recv i)) hsrc hdst hsem) k) Q) := by
  unfold someChunk
  iintro ⟨#Hrec, Hsrc, ⟨%fd, Hdst⟩, HO, Htok₁, Htok₂⟩
  iapply (wp_z3send m K c i p hp O W fd (hsc := hsc) (hsrc := hsrc) (hdst := hdst) (hsem := hsem))
  isplitr; · iexact Hrec
  isplitl [Hsrc]; · iexact Hsrc
  isplitl [Hdst]; · iexact Hdst
  isplitl [HO]; · iexact HO
  isplitl [Htok₁]; · iexact Htok₁
  iexact Htok₂

/-- info: 'Cert.Kernel.AG.wp_ysend'' depends on axioms: [propext, Classical.choice, Quot.sound] -/
#guard_msgs in #print axioms wp_ysend'

/-- info: 'Cert.Kernel.AG.wp_x2send'' depends on axioms: [propext, Classical.choice, Quot.sound] -/
#guard_msgs in #print axioms wp_x2send'

/-- info: 'Cert.Kernel.AG.wp_z2send'' depends on axioms: [propext, Classical.choice, Quot.sound] -/
#guard_msgs in #print axioms wp_z2send'

/-- info: 'Cert.Kernel.AG.wp_x3send'' depends on axioms: [propext, Classical.choice, Quot.sound] -/
#guard_msgs in #print axioms wp_x3send'

/-- info: 'Cert.Kernel.AG.wp_z3send'' depends on axioms: [propext, Classical.choice, Quot.sound] -/
#guard_msgs in #print axioms wp_z3send'

end Cert.Kernel.AG

end
-- ==== Proof.K.Credit.lean ====
/-
  What the launch deals a device as credit, and the levels that order its waits.
  Every device owes each of its three neighbours' barrier cells one unit and, per remote transfer, the arrival on the
  target's receive cell. Summed over the devices, a device's barrier cell is owed three units (one by each neighbour)
  and each of its receive cells one chunk's credit (by the one neighbour that sends into it): that is the credit the
  launch hands it. A cell may be waited on while something is still owed only if it sits below everything owed.
-/
import proofs.«900664_g7700000000000665_dist_ag_v7x_xyz2x2x2_y_m2048_n512_f32_1_alg».proof.Proof.K.Fund

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a list of dues amounts to at one cell -/

theorem owedL_apply (l : List (GSem nD τ sig × ℕ)) (g : GSem nD τ sig) :
    owedL l g () = (l.map fun p => if p.1 = g then p.2 else 0).sum := by
  induction l with
  | nil => rfl
  | cons p l ih =>
    obtain ⟨g', k⟩ := p
    show (owedL l + tallyAt g' () k) g () = _
    rw [Pi.add_apply, Finsupp.add_apply, ih, tallyAt_apply, List.map_cons, List.sum_cons, Nat.add_comm]
    congr 1
    by_cases h : g' = g
    · rw [if_pos h, if_pos ⟨h.symm, rfl⟩]
    · rw [if_neg h, if_neg fun h' => h h'.1.symm]

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    obtain ⟨g', k⟩ := p
    rcases Pipeline.add_pos_cases (show 0 < (owedL l + tallyAt g' () k) g u from h) with h1 | h1
    · obtain ⟨p, hp, e⟩ := ih h1
      exact ⟨p, List.mem_cons_of_mem _ hp, e⟩
    · exact ⟨(g', k), List.mem_cons_self, (Pipeline.tallyAt_pos h1).1.symm⟩

theorem owedL_eq_zero {l : List (GSem nD τ sig × ℕ)} {g : GSem nD τ sig} {u : Unit} (h : ∀ p ∈ l, p.1 ≠ g) : owedL l g u = 0 := by
  by_contra hne
  obtain ⟨p, hp, e⟩ := owedL_pos (Nat.pos_of_ne_zero hne)
  exact h p hp e

/-! ## Cells: when two are the same -/

omit [FloatOps F] in
theorem bar_eq_iff {a b : Dev nD} : barCell a = barCell b ↔ a = b :=
  ⟨fun h => Fin.ext (congrArg (fun g : GSem nD τ sig => g.1.1.val) h), fun h => h ▸ rfl⟩
omit [FloatOps F] in
theorem dCell_eq_iff {a b : Dev nD} {n n' : DmaSem sig} : dCell a n = dCell b n' ↔ a = b ∧ n = n' :=
  ⟨fun h => ⟨Fin.ext (congrArg (fun g : GSem nD τ sig => g.1.1.val) h), SemLoc.dma.inj (congrArg Prod.snd h)⟩, fun h => by rw [h.1, h.2]⟩
omit [FloatOps F] in
theorem dCell_ne_bar {a b : Dev nD} {n : DmaSem sig} : dCell a n ≠ barCell b := fun h => by cases congrArg Prod.snd h
omit [FloatOps F] in
theorem dsem_eq_iff {k k' : Fin 65} : dsem k = dsem k' ↔ k = k' :=
  ⟨fun h => Fin.ext (Nat.add_right_cancel (congrArg Fin.val h)), fun h => h ▸ rfl⟩

/-! ## Sums -/

/-- Of the devices, exactly one is the image of `c` under an involution. -/
theorem sum_inv (f : Dev nD → Dev nD) (hf : ∀ d, f (f d) = d) (c : Dev nD) (n : ℕ) :
    (∑ d : Dev nD, if f d = c then n else 0) = n := by
  rw [Finset.sum_eq_single (f c) (fun d _ hd => if_neg fun h => hd (by rw [← h, hf])) (fun h => absurd (Finset.mem_univ _) h), if_pos (hf c)]

theorem sum_list_comm {α : Type} (l : List α) (f : Dev nD → α → ℕ) :
    (∑ d : Dev nD, (l.map (f d)).sum) = (l.map fun t => ∑ d : Dev nD, f d t).sum := by
  induction l with
  | nil => simp only [List.map_nil, List.sum_nil, Finset.sum_const_zero]
  | cons t l ih => simp only [List.map_cons, List.sum_cons]; rw [Finset.sum_add_distrib, ih]

theorem sum_ite_count {α : Type} (l : List α) (p : α → Prop) [DecidablePred p] (n : ℕ) :
    (l.map fun t => if p t then n else 0).sum = l.countP (fun t => decide (p t)) * n := by
  induction l with
  | nil => simp only [List.map_nil, List.sum_nil, List.countP_nil, Nat.zero_mul]
  | cons t l ih =>
    simp only [List.map_cons, List.sum_cons, List.countP_cons, ih]
    by_cases h : p t
    · simp only [h, if_true, decide_true, Nat.add_mul, Nat.one_mul]; exact Nat.add_comm _ _
    · simp only [h, if_false, decide_false, Bool.false_eq_true, Nat.add_zero, Nat.zero_add]

/-- Each receive cell is the target of exactly one of the remote transfers. -/
theorem recv_once : ∀ k ∈ recvIdx, enqs.countP (fun t => decide (t.2.1 = k)) = 1 := by decide

/-! ## What one device owes one cell -/

omit [FloatOps F] in
/-- Device `d` owes device `c`'s barrier cell a unit for each axis across which `c` is its neighbour. -/
theorem owed_bar (d c : Dev nD) :
    O₀ d (barCell c) () = (if yP d = c then 1 else 0) + ((if xP d = c then 1 else 0) + (if zP d = c then 1 else 0)) := by
  unfold O₀ plan
  rw [owedL_apply, List.map_cons, List.map_cons, List.map_cons, List.sum_cons, List.sum_cons, List.sum_cons, ← owedL_apply,
    owedL_eq_zero (l := arrivals d) (fun p hp => by
      obtain ⟨t, -, rfl⟩ := List.mem_map.mp hp
      exact dCell_ne_bar), Nat.add_zero]
  simp only [bar_eq_iff]

omit [FloatOps F] in
/-- Device `d` owes receive cell `k` of device `c` a chunk's credit for each of its transfers into that cell. -/
theorem owed_recv (d c : Dev nD) (k : Fin 65) :
    O₀ d (dCell c (dsem k)) () = (enqs.map fun t => if nb d t.2.2 = c ∧ t.2.1 = k then N64 else 0).sum := by
  unfold O₀ plan
  rw [owedL_apply, List.map_cons, List.map_cons, List.map_cons, List.sum_cons, List.sum_cons, List.sum_cons,
    if_neg (fun h => dCell_ne_bar h.symm), if_neg (fun h => dCell_ne_bar h.symm), if_neg (fun h => dCell_ne_bar h.symm),
    Nat.zero_add, Nat.zero_add, Nat.zero_add]
  unfold arrivals
  rw [List.map_map]
  refine congrArg List.sum (List.map_congr_left fun t _ => ?_)
  show (if dCell (nb d t.2.2) (dsem t.2.1) = dCell c (dsem k) then N64 else 0) = _
  exact if_congr (by rw [dCell_eq_iff, dsem_eq_iff]) rfl rfl

/-! ## The launch credit -/

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_inv yP yP_yP, sum_inv xP xP_xP, sum_inv zP zP_zP]
  rfl

omit [FloatOps F] in
theorem launch_recv (c : Dev nD) (k : Fin 65) (hk : k ∈ recvIdx) :
    tallyOn (dCell c (dsem k)) (launchCredit (Pipeline.owing O₀) 0 (dCell c (dsem k))) = (tallyAt (dCell c (dsem k)) () N64 : CellTallies nD τ sig Unit) := by
  unfold tallyAt; refine congrArg _ (Finsupp.ext fun u => ?_); cases u
  rw [Pipeline.launchCredit_owing, Finsupp.single_eq_same, Finset.sum_congr rfl fun d _ => owed_recv d c k, sum_list_comm]
  have h1 : ∀ t : Fin 65 × Fin 65 × Fin 3, (∑ d : Dev nD, if nb d t.2.2 = c ∧ t.2.1 = k then N64 else 0)
      = if t.2.1 = k then N64 else 0 := fun t => by
    by_cases hk : t.2.1 = k
    · rw [if_pos hk, Finset.sum_congr rfl fun d _ => if_congr (and_iff_left hk) rfl rfl]
      exact sum_inv (fun d => nb d t.2.2) (fun d => nb_nb t.2.2 d) c N64
    · rw [if_neg hk]
      exact Finset.sum_eq_zero fun d _ => if_neg fun h => hk h.2
  rw [List.map_congr_left fun t _ => h1 t, sum_ite_count, recv_once k hk, Nat.one_mul]

/-- The launch credit of a device: three units on its barrier cell, a chunk's credit on each receive cell. -/
theorem creds (c : Dev nD) : (Pipeline.launchCred O₀ c : sProp 𝕄) ⊢ credsOf c := by
  unfold Pipeline.launchCred credsOf
  rw [bigSep_univ_at _ (SemLoc.reg barS), launch_bar]
  refine sep_mono_right ?_
  rw [← bigSep_eq_bigSepL recvIdx (by decide),
    bigSep_congr (s := recvIdx.toFinset) (fun k hk => (congrArg cred (launch_recv c k (List.mem_toFinset.mp hk))).symm),
    ← bigSep_image_of_injOn (f := osem) (fun a _ b _ h => dsem_eq_iff.mp (SemLoc.dma.inj h))
      (fun sm : SemLoc sig => (cred (tallyOn ((c : Thread nD τ), sm) (launchCredit (Pipeline.owing O₀) 0 ((c : Thread nD τ), sm))) : sProp 𝕄))]
  refine bigSep_subset fun sm h => Finset.mem_erase.mpr ⟨?_, Finset.mem_univ _⟩
  obtain ⟨k, -, rfl⟩ := Finset.mem_image.mp h
  exact fun h => by cases h

/-! ## Levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem L_of_tc (g : GSem nD τ sig) (h : g.1.2 = .tc) : L g = {()} := if_pos h

omit [FloatOps F] in
/-- A TensorCore may wait on its cell `s` while it owes the dues `l` when every cell owed sits above `s`. -/
theorem mayWait_owedL (c : Dev nD) (s : SemLoc sig) (l : List (GSem nD τ sig × ℕ))
    (h : ∀ p ∈ l, p.1.1.2 = .tc ∧ lv ((c : Thread nD τ), s) () < lv p.1 ()) :
    (levAts L lv : sProp 𝕄) ⊢ MayWait (c : Thread nD τ) s () (owedL l) :=
  Pipeline.mayWait_of_levAts (by rw [L_tc]; exact Finset.mem_singleton_self _) fun g i hg => by
    obtain ⟨p, hp, rfl⟩ := owedL_pos hg
    cases i
    exact ⟨by rw [L_of_tc _ (h p hp).1]; exact Finset.mem_singleton_self _, (h p hp).2⟩

theorem mayWait_bar (c : Dev nD) (l : List (GSem nD τ sig × ℕ)) (h : ∀ p ∈ l, p.1.1.2 = .tc ∧ 1 < lv p.1 ()) :
    (levAts L lv : sProp 𝕄) ⊢ MayWait (c : Thread nD τ) (.reg barS) () (owedL l) := mayWait_owedL c _ l h

theorem mayWait_dma (c : Dev nD) (n : DmaSem sig) (l : List (GSem nD τ sig × ℕ)) (h : ∀ p ∈ l, p.1.1.2 = .tc ∧ lvN n.val < lv p.1 ()) :
    (levAts L lv : sProp 𝕄) ⊢ MayWait (c : Thread nD τ) (.dma n) () (owedL l) := mayWait_owedL c _ l h

/-- Every receive cell a transfer pays sits at level 2 or above. -/
theorem enqs_lv : ∀ t ∈ enqs, 2 ≤ lvN ((t.2.1 : Fin 65).val + 2) := by
  have h : (enqs.all fun t => decide (2 ≤ lvN ((t.2.1 : Fin 65).val + 2))) = true := by decide
  intro t ht
  exact of_decide_eq_true (List.all_eq_true.mp h t ht)

omit [FloatOps F] in
/-- Everything a device owes at launch is a TensorCore's cell at level 1 or above. -/
theorem plan_lv (c : Dev nD) : ∀ p ∈ plan c, p.1.1.2 = .tc ∧ 0 < lv p.1 () := by
  intro p hp
  unfold plan at hp
  rcases List.mem_cons.mp hp with rfl | hp
  · exact ⟨rfl, Nat.one_pos⟩
  rcases List.mem_cons.mp hp with rfl | hp
  · exact ⟨rfl, Nat.one_pos⟩
  rcases List.mem_cons.mp hp with rfl | hp
  · exact ⟨rfl, Nat.one_pos⟩
  obtain ⟨t, ht, rfl⟩ := List.mem_map.mp hp
  exact ⟨rfl, show 0 < lvN (t.2.1.val + 2) from lt_of_lt_of_le (by decide) (enqs_lv t ht)⟩

variable (m : (ℓ : Loc nD τ sig) → Buf (Elt F) ℓ) (ρ : Dev nD → PrngReg)

/-- The pipeline's own staging cells sit at level 0, below everything a device ever owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_dma c _ (plan c) fun p hp => ?_
      rw [show lvN ((((cfgs 0).win w).sem s : DmaSem sig)).val = 0 from by fin_cases w <;> fin_cases s <;> rfl]
      exact plan_lv c p hp
    · rw [show (dats m ρ 0 c).owed ⟨_ + 1, ht⟩ = 0 from rfl, MayWait_zero]; iintro -; iempintro

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = done c from rfl, scopedRest0_eq, ownSems0_eq]
  unfold done
  iintro H
  isplitr; · iempintro
  isplitl [H]; · iexact H
  iempintro

/-- info: 'Cert.Kernel.AG.creds' depends on axioms: [propext, Classical.choice, Quot.sound] -/
#guard_msgs in #print axioms creds

/-- info: 'Cert.Kernel.AG.waits' depends on axioms: [propext, Classical.choice, Quot.sound] -/
#guard_msgs in #print axioms waits

/-- info: 'Cert.Kernel.AG.start_intro' depends on axioms: [propext, Classical.choice, Quot.sound] -/
#guard_msgs in #print axioms start_intro

/-- info: 'Cert.Kernel.AG.phi0_intro' depends on axioms: [propext, Classical.choice, Quot.sound] -/
#guard_msgs in #print axioms phi0_intro

/-- info: 'Cert.Kernel.AG.phi1_exit' depends on axioms: [propext, Classical.choice, Quot.sound] -/
#guard_msgs in #print axioms phi1_exit

end Cert.Kernel.AG

end
-- ==== Proof.K.Levels.lean ====
/-
  The level conditions at a device's waits, free of the device: after its three barrier units a device owes only
  arrivals on its neighbours' receive cells, and the level of such a cell depends only on the transfer, not on the
  device. So what a wait has to show is a condition on a suffix of the list of transfers.
-/
import proofs.«900664_g7700000000000665_dist_ag_v7x_xyz2x2x2_y_m2048_n512_f32_1_alg».proof.Proof.K.Credit

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Past the three barrier units, what a device still owes is the arrivals of the transfers not yet issued. -/
theorem plan_drop (c : Dev nD) (j : ℕ) :
    (plan c).drop (j + 3) = (enqs.drop j).map fun t => (dCell (nb c t.2.2) (dsem t.2.1), N64) := by
  show (arrivals c).drop j = _
  unfold arrivals
  rw [List.map_drop]

theorem mem_plan_drop {c : Dev nD} {j : ℕ} {p : GSem nD τ sig × ℕ} (hp : p ∈ (plan c).drop (j + 3)) :
    ∃ t ∈ enqs.drop j, p = (dCell (nb c t.2.2) (dsem t.2.1), N64) := by
  rw [plan_drop] at hp
  obtain ⟨t, ht, rfl⟩ := List.mem_map.mp hp
  exact ⟨t, ht, rfl⟩

/-- At its barrier wait a device has paid its three units and owes every arrival: receive cells, all above level 1. -/
theorem mayWait_bar_enqs (c : Dev nD) (h : (enqs.all fun t => decide (1 < lvN (t.2.1.val + 2))) = true) :
    (levAts L lv : sProp 𝕄) ⊢ MayWait (c : Thread nD τ) (.reg barS) () (owedL ((plan c).drop 3)) :=
  mayWait_bar c _ fun p hp => by
    obtain ⟨t, ht, rfl⟩ := mem_plan_drop (j := 0) hp
    exact ⟨rfl, of_decide_eq_true (List.all_eq_true.mp h t ht)⟩

/-- At a wait on its DMA semaphore `n`, `j` transfers issued, a device owes the arrivals of the others: it may wait
    when each of their receive cells sits above `n`. -/
theorem mayWait_dma_enqs (c : Dev nD) (n : DmaSem sig) (j : ℕ)
    (h : ((enqs.drop j).all fun t => decide (lvN n.val < lvN (t.2.1.val + 2))) = true) :
    (levAts L lv : sProp 𝕄) ⊢ MayWait (c : Thread nD τ) (.dma n) () (owedL ((plan c).drop (j + 3))) :=
  mayWait_dma c n _ fun p hp => by
    obtain ⟨t, ht, rfl⟩ := mem_plan_drop hp
    exact ⟨rfl, of_decide_eq_true (List.all_eq_true.mp h t ht)⟩

/-- info: 'Cert.Kernel.AG.mayWait_bar_enqs' depends on axioms: [propext, Classical.choice, Quot.sound] -/
#guard_msgs in #print axioms mayWait_bar_enqs

/-- info: 'Cert.Kernel.AG.mayWait_dma_enqs' depends on axioms: [propext, Classical.choice, Quot.sound] -/
#guard_msgs in #print axioms mayWait_dma_enqs

end Cert.Kernel.AG

end
-- ==== Proof.K.Part.lean ====
/-
  Cutting the two staging buffers of a device into the rows the kernel's transfers move, and putting them back.
  The output staging buffer (4096 rows) is the device's own half and 32 chunks of 64 rows of the half it receives;
  those 32 chunks are the four quarters of the received half, in the order the device's coordinates give them; the
  input staging buffer (2048 rows) is held whole at half a share, and at the other half as the eight 64-row chunks
  of the device's own quarter and the rest.
-/
import proofs.«900664_g7700000000000665_dist_ag_v7x_xyz2x2x2_y_m2048_n512_f32_1_alg».proof.Proof.K.Cells
import Idealize.ShloMosaic.Rules.PointsTo

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The output staging buffer by rows -/

/-- Rows from different starting points, far enough apart, are disjoint sets. -/
theorem rowsO_disjoint (c : Dev nD) (lo n lo' n' : ℕ) (h : lo + n ≤ lo' ∨ lo' + n' ≤ lo) :
    Disjoint (rowsO c lo n) (rowsO c lo' n') :=
  Finset.disjoint_left.mpr fun (i : S4096x512.Idx) h1 h2 => by
    rw [mem_rowsO] at h1 h2; omega

/-- The output staging buffer is its own half and the 32 chunks of 64 rows of the half it receives. -/
theorem out_split (c : Dev nD) (f : Buf (Elt F) (oLoc c)) :
    (oLoc c ↦{fullShare} f : sProp 𝕄)
      = iprop((oLoc c ↦[rowsO c (ownBase c) 2048]{fullShare} f)
          ∗ bigSep (Finset.univ : Finset (Fin 32)) fun j => oLoc c ↦[rowsO c (recvBase c + 64 * j.val) 64]{fullShare} f) := by
  have hyc := yc_le c
  have hO : ownBase c = 2048 * yc c := rfl
  have hR : recvBase c = 2048 - 2048 * yc c := rfl
  have hU : (Finset.univ : Finset (Idx (oLoc c)))
      = rowsO c (ownBase c) 2048 ∪ (Finset.univ : Finset (Fin 32)).biUnion (fun j => rowsO c (recvBase c + 64 * j.val) 64) := by
    refine Finset.ext fun (i : S4096x512.Idx) => ?_
    have hi : (i 0).val < 4096 := (i 0).isLt
    refine ⟨fun _ => ?_, fun _ => Finset.mem_univ _⟩
    rw [Finset.mem_union]
    by_cases h : (i 0).val / 2048 = yc c
    · left; rw [mem_rowsO]; omega
    · right
      rw [Finset.mem_biUnion]
      exact ⟨⟨((i 0).val - recvBase c) / 64, by omega⟩, Finset.mem_univ _, mem_rowsO.mpr
        ⟨by show recvBase c + 64 * (((i 0).val - recvBase c) / 64) ≤ (i 0).val; omega,
         by show (i 0).val < recvBase c + 64 * (((i 0).val - recvBase c) / 64) + 64; omega⟩⟩
  have hd : Disjoint (rowsO c (ownBase c) 2048) ((Finset.univ : Finset (Fin 32)).biUnion (fun j => rowsO c (recvBase c + 64 * j.val) 64)) :=
    (Finset.disjoint_biUnion_right _ _ _).mpr fun j _ => rowsO_disjoint c _ _ _ _ (by have := j.isLt; omega)
  have hp : ∀ j ∈ (Finset.univ : Finset (Fin 32)), ∀ j' ∈ (Finset.univ : Finset (Fin 32)), j ≠ j' →
      Disjoint (rowsO c (recvBase c + 64 * j.val) 64) (rowsO c (recvBase c + 64 * j'.val) 64) :=
    fun j _ j' _ hne => rowsO_disjoint c _ _ _ _ (by have := Fin.val_ne_of_ne hne; omega)
  calc (oLoc c ↦{fullShare} f : sProp 𝕄)
      = (oLoc c ↦[rowsO c (ownBase c) 2048 ∪ (Finset.univ : Finset (Fin 32)).biUnion (fun j => rowsO c (recvBase c + 64 * j.val) 64)]{fullShare} f) := by
        rw [← hU]
    _ = iprop((oLoc c ↦[rowsO c (ownBase c) 2048]{fullShare} f)
          ∗ (oLoc c ↦[(Finset.univ : Finset (Fin 32)).biUnion (fun j => rowsO c (recvBase c + 64 * j.val) 64)]{fullShare} f)) :=
        BI.equiv_iff.mp ⟨(pointsTo_union hd).1, (pointsTo_union hd).2⟩
    _ = _ := by rw [pointsTo_biUnion _ _ hp]

/-! ## Reindexing a run of consecutive numbers -/

/-- `Fin n` into the naturals, shifted by `a`. -/
def shiftEmb (a n : ℕ) : Fin n ↪ ℕ := ⟨fun i => a + i.val, fun i j h => Fin.ext (Nat.add_left_cancel h)⟩

theorem map_shiftEmb (a n : ℕ) : (Finset.univ : Finset (Fin n)).map (shiftEmb a n) = Finset.Ico a (a + n) := by
  ext x
  rw [Finset.mem_map, Finset.mem_Ico]
  constructor
  · rintro ⟨i, -, rfl⟩
    exact ⟨Nat.le_add_right _ _, Nat.add_lt_add_left i.isLt _⟩
  · rintro ⟨h1, h2⟩
    exact ⟨⟨x - a, by omega⟩, Finset.mem_univ _, by show a + (x - a) = x; omega⟩

/-- A separating conjunction over `a, a + 1, …, a + n − 1` indexed by `Fin n` is the one over that interval. -/
theorem bigSep_shift (Φ : ℕ → sProp 𝕄) (a n : ℕ) :
    bigSep (Finset.univ : Finset (Fin n)) (fun i => Φ (a + i.val)) = bigSep (Finset.Ico a (a + n)) Φ := by
  rw [← map_shiftEmb, bigSep_map]; rfl

/-- The 32 chunks of the received half, by the quarter they lie in: the four quarters 2·x + z, 2·(1−x) + z,
    2·x + (1−z), 2·(1−x) + (1−z) are 0, 1, 2, 3 in some order, the last one taken in two halves. -/
theorem quarters_eq (c : Dev nD) (Φ : ℕ → sProp 𝕄) :
    bigSep (Finset.univ : Finset (Fin 32)) (fun j => Φ j.val) =
      iprop((bigSep (Finset.univ : Finset (Fin 8)) fun i => Φ (8 * kM c + i.val))
        ∗ (bigSep (Finset.univ : Finset (Fin 8)) fun i => Φ (8 * kX c + i.val))
        ∗ (bigSep (Finset.univ : Finset (Fin 8)) fun i => Φ (8 * kZ c + i.val))
        ∗ (bigSep (Finset.univ : Finset (Fin 4)) fun j => Φ (8 * kD c + j.val))
        ∗ (bigSep (Finset.univ : Finset (Fin 4)) fun j => Φ (8 * kD c + 4 + j.val))) := by
  have h0 : (fun j : Fin 32 => Φ j.val) = fun j : Fin 32 => Φ (0 + j.val) := by funext j; rw [Nat.zero_add]
  rw [h0, bigSep_shift Φ 0 32, bigSep_shift Φ (8 * kM c) 8, bigSep_shift Φ (8 * kX c) 8, bigSep_shift Φ (8 * kZ c) 8,
    bigSep_shift Φ (8 * kD c) 4, bigSep_shift Φ (8 * kD c + 4) 4]
  have hx := xc_le c
  have hz := zc_le c
  have hM : kM c = 2 * xc c + zc c := rfl
  have hX : kX c = 2 * (1 - xc c) + zc c := rfl
  have hZ : kZ c = 2 * xc c + (1 - zc c) := rfl
  have hD : kD c = 2 * (1 - xc c) + (1 - zc c) := rfl
  have e : Finset.Ico 0 (0 + 32) = Finset.Ico (8 * kM c) (8 * kM c + 8) ∪ (Finset.Ico (8 * kX c) (8 * kX c + 8)
      ∪ (Finset.Ico (8 * kZ c) (8 * kZ c + 8) ∪ (Finset.Ico (8 * kD c) (8 * kD c + 4) ∪ Finset.Ico (8 * kD c + 4) (8 * kD c + 4 + 4)))) := by
    ext x; simp only [Finset.mem_union, Finset.mem_Ico]; omega
  have d1 : Disjoint (Finset.Ico (8 * kM c) (8 * kM c + 8)) (Finset.Ico (8 * kX c) (8 * kX c + 8)
      ∪ (Finset.Ico (8 * kZ c) (8 * kZ c + 8) ∪ (Finset.Ico (8 * kD c) (8 * kD c + 4) ∪ Finset.Ico (8 * kD c + 4) (8 * kD c + 4 + 4)))) :=
    Finset.disjoint_left.mpr fun x h1 h2 => by simp only [Finset.mem_union, Finset.mem_Ico] at h1 h2; omega
  have d2 : Disjoint (Finset.Ico (8 * kX c) (8 * kX c + 8))
      (Finset.Ico (8 * kZ c) (8 * kZ c + 8) ∪ (Finset.Ico (8 * kD c) (8 * kD c + 4) ∪ Finset.Ico (8 * kD c + 4) (8 * kD c + 4 + 4))) :=
    Finset.disjoint_left.mpr fun x h1 h2 => by simp only [Finset.mem_union, Finset.mem_Ico] at h1 h2; omega
  have d3 : Disjoint (Finset.Ico (8 * kZ c) (8 * kZ c + 8)) (Finset.Ico (8 * kD c) (8 * kD c + 4) ∪ Finset.Ico (8 * kD c + 4) (8 * kD c + 4 + 4)) :=
    Finset.disjoint_left.mpr fun x h1 h2 => by simp only [Finset.mem_union, Finset.mem_Ico] at h1 h2; omega
  have d4 : Disjoint (Finset.Ico (8 * kD c) (8 * kD c + 4)) (Finset.Ico (8 * kD c + 4) (8 * kD c + 4 + 4)) :=
    Finset.disjoint_left.mpr fun x h1 h2 => by simp only [Finset.mem_Ico] at h1 h2; omega
  rw [e, bigSep_union d1, bigSep_union d2, bigSep_union d3, bigSep_union d4]
  rfl

/-- The same as a bientailment. -/
theorem quarters (c : Dev nD) (Φ : ℕ → sProp 𝕄) :
    bigSep (Finset.univ : Finset (Fin 32)) (fun j => Φ j.val) ⊣⊢
      iprop((bigSep (Finset.univ : Finset (Fin 8)) fun i => Φ (8 * kM c + i.val))
        ∗ (bigSep (Finset.univ : Finset (Fin 8)) fun i => Φ (8 * kX c + i.val))
        ∗ (bigSep (Finset.univ : Finset (Fin 8)) fun i => Φ (8 * kZ c + i.val))
        ∗ (bigSep (Finset.univ : Finset (Fin 4)) fun j => Φ (8 * kD c + j.val))
        ∗ (bigSep (Finset.univ : Finset (Fin 4)) fun j => Φ (8 * kD c + 4 + j.val))) :=
  .of_eq (quarters_eq c Φ)

/-! ## The input staging buffer by share and by rows -/

theorem rowsX_disjoint (c : Dev nD) (lo n lo' n' : ℕ) (h : lo + n ≤ lo' ∨ lo' + n' ≤ lo) :
    Disjoint (rowsX c lo n) (rowsX c lo' n') :=
  Finset.disjoint_left.mpr fun (i : S2048x512.Idx) h1 h2 => by
    rw [mem_rowsX] at h1 h2; omega

/-- The device's quarter of its block is eight chunks of 64 rows. -/
theorem rowsX_quarter (c : Dev nD) :
    rowsX c (512 * kM c) 512 = (Finset.univ : Finset (Fin 8)).biUnion (fun i => rowsX c (64 * (8 * kM c + i.val)) 64) := by
  refine Finset.ext fun (i : S2048x512.Idx) => ?_
  rw [mem_rowsX, Finset.mem_biUnion]
  constructor
  · intro h
    exact ⟨⟨((i 0).val - 512 * kM c) / 64, by omega⟩, Finset.mem_univ _, mem_rowsX.mpr
      ⟨by show 64 * (8 * kM c + ((i 0).val - 512 * kM c) / 64) ≤ (i 0).val; omega,
       by show (i 0).val < 64 * (8 * kM c + ((i 0).val - 512 * kM c) / 64) + 64; omega⟩⟩
  · rintro ⟨j, -, hj⟩
    rw [mem_rowsX] at hj
    have hj8 := j.isLt
    omega

/-- The input staging buffer at the full share is the whole buffer at the left half share, and at the right half
    share the eight chunks of the device's quarter and the rest of the buffer. -/
theorem x_split_eq (c : Dev nD) (f : Buf (Elt F) (xLoc c)) :
    (xLoc c ↦{fullShare} f : sProp 𝕄)
      = iprop((xLoc c ↦{fullShare.left} f)
          ∗ (bigSep (Finset.univ : Finset (Fin 8)) fun i => xLoc c ↦[rowsX c (64 * (8 * kM c + i.val)) 64]{fullShare.right} f)
          ∗ (xLoc c ↦[Finset.univ \ rowsX c (512 * kM c) 512]{fullShare.right} f)) := by
  have hp : ∀ i ∈ (Finset.univ : Finset (Fin 8)), ∀ i' ∈ (Finset.univ : Finset (Fin 8)), i ≠ i' →
      Disjoint (rowsX c (64 * (8 * kM c + i.val)) 64) (rowsX c (64 * (8 * kM c + i'.val)) 64) :=
    fun i _ i' _ hne => rowsX_disjoint c _ _ _ _ (by have := Fin.val_ne_of_ne hne; omega)
  have hs := pointsTo_share (Ix := Unit) (Val := Elt F) (Name := ℕ) (U := UU) (Lvl := ℕ) (ℓ := xLoc c)
    (I := Finset.univ) (f := f) (PosShare.mem_left_op_right fullShare)
  have hc := pointsTo_split_subset (Ix := Unit) (Val := Elt F) (Name := ℕ) (U := UU) (Lvl := ℕ) (ℓ := xLoc c)
    (q := fullShare.right) (f := f) (Finset.subset_univ (rowsX c (512 * kM c) 512))
  have e1 : (xLoc c ↦{fullShare} f : sProp 𝕄) = iprop((xLoc c ↦{fullShare.left} f) ∗ (xLoc c ↦{fullShare.right} f)) :=
    BI.equiv_iff.mp ⟨hs.1, hs.2⟩
  have e2 : (xLoc c ↦{fullShare.right} f : sProp 𝕄)
      = iprop((xLoc c ↦[rowsX c (512 * kM c) 512]{fullShare.right} f) ∗ (xLoc c ↦[Finset.univ \ rowsX c (512 * kM c) 512]{fullShare.right} f)) :=
    BI.equiv_iff.mp ⟨hc.1, hc.2⟩
  have e3 : (xLoc c ↦[rowsX c (512 * kM c) 512]{fullShare.right} f : sProp 𝕄)
      = bigSep (Finset.univ : Finset (Fin 8)) fun i => xLoc c ↦[rowsX c (64 * (8 * kM c + i.val)) 64]{fullShare.right} f := by
    rw [rowsX_quarter c, pointsTo_biUnion _ _ hp]
  rw [e1, e2, e3]

/-- The same as a bientailment. -/
theorem x_split (c : Dev nD) (f : Buf (Elt F) (xLoc c)) :
    (xLoc c ↦{fullShare} f : sProp 𝕄)
      ⊣⊢ iprop((xLoc c ↦{fullShare.left} f)
          ∗ (bigSep (Finset.univ : Finset (Fin 8)) fun i => xLoc c ↦[rowsX c (64 * (8 * kM c + i.val)) 64]{fullShare.right} f)
          ∗ (xLoc c ↦[Finset.univ \ rowsX c (512 * kM c) 512]{fullShare.right} f)) :=
  .of_eq (x_split_eq c f)

/-- info: 'Cert.Kernel.AG.out_split' depends on axioms: [propext, Classical.choice, Quot.sound] -/
#guard_msgs in #print axioms out_split

/-- info: 'Cert.Kernel.AG.quarters' depends on axioms: [propext, Classical.choice, Quot.sound] -/
#guard_msgs in #print axioms quarters

/-- info: 'Cert.Kernel.AG.x_split' depends on axioms: [propext, Classical.choice, Quot.sound] -/
#guard_msgs in #print axioms x_split

end Cert.Kernel.AG

end
-- ==== Proof.K.Lists.lean ====
/-
  The device's positions, tokens, launch credit and closed cells written out as products, entry by entry, in the
  program's order.
-/
import proofs.«900664_g7700000000000665_dist_ag_v7x_xyz2x2x2_y_m2048_n512_f32_1_alg».proof.Proof.K.Iface

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem nb0 (c : Dev nD) : nb c 0 = yP c := rfl
theorem nb1 (c : Dev nD) : nb c 1 = xP c := rfl
theorem nb2 (c : Dev nD) : nb c 2 = zP c := rfl

set_option maxRecDepth 8000 in
theorem posOf_eq (c : Dev nD) : (posOf c : sProp 𝕄) = iprop(
      atPos ER (barCell c) 0 ∅ 0
      ∗ atPos ER (dCell c (dsem 9)) 0 ∅ 0
      ∗ atPos ER (dCell c (dsem 10)) 0 ∅ 0
      ∗ atPos ER (dCell c (dsem 11)) 0 ∅ 0
      ∗ atPos ER (dCell c (dsem 12)) 0 ∅ 0
      ∗ atPos ER (dCell c (dsem 13)) 0 ∅ 0
      ∗ atPos ER (dCell c (dsem 14)) 0 ∅ 0
      ∗ atPos ER (dCell c (dsem 15)) 0 ∅ 0
      ∗ atPos ER (dCell c (dsem 16)) 0 ∅ 0
      ∗ atPos ER (dCell c (dsem 41)) 0 ∅ 0
      ∗ atPos ER (dCell c (dsem 42)) 0 ∅ 0
      ∗ atPos ER (dCell c (dsem 43)) 0 ∅ 0
      ∗ atPos ER (dCell c (dsem 44)) 0 ∅ 0
      ∗ atPos ER (dCell c (dsem 29)) 0 ∅ 0
      ∗ atPos ER (dCell c (dsem 30)) 0 ∅ 0
      ∗ atPos ER (dCell c (dsem 31)) 0 ∅ 0
      ∗ atPos ER (dCell c (dsem 32)) 0 ∅ 0
      ∗ atPos ER (dCell c (dsem 45)) 0 ∅ 0
      ∗ atPos ER (dCell c (dsem 46)) 0 ∅ 0
      ∗ atPos ER (dCell c (dsem 47)) 0 ∅ 0
      ∗ atPos ER (dCell c (dsem 48)) 0 ∅ 0
      ∗ atPos ER (dCell c (dsem 25)) 0 ∅ 0
      ∗ atPos ER (dCell c (dsem 26)) 0 ∅ 0
      ∗ atPos ER (dCell c (dsem 27)) 0 ∅ 0
      ∗ atPos ER (dCell c (dsem 28)) 0 ∅ 0
      ∗ atPos ER (dCell c (dsem 53)) 0 ∅ 0
      ∗ atPos ER (dCell c (dsem 61)) 0 ∅ 0
      ∗ atPos ER (dCell c (dsem 54)) 0 ∅ 0
      ∗ atPos ER (dCell c (dsem 62)) 0 ∅ 0
      ∗ atPos ER (dCell c (dsem 55)) 0 ∅ 0
      ∗ atPos ER (dCell c (dsem 63)) 0 ∅ 0
      ∗ atPos ER (dCell c (dsem 56)) 0 ∅ 0
      ∗ atPos ER (dCell c (dsem 64)) 0 ∅ 0
      ∗ atPos ER (dCell c (dsem 1)) 0 ∅ 0
      ∗ atPos ER (dCell c (dsem 17)) 0 ∅ 0
      ∗ atPos ER (dCell c (dsem 33)) 0 ∅ 0
      ∗ atPos ER (dCell c (dsem 2)) 0 ∅ 0
      ∗ atPos ER (dCell c (dsem 18)) 0 ∅ 0
      ∗ atPos ER (dCell c (dsem 34)) 0 ∅ 0
      ∗ atPos ER (dCell c (dsem 3)) 0 ∅ 0
      ∗ atPos ER (dCell c (dsem 19)) 0 ∅ 0
      ∗ atPos ER (dCell c (dsem 35)) 0 ∅ 0
      ∗ atPos ER (dCell c (dsem 4)) 0 ∅ 0
      ∗ atPos ER (dCell c (dsem 20)) 0 ∅ 0
      ∗ atPos ER (dCell c (dsem 36)) 0 ∅ 0
      ∗ atPos ER (dCell c (dsem 5)) 0 ∅ 0
      ∗ atPos ER (dCell c (dsem 21)) 0 ∅ 0
      ∗ atPos ER (dCell c (dsem 37)) 0 ∅ 0
      ∗ atPos ER (dCell c (dsem 6)) 0 ∅ 0
      ∗ atPos ER (dCell c (dsem 22)) 0 ∅ 0
      ∗ atPos ER (dCell c (dsem 38)) 0 ∅ 0
      ∗ atPos ER (dCell c (dsem 7)) 0 ∅ 0
      ∗ atPos ER (dCell c (dsem 23)) 0 ∅ 0
      ∗ atPos ER (dCell c (dsem 39)) 0 ∅ 0
      ∗ atPos ER (dCell c (dsem 8)) 0 ∅ 0
      ∗ atPos ER (dCell c (dsem 24)) 0 ∅ 0
      ∗ atPos ER (dCell c (dsem 40)) 0 ∅ 0
      ∗ atPos ER (dCell c (dsem 49)) 0 ∅ 0
      ∗ atPos ER (dCell c (dsem 57)) 0 ∅ 0
      ∗ atPos ER (dCell c (dsem 50)) 0 ∅ 0
      ∗ atPos ER (dCell c (dsem 58)) 0 ∅ 0
      ∗ atPos ER (dCell c (dsem 51)) 0 ∅ 0
      ∗ atPos ER (dCell c (dsem 59)) 0 ∅ 0
      ∗ atPos ER (dCell c (dsem 52)) 0 ∅ 0
      ∗ atPos ER (dCell c (dsem 60)) 0 ∅ 0
      ∗ atPos ER (dCell c (dsem 0)) 0 ∅ 0) := by
  unfold posOf waitIdx; rfl

set_option maxRecDepth 8000 in
theorem toksOf_eq (c : Dev nD) : (toksOf c : sProp 𝕄) = iprop(
      dutyTok ER (barCell (yP c)) 0 0
      ∗ dutyTok ER (barCell (xP c)) 0 1
      ∗ dutyTok ER (barCell (zP c)) 0 2
      ∗ dutyTok ER (dCell c copyS) 0 0
      ∗ (dutyTok ER (dCell c (dsem 1)) 0 0 ∗ dutyTok ER (dCell (yP c) (dsem 9)) 0 0)
      ∗ (dutyTok ER (dCell c (dsem 2)) 0 0 ∗ dutyTok ER (dCell (yP c) (dsem 10)) 0 0)
      ∗ (dutyTok ER (dCell c (dsem 3)) 0 0 ∗ dutyTok ER (dCell (yP c) (dsem 11)) 0 0)
      ∗ (dutyTok ER (dCell c (dsem 4)) 0 0 ∗ dutyTok ER (dCell (yP c) (dsem 12)) 0 0)
      ∗ (dutyTok ER (dCell c (dsem 5)) 0 0 ∗ dutyTok ER (dCell (yP c) (dsem 13)) 0 0)
      ∗ (dutyTok ER (dCell c (dsem 6)) 0 0 ∗ dutyTok ER (dCell (yP c) (dsem 14)) 0 0)
      ∗ (dutyTok ER (dCell c (dsem 7)) 0 0 ∗ dutyTok ER (dCell (yP c) (dsem 15)) 0 0)
      ∗ (dutyTok ER (dCell c (dsem 8)) 0 0 ∗ dutyTok ER (dCell (yP c) (dsem 16)) 0 0)
      ∗ (dutyTok ER (dCell c (dsem 17)) 0 0 ∗ dutyTok ER (dCell (xP c) (dsem 25)) 0 0)
      ∗ (dutyTok ER (dCell c (dsem 33)) 0 0 ∗ dutyTok ER (dCell (zP c) (dsem 41)) 0 0)
      ∗ (dutyTok ER (dCell c (dsem 18)) 0 0 ∗ dutyTok ER (dCell (xP c) (dsem 26)) 0 0)
      ∗ (dutyTok ER (dCell c (dsem 34)) 0 0 ∗ dutyTok ER (dCell (zP c) (dsem 42)) 0 0)
      ∗ (dutyTok ER (dCell c (dsem 19)) 0 0 ∗ dutyTok ER (dCell (xP c) (dsem 27)) 0 0)
      ∗ (dutyTok ER (dCell c (dsem 35)) 0 0 ∗ dutyTok ER (dCell (zP c) (dsem 43)) 0 0)
      ∗ (dutyTok ER (dCell c (dsem 20)) 0 0 ∗ dutyTok ER (dCell (xP c) (dsem 28)) 0 0)
      ∗ (dutyTok ER (dCell c (dsem 36)) 0 0 ∗ dutyTok ER (dCell (zP c) (dsem 44)) 0 0)
      ∗ (dutyTok ER (dCell c (dsem 21)) 0 0 ∗ dutyTok ER (dCell (xP c) (dsem 29)) 0 0)
      ∗ (dutyTok ER (dCell c (dsem 37)) 0 0 ∗ dutyTok ER (dCell (zP c) (dsem 45)) 0 0)
      ∗ (dutyTok ER (dCell c (dsem 22)) 0 0 ∗ dutyTok ER (dCell (xP c) (dsem 30)) 0 0)
      ∗ (dutyTok ER (dCell c (dsem 38)) 0 0 ∗ dutyTok ER (dCell (zP c) (dsem 46)) 0 0)
      ∗ (dutyTok ER (dCell c (dsem 23)) 0 0 ∗ dutyTok ER (dCell (xP c) (dsem 31)) 0 0)
      ∗ (dutyTok ER (dCell c (dsem 39)) 0 0 ∗ dutyTok ER (dCell (zP c) (dsem 47)) 0 0)
      ∗ (dutyTok ER (dCell c (dsem 24)) 0 0 ∗ dutyTok ER (dCell (xP c) (dsem 32)) 0 0)
      ∗ (dutyTok ER (dCell c (dsem 40)) 0 0 ∗ dutyTok ER (dCell (zP c) (dsem 48)) 0 0)
      ∗ (dutyTok ER (dCell c (dsem 49)) 0 0 ∗ dutyTok ER (dCell (xP c) (dsem 53)) 0 0)
      ∗ (dutyTok ER (dCell c (dsem 50)) 0 0 ∗ dutyTok ER (dCell (xP c) (dsem 54)) 0 0)
      ∗ (dutyTok ER (dCell c (dsem 51)) 0 0 ∗ dutyTok ER (dCell (xP c) (dsem 55)) 0 0)
      ∗ (dutyTok ER (dCell c (dsem 52)) 0 0 ∗ dutyTok ER (dCell (xP c) (dsem 56)) 0 0)
      ∗ (dutyTok ER (dCell c (dsem 57)) 0 0 ∗ dutyTok ER (dCell (zP c) (dsem 61)) 0 0)
      ∗ (dutyTok ER (dCell c (dsem 58)) 0 0 ∗ dutyTok ER (dCell (zP c) (dsem 62)) 0 0)
      ∗ (dutyTok ER (dCell c (dsem 59)) 0 0 ∗ dutyTok ER (dCell (zP c) (dsem 63)) 0 0)
      ∗ (dutyTok ER (dCell c (dsem 60)) 0 0 ∗ dutyTok ER (dCell (zP c) (dsem 64)) 0 0)) := by
  unfold toksOf enqs; rfl

set_option maxRecDepth 8000 in
theorem credsOf_eq (c : Dev nD) : (credsOf c : sProp 𝕄) = iprop(
      cred (tallyAt (barCell c) () 3)
      ∗ cred (tallyAt (dCell c (dsem 9)) () N64)
      ∗ cred (tallyAt (dCell c (dsem 10)) () N64)
      ∗ cred (tallyAt (dCell c (dsem 11)) () N64)
      ∗ cred (tallyAt (dCell c (dsem 12)) () N64)
      ∗ cred (tallyAt (dCell c (dsem 13)) () N64)
      ∗ cred (tallyAt (dCell c (dsem 14)) () N64)
      ∗ cred (tallyAt (dCell c (dsem 15)) () N64)
      ∗ cred (tallyAt (dCell c (dsem 16)) () N64)
      ∗ cred (tallyAt (dCell c (dsem 41)) () N64)
      ∗ cred (tallyAt (dCell c (dsem 42)) () N64)
      ∗ cred (tallyAt (dCell c (dsem 43)) () N64)
      ∗ cred (tallyAt (dCell c (dsem 44)) () N64)
      ∗ cred (tallyAt (dCell c (dsem 29)) () N64)
      ∗ cred (tallyAt (dCell c (dsem 30)) () N64)
      ∗ cred (tallyAt (dCell c (dsem 31)) () N64)
      ∗ cred (tallyAt (dCell c (dsem 32)) () N64)
      ∗ cred (tallyAt (dCell c (dsem 45)) () N64)
      ∗ cred (tallyAt (dCell c (dsem 46)) () N64)
      ∗ cred (tallyAt (dCell c (dsem 47)) () N64)
      ∗ cred (tallyAt (dCell c (dsem 48)) () N64)
      ∗ cred (tallyAt (dCell c (dsem 25)) () N64)
      ∗ cred (tallyAt (dCell c (dsem 26)) () N64)
      ∗ cred (tallyAt (dCell c (dsem 27)) () N64)
      ∗ cred (tallyAt (dCell c (dsem 28)) () N64)
      ∗ cred (tallyAt (dCell c (dsem 53)) () N64)
      ∗ cred (tallyAt (dCell c (dsem 61)) () N64)
      ∗ cred (tallyAt (dCell c (dsem 54)) () N64)
      ∗ cred (tallyAt (dCell c (dsem 62)) () N64)
      ∗ cred (tallyAt (dCell c (dsem 55)) () N64)
      ∗ cred (tallyAt (dCell c (dsem 63)) () N64)
      ∗ cred (tallyAt (dCell c (dsem 56)) () N64)
      ∗ cred (tallyAt (dCell c (dsem 64)) () N64)) := by
  unfold credsOf recvIdx; rfl

set_option maxRecDepth 8000 in
theorem done_eq (c : Dev nD) : (done c : sProp 𝕄) = iprop(
      semVal ((c : Thread nD τ), osem 9) 0
      ∗ semVal ((c : Thread nD τ), osem 10) 0
      ∗ semVal ((c : Thread nD τ), osem 11) 0
      ∗ semVal ((c : Thread nD τ), osem 12) 0
      ∗ semVal ((c : Thread nD τ), osem 13) 0
      ∗ semVal ((c : Thread nD τ), osem 14) 0
      ∗ semVal ((c : Thread nD τ), osem 15) 0
      ∗ semVal ((c : Thread nD τ), osem 16) 0
      ∗ semVal ((c : Thread nD τ), osem 41) 0
      ∗ semVal ((c : Thread nD τ), osem 42) 0
      ∗ semVal ((c : Thread nD τ), osem 43) 0
      ∗ semVal ((c : Thread nD τ), osem 44) 0
      ∗ semVal ((c : Thread nD τ), osem 29) 0
      ∗ semVal ((c : Thread nD τ), osem 30) 0
      ∗ semVal ((c : Thread nD τ), osem 31) 0
      ∗ semVal ((c : Thread nD τ), osem 32) 0
      ∗ semVal ((c : Thread nD τ), osem 45) 0
      ∗ semVal ((c : Thread nD τ), osem 46) 0
      ∗ semVal ((c : Thread nD τ), osem 47) 0
      ∗ semVal ((c : Thread nD τ), osem 48) 0
      ∗ semVal ((c : Thread nD τ), osem 25) 0
      ∗ semVal ((c : Thread nD τ), osem 26) 0
      ∗ semVal ((c : Thread nD τ), osem 27) 0
      ∗ semVal ((c : Thread nD τ), osem 28) 0
      ∗ semVal ((c : Thread nD τ), osem 53) 0
      ∗ semVal ((c : Thread nD τ), osem 61) 0
      ∗ semVal ((c : Thread nD τ), osem 54) 0
      ∗ semVal ((c : Thread nD τ), osem 62) 0
      ∗ semVal ((c : Thread nD τ), osem 55) 0
      ∗ semVal ((c : Thread nD τ), osem 63) 0
      ∗ semVal ((c : Thread nD τ), osem 56) 0
      ∗ semVal ((c : Thread nD τ), osem 64) 0
      ∗ semVal ((c : Thread nD τ), osem 1) 0
      ∗ semVal ((c : Thread nD τ), osem 17) 0
      ∗ semVal ((c : Thread nD τ), osem 33) 0
      ∗ semVal ((c : Thread nD τ), osem 2) 0
      ∗ semVal ((c : Thread nD τ), osem 18) 0
      ∗ semVal ((c : Thread nD τ), osem 34) 0
      ∗ semVal ((c : Thread nD τ), osem 3) 0
      ∗ semVal ((c : Thread nD τ), osem 19) 0
      ∗ semVal ((c : Thread nD τ), osem 35) 0
      ∗ semVal ((c : Thread nD τ), osem 4) 0
      ∗ semVal ((c : Thread nD τ), osem 20) 0
      ∗ semVal ((c : Thread nD τ), osem 36) 0
      ∗ semVal ((c : Thread nD τ), osem 5) 0
      ∗ semVal ((c : Thread nD τ), osem 21) 0
      ∗ semVal ((c : Thread nD τ), osem 37) 0
      ∗ semVal ((c : Thread nD τ), osem 6) 0
      ∗ semVal ((c : Thread nD τ), osem 22) 0
      ∗ semVal ((c : Thread nD τ), osem 38) 0
      ∗ semVal ((c : Thread nD τ), osem 7) 0
      ∗ semVal ((c : Thread nD τ), osem 23) 0
      ∗ semVal ((c : Thread nD τ), osem 39) 0
      ∗ semVal ((c : Thread nD τ), osem 8) 0
      ∗ semVal ((c : Thread nD τ), osem 24) 0
      ∗ semVal ((c : Thread nD τ), osem 40) 0
      ∗ semVal ((c : Thread nD τ), osem 49) 0
      ∗ semVal ((c : Thread nD τ), osem 57) 0
      ∗ semVal ((c : Thread nD τ), osem 50) 0
      ∗ semVal ((c : Thread nD τ), osem 58) 0
      ∗ semVal ((c : Thread nD τ), osem 51) 0
      ∗ semVal ((c : Thread nD τ), osem 59) 0
      ∗ semVal ((c : Thread nD τ), osem 52) 0
      ∗ semVal ((c : Thread nD τ), osem 60) 0
      ∗ semVal ((c : Thread nD τ), osem 0) 0) := by
  unfold done waitIdx; rfl

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.Kernel.AG

end
-- ==== Proof.K.Body.lean ====
/-
  One device's body of the all-gather, stepped from its ghost state to its post: every transfer's source and
  destination are rows the device holds at that moment, every wait is below what the device still owes, and at the
  end the two staging buffers are whole again, the output one holding the gathered array.
-/
import proofs.«900664_g7700000000000665_dist_ag_v7x_xyz2x2x2_y_m2048_n512_f32_1_alg».proof.Proof.K.Steps
import proofs.«900664_g7700000000000665_dist_ag_v7x_xyz2x2x2_y_m2048_n512_f32_1_alg».proof.Proof.K.Steps3
import proofs.«900664_g7700000000000665_dist_ag_v7x_xyz2x2x2_y_m2048_n512_f32_1_alg».proof.Proof.K.Levels
import proofs.«900664_g7700000000000665_dist_ag_v7x_xyz2x2x2_y_m2048_n512_f32_1_alg».proof.Proof.K.Part
import proofs.«900664_g7700000000000665_dist_ag_v7x_xyz2x2x2_y_m2048_n512_f32_1_alg».proof.Proof.K.Lists
import proofs.«900664_g7700000000000665_dist_ag_v7x_xyz2x2x2_y_m2048_n512_f32_1_alg».proof.Proof.K.SchedC
import proofs.«900664_g7700000000000665_dist_ag_v7x_xyz2x2x2_y_m2048_n512_f32_1_alg».proof.Proof.K.Credit
import proofs.«900664_g7700000000000665_dist_ag_v7x_xyz2x2x2_y_m2048_n512_f32_1_alg».proof.Proof.Gen.Kernel.Points

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The level conditions at a wait, as a computation over the list of what is still owed. -/
theorem mayWait_bar_all (c : Dev nD) (l : List (GSem nD τ sig × ℕ))
    (h : (l.all fun p => decide (p.1.1.2 = .tc ∧ 1 < lv p.1 ())) = true) :
    (levAts L lv : sProp 𝕄) ⊢ MayWait (c : Thread nD τ) (.reg barS) () (owedL l) :=
  mayWait_bar c l fun p hp => of_decide_eq_true (List.all_eq_true.mp h p hp)
theorem mayWait_dma_all (c : Dev nD) (n : DmaSem sig) (l : List (GSem nD τ sig × ℕ))
    (h : (l.all fun p => decide (p.1.1.2 = .tc ∧ lvN n.val < lv p.1 ())) = true) :
    (levAts L lv : sProp 𝕄) ⊢ MayWait (c : Thread nD τ) (.dma n) () (owedL l) :=
  mayWait_dma c n l fun p hp => of_decide_eq_true (List.all_eq_true.mp h p hp)

/-- The wait on a DMA cell whose transfer moved a 64-row chunk of the output buffer, handing back what the cell's one
    duty carries (given in evaluated form): the amount is the chunk's credit, whatever the chunk's offset. -/
theorem wp_dwait64 (K : Dev nD × Fin 66 → ℕ) (c : Dev nD) (n : DmaSem sig) (h2 : 2 ≤ n.val) (hn : n.val ≠ 2)
    (O : CellTallies nD τ sig Unit) (W₀ : Waits sig Unit) (off : Fin 2 → ℕ) (inb : ∀ a, off a + S64x512.size a ≤ S4096x512.size a)
    (P : sProp 𝕄) (hp : dmaPay m c (n : DmaSem sig).val = P)
    {sp' : Space} {s' : Shape} {e' : EltTy} {src : Memref sig .tc sp' s' e'} {hsrc hdst}
    {α : Type} {Q : α → sProp 𝕄} {k : PUnit → Prog (TpuEff nD τ sig (Elt F) Λ₀ .tc) α} :
    iprop(records m K ∗ cred (tallyAt (dCell c (n)) () N64) ∗ owes (c : Thread nD τ) O W₀ ∗ MayWait (c : Thread nD τ) (.dma (n)) () O ∗ atPos ER (dCell c (n)) 0 ∅ 0)
      ⊢ iprop(((owes (c : Thread nD τ) O (insert (SemLoc.dma (n), ()) W₀) ∗ semVal (dCell c (n)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (n) src (oM.slice (Rect.unit (s := S4096x512) off S64x512.size inb) (fun _ => rfl)) hsrc hdst) k) Q) := by
  subst hp
  exact wp_dwait m K c (n) h2 N64 (expect_dma m c n h2 hn) O W₀ (fun Kc => rfl)

/-- The same when the view named is a 64-row chunk of the input buffer (the send side of a transfer out of it). -/
theorem wp_dwait64x (K : Dev nD × Fin 66 → ℕ) (c : Dev nD) (n : DmaSem sig) (h2 : 2 ≤ n.val) (hn : n.val ≠ 2)
    (O : CellTallies nD τ sig Unit) (W₀ : Waits sig Unit) (off : Fin 2 → ℕ) (inb : ∀ a, off a + S64x512.size a ≤ S2048x512.size a)
    (P : sProp 𝕄) (hp : dmaPay m c (n : DmaSem sig).val = P)
    {sp' : Space} {s' : Shape} {e' : EltTy} {src : Memref sig .tc sp' s' e'} {hsrc hdst}
    {α : Type} {Q : α → sProp 𝕄} {k : PUnit → Prog (TpuEff nD τ sig (Elt F) Λ₀ .tc) α} :
    iprop(records m K ∗ cred (tallyAt (dCell c (n)) () N64) ∗ owes (c : Thread nD τ) O W₀ ∗ MayWait (c : Thread nD τ) (.dma (n)) () O ∗ atPos ER (dCell c (n)) 0 ∅ 0)
      ⊢ iprop(((owes (c : Thread nD τ) O (insert (SemLoc.dma (n), ()) W₀) ∗ semVal (dCell c (n)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (n) src (xM.slice (Rect.unit (s := S2048x512) off S64x512.size inb) (fun _ => rfl)) hsrc hdst) k) Q) := by
  subst hp
  exact wp_dwait m K c (n) h2 N64 (expect_dma m c n h2 hn) O W₀ (fun Kc => rfl)

/-- The wait on the copy cell: the amount is the own half's credit. -/
theorem wp_dwaitH (K : Dev nD × Fin 66 → ℕ) (c : Dev nD)
    (O : CellTallies nD τ sig Unit) (W₀ : Waits sig Unit) (off : Fin 2 → ℕ) (inb : ∀ a, off a + S2048x512.size a ≤ S4096x512.size a)
    (P : sProp 𝕄) (hp : dmaPay m c (copyS : DmaSem sig).val = P)
    {sp' : Space} {s' : Shape} {e' : EltTy} {src : Memref sig .tc sp' s' e'} {hsrc hdst}
    {α : Type} {Q : α → sProp 𝕄} {k : PUnit → Prog (TpuEff nD τ sig (Elt F) Λ₀ .tc) α} :
    iprop(records m K ∗ cred (tallyAt (dCell c (copyS)) () Nh) ∗ owes (c : Thread nD τ) O W₀ ∗ MayWait (c : Thread nD τ) (.dma (copyS)) () O ∗ atPos ER (dCell c (copyS)) 0 ∅ 0)
      ⊢ iprop(((owes (c : Thread nD τ) O (insert (SemLoc.dma (copyS), ()) W₀) ∗ semVal (dCell c (copyS)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (copyS) src (oM.slice (Rect.unit (s := S4096x512) off S2048x512.size inb) (fun _ => rfl)) hsrc hdst) k) Q) := by
  subst hp
  exact wp_dwait m K c (copyS) (le_refl 2) Nh (expect_copy m c) O W₀ (fun Kc => rfl)

/-- A chunk held at known contents is a chunk held at some contents. -/
theorem some_of (c : Dev nD) (j : ℕ) (f : Buf (Elt F) (oLoc c)) :
    (oLoc c ↦[rowsO c (recvBase c + 64 * j) 64]{fullShare} f : sProp 𝕄) ⊢ someChunk (F := F) c j := by
  unfold someChunk; iintro H; iexists f; iexact H

theorem some_group8 (c : Dev nD) (a : ℕ) (f : Buf (Elt F) (oLoc c)) :
    (bigSep (Finset.univ : Finset (Fin 8)) fun i => (oLoc c ↦[rowsO c (recvBase c + 64 * (a + i.val)) 64]{fullShare} f : sProp 𝕄))
      ⊢ bigSep (Finset.univ : Finset (Fin 8)) fun i => someChunk (F := F) c (a + i.val) :=
  bigSep_mono fun i _ => some_of c _ f
theorem some_group4 (c : Dev nD) (a : ℕ) (f : Buf (Elt F) (oLoc c)) :
    (bigSep (Finset.univ : Finset (Fin 4)) fun i => (oLoc c ↦[rowsO c (recvBase c + 64 * (a + i.val)) 64]{fullShare} f : sProp 𝕄))
      ⊢ bigSep (Finset.univ : Finset (Fin 4)) fun i => someChunk (F := F) c (a + i.val) :=
  bigSep_mono fun i _ => some_of c _ f

theorem barPay0 (c : Dev nD) : barPay (F := F) c 0 = bigSep (Finset.univ : Finset (Fin 8)) fun i => someChunk (F := F) (yP c) (8 * kM c + i.val) := rfl
theorem barPay1 (c : Dev nD) : barPay (F := F) c 1
    = iprop((bigSep (Finset.univ : Finset (Fin 8)) fun i => someChunk (F := F) (xP c) (8 * kM c + i.val))
      ∗ bigSep (Finset.univ : Finset (Fin 4)) fun j => someChunk (F := F) (xP c) (8 * kZ c + j.val)) := rfl
theorem barPay2 (c : Dev nD) : barPay (F := F) c 2
    = iprop((bigSep (Finset.univ : Finset (Fin 8)) fun i => someChunk (F := F) (zP c) (8 * kM c + i.val))
      ∗ bigSep (Finset.univ : Finset (Fin 4)) fun j => someChunk (F := F) (zP c) (8 * kX c + 4 + j.val)) := rfl

/-- A landed chunk is lent out as two half shares, one to each of two concurrent readers, and comes back whole. -/
theorem chunk_halve (c : Dev nD) (j : ℕ) : chunk m c j fullShare ⊢ iprop(chunk m c j fullShare.left ∗ chunk m c j fullShare.right) := by
  unfold chunk; exact (pointsTo_share (PosShare.mem_left_op_right fullShare)).1
theorem chunk_join (c : Dev nD) (j : ℕ) : iprop(chunk m c j fullShare.left ∗ chunk m c j fullShare.right) ⊢ chunk m c j fullShare := by
  unfold chunk; exact (pointsTo_share (PosShare.mem_left_op_right fullShare)).2

/-- The input staging buffer from its pieces: the half share that the local copy read, the eight chunks the transfers to
    the y-neighbour read, and the rest. -/
theorem rejoin_x (c : Dev nD) :
    iprop((xLoc c ↦[Finset.univ]{fullShare.left} X m c)
      ∗ (xLoc c ↦[rowsX c (64 * (8 * kM c + ((0 : Fin 8) : ℕ))) 64]{fullShare.right} X m c)
      ∗ (xLoc c ↦[rowsX c (64 * (8 * kM c + ((1 : Fin 8) : ℕ))) 64]{fullShare.right} X m c)
      ∗ (xLoc c ↦[rowsX c (64 * (8 * kM c + ((2 : Fin 8) : ℕ))) 64]{fullShare.right} X m c)
      ∗ (xLoc c ↦[rowsX c (64 * (8 * kM c + ((3 : Fin 8) : ℕ))) 64]{fullShare.right} X m c)
      ∗ (xLoc c ↦[rowsX c (64 * (8 * kM c + ((4 : Fin 8) : ℕ))) 64]{fullShare.right} X m c)
      ∗ (xLoc c ↦[rowsX c (64 * (8 * kM c + ((5 : Fin 8) : ℕ))) 64]{fullShare.right} X m c)
      ∗ (xLoc c ↦[rowsX c (64 * (8 * kM c + ((6 : Fin 8) : ℕ))) 64]{fullShare.right} X m c)
      ∗ (xLoc c ↦[rowsX c (64 * (8 * kM c + ((7 : Fin 8) : ℕ))) 64]{fullShare.right} X m c)
      ∗ (xLoc c ↦[Finset.univ \ rowsX c (512 * kM c) 512]{fullShare.right} X m c))
      ⊢ (xLoc c ↦{fullShare} X m c : sProp 𝕄) := by
  rw [x_split_eq c (X m c), bigSep_fin8]
  iintro ⟨HxL, Xr0, Xr1, Xr2, Xr3, Xr4, Xr5, Xr6, Xr7, HxRest⟩
  isplitl [HxL]; · iexact HxL
  isplitl [Xr0 Xr1 Xr2 Xr3 Xr4 Xr5 Xr6 Xr7]
  · isplitl [Xr0]; · iexact Xr0
    isplitl [Xr1]; · iexact Xr1
    isplitl [Xr2]; · iexact Xr2
    isplitl [Xr3]; · iexact Xr3
    isplitl [Xr4]; · iexact Xr4
    isplitl [Xr5]; · iexact Xr5
    isplitl [Xr6]; · iexact Xr6
    iexact Xr7
  iexact HxRest

/-- The output staging buffer from its pieces, each holding its final contents: the own half and the 32 chunks of the
    received half, as the four quarters deliver them. -/
theorem rejoin_out (c : Dev nD) :
    iprop((oLoc c ↦[rowsO c (ownBase c) 2048]{fullShare} W m c)
      ∗ (chunk m c (8 * kM c + ((0 : Fin 8) : ℕ)) fullShare
        ∗ chunk m c (8 * kM c + ((1 : Fin 8) : ℕ)) fullShare
        ∗ chunk m c (8 * kM c + ((2 : Fin 8) : ℕ)) fullShare
        ∗ chunk m c (8 * kM c + ((3 : Fin 8) : ℕ)) fullShare
        ∗ chunk m c (8 * kM c + ((4 : Fin 8) : ℕ)) fullShare
        ∗ chunk m c (8 * kM c + ((5 : Fin 8) : ℕ)) fullShare
        ∗ chunk m c (8 * kM c + ((6 : Fin 8) : ℕ)) fullShare
        ∗ chunk m c (8 * kM c + ((7 : Fin 8) : ℕ)) fullShare)
      ∗ (chunk m c (8 * kX c + ((0 : Fin 8) : ℕ)) fullShare
        ∗ chunk m c (8 * kX c + ((1 : Fin 8) : ℕ)) fullShare
        ∗ chunk m c (8 * kX c + ((2 : Fin 8) : ℕ)) fullShare
        ∗ chunk m c (8 * kX c + ((3 : Fin 8) : ℕ)) fullShare
        ∗ chunk m c (8 * kX c + 4 + ((0 : Fin 4) : ℕ)) fullShare
        ∗ chunk m c (8 * kX c + 4 + ((1 : Fin 4) : ℕ)) fullShare
        ∗ chunk m c (8 * kX c + 4 + ((2 : Fin 4) : ℕ)) fullShare
        ∗ chunk m c (8 * kX c + 4 + ((3 : Fin 4) : ℕ)) fullShare)
      ∗ (chunk m c (8 * kZ c + ((0 : Fin 4) : ℕ)) fullShare
        ∗ chunk m c (8 * kZ c + ((1 : Fin 4) : ℕ)) fullShare
        ∗ chunk m c (8 * kZ c + ((2 : Fin 4) : ℕ)) fullShare
        ∗ chunk m c (8 * kZ c + ((3 : Fin 4) : ℕ)) fullShare
        ∗ chunk m c (8 * kZ c + ((4 : Fin 8) : ℕ)) fullShare
        ∗ chunk m c (8 * kZ c + ((5 : Fin 8) : ℕ)) fullShare
        ∗ chunk m c (8 * kZ c + ((6 : Fin 8) : ℕ)) fullShare
        ∗ chunk m c (8 * kZ c + ((7 : Fin 8) : ℕ)) fullShare)
      ∗ (chunk m c (8 * kD c + ((0 : Fin 4) : ℕ)) fullShare
        ∗ chunk m c (8 * kD c + ((1 : Fin 4) : ℕ)) fullShare
        ∗ chunk m c (8 * kD c + ((2 : Fin 4) : ℕ)) fullShare
        ∗ chunk m c (8 * kD c + ((3 : Fin 4) : ℕ)) fullShare
        ∗ chunk m c (8 * kD c + 4 + ((0 : Fin 4) : ℕ)) fullShare
        ∗ chunk m c (8 * kD c + 4 + ((1 : Fin 4) : ℕ)) fullShare
        ∗ chunk m c (8 * kD c + 4 + ((2 : Fin 4) : ℕ)) fullShare
        ∗ chunk m c (8 * kD c + 4 + ((3 : Fin 4) : ℕ)) fullShare))
      ⊢ (oLoc c ↦{fullShare} W m c : sProp 𝕄) := by
  unfold chunk
  rw [out_split c (W m c), quarters_eq c fun j => (oLoc c ↦[rowsO c (recvBase c + 64 * j) 64]{fullShare} W m c : sProp 𝕄),
    bigSep_fin8, bigSep_fin8, bigSep_fin8, bigSep_fin4, bigSep_fin4]
  iintro ⟨Hown, ⟨Pm0, Pm1, Pm2, Pm3, Pm4, Pm5, Pm6, Pm7⟩, ⟨Px0, Px1, Px2, Px3, Px4, Px5, Px6, Px7⟩, ⟨Pz0, Pz1, Pz2, Pz3, Pz4, Pz5, Pz6, Pz7⟩, ⟨Pd0, Pd1, Pd2, Pd3, Pd4, Pd5, Pd6, Pd7⟩⟩
  isplitl [Hown]; · iexact Hown
  isplitl [Pm0 Pm1 Pm2 Pm3 Pm4 Pm5 Pm6 Pm7]
  · isplitl [Pm0]; · iexact Pm0
    isplitl [Pm1]; · iexact Pm1
    isplitl [Pm2]; · iexact Pm2
    isplitl [Pm3]; · iexact Pm3
    isplitl [Pm4]; · iexact Pm4
    isplitl [Pm5]; · iexact Pm5
    isplitl [Pm6]; · iexact Pm6
    iexact Pm7
  isplitl [Px0 Px1 Px2 Px3 Px4 Px5 Px6 Px7]
  · isplitl [Px0]; · iexact Px0
    isplitl [Px1]; · iexact Px1
    isplitl [Px2]; · iexact Px2
    isplitl [Px3]; · iexact Px3
    isplitl [Px4]; · iexact Px4
    isplitl [Px5]; · iexact Px5
    isplitl [Px6]; · iexact Px6
    iexact Px7
  isplitl [Pz0 Pz1 Pz2 Pz3 Pz4 Pz5 Pz6 Pz7]
  · isplitl [Pz0]; · iexact Pz0
    isplitl [Pz1]; · iexact Pz1
    isplitl [Pz2]; · iexact Pz2
    isplitl [Pz3]; · iexact Pz3
    isplitl [Pz4]; · iexact Pz4
    isplitl [Pz5]; · iexact Pz5
    isplitl [Pz6]; · iexact Pz6
    iexact Pz7
  isplitl [Pd0 Pd1 Pd2 Pd3]
  · isplitl [Pd0]; · iexact Pd0
    isplitl [Pd1]; · iexact Pd1
    isplitl [Pd2]; · iexact Pd2
    iexact Pd3
  isplitl [Pd4]; · iexact Pd4
  isplitl [Pd5]; · iexact Pd5
  isplitl [Pd6]; · iexact Pd6
  iexact Pd7

/-- The barrier wait with the operation spelt: the amount is the three neighbours' units. -/
theorem wp_barwait' (K : Dev nD × Fin 66 → ℕ) (c : Dev nD) (O : CellTallies nD τ sig Unit) (W₀ : Waits sig Unit) {k' : ℕ} (hk' : k' = 3)
    {α : Type} {Q : α → sProp 𝕄} {k : PUnit → Prog (TpuEff nD τ sig (Elt F) Λ₀ .tc) α} :
    iprop(records m K ∗ cred (tallyAt (barCell c) () 3) ∗ owes (c : Thread nD τ) O W₀ ∗ MayWait (c : Thread nD τ) (.reg barS) () O ∗ atPos ER (barCell c) 0 ∅ 0)
      ⊢ iprop(((owes (c : Thread nD τ) O (insert (SemLoc.reg barS, ()) W₀) ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  exact wp_barwait m K c O W₀ (fun Kc => rfl)

/-- The x- and the z-neighbour's payloads, written out. -/
theorem pay12 (c : Dev nD) : (iprop(barPay (F := F) c 1 ∗ barPay (F := F) c 2) : sProp 𝕄)
    = iprop(((bigSep (Finset.univ : Finset (Fin 8)) fun i => someChunk (F := F) (xP c) (8 * kM c + i.val))
        ∗ bigSep (Finset.univ : Finset (Fin 4)) fun j => someChunk (F := F) (xP c) (8 * kZ c + j.val))
      ∗ ((bigSep (Finset.univ : Finset (Fin 8)) fun i => someChunk (F := F) (zP c) (8 * kM c + i.val))
        ∗ bigSep (Finset.univ : Finset (Fin 4)) fun j => someChunk (F := F) (zP c) (8 * kX c + 4 + j.val))) := by
  rw [barPay1, barPay2]

set_option maxRecDepth 65536 in
set_option maxHeartbeats 60000000 in
theorem sound_body (K : Dev nD × Fin 66 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4 cc0_scratch5 cc0_scratch6 cc0_scratch7 cc0_scratch8 cc0_scratch9 cc0_scratch10) Kt := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c]
  unfold bodyPre ghost
  rw [posOf_eq, toksOf_eq, credsOf_eq]
  iintro ⟨⟨⟨⟨#HR, ⟨HatB, A9, A10, A11, A12, A13, A14, A15, A16, A41, A42, A43, A44, A29, A30, A31, A32, A45, A46, A47, A48, A25, A26, A27, A28, A53, A61, A54, A62, A55, A63, A56, A64, A1, A17, A33, A2, A18, A34, A3, A19, A35, A4, A20, A36, A5, A21, A37, A6, A22, A38, A7, A23, A39, A8, A24, A40, A49, A57, A50, A58, A51, A59, A52, A60, A0⟩, ⟨HtBy, HtBx, HtBz, HtC, ⟨S1, R9⟩, ⟨S2, R10⟩, ⟨S3, R11⟩, ⟨S4, R12⟩, ⟨S5, R13⟩, ⟨S6, R14⟩, ⟨S7, R15⟩, ⟨S8, R16⟩, ⟨S17, R25⟩, ⟨S33, R41⟩, ⟨S18, R26⟩, ⟨S34, R42⟩, ⟨S19, R27⟩, ⟨S35, R43⟩, ⟨S20, R28⟩, ⟨S36, R44⟩, ⟨S21, R29⟩, ⟨S37, R45⟩, ⟨S22, R30⟩, ⟨S38, R46⟩, ⟨S23, R31⟩, ⟨S39, R47⟩, ⟨S24, R32⟩, ⟨S40, R48⟩, ⟨S49, R53⟩, ⟨S50, R54⟩, ⟨S51, R55⟩, ⟨S52, R56⟩, ⟨S57, R61⟩, ⟨S58, R62⟩, ⟨S59, R63⟩, ⟨S60, R64⟩⟩⟩, ⟨HcB, C9, C10, C11, C12, C13, C14, C15, C16, C41, C42, C43, C44, C29, C30, C31, C32, C45, C46, C47, C48, C25, C26, C27, C28, C53, C61, C54, C62, C55, C63, C56, C64⟩, #Hlev⟩, Ho, ⟨%d0, %g0, %hg0, Hx⟩, ⟨%d1, %g1, %hg1, Hout⟩⟩, Hk⟩
  have hx : g0 = X m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the output staging buffer: the own half and the 32 chunks of the received half, by quarter
  ihave Hout := (Entails.of_eq (out_split c g1)) $$ Hout
  icases Hout with ⟨Hown, Hch⟩
  ihave Hch := (Entails.of_eq (quarters_eq c fun j => (oLoc c ↦[rowsO c (recvBase c + 64 * j) 64]{fullShare} g1 : sProp 𝕄))) $$ Hch
  icases Hch with ⟨GM, GX, GZ, GDl, GDh⟩
  -- the input staging buffer: a half share whole for the local copy, the other half share by chunk for the y-neighbour
  ihave Hx := (Entails.of_eq (x_split_eq c (X m c))) $$ Hx
  icases Hx with ⟨HxL, Hxq, HxRest⟩
  ihave Hxq := (Entails.of_eq (bigSep_fin8 _)) $$ Hxq
  icases Hxq with ⟨Xq0, Xq1, Xq2, Xq3, Xq4, Xq5, Xq6, Xq7⟩
  -- the three signals: each neighbour is lent the chunks it will write
  iapply (wp_sig m K c 0 (yP c) (owedL ((plan c).drop 1)) W rfl (by routes)) $$ [HO HtBy GM]
  · isplitr; · iexact HR
    isplitl [HO]; · iexact HO
    isplitl [HtBy]; · iexact HtBy
    rw [barPay_y]; iapply (some_group8 c (8 * kM c) g1); iexact GM
  iintro HO
  iapply (wp_sig m K c 1 (xP c) (owedL ((plan c).drop 2)) W rfl (by routes)) $$ [HO HtBx GX GDl]
  · isplitr; · iexact HR
    isplitl [HO]; · iexact HO
    isplitl [HtBx]; · iexact HtBx
    rw [barPay_x]
    isplitl [GX]; · iapply (some_group8 c (8 * kX c) g1); iexact GX
    iapply (some_group4 c (8 * kD c) g1); iexact GDl
  iintro HO
  iapply (wp_sig m K c 2 (zP c) (owedL ((plan c).drop 3)) W rfl (by routes)) $$ [HO HtBz GZ GDh]
  · isplitr; · iexact HR
    isplitl [HO]; · iexact HO
    isplitl [HtBz]; · iexact HtBz
    rw [barPay_z]
    isplitl [GZ]; · iapply (some_group8 c (8 * kZ c) g1); iexact GZ
    iapply (some_group4 c (8 * kD c + 4) g1); iexact GDh
  iintro HO
  -- the wait for the three neighbours: their chunks come with it
  iapply (wp_barwait' m K c (owedL ((plan c).drop 3)) W rfl) $$ [HcB HO HatB]
  · isplitr; · iexact HR
    isplitl [HcB]; · iexact HcB
    isplitl [HO]; · iexact HO
    isplitr; · iapply (mayWait_bar_enqs c (by decide)); iexact Hlev
    iexact HatB
  iintro ⟨HO, B0, Bs⟩
  ihave B0 := (Entails.of_eq ((barPay0 (F := F) c).trans (bigSep_fin8 _))) $$ B0
  icases B0 with ⟨Dy0, Dy1, Dy2, Dy3, Dy4, Dy5, Dy6, Dy7⟩
  ihave Bs := (Entails.of_eq (pay12 (F := F) c)) $$ Bs
  icases Bs with ⟨⟨B1a, B1b⟩, B2a, B2b⟩
  ihave B1a := (Entails.of_eq (bigSep_fin8 _)) $$ B1a
  icases B1a with ⟨Dx0, Dx1, Dx2, Dx3, Dx4, Dx5, Dx6, Dx7⟩
  ihave B1b := (Entails.of_eq (bigSep_fin4 _)) $$ B1b
  icases B1b with ⟨Ex0, Ex1, Ex2, Ex3⟩
  ihave B2a := (Entails.of_eq (bigSep_fin8 _)) $$ B2a
  icases B2a with ⟨Dz0, Dz1, Dz2, Dz3, Dz4, Dz5, Dz6, Dz7⟩
  ihave B2b := (Entails.of_eq (bigSep_fin4 _)) $$ B2b
  icases B2b with ⟨Ez0, Ez1, Ez2, Ez3⟩
  -- the local copy
  iapply (wp_copy_own m K c g1) $$ [HxL Hown HtC]
  · isplitr; · iexact HR
    isplitl [HxL]; · iexact HxL
    isplitl [Hown]; · iexact Hown
    iexact HtC
  iintro CS0
  -- the eight transfers to the y-neighbour
  iapply (wp_ysend' m K c 0 _ (dev4_eq c) (owedL ((plan c).drop 4)) _) $$ [HO Xq0 Dy0 S1 R9]
  · isplitr; · iexact HR
    isplitl [Xq0]; · iexact Xq0
    isplitl [Dy0]; · iexact Dy0
    isplitl [HO]; · iexact HO
    isplitl [S1]; · iexact S1
    iexact R9
  iintro ⟨CS1, HO⟩
  iapply (wp_ysend' m K c 1 _ (dev5_eq c) (owedL ((plan c).drop 5)) _) $$ [HO Xq1 Dy1 S2 R10]
  · isplitr; · iexact HR
    isplitl [Xq1]; · iexact Xq1
    isplitl [Dy1]; · iexact Dy1
    isplitl [HO]; · iexact HO
    isplitl [S2]; · iexact S2
    iexact R10
  iintro ⟨CS2, HO⟩
  iapply (wp_ysend' m K c 2 _ (dev6_eq c) (owedL ((plan c).drop 6)) _) $$ [HO Xq2 Dy2 S3 R11]
  · isplitr; · iexact HR
    isplitl [Xq2]; · iexact Xq2
    isplitl [Dy2]; · iexact Dy2
    isplitl [HO]; · iexact HO
    isplitl [S3]; · iexact S3
    iexact R11
  iintro ⟨CS3, HO⟩
  iapply (wp_ysend' m K c 3 _ (dev7_eq c) (owedL ((plan c).drop 7)) _) $$ [HO Xq3 Dy3 S4 R12]
  · isplitr; · iexact HR
    isplitl [Xq3]; · iexact Xq3
    isplitl [Dy3]; · iexact Dy3
    isplitl [HO]; · iexact HO
    isplitl [S4]; · iexact S4
    iexact R12
  iintro ⟨CS4, HO⟩
  iapply (wp_ysend' m K c 4 _ (dev8_eq c) (owedL ((plan c).drop 8)) _) $$ [HO Xq4 Dy4 S5 R13]
  · isplitr; · iexact HR
    isplitl [Xq4]; · iexact Xq4
    isplitl [Dy4]; · iexact Dy4
    isplitl [HO]; · iexact HO
    isplitl [S5]; · iexact S5
    iexact R13
  iintro ⟨CS5, HO⟩
  iapply (wp_ysend' m K c 5 _ (dev9_eq c) (owedL ((plan c).drop 9)) _) $$ [HO Xq5 Dy5 S6 R14]
  · isplitr; · iexact HR
    isplitl [Xq5]; · iexact Xq5
    isplitl [Dy5]; · iexact Dy5
    isplitl [HO]; · iexact HO
    isplitl [S6]; · iexact S6
    iexact R14
  iintro ⟨CS6, HO⟩
  iapply (wp_ysend' m K c 6 _ (dev10_eq c) (owedL ((plan c).drop 10)) _) $$ [HO Xq6 Dy6 S7 R15]
  · isplitr; · iexact HR
    isplitl [Xq6]; · iexact Xq6
    isplitl [Dy6]; · iexact Dy6
    isplitl [HO]; · iexact HO
    isplitl [S7]; · iexact S7
    iexact R15
  iintro ⟨CS7, HO⟩
  iapply (wp_ysend' m K c 7 _ (dev11_eq c) (owedL ((plan c).drop 11)) _) $$ [HO Xq7 Dy7 S8 R16]
  · isplitr; · iexact HR
    isplitl [Xq7]; · iexact Xq7
    isplitl [Dy7]; · iexact Dy7
    isplitl [HO]; · iexact HO
    isplitl [S8]; · iexact S8
    iexact R16
  iintro ⟨CS8, HO⟩
  -- as each chunk from the y-neighbour lands, forward it to the x- and the z-neighbour
  iapply (wp_dwait64 m K c (yRecv 0) (by decide) (by decide) (owedL ((plan c).drop 11)) _ _ _ _ (dmaPay_yRecv m c 0)) $$ [C9 HO A9]
  · isplitr; · iexact HR
    isplitl [C9]; · iexact C9
    isplitl [HO]; · iexact HO
    isplitr; · iapply (mayWait_dma_enqs c (yRecv 0) 8 (by decide)); iexact Hlev
    iexact A9
  iintro ⟨HO, Z9, Pm0⟩
  ihave Pm0 := (chunk_halve m c _) $$ Pm0
  icases Pm0 with ⟨PL0, PR0⟩
  iapply (wp_x2send' m K c 0 _ (dev12_eq c) (owedL ((plan c).drop 12)) _) $$ [HO PL0 Dx0 S17 R25]
  · isplitr; · iexact HR
    isplitl [PL0]; · iexact PL0
    isplitl [Dx0]; · iexact Dx0
    isplitl [HO]; · iexact HO
    isplitl [S17]; · iexact S17
    iexact R25
  iintro ⟨CS17, HO⟩
  iapply (wp_z2send' m K c 0 _ (dev13_eq c) (owedL ((plan c).drop 13)) _) $$ [HO PR0 Dz0 S33 R41]
  · isplitr; · iexact HR
    isplitl [PR0]; · iexact PR0
    isplitl [Dz0]; · iexact Dz0
    isplitl [HO]; · iexact HO
    isplitl [S33]; · iexact S33
    iexact R41
  iintro ⟨CS33, HO⟩
  iapply (wp_dwait64 m K c (yRecv 1) (by decide) (by decide) (owedL ((plan c).drop 13)) _ _ _ _ (dmaPay_yRecv m c 1)) $$ [C10 HO A10]
  · isplitr; · iexact HR
    isplitl [C10]; · iexact C10
    isplitl [HO]; · iexact HO
    isplitr; · iapply (mayWait_dma_enqs c (yRecv 1) 10 (by decide)); iexact Hlev
    iexact A10
  iintro ⟨HO, Z10, Pm1⟩
  ihave Pm1 := (chunk_halve m c _) $$ Pm1
  icases Pm1 with ⟨PL1, PR1⟩
  iapply (wp_x2send' m K c 1 _ (dev14_eq c) (owedL ((plan c).drop 14)) _) $$ [HO PL1 Dx1 S18 R26]
  · isplitr; · iexact HR
    isplitl [PL1]; · iexact PL1
    isplitl [Dx1]; · iexact Dx1
    isplitl [HO]; · iexact HO
    isplitl [S18]; · iexact S18
    iexact R26
  iintro ⟨CS18, HO⟩
  iapply (wp_z2send' m K c 1 _ (dev15_eq c) (owedL ((plan c).drop 15)) _) $$ [HO PR1 Dz1 S34 R42]
  · isplitr; · iexact HR
    isplitl [PR1]; · iexact PR1
    isplitl [Dz1]; · iexact Dz1
    isplitl [HO]; · iexact HO
    isplitl [S34]; · iexact S34
    iexact R42
  iintro ⟨CS34, HO⟩
  iapply (wp_dwait64 m K c (yRecv 2) (by decide) (by decide) (owedL ((plan c).drop 15)) _ _ _ _ (dmaPay_yRecv m c 2)) $$ [C11 HO A11]
  · isplitr; · iexact HR
    isplitl [C11]; · iexact C11
    isplitl [HO]; · iexact HO
    isplitr; · iapply (mayWait_dma_enqs c (yRecv 2) 12 (by decide)); iexact Hlev
    iexact A11
  iintro ⟨HO, Z11, Pm2⟩
  ihave Pm2 := (chunk_halve m c _) $$ Pm2
  icases Pm2 with ⟨PL2, PR2⟩
  iapply (wp_x2send' m K c 2 _ (dev16_eq c) (owedL ((plan c).drop 16)) _) $$ [HO PL2 Dx2 S19 R27]
  · isplitr; · iexact HR
    isplitl [PL2]; · iexact PL2
    isplitl [Dx2]; · iexact Dx2
    isplitl [HO]; · iexact HO
    isplitl [S19]; · iexact S19
    iexact R27
  iintro ⟨CS19, HO⟩
  iapply (wp_z2send' m K c 2 _ (dev17_eq c) (owedL ((plan c).drop 17)) _) $$ [HO PR2 Dz2 S35 R43]
  · isplitr; · iexact HR
    isplitl [PR2]; · iexact PR2
    isplitl [Dz2]; · iexact Dz2
    isplitl [HO]; · iexact HO
    isplitl [S35]; · iexact S35
    iexact R43
  iintro ⟨CS35, HO⟩
  iapply (wp_dwait64 m K c (yRecv 3) (by decide) (by decide) (owedL ((plan c).drop 17)) _ _ _ _ (dmaPay_yRecv m c 3)) $$ [C12 HO A12]
  · isplitr; · iexact HR
    isplitl [C12]; · iexact C12
    isplitl [HO]; · iexact HO
    isplitr; · iapply (mayWait_dma_enqs c (yRecv 3) 14 (by decide)); iexact Hlev
    iexact A12
  iintro ⟨HO, Z12, Pm3⟩
  ihave Pm3 := (chunk_halve m c _) $$ Pm3
  icases Pm3 with ⟨PL3, PR3⟩
  iapply (wp_x2send' m K c 3 _ (dev18_eq c) (owedL ((plan c).drop 18)) _) $$ [HO PL3 Dx3 S20 R28]
  · isplitr; · iexact HR
    isplitl [PL3]; · iexact PL3
    isplitl [Dx3]; · iexact Dx3
    isplitl [HO]; · iexact HO
    isplitl [S20]; · iexact S20
    iexact R28
  iintro ⟨CS20, HO⟩
  iapply (wp_z2send' m K c 3 _ (dev19_eq c) (owedL ((plan c).drop 19)) _) $$ [HO PR3 Dz3 S36 R44]
  · isplitr; · iexact HR
    isplitl [PR3]; · iexact PR3
    isplitl [Dz3]; · iexact Dz3
    isplitl [HO]; · iexact HO
    isplitl [S36]; · iexact S36
    iexact R44
  iintro ⟨CS36, HO⟩
  iapply (wp_dwait64 m K c (yRecv 4) (by decide) (by decide) (owedL ((plan c).drop 19)) _ _ _ _ (dmaPay_yRecv m c 4)) $$ [C13 HO A13]
  · isplitr; · iexact HR
    isplitl [C13]; · iexact C13
    isplitl [HO]; · iexact HO
    isplitr; · iapply (mayWait_dma_enqs c (yRecv 4) 16 (by decide)); iexact Hlev
    iexact A13
  iintro ⟨HO, Z13, Pm4⟩
  ihave Pm4 := (chunk_halve m c _) $$ Pm4
  icases Pm4 with ⟨PL4, PR4⟩
  iapply (wp_x2send' m K c 4 _ (dev20_eq c) (owedL ((plan c).drop 20)) _) $$ [HO PL4 Dx4 S21 R29]
  · isplitr; · iexact HR
    isplitl [PL4]; · iexact PL4
    isplitl [Dx4]; · iexact Dx4
    isplitl [HO]; · iexact HO
    isplitl [S21]; · iexact S21
    iexact R29
  iintro ⟨CS21, HO⟩
  iapply (wp_z2send' m K c 4 _ (dev21_eq c) (owedL ((plan c).drop 21)) _) $$ [HO PR4 Dz4 S37 R45]
  · isplitr; · iexact HR
    isplitl [PR4]; · iexact PR4
    isplitl [Dz4]; · iexact Dz4
    isplitl [HO]; · iexact HO
    isplitl [S37]; · iexact S37
    iexact R45
  iintro ⟨CS37, HO⟩
  iapply (wp_dwait64 m K c (yRecv 5) (by decide) (by decide) (owedL ((plan c).drop 21)) _ _ _ _ (dmaPay_yRecv m c 5)) $$ [C14 HO A14]
  · isplitr; · iexact HR
    isplitl [C14]; · iexact C14
    isplitl [HO]; · iexact HO
    isplitr; · iapply (mayWait_dma_enqs c (yRecv 5) 18 (by decide)); iexact Hlev
    iexact A14
  iintro ⟨HO, Z14, Pm5⟩
  ihave Pm5 := (chunk_halve m c _) $$ Pm5
  icases Pm5 with ⟨PL5, PR5⟩
  iapply (wp_x2send' m K c 5 _ (dev22_eq c) (owedL ((plan c).drop 22)) _) $$ [HO PL5 Dx5 S22 R30]
  · isplitr; · iexact HR
    isplitl [PL5]; · iexact PL5
    isplitl [Dx5]; · iexact Dx5
    isplitl [HO]; · iexact HO
    isplitl [S22]; · iexact S22
    iexact R30
  iintro ⟨CS22, HO⟩
  iapply (wp_z2send' m K c 5 _ (dev23_eq c) (owedL ((plan c).drop 23)) _) $$ [HO PR5 Dz5 S38 R46]
  · isplitr; · iexact HR
    isplitl [PR5]; · iexact PR5
    isplitl [Dz5]; · iexact Dz5
    isplitl [HO]; · iexact HO
    isplitl [S38]; · iexact S38
    iexact R46
  iintro ⟨CS38, HO⟩
  iapply (wp_dwait64 m K c (yRecv 6) (by decide) (by decide) (owedL ((plan c).drop 23)) _ _ _ _ (dmaPay_yRecv m c 6)) $$ [C15 HO A15]
  · isplitr; · iexact HR
    isplitl [C15]; · iexact C15
    isplitl [HO]; · iexact HO
    isplitr; · iapply (mayWait_dma_enqs c (yRecv 6) 20 (by decide)); iexact Hlev
    iexact A15
  iintro ⟨HO, Z15, Pm6⟩
  ihave Pm6 := (chunk_halve m c _) $$ Pm6
  icases Pm6 with ⟨PL6, PR6⟩
  iapply (wp_x2send' m K c 6 _ (dev24_eq c) (owedL ((plan c).drop 24)) _) $$ [HO PL6 Dx6 S23 R31]
  · isplitr; · iexact HR
    isplitl [PL6]; · iexact PL6
    isplitl [Dx6]; · iexact Dx6
    isplitl [HO]; · iexact HO
    isplitl [S23]; · iexact S23
    iexact R31
  iintro ⟨CS23, HO⟩
  iapply (wp_z2send' m K c 6 _ (dev25_eq c) (owedL ((plan c).drop 25)) _) $$ [HO PR6 Dz6 S39 R47]
  · isplitr; · iexact HR
    isplitl [PR6]; · iexact PR6
    isplitl [Dz6]; · iexact Dz6
    isplitl [HO]; · iexact HO
    isplitl [S39]; · iexact S39
    iexact R47
  iintro ⟨CS39, HO⟩
  iapply (wp_dwait64 m K c (yRecv 7) (by decide) (by decide) (owedL ((plan c).drop 25)) _ _ _ _ (dmaPay_yRecv m c 7)) $$ [C16 HO A16]
  · isplitr; · iexact HR
    isplitl [C16]; · iexact C16
    isplitl [HO]; · iexact HO
    isplitr; · iapply (mayWait_dma_enqs c (yRecv 7) 22 (by decide)); iexact Hlev
    iexact A16
  iintro ⟨HO, Z16, Pm7⟩
  ihave Pm7 := (chunk_halve m c _) $$ Pm7
  icases Pm7 with ⟨PL7, PR7⟩
  iapply (wp_x2send' m K c 7 _ (dev26_eq c) (owedL ((plan c).drop 26)) _) $$ [HO PL7 Dx7 S24 R32]
  · isplitr; · iexact HR
    isplitl [PL7]; · iexact PL7
    isplitl [Dx7]; · iexact Dx7
    isplitl [HO]; · iexact HO
    isplitl [S24]; · iexact S24
    iexact R32
  iintro ⟨CS24, HO⟩
  iapply (wp_z2send' m K c 7 _ (dev27_eq c) (owedL ((plan c).drop 27)) _) $$ [HO PR7 Dz7 S40 R48]
  · isplitr; · iexact HR
    isplitl [PR7]; · iexact PR7
    isplitl [Dz7]; · iexact Dz7
    isplitl [HO]; · iexact HO
    isplitl [S40]; · iexact S40
    iexact R48
  iintro ⟨CS40, HO⟩
  -- chunks 0..3 from the z-neighbour go on to the x-neighbour
  iapply (wp_dwait64 m K c (z2Recv 0) (by decide) (by decide) (owedL ((plan c).drop 27)) _ _ _ _ (dmaPay_z2Recv m c 0)) $$ [C41 HO A41]
  · isplitr; · iexact HR
    isplitl [C41]; · iexact C41
    isplitl [HO]; · iexact HO
    isplitr; · iapply (mayWait_dma_enqs c (z2Recv 0) 24 (by decide)); iexact Hlev
    iexact A41
  iintro ⟨HO, Z41, Pz0⟩
  iapply (wp_x3send' m K c 0 _ (dev28_eq c) (owedL ((plan c).drop 28)) _) $$ [HO Pz0 Ex0 S49 R53]
  · isplitr; · iexact HR
    isplitl [Pz0]; · iexact Pz0
    isplitl [Ex0]; · iexact Ex0
    isplitl [HO]; · iexact HO
    isplitl [S49]; · iexact S49
    iexact R53
  iintro ⟨CS49, HO⟩
  iapply (wp_dwait64 m K c (z2Recv 1) (by decide) (by decide) (owedL ((plan c).drop 28)) _ _ _ _ (dmaPay_z2Recv m c 1)) $$ [C42 HO A42]
  · isplitr; · iexact HR
    isplitl [C42]; · iexact C42
    isplitl [HO]; · iexact HO
    isplitr; · iapply (mayWait_dma_enqs c (z2Recv 1) 25 (by decide)); iexact Hlev
    iexact A42
  iintro ⟨HO, Z42, Pz1⟩
  iapply (wp_x3send' m K c 1 _ (dev29_eq c) (owedL ((plan c).drop 29)) _) $$ [HO Pz1 Ex1 S50 R54]
  · isplitr; · iexact HR
    isplitl [Pz1]; · iexact Pz1
    isplitl [Ex1]; · iexact Ex1
    isplitl [HO]; · iexact HO
    isplitl [S50]; · iexact S50
    iexact R54
  iintro ⟨CS50, HO⟩
  iapply (wp_dwait64 m K c (z2Recv 2) (by decide) (by decide) (owedL ((plan c).drop 29)) _ _ _ _ (dmaPay_z2Recv m c 2)) $$ [C43 HO A43]
  · isplitr; · iexact HR
    isplitl [C43]; · iexact C43
    isplitl [HO]; · iexact HO
    isplitr; · iapply (mayWait_dma_enqs c (z2Recv 2) 26 (by decide)); iexact Hlev
    iexact A43
  iintro ⟨HO, Z43, Pz2⟩
  iapply (wp_x3send' m K c 2 _ (dev30_eq c) (owedL ((plan c).drop 30)) _) $$ [HO Pz2 Ex2 S51 R55]
  · isplitr; · iexact HR
    isplitl [Pz2]; · iexact Pz2
    isplitl [Ex2]; · iexact Ex2
    isplitl [HO]; · iexact HO
    isplitl [S51]; · iexact S51
    iexact R55
  iintro ⟨CS51, HO⟩
  iapply (wp_dwait64 m K c (z2Recv 3) (by decide) (by decide) (owedL ((plan c).drop 30)) _ _ _ _ (dmaPay_z2Recv m c 3)) $$ [C44 HO A44]
  · isplitr; · iexact HR
    isplitl [C44]; · iexact C44
    isplitl [HO]; · iexact HO
    isplitr; · iapply (mayWait_dma_enqs c (z2Recv 3) 27 (by decide)); iexact Hlev
    iexact A44
  iintro ⟨HO, Z44, Pz3⟩
  iapply (wp_x3send' m K c 3 _ (dev31_eq c) (owedL ((plan c).drop 31)) _) $$ [HO Pz3 Ex3 S52 R56]
  · isplitr; · iexact HR
    isplitl [Pz3]; · iexact Pz3
    isplitl [Ex3]; · iexact Ex3
    isplitl [HO]; · iexact HO
    isplitl [S52]; · iexact S52
    iexact R56
  iintro ⟨CS52, HO⟩
  -- chunks 4..7 from the x-neighbour go on to the z-neighbour
  iapply (wp_dwait64 m K c (x2Recv 4) (by decide) (by decide) (owedL ((plan c).drop 31)) _ _ _ _ (dmaPay_x2Recv m c 4)) $$ [C29 HO A29]
  · isplitr; · iexact HR
    isplitl [C29]; · iexact C29
    isplitl [HO]; · iexact HO
    isplitr; · iapply (mayWait_dma_enqs c (x2Recv 4) 28 (by decide)); iexact Hlev
    iexact A29
  iintro ⟨HO, Z29, Px4⟩
  iapply (wp_z3send' m K c 0 _ (dev32_eq c) (owedL ((plan c).drop 32)) _) $$ [HO Px4 Ez0 S57 R61]
  · isplitr; · iexact HR
    isplitl [Px4]; · iexact Px4
    isplitl [Ez0]; · iexact Ez0
    isplitl [HO]; · iexact HO
    isplitl [S57]; · iexact S57
    iexact R61
  iintro ⟨CS57, HO⟩
  iapply (wp_dwait64 m K c (x2Recv 5) (by decide) (by decide) (owedL ((plan c).drop 32)) _ _ _ _ (dmaPay_x2Recv m c 5)) $$ [C30 HO A30]
  · isplitr; · iexact HR
    isplitl [C30]; · iexact C30
    isplitl [HO]; · iexact HO
    isplitr; · iapply (mayWait_dma_enqs c (x2Recv 5) 29 (by decide)); iexact Hlev
    iexact A30
  iintro ⟨HO, Z30, Px5⟩
  iapply (wp_z3send' m K c 1 _ (dev33_eq c) (owedL ((plan c).drop 33)) _) $$ [HO Px5 Ez1 S58 R62]
  · isplitr; · iexact HR
    isplitl [Px5]; · iexact Px5
    isplitl [Ez1]; · iexact Ez1
    isplitl [HO]; · iexact HO
    isplitl [S58]; · iexact S58
    iexact R62
  iintro ⟨CS58, HO⟩
  iapply (wp_dwait64 m K c (x2Recv 6) (by decide) (by decide) (owedL ((plan c).drop 33)) _ _ _ _ (dmaPay_x2Recv m c 6)) $$ [C31 HO A31]
  · isplitr; · iexact HR
    isplitl [C31]; · iexact C31
    isplitl [HO]; · iexact HO
    isplitr; · iapply (mayWait_dma_enqs c (x2Recv 6) 30 (by decide)); iexact Hlev
    iexact A31
  iintro ⟨HO, Z31, Px6⟩
  iapply (wp_z3send' m K c 2 _ (dev34_eq c) (owedL ((plan c).drop 34)) _) $$ [HO Px6 Ez2 S59 R63]
  · isplitr; · iexact HR
    isplitl [Px6]; · iexact Px6
    isplitl [Ez2]; · iexact Ez2
    isplitl [HO]; · iexact HO
    isplitl [S59]; · iexact S59
    iexact R63
  iintro ⟨CS59, HO⟩
  iapply (wp_dwait64 m K c (x2Recv 7) (by decide) (by decide) (owedL ((plan c).drop 34)) _ _ _ _ (dmaPay_x2Recv m c 7)) $$ [C32 HO A32]
  · isplitr; · iexact HR
    isplitl [C32]; · iexact C32
    isplitl [HO]; · iexact HO
    isplitr; · iapply (mayWait_dma_enqs c (x2Recv 7) 31 (by decide)); iexact Hlev
    iexact A32
  iintro ⟨HO, Z32, Px7⟩
  iapply (wp_z3send' m K c 3 _ (dev35_eq c) (owedL ((plan c).drop 35)) _) $$ [HO Px7 Ez3 S60 R64]
  · isplitr; · iexact HR
    isplitl [Px7]; · iexact Px7
    isplitl [Ez3]; · iexact Ez3
    isplitl [HO]; · iexact HO
    isplitl [S60]; · iexact S60
    iexact R64
  iintro ⟨CS60, HO⟩
  -- nothing is owed any more; the remaining landings
  iapply (wp_dwait64 m K c (z2Recv 4) (by decide) (by decide) (owedL ((plan c).drop 35)) _ _ _ _ (dmaPay_z2Recv m c 4)) $$ [C45 HO A45]
  · isplitr; · iexact HR
    isplitl [C45]; · iexact C45
    isplitl [HO]; · iexact HO
    isplitr; · iapply (mayWait_dma_enqs c (z2Recv 4) 32 (by decide)); iexact Hlev
    iexact A45
  iintro ⟨HO, Z45, Pz4⟩
  iapply (wp_dwait64 m K c (z2Recv 5) (by decide) (by decide) (owedL ((plan c).drop 35)) _ _ _ _ (dmaPay_z2Recv m c 5)) $$ [C46 HO A46]
  · isplitr; · iexact HR
    isplitl [C46]; · iexact C46
    isplitl [HO]; · iexact HO
    isplitr; · iapply (mayWait_dma_enqs c (z2Recv 5) 32 (by decide)); iexact Hlev
    iexact A46
  iintro ⟨HO, Z46, Pz5⟩
  iapply (wp_dwait64 m K c (z2Recv 6) (by decide) (by decide) (owedL ((plan c).drop 35)) _ _ _ _ (dmaPay_z2Recv m c 6)) $$ [C47 HO A47]
  · isplitr; · iexact HR
    isplitl [C47]; · iexact C47
    isplitl [HO]; · iexact HO
    isplitr; · iapply (mayWait_dma_enqs c (z2Recv 6) 32 (by decide)); iexact Hlev
    iexact A47
  iintro ⟨HO, Z47, Pz6⟩
  iapply (wp_dwait64 m K c (z2Recv 7) (by decide) (by decide) (owedL ((plan c).drop 35)) _ _ _ _ (dmaPay_z2Recv m c 7)) $$ [C48 HO A48]
  · isplitr; · iexact HR
    isplitl [C48]; · iexact C48
    isplitl [HO]; · iexact HO
    isplitr; · iapply (mayWait_dma_enqs c (z2Recv 7) 32 (by decide)); iexact Hlev
    iexact A48
  iintro ⟨HO, Z48, Pz7⟩
  iapply (wp_dwait64 m K c (x2Recv 0) (by decide) (by decide) (owedL ((plan c).drop 35)) _ _ _ _ (dmaPay_x2Recv m c 0)) $$ [C25 HO A25]
  · isplitr; · iexact HR
    isplitl [C25]; · iexact C25
    isplitl [HO]; · iexact HO
    isplitr; · iapply (mayWait_dma_enqs c (x2Recv 0) 32 (by decide)); iexact Hlev
    iexact A25
  iintro ⟨HO, Z25, Px0⟩
  iapply (wp_dwait64 m K c (x2Recv 1) (by decide) (by decide) (owedL ((plan c).drop 35)) _ _ _ _ (dmaPay_x2Recv m c 1)) $$ [C26 HO A26]
  · isplitr; · iexact HR
    isplitl [C26]; · iexact C26
    isplitl [HO]; · iexact HO
    isplitr; · iapply (mayWait_dma_enqs c (x2Recv 1) 32 (by decide)); iexact Hlev
    iexact A26
  iintro ⟨HO, Z26, Px1⟩
  iapply (wp_dwait64 m K c (x2Recv 2) (by decide) (by decide) (owedL ((plan c).drop 35)) _ _ _ _ (dmaPay_x2Recv m c 2)) $$ [C27 HO A27]
  · isplitr; · iexact HR
    isplitl [C27]; · iexact C27
    isplitl [HO]; · iexact HO
    isplitr; · iapply (mayWait_dma_enqs c (x2Recv 2) 32 (by decide)); iexact Hlev
    iexact A27
  iintro ⟨HO, Z27, Px2⟩
  iapply (wp_dwait64 m K c (x2Recv 3) (by decide) (by decide) (owedL ((plan c).drop 35)) _ _ _ _ (dmaPay_x2Recv m c 3)) $$ [C28 HO A28]
  · isplitr; · iexact HR
    isplitl [C28]; · iexact C28
    isplitl [HO]; · iexact HO
    isplitr; · iapply (mayWait_dma_enqs c (x2Recv 3) 32 (by decide)); iexact Hlev
    iexact A28
  iintro ⟨HO, Z28, Px3⟩
  iapply (wp_dwait64 m K c (x3Recv 0) (by decide) (by decide) (owedL ((plan c).drop 35)) _ _ _ _ (dmaPay_x3Recv m c 0)) $$ [C53 HO A53]
  · isplitr; · iexact HR
    isplitl [C53]; · iexact C53
    isplitl [HO]; · iexact HO
    isplitr; · iapply (mayWait_dma_enqs c (x3Recv 0) 32 (by decide)); iexact Hlev
    iexact A53
  iintro ⟨HO, Z53, Pd0⟩
  iapply (wp_dwait64 m K c (z3Recv 0) (by decide) (by decide) (owedL ((plan c).drop 35)) _ _ _ _ (dmaPay_z3Recv m c 0)) $$ [C61 HO A61]
  · isplitr; · iexact HR
    isplitl [C61]; · iexact C61
    isplitl [HO]; · iexact HO
    isplitr; · iapply (mayWait_dma_enqs c (z3Recv 0) 32 (by decide)); iexact Hlev
    iexact A61
  iintro ⟨HO, Z61, Pd4⟩
  iapply (wp_dwait64 m K c (x3Recv 1) (by decide) (by decide) (owedL ((plan c).drop 35)) _ _ _ _ (dmaPay_x3Recv m c 1)) $$ [C54 HO A54]
  · isplitr; · iexact HR
    isplitl [C54]; · iexact C54
    isplitl [HO]; · iexact HO
    isplitr; · iapply (mayWait_dma_enqs c (x3Recv 1) 32 (by decide)); iexact Hlev
    iexact A54
  iintro ⟨HO, Z54, Pd1⟩
  iapply (wp_dwait64 m K c (z3Recv 1) (by decide) (by decide) (owedL ((plan c).drop 35)) _ _ _ _ (dmaPay_z3Recv m c 1)) $$ [C62 HO A62]
  · isplitr; · iexact HR
    isplitl [C62]; · iexact C62
    isplitl [HO]; · iexact HO
    isplitr; · iapply (mayWait_dma_enqs c (z3Recv 1) 32 (by decide)); iexact Hlev
    iexact A62
  iintro ⟨HO, Z62, Pd5⟩
  iapply (wp_dwait64 m K c (x3Recv 2) (by decide) (by decide) (owedL ((plan c).drop 35)) _ _ _ _ (dmaPay_x3Recv m c 2)) $$ [C55 HO A55]
  · isplitr; · iexact HR
    isplitl [C55]; · iexact C55
    isplitl [HO]; · iexact HO
    isplitr; · iapply (mayWait_dma_enqs c (x3Recv 2) 32 (by decide)); iexact Hlev
    iexact A55
  iintro ⟨HO, Z55, Pd2⟩
  iapply (wp_dwait64 m K c (z3Recv 2) (by decide) (by decide) (owedL ((plan c).drop 35)) _ _ _ _ (dmaPay_z3Recv m c 2)) $$ [C63 HO A63]
  · isplitr; · iexact HR
    isplitl [C63]; · iexact C63
    isplitl [HO]; · iexact HO
    isplitr; · iapply (mayWait_dma_enqs c (z3Recv 2) 32 (by decide)); iexact Hlev
    iexact A63
  iintro ⟨HO, Z63, Pd6⟩
  iapply (wp_dwait64 m K c (x3Recv 3) (by decide) (by decide) (owedL ((plan c).drop 35)) _ _ _ _ (dmaPay_x3Recv m c 3)) $$ [C56 HO A56]
  · isplitr; · iexact HR
    isplitl [C56]; · iexact C56
    isplitl [HO]; · iexact HO
    isplitr; · iapply (mayWait_dma_enqs c (x3Recv 3) 32 (by decide)); iexact Hlev
    iexact A56
  iintro ⟨HO, Z56, Pd3⟩
  iapply (wp_dwait64 m K c (z3Recv 3) (by decide) (by decide) (owedL ((plan c).drop 35)) _ _ _ _ (dmaPay_z3Recv m c 3)) $$ [C64 HO A64]
  · isplitr; · iexact HR
    isplitl [C64]; · iexact C64
    isplitl [HO]; · iexact HO
    isplitr; · iapply (mayWait_dma_enqs c (z3Recv 3) 32 (by decide)); iexact Hlev
    iexact A64
  iintro ⟨HO, Z64, Pd7⟩
  -- the sends have read their sources: the shares come back
  iapply (wp_dwait64x m K c (ySend 0) (by decide) (by decide) (owedL ((plan c).drop 35)) _ _ _ _ (dmaPay_ySend m c 0)) $$ [CS1 HO A1]
  · isplitr; · iexact HR
    isplitl [CS1]; · iexact CS1
    isplitl [HO]; · iexact HO
    isplitr; · iapply (mayWait_dma_enqs c (ySend 0) 32 (by decide)); iexact Hlev
    iexact A1
  iintro ⟨HO, Z1, Xr0⟩
  iapply (wp_dwait64 m K c (x2Send 0) (by decide) (by decide) (owedL ((plan c).drop 35)) _ _ _ _ (dmaPay_x2Send m c 0)) $$ [CS17 HO A17]
  · isplitr; · iexact HR
    isplitl [CS17]; · iexact CS17
    isplitl [HO]; · iexact HO
    isplitr; · iapply (mayWait_dma_enqs c (x2Send 0) 32 (by decide)); iexact Hlev
    iexact A17
  iintro ⟨HO, Z17, PL0⟩
  iapply (wp_dwait64 m K c (z2Send 0) (by decide) (by decide) (owedL ((plan c).drop 35)) _ _ _ _ (dmaPay_z2Send m c 0)) $$ [CS33 HO A33]
  · isplitr; · iexact HR
    isplitl [CS33]; · iexact CS33
    isplitl [HO]; · iexact HO
    isplitr; · iapply (mayWait_dma_enqs c (z2Send 0) 32 (by decide)); iexact Hlev
    iexact A33
  iintro ⟨HO, Z33, PR0⟩
  ihave Pm0 := (chunk_join m c _) $$ [PL0 PR0]
  · isplitl [PL0]; · iexact PL0
    iexact PR0
  iapply (wp_dwait64x m K c (ySend 1) (by decide) (by decide) (owedL ((plan c).drop 35)) _ _ _ _ (dmaPay_ySend m c 1)) $$ [CS2 HO A2]
  · isplitr; · iexact HR
    isplitl [CS2]; · iexact CS2
    isplitl [HO]; · iexact HO
    isplitr; · iapply (mayWait_dma_enqs c (ySend 1) 32 (by decide)); iexact Hlev
    iexact A2
  iintro ⟨HO, Z2, Xr1⟩
  iapply (wp_dwait64 m K c (x2Send 1) (by decide) (by decide) (owedL ((plan c).drop 35)) _ _ _ _ (dmaPay_x2Send m c 1)) $$ [CS18 HO A18]
  · isplitr; · iexact HR
    isplitl [CS18]; · iexact CS18
    isplitl [HO]; · iexact HO
    isplitr; · iapply (mayWait_dma_enqs c (x2Send 1) 32 (by decide)); iexact Hlev
    iexact A18
  iintro ⟨HO, Z18, PL1⟩
  iapply (wp_dwait64 m K c (z2Send 1) (by decide) (by decide) (owedL ((plan c).drop 35)) _ _ _ _ (dmaPay_z2Send m c 1)) $$ [CS34 HO A34]
  · isplitr; · iexact HR
    isplitl [CS34]; · iexact CS34
    isplitl [HO]; · iexact HO
    isplitr; · iapply (mayWait_dma_enqs c (z2Send 1) 32 (by decide)); iexact Hlev
    iexact A34
  iintro ⟨HO, Z34, PR1⟩
  ihave Pm1 := (chunk_join m c _) $$ [PL1 PR1]
  · isplitl [PL1]; · iexact PL1
    iexact PR1
  iapply (wp_dwait64x m K c (ySend 2) (by decide) (by decide) (owedL ((plan c).drop 35)) _ _ _ _ (dmaPay_ySend m c 2)) $$ [CS3 HO A3]
  · isplitr; · iexact HR
    isplitl [CS3]; · iexact CS3
    isplitl [HO]; · iexact HO
    isplitr; · iapply (mayWait_dma_enqs c (ySend 2) 32 (by decide)); iexact Hlev
    iexact A3
  iintro ⟨HO, Z3, Xr2⟩
  iapply (wp_dwait64 m K c (x2Send 2) (by decide) (by decide) (owedL ((plan c).drop 35)) _ _ _ _ (dmaPay_x2Send m c 2)) $$ [CS19 HO A19]
  · isplitr; · iexact HR
    isplitl [CS19]; · iexact CS19
    isplitl [HO]; · iexact HO
    isplitr; · iapply (mayWait_dma_enqs c (x2Send 2) 32 (by decide)); iexact Hlev
    iexact A19
  iintro ⟨HO, Z19, PL2⟩
  iapply (wp_dwait64 m K c (z2Send 2) (by decide) (by decide) (owedL ((plan c).drop 35)) _ _ _ _ (dmaPay_z2Send m c 2)) $$ [CS35 HO A35]
  · isplitr; · iexact HR
    isplitl [CS35]; · iexact CS35
    isplitl [HO]; · iexact HO
    isplitr; · iapply (mayWait_dma_enqs c (z2Send 2) 32 (by decide)); iexact Hlev
    iexact A35
  iintro ⟨HO, Z35, PR2⟩
  ihave Pm2 := (chunk_join m c _) $$ [PL2 PR2]
  · isplitl [PL2]; · iexact PL2
    iexact PR2
  iapply (wp_dwait64x m K c (ySend 3) (by decide) (by decide) (owedL ((plan c).drop 35)) _ _ _ _ (dmaPay_ySend m c 3)) $$ [CS4 HO A4]
  · isplitr; · iexact HR
    isplitl [CS4]; · iexact CS4
    isplitl [HO]; · iexact HO
    isplitr; · iapply (mayWait_dma_enqs c (ySend 3) 32 (by decide)); iexact Hlev
    iexact A4
  iintro ⟨HO, Z4, Xr3⟩
  iapply (wp_dwait64 m K c (x2Send 3) (by decide) (by decide) (owedL ((plan c).drop 35)) _ _ _ _ (dmaPay_x2Send m c 3)) $$ [CS20 HO A20]
  · isplitr; · iexact HR
    isplitl [CS20]; · iexact CS20
    isplitl [HO]; · iexact HO
    isplitr; · iapply (mayWait_dma_enqs c (x2Send 3) 32 (by decide)); iexact Hlev
    iexact A20
  iintro ⟨HO, Z20, PL3⟩
  iapply (wp_dwait64 m K c (z2Send 3) (by decide) (by decide) (owedL ((plan c).drop 35)) _ _ _ _ (dmaPay_z2Send m c 3)) $$ [CS36 HO A36]
  · isplitr; · iexact HR
    isplitl [CS36]; · iexact CS36
    isplitl [HO]; · iexact HO
    isplitr; · iapply (mayWait_dma_enqs c (z2Send 3) 32 (by decide)); iexact Hlev
    iexact A36
  iintro ⟨HO, Z36, PR3⟩
  ihave Pm3 := (chunk_join m c _) $$ [PL3 PR3]
  · isplitl [PL3]; · iexact PL3
    iexact PR3
  iapply (wp_dwait64x m K c (ySend 4) (by decide) (by decide) (owedL ((plan c).drop 35)) _ _ _ _ (dmaPay_ySend m c 4)) $$ [CS5 HO A5]
  · isplitr; · iexact HR
    isplitl [CS5]; · iexact CS5
    isplitl [HO]; · iexact HO
    isplitr; · iapply (mayWait_dma_enqs c (ySend 4) 32 (by decide)); iexact Hlev
    iexact A5
  iintro ⟨HO, Z5, Xr4⟩
  iapply (wp_dwait64 m K c (x2Send 4) (by decide) (by decide) (owedL ((plan c).drop 35)) _ _ _ _ (dmaPay_x2Send m c 4)) $$ [CS21 HO A21]
  · isplitr; · iexact HR
    isplitl [CS21]; · iexact CS21
    isplitl [HO]; · iexact HO
    isplitr; · iapply (mayWait_dma_enqs c (x2Send 4) 32 (by decide)); iexact Hlev
    iexact A21
  iintro ⟨HO, Z21, PL4⟩
  iapply (wp_dwait64 m K c (z2Send 4) (by decide) (by decide) (owedL ((plan c).drop 35)) _ _ _ _ (dmaPay_z2Send m c 4)) $$ [CS37 HO A37]
  · isplitr; · iexact HR
    isplitl [CS37]; · iexact CS37
    isplitl [HO]; · iexact HO
    isplitr; · iapply (mayWait_dma_enqs c (z2Send 4) 32 (by decide)); iexact Hlev
    iexact A37
  iintro ⟨HO, Z37, PR4⟩
  ihave Pm4 := (chunk_join m c _) $$ [PL4 PR4]
  · isplitl [PL4]; · iexact PL4
    iexact PR4
  iapply (wp_dwait64x m K c (ySend 5) (by decide) (by decide) (owedL ((plan c).drop 35)) _ _ _ _ (dmaPay_ySend m c 5)) $$ [CS6 HO A6]
  · isplitr; · iexact HR
    isplitl [CS6]; · iexact CS6
    isplitl [HO]; · iexact HO
    isplitr; · iapply (mayWait_dma_enqs c (ySend 5) 32 (by decide)); iexact Hlev
    iexact A6
  iintro ⟨HO, Z6, Xr5⟩
  iapply (wp_dwait64 m K c (x2Send 5) (by decide) (by decide) (owedL ((plan c).drop 35)) _ _ _ _ (dmaPay_x2Send m c 5)) $$ [CS22 HO A22]
  · isplitr; · iexact HR
    isplitl [CS22]; · iexact CS22
    isplitl [HO]; · iexact HO
    isplitr; · iapply (mayWait_dma_enqs c (x2Send 5) 32 (by decide)); iexact Hlev
    iexact A22
  iintro ⟨HO, Z22, PL5⟩
  iapply (wp_dwait64 m K c (z2Send 5) (by decide) (by decide) (owedL ((plan c).drop 35)) _ _ _ _ (dmaPay_z2Send m c 5)) $$ [CS38 HO A38]
  · isplitr; · iexact HR
    isplitl [CS38]; · iexact CS38
    isplitl [HO]; · iexact HO
    isplitr; · iapply (mayWait_dma_enqs c (z2Send 5) 32 (by decide)); iexact Hlev
    iexact A38
  iintro ⟨HO, Z38, PR5⟩
  ihave Pm5 := (chunk_join m c _) $$ [PL5 PR5]
  · isplitl [PL5]; · iexact PL5
    iexact PR5
  iapply (wp_dwait64x m K c (ySend 6) (by decide) (by decide) (owedL ((plan c).drop 35)) _ _ _ _ (dmaPay_ySend m c 6)) $$ [CS7 HO A7]
  · isplitr; · iexact HR
    isplitl [CS7]; · iexact CS7
    isplitl [HO]; · iexact HO
    isplitr; · iapply (mayWait_dma_enqs c (ySend 6) 32 (by decide)); iexact Hlev
    iexact A7
  iintro ⟨HO, Z7, Xr6⟩
  iapply (wp_dwait64 m K c (x2Send 6) (by decide) (by decide) (owedL ((plan c).drop 35)) _ _ _ _ (dmaPay_x2Send m c 6)) $$ [CS23 HO A23]
  · isplitr; · iexact HR
    isplitl [CS23]; · iexact CS23
    isplitl [HO]; · iexact HO
    isplitr; · iapply (mayWait_dma_enqs c (x2Send 6) 32 (by decide)); iexact Hlev
    iexact A23
  iintro ⟨HO, Z23, PL6⟩
  iapply (wp_dwait64 m K c (z2Send 6) (by decide) (by decide) (owedL ((plan c).drop 35)) _ _ _ _ (dmaPay_z2Send m c 6)) $$ [CS39 HO A39]
  · isplitr; · iexact HR
    isplitl [CS39]; · iexact CS39
    isplitl [HO]; · iexact HO
    isplitr; · iapply (mayWait_dma_enqs c (z2Send 6) 32 (by decide)); iexact Hlev
    iexact A39
  iintro ⟨HO, Z39, PR6⟩
  ihave Pm6 := (chunk_join m c _) $$ [PL6 PR6]
  · isplitl [PL6]; · iexact PL6
    iexact PR6
  iapply (wp_dwait64x m K c (ySend 7) (by decide) (by decide) (owedL ((plan c).drop 35)) _ _ _ _ (dmaPay_ySend m c 7)) $$ [CS8 HO A8]
  · isplitr; · iexact HR
    isplitl [CS8]; · iexact CS8
    isplitl [HO]; · iexact HO
    isplitr; · iapply (mayWait_dma_enqs c (ySend 7) 32 (by decide)); iexact Hlev
    iexact A8
  iintro ⟨HO, Z8, Xr7⟩
  iapply (wp_dwait64 m K c (x2Send 7) (by decide) (by decide) (owedL ((plan c).drop 35)) _ _ _ _ (dmaPay_x2Send m c 7)) $$ [CS24 HO A24]
  · isplitr; · iexact HR
    isplitl [CS24]; · iexact CS24
    isplitl [HO]; · iexact HO
    isplitr; · iapply (mayWait_dma_enqs c (x2Send 7) 32 (by decide)); iexact Hlev
    iexact A24
  iintro ⟨HO, Z24, PL7⟩
  iapply (wp_dwait64 m K c (z2Send 7) (by decide) (by decide) (owedL ((plan c).drop 35)) _ _ _ _ (dmaPay_z2Send m c 7)) $$ [CS40 HO A40]
  · isplitr; · iexact HR
    isplitl [CS40]; · iexact CS40
    isplitl [HO]; · iexact HO
    isplitr; · iapply (mayWait_dma_enqs c (z2Send 7) 32 (by decide)); iexact Hlev
    iexact A40
  iintro ⟨HO, Z40, PR7⟩
  ihave Pm7 := (chunk_join m c _) $$ [PL7 PR7]
  · isplitl [PL7]; · iexact PL7
    iexact PR7
  iapply (wp_dwait64 m K c (x3Send 0) (by decide) (by decide) (owedL ((plan c).drop 35)) _ _ _ _ (dmaPay_x3Send m c 0)) $$ [CS49 HO A49]
  · isplitr; · iexact HR
    isplitl [CS49]; · iexact CS49
    isplitl [HO]; · iexact HO
    isplitr; · iapply (mayWait_dma_enqs c (x3Send 0) 32 (by decide)); iexact Hlev
    iexact A49
  iintro ⟨HO, Z49, Pz0⟩
  iapply (wp_dwait64 m K c (z3Send 0) (by decide) (by decide) (owedL ((plan c).drop 35)) _ _ _ _ (dmaPay_z3Send m c 0)) $$ [CS57 HO A57]
  · isplitr; · iexact HR
    isplitl [CS57]; · iexact CS57
    isplitl [HO]; · iexact HO
    isplitr; · iapply (mayWait_dma_enqs c (z3Send 0) 32 (by decide)); iexact Hlev
    iexact A57
  iintro ⟨HO, Z57, Px4⟩
  iapply (wp_dwait64 m K c (x3Send 1) (by decide) (by decide) (owedL ((plan c).drop 35)) _ _ _ _ (dmaPay_x3Send m c 1)) $$ [CS50 HO A50]
  · isplitr; · iexact HR
    isplitl [CS50]; · iexact CS50
    isplitl [HO]; · iexact HO
    isplitr; · iapply (mayWait_dma_enqs c (x3Send 1) 32 (by decide)); iexact Hlev
    iexact A50
  iintro ⟨HO, Z50, Pz1⟩
  iapply (wp_dwait64 m K c (z3Send 1) (by decide) (by decide) (owedL ((plan c).drop 35)) _ _ _ _ (dmaPay_z3Send m c 1)) $$ [CS58 HO A58]
  · isplitr; · iexact HR
    isplitl [CS58]; · iexact CS58
    isplitl [HO]; · iexact HO
    isplitr; · iapply (mayWait_dma_enqs c (z3Send 1) 32 (by decide)); iexact Hlev
    iexact A58
  iintro ⟨HO, Z58, Px5⟩
  iapply (wp_dwait64 m K c (x3Send 2) (by decide) (by decide) (owedL ((plan c).drop 35)) _ _ _ _ (dmaPay_x3Send m c 2)) $$ [CS51 HO A51]
  · isplitr; · iexact HR
    isplitl [CS51]; · iexact CS51
    isplitl [HO]; · iexact HO
    isplitr; · iapply (mayWait_dma_enqs c (x3Send 2) 32 (by decide)); iexact Hlev
    iexact A51
  iintro ⟨HO, Z51, Pz2⟩
  iapply (wp_dwait64 m K c (z3Send 2) (by decide) (by decide) (owedL ((plan c).drop 35)) _ _ _ _ (dmaPay_z3Send m c 2)) $$ [CS59 HO A59]
  · isplitr; · iexact HR
    isplitl [CS59]; · iexact CS59
    isplitl [HO]; · iexact HO
    isplitr; · iapply (mayWait_dma_enqs c (z3Send 2) 32 (by decide)); iexact Hlev
    iexact A59
  iintro ⟨HO, Z59, Px6⟩
  iapply (wp_dwait64 m K c (x3Send 3) (by decide) (by decide) (owedL ((plan c).drop 35)) _ _ _ _ (dmaPay_x3Send m c 3)) $$ [CS52 HO A52]
  · isplitr; · iexact HR
    isplitl [CS52]; · iexact CS52
    isplitl [HO]; · iexact HO
    isplitr; · iapply (mayWait_dma_enqs c (x3Send 3) 32 (by decide)); iexact Hlev
    iexact A52
  iintro ⟨HO, Z52, Pz3⟩
  iapply (wp_dwait64 m K c (z3Send 3) (by decide) (by decide) (owedL ((plan c).drop 35)) _ _ _ _ (dmaPay_z3Send m c 3)) $$ [CS60 HO A60]
  · isplitr; · iexact HR
    isplitl [CS60]; · iexact CS60
    isplitl [HO]; · iexact HO
    isplitr; · iapply (mayWait_dma_enqs c (z3Send 3) 32 (by decide)); iexact Hlev
    iexact A60
  iintro ⟨HO, Z60, Px7⟩
  -- the local copy has landed: the own half holds the device's block
  iapply (wp_dwaitH m K c (owedL ((plan c).drop 35)) _ _ _ _ (dmaPay_copy m c)) $$ [CS0 HO A0]
  · isplitr; · iexact HR
    isplitl [CS0]; · iexact CS0
    isplitl [HO]; · iexact HO
    isplitr; · iapply (mayWait_dma_enqs c (copyS) 32 (by decide)); iexact Hlev
    iexact A0
  iintro ⟨HO, Z0, Hown, HxL⟩
  -- the input staging buffer whole again
  ihave Hx := (rejoin_x m c) $$ [HxL Xr0 Xr1 Xr2 Xr3 Xr4 Xr5 Xr6 Xr7 HxRest]
  · isplitl [HxL]; · iexact HxL
    isplitl [Xr0]; · iexact Xr0
    isplitl [Xr1]; · iexact Xr1
    isplitl [Xr2]; · iexact Xr2
    isplitl [Xr3]; · iexact Xr3
    isplitl [Xr4]; · iexact Xr4
    isplitl [Xr5]; · iexact Xr5
    isplitl [Xr6]; · iexact Xr6
    isplitl [Xr7]; · iexact Xr7
    iexact HxRest
  -- the output staging buffer whole again, holding the gathered array
  ihave Hout := (rejoin_out m c) $$ [Hown Pm0 Pm1 Pm2 Pm3 Pm4 Pm5 Pm6 Pm7 Px0 Px1 Px2 Px3 Px4 Px5 Px6 Px7 Pz0 Pz1 Pz2 Pz3 Pz4 Pz5 Pz6 Pz7 Pd0 Pd1 Pd2 Pd3 Pd4 Pd5 Pd6 Pd7]
  · isplitl [Hown]; · iexact Hown
    isplitl [Pm0 Pm1 Pm2 Pm3 Pm4 Pm5 Pm6 Pm7]
    · isplitl [Pm0]; · iexact Pm0
      isplitl [Pm1]; · iexact Pm1
      isplitl [Pm2]; · iexact Pm2
      isplitl [Pm3]; · iexact Pm3
      isplitl [Pm4]; · iexact Pm4
      isplitl [Pm5]; · iexact Pm5
      isplitl [Pm6]; · iexact Pm6
      iexact Pm7
    isplitl [Px0 Px1 Px2 Px3 Px4 Px5 Px6 Px7]
    · isplitl [Px0]; · iexact Px0
      isplitl [Px1]; · iexact Px1
      isplitl [Px2]; · iexact Px2
      isplitl [Px3]; · iexact Px3
      isplitl [Px4]; · iexact Px4
      isplitl [Px5]; · iexact Px5
      isplitl [Px6]; · iexact Px6
      iexact Px7
    isplitl [Pz0 Pz1 Pz2 Pz3 Pz4 Pz5 Pz6 Pz7]
    · isplitl [Pz0]; · iexact Pz0
      isplitl [Pz1]; · iexact Pz1
      isplitl [Pz2]; · iexact Pz2
      isplitl [Pz3]; · iexact Pz3
      isplitl [Pz4]; · iexact Pz4
      isplitl [Pz5]; · iexact Pz5
      isplitl [Pz6]; · iexact Pz6
      iexact Pz7
    isplitl [Pd0]; · iexact Pd0
    isplitl [Pd1]; · iexact Pd1
    isplitl [Pd2]; · iexact Pd2
    isplitl [Pd3]; · iexact Pd3
    isplitl [Pd4]; · iexact Pd4
    isplitl [Pd5]; · iexact Pd5
    isplitl [Pd6]; · iexact Pd6
    iexact Pd7
  rw [wp_ret]; imodintro
  iapply Hk
  unfold bodyPost
  rw [done_eq]
  isplitl [Z9 Z10 Z11 Z12 Z13 Z14 Z15 Z16 Z41 Z42 Z43 Z44 Z29 Z30 Z31 Z32 Z45 Z46 Z47 Z48 Z25 Z26 Z27 Z28 Z53 Z61 Z54 Z62 Z55 Z63 Z56 Z64 Z1 Z17 Z33 Z2 Z18 Z34 Z3 Z19 Z35 Z4 Z20 Z36 Z5 Z21 Z37 Z6 Z22 Z38 Z7 Z23 Z39 Z8 Z24 Z40 Z49 Z57 Z50 Z58 Z51 Z59 Z52 Z60 Z0]
  · isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z41]; · iexact Z41
    isplitl [Z42]; · iexact Z42
    isplitl [Z43]; · iexact Z43
    isplitl [Z44]; · iexact Z44
    isplitl [Z29]; · iexact Z29
    isplitl [Z30]; · iexact Z30
    isplitl [Z31]; · iexact Z31
    isplitl [Z32]; · iexact Z32
    isplitl [Z45]; · iexact Z45
    isplitl [Z46]; · iexact Z46
    isplitl [Z47]; · iexact Z47
    isplitl [Z48]; · iexact Z48
    isplitl [Z25]; · iexact Z25
    isplitl [Z26]; · iexact Z26
    isplitl [Z27]; · iexact Z27
    isplitl [Z28]; · iexact Z28
    isplitl [Z53]; · iexact Z53
    isplitl [Z61]; · iexact Z61
    isplitl [Z54]; · iexact Z54
    isplitl [Z62]; · iexact Z62
    isplitl [Z55]; · iexact Z55
    isplitl [Z63]; · iexact Z63
    isplitl [Z56]; · iexact Z56
    isplitl [Z64]; · iexact Z64
    isplitl [Z1]; · iexact Z1
    isplitl [Z17]; · iexact Z17
    isplitl [Z33]; · iexact Z33
    isplitl [Z2]; · iexact Z2
    isplitl [Z18]; · iexact Z18
    isplitl [Z34]; · iexact Z34
    isplitl [Z3]; · iexact Z3
    isplitl [Z19]; · iexact Z19
    isplitl [Z35]; · iexact Z35
    isplitl [Z4]; · iexact Z4
    isplitl [Z20]; · iexact Z20
    isplitl [Z36]; · iexact Z36
    isplitl [Z5]; · iexact Z5
    isplitl [Z21]; · iexact Z21
    isplitl [Z37]; · iexact Z37
    isplitl [Z6]; · iexact Z6
    isplitl [Z22]; · iexact Z22
    isplitl [Z38]; · iexact Z38
    isplitl [Z7]; · iexact Z7
    isplitl [Z23]; · iexact Z23
    isplitl [Z39]; · iexact Z39
    isplitl [Z8]; · iexact Z8
    isplitl [Z24]; · iexact Z24
    isplitl [Z40]; · iexact Z40
    isplitl [Z49]; · iexact Z49
    isplitl [Z57]; · iexact Z57
    isplitl [Z50]; · iexact Z50
    isplitl [Z58]; · iexact Z58
    isplitl [Z51]; · iexact Z51
    isplitl [Z59]; · iexact Z59
    isplitl [Z52]; · iexact Z52
    isplitl [Z60]; · iexact Z60
    iexact Z0
  isplitl [HO]
  · unfold Dat.owesAt Pipeline.owesWithin
    rw [show (dats m ρ 0 c).owed t₀.succ = 0 from rfl]
    iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

end Cert.Kernel.AG

end
-- ==== Proof.K.Oblig.lean ====
/-
  The pipeline's body obligation on each core, from the body's stepped run: what the pipeline hands the body at the
  one grid point is the body's precondition with the ghost names opened, and what the body hands back is what the
  pipeline asks for.
-/
import proofs.«900664_g7700000000000665_dist_ag_v7x_xyz2x2x2_y_m2048_n512_f32_1_alg».proof.Proof.K.Body
import proofs.«900664_g7700000000000665_dist_ag_v7x_xyz2x2x2_y_m2048_n512_f32_1_alg».proof.Proof.Gen.Kernel.Points

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-- Holding a whole buffer at named contents, as the pipeline states it and as a points-to of the whole buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the one grid point: the body's invariant, what the core owes, and the two
    staging buffers whole. -/
def bodyPre' (m : (ℓ : Loc nD τ sig) → Buf (Elt F) ℓ) (ρ : Dev nD → PrngReg) (c : Dev nD) : sProp 𝕄 :=
  iprop(start m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The pipeline's body obligation on core `c`, from the body's stepped run. -/
theorem body_obligation (m : (ℓ : Loc nD τ sig) → Buf (Elt F) ℓ) (ρ : Dev nD → PrngReg) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9 cc0_scratch10)
    (fun _ => bodyPost m ρ c)
  unfold bodyPre' start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-- The same in the form the launch takes. -/
theorem body_obligation_loose (m : (ℓ : Loc nD τ sig) → Buf (Elt F) ℓ) (ρ : Dev nD → PrngReg) (c : Dev nD) :
    BodyObligationLoose (dats (F := F) m ρ 0 c) (defs₀ (F := F)) 𝒱₀ () Set.univ :=
  (body_obligation m ρ c).loose

end Cert.Kernel.AG

end
-- ==== Proof.K.Run.lean ====
/-
  The run of the all-gather. The launch theorem for a kernel whose devices owe each other units at launch and whose
  protocol runs on the barrier semaphore, which is not scoped to the launch, is applied to the proof data of the one
  region: the launch element is split between the pipeline library's algebra and the protocol's, the protocol's half is
  funded and dealt, every device's cells are put under their invariants under one update, the launch credit and the
  levels make the start of the body, and what the body leaves closes the region. Every weakly fair execution from a
  memory with all counters at zero terminates, with every window's array of every device at its final contents.
-/
import proofs.«900664_g7700000000000665_dist_ag_v7x_xyz2x2x2_y_m2048_n512_f32_1_alg».proof.Proof.K.Fund
import proofs.«900664_g7700000000000665_dist_ag_v7x_xyz2x2x2_y_m2048_n512_f32_1_alg».proof.Proof.K.Final
import proofs.«900664_g7700000000000665_dist_ag_v7x_xyz2x2x2_y_m2048_n512_f32_1_alg».proof.Proof.K.Oblig
import proofs.«900664_g7700000000000665_dist_ag_v7x_xyz2x2x2_y_m2048_n512_f32_1_alg».proof.Proof.K.Credit

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000 in
/-- On the 2 × 2 × 2 mesh, for any float values and any generator registers, from any memory whose semaphore counters
    are all zero: every weakly fair execution of the eight kernels — they meet on the barrier semaphore, then pass their
    blocks across the three axes of the mesh — terminates, and in every final state each window's array of each device
    holds its final contents. -/
theorem run_main (m : (ℓ : Loc nD τ sig) → Buf (Elt F) ℓ) (ρ : Dev nD → PrngReg) : θ_run defs (onTc (τ := τ) (main (F := F))) (s0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AG.run_main' depends on axioms: [propext, Classical.choice, Quot.sound] -/
#guard_msgs in #print axioms run_main

end Cert.Kernel.AG

end
-- ==== Proof.RefRun.lean ====
/- The reference program's run, by hand. Its @main is the empty sequence of host operations, so every
   weakly fair execution terminates with every buffer of every device at its launch contents. -/
import proofs.«900664_g7700000000000665_dist_ag_v7x_xyz2x2x2_y_m2048_n512_f32_1_alg».proof.Defs
import proofs.«900664_g7700000000000665_dist_ag_v7x_xyz2x2x2_y_m2048_n512_f32_1_alg».proof.Proof.Gen.ReferenceIdeal
import proofs.«900664_g7700000000000665_dist_ag_v7x_xyz2x2x2_y_m2048_n512_f32_1_alg».proof.Proof.Gen.Pre_finite_inputs_ReferenceIdeal
import Idealize.ShloMosaic.Lib.StableHlo.Run

noncomputable section

namespace Cert.AGRef

open Cert.ReferenceIdeal Cert.ReferenceIdeal.Gen Idealize.ShloMosaic Idealize.SL.Sem Idealize.ShloMosaic.StableHlo

/-- The signature scopes no buffer. -/
theorem scopedRefs_eq : (Finset.univ.filter fun b : Ref sig .tc => b.isScoped) = ∅ := by decide

/-- The signature scopes no semaphore. -/
theorem scopedSems_eq : (Finset.univ.filter fun sm : SemLoc sig => sm.isScoped .tc) = ∅ := by decide

/-- @main is the empty line of operations. -/
theorem main_eq (c : Dev nD) :
    main (F := Ideal) c = seq ([] : List (HloOp τ sig (Elt Ideal))) := rfl

/-- A device has exactly one buffer under this signature: the HBM table has one entry, held by the device,
    and every other table is empty. -/
theorem devRef_eq (b : DevRef τ sig) : b = Proc.devRef .tc main_arg0 := by
  rcases b with ⟨tb, i, h⟩
  rcases tb with _ | _ | _ | ⟨κ, cs⟩
  · obtain ⟨i, hi⟩ := i
    have hi0 : i = 0 := by
      have hi1 : i < 1 := hi
      omega
    subst hi0
    rfl
  · exact i.elim0
  · exact i.elim0
  · rcases κ with _ | _ | _
    · rcases cs with _ | _ <;> exact i.elim0
    · exact i.elim0
    · exact i.elim0

/-- Every weakly fair execution of the reference terminates, and every TensorCore buffer of every device ends
    at its launch contents: the fold of no operation over the launch contents is the launch contents. -/
theorem ref_run_tc (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ (d : Dev nD) (b : Ref sig .tc),
        r.2.mem ((d.tc : Thread nD τ).loc b) = m' ((d.tc : Thread nD τ).loc b)) :=
  run_seq scopedRefs_eq scopedSems_eq defs main (fun _ => []) main_eq (fun _ => trivial) m' g'
    (fun _ _ h => nomatch h)

/-- The same over the whole memory: the final memory IS the launch memory, since a location is a device and
    one of its buffers, and the device's one buffer is the TensorCore's `main_arg0`. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩
      (fun r => r.2.mem = m') :=
  (θ_run _ _ _).mono (fun r h => funext fun ℓ => by
      obtain ⟨d, b⟩ := ℓ
      obtain rfl := devRef_eq b
      exact h d main_arg0) (ref_run_tc m' g')

/-- The reference runs and its argument array ends unchanged. -/
theorem frame_ref : Cert.frame_ReferenceIdeal (hReferenceIdeal := Cert.ReferenceIdeal.Gen.facts)
    (hPre_finite_inputs_ReferenceIdeal := Cert.Pre_finite_inputs_ReferenceIdeal.Gen.facts) :=
  fun m g _ => (θ_run _ _ _).mono (fun r h c => congrFun h _) (ref_run m g)

/-- info: 'Cert.AGRef.ref_run' depends on axioms: [propext, Classical.choice, Quot.sound] -/
#guard_msgs in #print axioms ref_run

/-- info: 'Cert.AGRef.frame_ref' depends on axioms: [propext, Classical.choice, Quot.sound] -/
#guard_msgs in #print axioms frame_ref

end Cert.AGRef

end
-- ==== Proof.lean ====
/-
  An all-gather on a 2 × 2 × 2 mesh, against the identity.

  The whole array has 4096 rows and 512 columns. It is cut along its rows in two blocks of 2048 rows by the mesh's
  middle axis: device c = 4·x + 2·y + z holds block y as its argument. The kernel, on every device at once, copies
  the device's block onto rows 2048·y … of its result, sends the quarter 2·x + z of its block, in eight chunks of
  64 rows, to the neighbour across the middle axis, and forwards the chunks it receives along the other two axes,
  so that the other half of every device's result is filled quarter by quarter: quarter 2·x' + z' with the same
  rows of the block of the device (x', 1 − y, z'). The reference is the identity on the whole array.

  The claim has five parts. The two frames of the kernel (as printed, and read at the ideal instance): the run
  terminates and the argument of every device ends unchanged, because the argument's window is only read. The frame
  of the reference: its program is the empty line of operations, so the memory ends as it began. The idealization
  rewrote nothing. The value: row r of a device's result ends holding row r % 2048 of the block of a device whose
  middle coordinate is r / 2048, and that block's row r % 2048 is row 2048·(r / 2048) + r % 2048 = r of the whole
  array; so every device's result ends holding the whole array, which is what the reference returns.
-/
import proofs.«900664_g7700000000000665_dist_ag_v7x_xyz2x2x2_y_m2048_n512_f32_1_alg».proof.Defs
import proofs.«900664_g7700000000000665_dist_ag_v7x_xyz2x2x2_y_m2048_n512_f32_1_alg».proof.Proof.Gen.Kernel
import proofs.«900664_g7700000000000665_dist_ag_v7x_xyz2x2x2_y_m2048_n512_f32_1_alg».proof.Proof.Gen.Kernel.Skeleton
import proofs.«900664_g7700000000000665_dist_ag_v7x_xyz2x2x2_y_m2048_n512_f32_1_alg».proof.Proof.Gen.Kernel.Launch
import proofs.«900664_g7700000000000665_dist_ag_v7x_xyz2x2x2_y_m2048_n512_f32_1_alg».proof.Proof.Gen.Kernel.Points
import proofs.«900664_g7700000000000665_dist_ag_v7x_xyz2x2x2_y_m2048_n512_f32_1_alg».proof.Proof.Gen.Kernel.Frame
import proofs.«900664_g7700000000000665_dist_ag_v7x_xyz2x2x2_y_m2048_n512_f32_1_alg».proof.Proof.Gen.KernelIdeal
import proofs.«900664_g7700000000000665_dist_ag_v7x_xyz2x2x2_y_m2048_n512_f32_1_alg».proof.Proof.Gen.KernelIdeal.Skeleton
import proofs.«900664_g7700000000000665_dist_ag_v7x_xyz2x2x2_y_m2048_n512_f32_1_alg».proof.Proof.Gen.KernelIdeal.Launch
import proofs.«900664_g7700000000000665_dist_ag_v7x_xyz2x2x2_y_m2048_n512_f32_1_alg».proof.Proof.Gen.KernelIdeal.Points
import proofs.«900664_g7700000000000665_dist_ag_v7x_xyz2x2x2_y_m2048_n512_f32_1_alg».proof.Proof.Gen.KernelIdeal.Frame
import proofs.«900664_g7700000000000665_dist_ag_v7x_xyz2x2x2_y_m2048_n512_f32_1_alg».proof.Proof.Gen.ReferenceIdeal
import proofs.«900664_g7700000000000665_dist_ag_v7x_xyz2x2x2_y_m2048_n512_f32_1_alg».proof.Proof.Gen.Pre_finite_inputs_Kernel
import proofs.«900664_g7700000000000665_dist_ag_v7x_xyz2x2x2_y_m2048_n512_f32_1_alg».proof.Proof.Gen.Pre_finite_inputs_ReferenceIdeal
import Idealize.ShloMosaic.Adequacy
import Idealize.ShloMosaic.Init
import proofs.«900664_g7700000000000665_dist_ag_v7x_xyz2x2x2_y_m2048_n512_f32_1_alg».proof.Proof.KI.Run
import proofs.«900664_g7700000000000665_dist_ag_v7x_xyz2x2x2_y_m2048_n512_f32_1_alg».proof.Proof.K.Run
import proofs.«900664_g7700000000000665_dist_ag_v7x_xyz2x2x2_y_m2048_n512_f32_1_alg».proof.Proof.KI.Final
import proofs.«900664_g7700000000000665_dist_ag_v7x_xyz2x2x2_y_m2048_n512_f32_1_alg».proof.Proof.K.Final
import proofs.«900664_g7700000000000665_dist_ag_v7x_xyz2x2x2_y_m2048_n512_f32_1_alg».proof.Proof.KI.Whole
import proofs.«900664_g7700000000000665_dist_ag_v7x_xyz2x2x2_y_m2048_n512_f32_1_alg».proof.Proof.RefRun

noncomputable section

namespace Cert.Proof

open Idealize.ShloMosaic Idealize.SL.Sem

/-- The kernel as printed runs, and every device's argument ends unchanged. -/
theorem frameK :
    Cert.frame_Kernel (hKernel := Cert.Kernel.Gen.facts) (hPre_finite_inputs_Kernel := Cert.Pre_finite_inputs_Kernel.Gen.facts) :=
  fun m g _ => Cert.Kernel.AG.frame_of_run (F := Bits) m g (Cert.Kernel.AG.run_main m g)

/-- The same at the ideal instance. -/
theorem frameKI :
    Cert.frame_KernelIdeal (hKernelIdeal := Cert.KernelIdeal.Gen.facts) (hPre_finite_inputs_Kernel := Cert.Pre_finite_inputs_Kernel.Gen.facts) :=
  fun m g _ => Cert.KernelIdeal.AG.frame_of_run (F := Ideal) m g (Cert.KernelIdeal.AG.run_main m g)

/-- From memories where every device's argument is its block of the reference's argument, both programs run, every
    device's result ends holding the reference's argument — which the reference returns — and the arguments of both
    end unchanged. -/
theorem algebraicKI :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hag =>
    ⟨m' (((0 : Dev Cert.ReferenceIdeal.nD).tc : Thread Cert.ReferenceIdeal.nD Cert.ReferenceIdeal.τ).loc Cert.ReferenceIdeal.main_arg0),
      (θ_run _ _ _).mono (fun r h c => ⟨(h c).1.trans (Cert.KernelIdeal.AG.W_whole m _ hag c), (h c).2⟩)
        (Cert.KernelIdeal.AG.value_of_run (F := Ideal) m g (Cert.KernelIdeal.AG.run_main m g)),
      (θ_run _ _ _).mono (fun r h => ⟨congrFun h _, congrFun h _⟩) (Cert.AGRef.ref_run m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frameK, frameKI, Cert.AGRef.frame_ref, trivial, algebraicKI⟩

/-- info: 'Cert.Proof.claim' depends on axioms: [propext, Classical.choice, Quot.sound] -/
#guard_msgs in #print axioms claim

end Cert.Proof

end
